-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S64x10 .f32) (main_arg10 : FVec F S10 .f32) (main_v33 : IVec S_ 1) : IVec S_ 1 :=
  let main_v34 : FVec F S64x10 .f32 := Host.absf main_arg9
  let main_cst_12 : FVec F S_ .f32 := constant S_ .f32 0x7F800000#32
  let main_v35 : FVec F S64x10 .f32 := broadcastInDim S64x10 ![] bcast_S_S64x10 main_cst_12
  let main_v36 : IVec S64x10 1 := cmpf .olt main_v34 main_v35
  let main_c_13 : IVec S_ 1 := constantI S_ 1 1#1
  let main_v37 : IVec S_ 1 := (fun x v => Host.reduce IntOp.andi x v reducesTo_S64x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S64x64 .f32) (main_arg7 : FVec F S64x64 .f32) (main_arg8 : FVec F S64x64 .f32) (main_arg9 : FVec F S64x10 .f32) (main_arg10 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x64 .f32) (main_arg4 : FVec F S128x64 .f32) (main_arg5 : FVec F S64x64 .f32) (main_arg6 : FVec F S64x64 .f32) (main_arg7 : FVec F S64x64 .f32) (main_arg8 : FVec F S64x64 .f32) (main_arg9 : FVec F S64x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S64 : Shape := ⟨1, ![64]⟩
abbrev S50000x1 : Shape := ⟨2, ![50000, 1]⟩
abbrev S1x64 : Shape := ⟨2, ![1, 64]⟩
abbrev S50000x64 : Shape := ⟨2, ![50000, 64]⟩
abbrev S_ : Shape := ⟨0, ![]⟩
abbrev S64x1 : Shape := ⟨2, ![64, 1]⟩
abbrev S2000x128 : Shape := ⟨2, ![2000, 128]⟩
abbrev S2000x64 : Shape := ⟨2, ![2000, 64]⟩
abbrev S800000x1 : Shape := ⟨2, ![800000, 1]⟩
abbrev S800000x64 : Shape := ⟨2, ![800000, 64]⟩
abbrev S1x10 : Shape := ⟨2, ![1, 10]⟩

abbrev nBuf : Space → Nat
  | .hbm => 83
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x10, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S64, .i32⟩
  | .hbm, ⟨16, _⟩ => ⟨S50000x1, .i32⟩
  | .hbm, ⟨17, _⟩ => ⟨S1x64, .i32⟩
  | .hbm, ⟨18, _⟩ => ⟨S50000x64, .i32⟩
  | .hbm, ⟨19, _⟩ => ⟨S50000x64, .i32⟩
  | .hbm, ⟨20, _⟩ => ⟨S50000x64, .i1⟩
  | .hbm, ⟨21, _⟩ => ⟨S50000x64, .bf16⟩
  | .hbm, ⟨22, _⟩ => ⟨S_, .f32⟩
  | .hbm, ⟨23, _⟩ => ⟨S50000, .f32⟩
  | .hbm, ⟨24, _⟩ => ⟨S_, .f32⟩
  | .hbm, ⟨25, _⟩ => ⟨S64, .f32⟩
  | .hbm, ⟨26, _⟩ => ⟨S50000x1, .i32⟩
  | .hbm, ⟨27, _⟩ => ⟨S64, .f32⟩
  | .hbm, ⟨28, _⟩ => ⟨S64x1, .f32⟩
  | .hbm, ⟨29, _⟩ => ⟨S50000x128, .bf16⟩
  | .hbm, ⟨30, _⟩ => ⟨S50000x64, .bf16⟩
  | .hbm, ⟨31, _⟩ => ⟨S50000x64, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .bf16⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x128, .bf16⟩
  | .hbm, ⟨47, _⟩ => ⟨S50000x64, .bf16⟩
  | .hbm, ⟨48, _⟩ => ⟨S50000x64, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .bf16⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S50000x128, .bf16⟩
  | .hbm, ⟨64, _⟩ => ⟨S50000x64, .bf16⟩
  | .hbm, ⟨65, _⟩ => ⟨S50000x64, .bf16⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .bf16⟩
  | .hbm, ⟨75, _⟩ => ⟨S800000x64, .f32⟩
  | .hbm, ⟨76, _⟩ => ⟨S_, .f32⟩
  | .hbm, ⟨77, _⟩ => ⟨S50000x64, .f32⟩
  | .hbm, ⟨78, _⟩ => ⟨S800000x1, .i32⟩
  | .hbm, ⟨79, _⟩ => ⟨S50000x64, .f32⟩
  | .hbm, ⟨80, _⟩ => ⟨S1x10, .f32⟩
  | .hbm, ⟨81, _⟩ => ⟨S1x10, .f32⟩
  | .hbm, ⟨82, _⟩ => ⟨S10, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S128x64, .f32⟩
  | .local _ .vmem, ⟨4, _⟩ => ⟨S2000x128, .bf16⟩
  | .local _ .vmem, ⟨5, _⟩ => ⟨S2000x128, .bf16⟩
  | .local _ .vmem, ⟨6, _⟩ => ⟨S2000x64, .f32⟩
  | .local _ .vmem, ⟨7, _⟩ => ⟨S2000x64, .f32⟩
  | .local _ .vmem, ⟨8, _⟩ => ⟨S2000x64, .bf16⟩
  | .local _ .vmem, ⟨9, _⟩ => ⟨S2000x64, .bf16⟩
  | .local _ .vmem, ⟨10, _⟩ => ⟨S64x64, .f32⟩
  | .local _ .vmem, ⟨11, _⟩ => ⟨S64x64, .f32⟩
  | .local _ .vmem, ⟨12, _⟩ => ⟨S2000x128, .bf16⟩
  | .local _ .vmem, ⟨13, _⟩ => ⟨S2000x128, .bf16⟩
  | .local _ .vmem, ⟨14, _⟩ => ⟨S2000x64, .f32⟩
  | .local _ .vmem, ⟨15, _⟩ => ⟨S2000x64, .f32⟩
  | .local _ .vmem, ⟨16, _⟩ => ⟨S2000x64, .bf16⟩
  | .local _ .vmem, ⟨17, _⟩ => ⟨S2000x64, .bf16⟩
  | .local _ .vmem, ⟨18, _⟩ => ⟨S64x64, .f32⟩
  | .local _ .vmem, ⟨19, _⟩ => ⟨S64x64, .f32⟩
  | .local _ .vmem, ⟨20, _⟩ => ⟨S2000x128, .bf16⟩
  | .local _ .vmem, ⟨21, _⟩ => ⟨S2000x128, .bf16⟩
  | .local _ .vmem, ⟨22, _⟩ => ⟨S2000x64, .f32⟩
  | .local _ .vmem, ⟨23, _⟩ => ⟨S2000x64, .f32⟩
  | .local _ .vmem, ⟨24, _⟩ => ⟨S2000x64, .bf16⟩
  | .local _ .vmem, ⟨25, _⟩ => ⟨S2000x64, .bf16⟩
  | .local _ .vmem, ⟨26, _⟩ => ⟨S2000x64, .bf16⟩
  | .local _ .vmem, ⟨27, _⟩ => ⟨S2000x64, .bf16⟩
  | .local _ .vmem, ⟨28, _⟩ => ⟨S64x10, .f32⟩
  | .local _ .vmem, ⟨29, _⟩ => ⟨S1x10, .f32⟩
  | .local _ .vmem, ⟨30, _⟩ => ⟨S64x1, .f32⟩
  | .local _ .vmem, ⟨31, _⟩ => ⟨S1x10, .f32⟩
  | .local _ .vmem, ⟨32, _⟩ => ⟨S64x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_3 : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_6 : Ref sig .tc := ⟨.hbm, 66, rfl⟩
abbrev main_v47 : Ref sig .tc := ⟨.hbm, 67, rfl⟩
abbrev main_v48 : Ref sig .tc := ⟨.hbm, 68, rfl⟩
abbrev main_c_7 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem4_0 : DmaSem sig := 29
abbrev cc3_sem5_0 : DmaSem sig := 30
abbrev cc3_sem6_0 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  bcast_S_S50000 : S_.BroadcastsInDim S50000 (![] : Fin 0 → Fin S50000.rank)
  bcast_S_S64 : S_.BroadcastsInDim S64 (![] : Fin 0 → Fin S64.rank)
  shapeCasts_S64_S64x1 : S64.ShapeCasts S64x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  concatenates_S2000x64_S2000x64_S2000x128_d1 : Shape.Concatenates [S2000x64, S2000x64] S2000x128 1
  packedbf16_S2000x128_S2000x128_0_0 : (Rect.unit (s := S2000x128) ![0, 0] S2000x128.size inb_S2000x128_S2000x128_0_0).PackedRows (EltTy.packing .bf16)
  slices_S50000x128_S50000x64_0_0 : S50000x128.Slices ![0, 0] S50000x64
  slices_S50000x128_S50000x64_0_64 : S50000x128.Slices ![0, 64] S50000x64
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  shapeCasts_S10_S1x10 : S10.ShapeCasts S1x10
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x64 : S64x1.Broadcasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  broadcasts_S64x1_S64x10 : S64x1.Broadcasts S64x10
  slices_S64x10_o0_0_S1x10 : S64x10.Slices ![0, 0] S1x10
  shapeCasts_S1x10_S10 : S1x10.ShapeCasts S10
  scatter_S64_S50000x1_S50000_n_0_0_1_wf : ScatterDims.WF S64 S50000x1 S50000 [] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S2000x64_S64x64_0_0_1_1_n_n_wf : DotDims.WF S2000x64 S2000x64 S64x64 [0] [0] [1] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .bf16 = 32 ∨ (Rect.block (s := S50000x64) S2000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .bf16 = 32 ∨ (Rect.block (s := S50000x64) S2000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .bf16 = 32 ∨ (Rect.block (s := S50000x128) S2000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .bf16 = 32 ∨ (Rect.block (s := S50000x64) S2000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .bf16 = 32 ∨ (Rect.block (s := S50000x64) S2000x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x10.size a ≤ S1x10.size a
  hwx3_6 : ∀ i : grid3.Coords, EltTy.bits .f32 = 32 ∨ (Rect.block (s := S1x10) S1x10.size (cc3_transform_6 i) (hinb3_6 i)).WholeWords (EltTy.packing .f32)

variable [Facts₀]

def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S2000x64_S64x64_0_0_1_1_n_n : DotDims S2000x64 S2000x64 S64x64 where
  lhsContracting := [0]
  rhsContracting := [0]
  lhsNonContracting := [1]
  rhsNonContracting := [1]
  lhsBatch := []
  rhsBatch := []
  wf := dot_S2000x64_S2000x64_S64x64_0_0_1_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v10) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S1x10.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S800000x64 : Shape := ⟨2, ![800000, 64]⟩
abbrev S50000x1 : Shape := ⟨2, ![50000, 1]⟩
abbrev S64 : Shape := ⟨1, ![64]⟩
abbrev S64x1 : Shape := ⟨2, ![64, 1]⟩
abbrev S1x10 : Shape := ⟨2, ![1, 10]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x10, .f32⟩
  | .hbm, ⟨10, _⟩ => ⟨S10, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S50000x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S_, .f32⟩
  | .hbm, ⟨44, _⟩ => ⟨S50000x64, .f32⟩
  | .hbm, ⟨45, _⟩ => ⟨S800000x1, .i32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S50000x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S64x64, .f32⟩
  | .hbm, ⟨74, _⟩ => ⟨S50000x1, .i32⟩
  | .hbm, ⟨75, _⟩ => ⟨S64x64, .f32⟩
  | .hbm, ⟨76, _⟩ => ⟨S_, .f32⟩
  | .hbm, ⟨77, _⟩ => ⟨S50000, .f32⟩
  | .hbm, ⟨78, _⟩ => ⟨S_, .f32⟩
  | .hbm, ⟨79, _⟩ => ⟨S64, .f32⟩
  | .hbm, ⟨80, _⟩ => ⟨S50000x1, .i32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x64, .f32⟩
  | .hbm, ⟨87, _⟩ => ⟨S64x64, .f32⟩
  | .hbm, ⟨88, _⟩ => ⟨S64x10, .f32⟩
  | .hbm, ⟨89, _⟩ => ⟨S1x10, .f32⟩
  | .hbm, ⟨90, _⟩ => ⟨S64x10, .f32⟩
  | .hbm, ⟨91, _⟩ => ⟨S64x10, .f32⟩
  | .hbm, ⟨92, _⟩ => ⟨S_, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64x1, .f32⟩
  | .hbm, ⟨98, _⟩ => ⟨S64x10, .f32⟩
  | .hbm, ⟨99, _⟩ => ⟨S64x10, .f32⟩
  | .hbm, ⟨100, _⟩ => ⟨S64x10, .f32⟩
  | .hbm, ⟨101, _⟩ => ⟨S_, .f32⟩
  | .hbm, ⟨102, _⟩ => ⟨S64, .f32⟩
  | .hbm, ⟨103, _⟩ => ⟨S64x1, .f32⟩
  | .hbm, ⟨104, _⟩ => ⟨S64x10, .f32⟩
  | .hbm, ⟨105, _⟩ => ⟨S64x10, .f32⟩
  | .hbm, ⟨106, _⟩ => ⟨S1x10, .f32⟩
  | .hbm, ⟨107, _⟩ => ⟨S10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_c_4 : Ref sig .tc := ⟨.hbm, 53, rfl⟩
abbrev main_v32 : Ref sig .tc := ⟨.hbm, 54, rfl⟩
abbrev main_v33 : Ref sig .tc := ⟨.hbm, 55, rfl⟩
abbrev main_c_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_6 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_call2_cst : Ref sig .tc := ⟨.hbm, 69, rfl⟩
abbrev main_call2_v0 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_cst_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000x64 : S_.BroadcastsInDim S50000x64 (![] : Fin 0 → Fin S50000x64.rank)
  bcast_S_S64x64 : S_.BroadcastsInDim S64x64 (![] : Fin 0 → Fin S64x64.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  slices_S64x10_S1x10_0_0 : S64x10.Slices ![0, 0] S1x10
  shapeCasts_S1x10_S10 : S1x10.ShapeCasts S10
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x10_S64x10_1_0_0_1_n_n_wf : DotDims.WF S64x64 S64x10 S64x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.KB.Reg0.lean ====
/-
  Region 0 (the first pallas_call): per grid point the kernel reads a block of 2000 node rows and both 128×64 weight
  matrices, and writes the block's two products side by side. This module fixes what the region's pipeline holds at
  every point, for any contents `V` the region is entered with, and states that the body meets it.
-/
import proofs.«413041_j89696097010223_3_alg».proof.Proof.Gen.Kernel.Launch
import proofs.«413041_j89696097010223_3_alg».proof.Proof.Gen.Kernel.Skeleton
import proofs.«413041_j89696097010223_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as found; after the body each input buffer still holds its block and the
    output buffer holds the body's one stored value of the three input blocks; nothing owed, nothing carried. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## Whole-buffer loads and stores -/

/-- A rank-2 offset written `![0, 0]` is the zero offset. -/
theorem zero_offset2 : (![0, 0] : Fin 2 → ℕ) = fun _ => 0 := by
  funext a; fin_cases a <;> rfl

section WholeBuffer
variable {sg : RefSig} {κ : Kind} {sp : Space} {S : Shape} {e : EltTy}

/-- One store through the whole-shape rectangle at offset zero leaves exactly its payload, whatever the buffer held:
    the single piece covers every index, and read back through the same rectangle it is the payload. -/
theorem read_store_whole (v : View sg κ sp S e) (f : v.ty.Contents (Elt F))
    {off : Fin S.rank → ℕ} (hoff : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hoff inb y⟩),
    View.canon_unit_zero hoff inb w]

/-- A load through the whole-shape rectangle at offset zero reads the buffer's contents. -/
theorem load_whole (v : View sg κ sp S e) (f : v.ty.Contents (Elt F))
    {off : Fin S.rank → ℕ} (hoff : off = fun _ => 0) (inb : ∀ a, off a + S.size a ≤ S.size a) :
    v.readAt (Elt F) (Rect.unit off S.size inb).toLoadRect f = v.read (Elt F) f := by
  rw [View.readAt_eq_ld, View.ld_unit_zero hoff inb]

end WholeBuffer

/-! ## What each input buffer holds when the body starts -/

/-- The node block's buffer (window 0, fetched at every point) holds block `t` of the node array when the body
    starts at point `t`: the window is an input, never idle and uncut, and the body leaves its block in place. -/
theorem holds0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := by
    intro s; rw [after0_0]; unfold Dat.blockOf iblk0; rw [A_eq0]
  rw [(dat0 V c).before_in_eq_fetched 0 rfl (fun _ => rfl) (fun _ _ _ => rfl) keep t d]
  unfold Dat.fetched Dat.blockOf iblk0; rw [A_eq0]; rfl

/-- The first weight matrix's buffer (window 1) is filled at the first point only; since the body never changes it
    and its block index never moves, it holds the whole matrix at every point. -/
theorem holds0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := by
    intro s; rw [after0_1]; unfold Dat.blockOf iblk0; rw [A_eq0]
  rw [(dat0 V c).before_in_eq_fetched 1 rfl (fun _ => rfl) (fun _ _ _ => rfl) keep t d]
  unfold Dat.fetched Dat.blockOf iblk0; rw [A_eq0]; rfl

/-- Likewise the second weight matrix's buffer (window 2). -/
theorem holds0_2 (c : Dev nD) (t : Fin cfg0.N) (d) : (dat0 V c).before 2 t d = iblk0 V c 2 t := by
  have keep : ∀ s, (cfg0.win 2).cut (cfg0.grid.coords s) ((dat0 V c).after 2 s) = (dat0 V c).blockOf 2 s := by
    intro s; rw [after0_2]; unfold Dat.blockOf iblk0; rw [A_eq0]
  rw [(dat0 V c).before_in_eq_fetched 2 rfl (fun _ => rfl) (fun _ _ _ => rfl) keep t d]
  unfold Dat.fetched Dat.blockOf iblk0; rw [A_eq0]; rfl

/-! ## The body on four whole buffers -/

set_option maxHeartbeats 1000000 in
/-- The body reads the node block `x` and the two weight matrices `p`, `q` whole, and overwrites the whole output
    buffer (whatever it held) with the one stored value `k0_pay1 x p q`; the three inputs are left as read. -/
theorem kernel_triple0 (c : Dev nD) (E : Set ℕ) (i : grid0.Coords)
    (a0 : Memref sig .tc .vmem S2000x128 .f32) (h0 : a0.IsWhole)
    (a1 : Memref sig .tc .vmem S128x64 .f32) (h1 : a1.IsWhole)
    (a2 : Memref sig .tc .vmem S128x64 .f32) (h2 : a2.IsWhole)
    (a3 : Memref sig .tc .vmem S2000x128 .bf16) (h3 : a3.IsWhole)
    (x : Vec F S2000x128 .f32) (p q : Vec F S128x64 .f32) (K : PUnit → sProp 𝕄) :
    iprop(owns (c : Thread nD τ) a0 fullShare x ∗ owns (c : Thread nD τ) a1 fullShare p
        ∗ owns (c : Thread nD τ) a2 fullShare q ∗ (∃ d, owns (c : Thread nD τ) a3 fullShare d)
        ∗ (iprop(owns (c : Thread nD τ) a0 fullShare x ∗ owns (c : Thread nD τ) a1 fullShare p
            ∗ owns (c : Thread nD τ) a2 fullShare q ∗ owns (c : Thread nD τ) a3 fullShare (k0_pay1 x p q)) -∗ K ⟨⟩))
      ⊢ wp frame (wpE (defs₀ (F := F)) Variants.none c none) E (cc0__pre_kernel i a0 h0 a1 h1 a2 h2 a3 h3) K := by
  simp only [cc0__pre_kernel_eq_skeleton]; unfold cc0__pre_kernel_skel
  unfold owns
  iintro ⟨⟨%f0, %e0, H0⟩, ⟨%f1, %e1, H1⟩, ⟨%f2, %e2, H2⟩, ⟨%d3, %f3, -, H3⟩, HK⟩
  subst e0 e1 e2
  sl_exec
  sl_step
  iapply HK
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the output buffer, so it reads back as the stored value; each load read a whole input buffer
  refine (read_store_whole a3.view f3 zero_offset2 _ _).trans ?_
  rw [load_whole a0.view f0 zero_offset2, load_whole a1.view f1 zero_offset2, load_whole a2.view f2 zero_offset2]

/-! ## The body obligation at a point -/

/-- What the body is handed at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the triple above applies at those blocks;
    the invariant and what the core owes are the same before and after, and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [holds0_0, holds0_1, holds0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, B0⟩, ⟨%d1, B1⟩, ⟨%d2, B2⟩, ⟨%d3, B3⟩⟩
  iapply (kernel_triple0 c Set.univ _ _ _ _ _ _ _ _ _ (iblk0 V c 0 t) (iblk0 V c 1 t) (iblk0 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

/-- The body meets the proof data at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1 (pallas_call 1): per grid point the kernel reads a block of 2000 rows of the aggregated messages and of the
  previous layer's root term, rectifies their sum, and writes that block's products with both 64×64 weight matrices side
  by side. This module fixes what the region's pipeline holds at every point, for any contents `V` the region is entered
  with, and states that the body meets it.
-/
import proofs.«413041_j89696097010223_3_alg».proof.Proof.Gen.Kernel.Launch
import proofs.«413041_j89696097010223_3_alg».proof.Proof.Gen.Kernel.Skeleton
import proofs.«413041_j89696097010223_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the arrays as found; after the body each input buffer still holds its block and the
    output buffer holds the body's one stored value of the four input blocks; nothing owed, nothing carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 1 t) (iblk1 V c 2 t) (iblk1 V c 3 t) := by dsimp only [dat1]

/-! ## Vocabulary -/

/-- The all-zero offsets of a rank-two rectangle, as a constant function. -/
theorem zeroOffs1 : (![0, 0] : Fin 2 → Nat) = fun _ => 0 := funext fun a => by fin_cases a <;> rfl

/-! ## Whole-buffer loads and stores -/

section Whole
variable {σ : RefSig} {κ : Kind} {sp : Space} {S : Shape} {e : EltTy} {Val : EltTy → Type}

/-- A load through the whole-buffer rectangle (all of the shape, at zero offsets) reads the buffer's contents. -/
theorem readAt_whole1 (v : View σ κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through the whole-buffer rectangle leaves its payload, whatever the buffer held. -/
theorem read_store_whole1 [∀ e, Nonempty (Val e)] (v : View σ κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Whole

/-! ## The input buffers at a point -/

/-- Window 0's buffer holds its block of the aggregated messages at every point: an input the body leaves in place
    holds what a fetch at the point would bring, whether or not the point fetches. -/
theorem before1_0 (c : Dev nD) (t : Fin cfg1.N) (d) : (dat1 V c).before 0 t d = iblk1 V c 0 t := by
  refine ((dat1 V c).before_in_eq_fetched 0 rfl (fun _ => rfl) (fun _ _ _ => rfl) (fun s => ?_) t d).trans ?_
  · rw [after1_0]; unfold Dat.blockOf iblk1; rw [A_eq1]
  · unfold Dat.fetched Dat.blockOf iblk1; rw [A_eq1]; rfl

/-- Window 1's buffer holds its block of the previous layer's root term at every point. -/
theorem before1_1 (c : Dev nD) (t : Fin cfg1.N) (d) : (dat1 V c).before 1 t d = iblk1 V c 1 t := by
  refine ((dat1 V c).before_in_eq_fetched 1 rfl (fun _ => rfl) (fun _ _ _ => rfl) (fun s => ?_) t d).trans ?_
  · rw [after1_1]; unfold Dat.blockOf iblk1; rw [A_eq1]
  · unfold Dat.fetched Dat.blockOf iblk1; rw [A_eq1]; rfl

/-- Window 2's buffer holds the first weight matrix at every point, though only the first point fetches it: its
    block index never moves, so the block a later point would fetch is the one already there. -/
theorem before1_2 (c : Dev nD) (t : Fin cfg1.N) (d) : (dat1 V c).before 2 t d = iblk1 V c 2 t := by
  refine ((dat1 V c).before_in_eq_fetched 2 rfl (fun _ => rfl) (fun _ _ _ => rfl) (fun s => ?_) t d).trans ?_
  · rw [after1_2]; unfold Dat.blockOf iblk1; rw [A_eq1]
  · unfold Dat.fetched Dat.blockOf iblk1; rw [A_eq1]; rfl

/-- Window 3's buffer holds the second weight matrix at every point, likewise. -/
theorem before1_3 (c : Dev nD) (t : Fin cfg1.N) (d) : (dat1 V c).before 3 t d = iblk1 V c 3 t := by
  refine ((dat1 V c).before_in_eq_fetched 3 rfl (fun _ => rfl) (fun _ _ _ => rfl) (fun s => ?_) t d).trans ?_
  · rw [after1_3]; unfold Dat.blockOf iblk1; rw [A_eq1]
  · unfold Dat.fetched Dat.blockOf iblk1; rw [A_eq1]; rfl

/-! ## The body's triple -/

set_option maxHeartbeats 1000000 in
/-- The body on whole buffers — the four inputs' at read contents `xa xb xc xd`, the output's at anything — runs to
    the continuation with the inputs' as they were and the output's holding the stored value of the four: five
    whole-buffer loads, then one store through the whole-buffer rectangle, which leaves its payload. -/
theorem sound_kernel1 (c : Dev nD) (E : Set ℕ) (i : grid1.Coords)
    (ma : Memref sig .tc .vmem S2000x64 .f32) (hma : ma.IsWhole) (mb : Memref sig .tc .vmem S2000x64 .bf16) (hmb : mb.IsWhole)
    (mc : Memref sig .tc .vmem S64x64 .f32) (hmc : mc.IsWhole) (md : Memref sig .tc .vmem S64x64 .f32) (hmd : md.IsWhole)
    (me : Memref sig .tc .vmem S2000x128 .bf16) (hme : me.IsWhole)
    (xa : Vec F S2000x64 .f32) (xb : Vec F S2000x64 .bf16) (xc xd : Vec F S64x64 .f32) (K : PUnit → sProp 𝕄) :
    iprop(owns (c : Thread nD τ) ma fullShare xa ∗ owns (c : Thread nD τ) mb fullShare xb
        ∗ owns (c : Thread nD τ) mc fullShare xc ∗ owns (c : Thread nD τ) md fullShare xd
        ∗ (∃ d, owns (c : Thread nD τ) me fullShare d)
        ∗ (iprop(owns (c : Thread nD τ) ma fullShare xa ∗ owns (c : Thread nD τ) mb fullShare xb
            ∗ owns (c : Thread nD τ) mc fullShare xc ∗ owns (c : Thread nD τ) md fullShare xd
            ∗ owns (c : Thread nD τ) me fullShare (k1_pay1 xa xb xc xd)) -∗ K ⟨⟩))
      ⊢ wp frame (wpE (defs₀ (F := F)) Variants.none c none) E (cc1__mid_kernel i ma hma mb hmb mc hmc md hmd me hme) K := by
  simp only [cc1__mid_kernel_eq_skeleton]; unfold cc1__mid_kernel_skel
  unfold owns
  iintro ⟨⟨%fa, %hfa, Ha⟩, ⟨%fb, %hfb, Hb⟩, ⟨%fc, %hfc, Hc⟩, ⟨%fd, %hfd, Hd⟩, ⟨%de, %fe, -, He⟩, Hk⟩
  subst hfa hfb hfc hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact He
  ipureintro
  refine (read_store_whole1 (S := S2000x128) me.view fe zeroOffs1 inb_S2000x128_S2000x128_0_0 _).trans ?_
  rw [readAt_whole1 (S := S2000x64) ma.view fa zeroOffs1, readAt_whole1 (S := S2000x64) mb.view fb zeroOffs1,
    readAt_whole1 (S := S64x64) mc.view fc zeroOffs1, readAt_whole1 (S := S64x64) md.view fd zeroOffs1]

/-! ## The body obligation, at a generic point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same invariant and debts, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies at those blocks; the
    invariant and the debts are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%da, Ha⟩, ⟨%db, Hb⟩, ⟨%dc, Hc⟩, ⟨%dd, Hd⟩, ⟨%de, He⟩⟩
  iapply (sound_kernel1 c Set.univ _ _ _ _ _ _ _ _ _ _ _ (iblk1 V c 0 t) (iblk1 V c 1 t) (iblk1 V c 2 t) (iblk1 V c 3 t) _)
  isplitl [Ha]; · iexact Ha
  isplitl [Hb]; · iexact Hb
  isplitl [Hc]; · iexact Hc
  isplitl [Hd]; · iexact Hd
  isplitl [He]; · iexists _; iexact He
  iintro ⟨Ha, Hb, Hc, Hd, He⟩
  isplitl [HΦ]; · iexact HΦ
  isplitl [Ho]; · iexact Ho
  isplitl [Ha]; · iexact Ha
  isplitl [Hb]; · iexact Hb
  isplitl [Hc]; · iexact Hc
  isplitl [Hd]; · iexact Hd
  iexact He

/-- The body meets the proof data at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Region 2 (pallas_call 2): per grid point the kernel reads a block of 2000 rows of the aggregated messages and of the
  previous layer's root term, rectifies their sum, and writes that block's products with both 64×64 weight matrices side
  by side. This module fixes what the region's pipeline holds at every point, for any contents `V` the region is entered
  with, and states that the body meets it.
-/
import proofs.«413041_j89696097010223_3_alg».proof.Proof.Gen.Kernel.Launch
import proofs.«413041_j89696097010223_3_alg».proof.Proof.Gen.Kernel.Skeleton
import proofs.«413041_j89696097010223_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: the arrays as found; after the body each input buffer still holds its block and the
    output buffer holds the body's one stored value of the four input blocks; nothing owed, nothing carried. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]

/-! ## Vocabulary -/

/-- The all-zero offsets of a rank-two rectangle, as a constant function. -/
theorem zeroOffs2 : (![0, 0] : Fin 2 → Nat) = fun _ => 0 := funext fun a => by fin_cases a <;> rfl

/-! ## Whole-buffer loads and stores -/

section Whole
variable {σ : RefSig} {κ : Kind} {sp : Space} {S : Shape} {e : EltTy} {Val : EltTy → Type}

/-- A load through the whole-buffer rectangle (all of the shape, at zero offsets) reads the buffer's contents. -/
theorem readAt_whole2 (v : View σ κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through the whole-buffer rectangle leaves its payload, whatever the buffer held. -/
theorem read_store_whole2 [∀ e, Nonempty (Val e)] (v : View σ κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Whole

/-! ## The input buffers at a point -/

/-- Window 0's buffer holds its block of the aggregated messages at every point: an input the body leaves in place
    holds what a fetch at the point would bring, whether or not the point fetches. -/
theorem before2_0 (c : Dev nD) (t : Fin cfg2.N) (d) : (dat2 V c).before 0 t d = iblk2 V c 0 t := by
  refine ((dat2 V c).before_in_eq_fetched 0 rfl (fun _ => rfl) (fun _ _ _ => rfl) (fun s => ?_) t d).trans ?_
  · rw [after2_0]; unfold Dat.blockOf iblk2; rw [A_eq2]
  · unfold Dat.fetched Dat.blockOf iblk2; rw [A_eq2]; rfl

/-- Window 1's buffer holds its block of the previous layer's root term at every point. -/
theorem before2_1 (c : Dev nD) (t : Fin cfg2.N) (d) : (dat2 V c).before 1 t d = iblk2 V c 1 t := by
  refine ((dat2 V c).before_in_eq_fetched 1 rfl (fun _ => rfl) (fun _ _ _ => rfl) (fun s => ?_) t d).trans ?_
  · rw [after2_1]; unfold Dat.blockOf iblk2; rw [A_eq2]
  · unfold Dat.fetched Dat.blockOf iblk2; rw [A_eq2]; rfl

/-- Window 2's buffer holds the first weight matrix at every point, though only the first point fetches it: its
    block index never moves, so the block a later point would fetch is the one already there. -/
theorem before2_2 (c : Dev nD) (t : Fin cfg2.N) (d) : (dat2 V c).before 2 t d = iblk2 V c 2 t := by
  refine ((dat2 V c).before_in_eq_fetched 2 rfl (fun _ => rfl) (fun _ _ _ => rfl) (fun s => ?_) t d).trans ?_
  · rw [after2_2]; unfold Dat.blockOf iblk2; rw [A_eq2]
  · unfold Dat.fetched Dat.blockOf iblk2; rw [A_eq2]; rfl

/-- Window 3's buffer holds the second weight matrix at every point, likewise. -/
theorem before2_3 (c : Dev nD) (t : Fin cfg2.N) (d) : (dat2 V c).before 3 t d = iblk2 V c 3 t := by
  refine ((dat2 V c).before_in_eq_fetched 3 rfl (fun _ => rfl) (fun _ _ _ => rfl) (fun s => ?_) t d).trans ?_
  · rw [after2_3]; unfold Dat.blockOf iblk2; rw [A_eq2]
  · unfold Dat.fetched Dat.blockOf iblk2; rw [A_eq2]; rfl

/-! ## The body's triple -/

set_option maxHeartbeats 1000000 in
/-- The body on whole buffers — the four inputs' at read contents `xa xb xc xd`, the output's at anything — runs to
    the continuation with the inputs' as they were and the output's holding the stored value of the four: five
    whole-buffer loads, then one store through the whole-buffer rectangle, which leaves its payload. -/
theorem sound_kernel2 (c : Dev nD) (E : Set ℕ) (i : grid2.Coords)
    (ma : Memref sig .tc .vmem S2000x64 .f32) (hma : ma.IsWhole) (mb : Memref sig .tc .vmem S2000x64 .bf16) (hmb : mb.IsWhole)
    (mc : Memref sig .tc .vmem S64x64 .f32) (hmc : mc.IsWhole) (md : Memref sig .tc .vmem S64x64 .f32) (hmd : md.IsWhole)
    (me : Memref sig .tc .vmem S2000x128 .bf16) (hme : me.IsWhole)
    (xa : Vec F S2000x64 .f32) (xb : Vec F S2000x64 .bf16) (xc xd : Vec F S64x64 .f32) (K : PUnit → sProp 𝕄) :
    iprop(owns (c : Thread nD τ) ma fullShare xa ∗ owns (c : Thread nD τ) mb fullShare xb
        ∗ owns (c : Thread nD τ) mc fullShare xc ∗ owns (c : Thread nD τ) md fullShare xd
        ∗ (∃ d, owns (c : Thread nD τ) me fullShare d)
        ∗ (iprop(owns (c : Thread nD τ) ma fullShare xa ∗ owns (c : Thread nD τ) mb fullShare xb
            ∗ owns (c : Thread nD τ) mc fullShare xc ∗ owns (c : Thread nD τ) md fullShare xd
            ∗ owns (c : Thread nD τ) me fullShare (k2_pay1 xa xb xc xd)) -∗ K ⟨⟩))
      ⊢ wp frame (wpE (defs₀ (F := F)) Variants.none c none) E (cc2__mid_kernel i ma hma mb hmb mc hmc md hmd me hme) K := by
  simp only [cc2__mid_kernel_eq_skeleton]; unfold cc2__mid_kernel_skel
  unfold owns
  iintro ⟨⟨%fa, %hfa, Ha⟩, ⟨%fb, %hfb, Hb⟩, ⟨%fc, %hfc, Hc⟩, ⟨%fd, %hfd, Hd⟩, ⟨%de, %fe, -, He⟩, Hk⟩
  subst hfa hfb hfc hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact He
  ipureintro
  refine (read_store_whole2 (S := S2000x128) me.view fe zeroOffs2 inb_S2000x128_S2000x128_0_0 _).trans ?_
  rw [readAt_whole2 (S := S2000x64) ma.view fa zeroOffs2, readAt_whole2 (S := S2000x64) mb.view fb zeroOffs2,
    readAt_whole2 (S := S64x64) mc.view fc zeroOffs2, readAt_whole2 (S := S64x64) md.view fd zeroOffs2]

/-! ## The body obligation, at a generic point -/

/-- What the body is handed at point `t`: the invariant, what the core owes, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it hands back: the same invariant and debts, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's triple applies at those blocks; the
    invariant and the debts are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%da, Ha⟩, ⟨%db, Hb⟩, ⟨%dc, Hc⟩, ⟨%dd, Hd⟩, ⟨%de, He⟩⟩
  iapply (sound_kernel2 c Set.univ _ _ _ _ _ _ _ _ _ _ _ (iblk2 V c 0 t) (iblk2 V c 1 t) (iblk2 V c 2 t) (iblk2 V c 3 t) _)
  isplitl [Ha]; · iexact Ha
  isplitl [Hb]; · iexact Hb
  isplitl [Hc]; · iexact Hc
  isplitl [Hd]; · iexact Hd
  isplitl [He]; · iexists _; iexact He
  iintro ⟨Ha, Hb, Hc, Hd, He⟩
  isplitl [HΦ]; · iexact HΦ
  isplitl [Ho]; · iexact Ho
  isplitl [Ha]; · iexact Ha
  isplitl [Hb]; · iexact Hb
  isplitl [Hc]; · iexact Hc
  isplitl [Hd]; · iexact Hd
  iexact He

/-- The body meets the proof data at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Region 3 (the last pallas_call): over 25 grid points the kernel keeps a 64×64 accumulator in a scratch buffer that lives
  across points. The first point clears it; every point adds the block's contribution (the membership block contracted
  against the rectified features); the last point turns the accumulator into the result row and stores it, the only
  point at which the output window is written. This module fixes what the region's pipeline and the accumulator hold at
  every point, for any contents `V` the region is entered with, and states that the body meets it and that the
  invariant starts from and ends in the plain scoped state.
-/
import proofs.«413041_j89696097010223_3_alg».proof.Proof.Gen.Kernel.Launch
import proofs.«413041_j89696097010223_3_alg».proof.Proof.Gen.Kernel.Skeleton
import proofs.«413041_j89696097010223_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The kernel body on arbitrary whole buffers, case by case

The body has two conditionals on the grid coordinate: the first clears the accumulator (taken at the first point only),
the second turns the accumulator into the result row (taken at the last point only). Between them, at every point, it
loads the three streamed blocks and the accumulator and stores the accumulator updated by the block's contribution.
Each case is a triple whose post names the stored values as the body's payloads of the contents the buffers were
entered with: every store overwrites a whole buffer, so what a buffer reads afterwards is the last payload stored into
it, and a load that follows a store in the same run reads that store's payload. -/

/-- The first conditional's test, from the grid coordinate: the coordinate is zero. -/
abbrev cond3_1 (i : grid3.Coords) : Prop := (Scalar.cmpi .ne (Scalar.extui (Scalar.cmpi .eq (BitVec.ofNat 32 (i 0).val) 0#32)) 0#32) = 1#1
/-- The second conditional's test: the coordinate is the last one. -/
abbrev cond3_2 (i : grid3.Coords) : Prop := k3_cond2 i = 1#1

/-- The zero offsets of a rank-2 whole-buffer access, as a constant function. -/
theorem zeroOffsets3 : (![0, 0] : Fin 2 → Nat) = fun _ => 0 := funext fun a => by fin_cases a <;> rfl

/-! ## Whole-buffer accesses

Every access of this kernel goes through the rectangle that is the whole shape at offset zero. Three facts about such
accesses, stated once over an abstract view so that no buffer of the kernel's extents is ever unfolded. -/

section WholeAccess
variable {sg : RefSig} {κ : Kind} {sp : Space} {S : Shape} {e : EltTy}

/-- If the LAST store into a buffer goes through the whole shape, the buffer afterwards reads as that store's payload,
    whatever was stored before and whatever the buffer held. -/
theorem read_last_whole_store3 (v : View sg κ sp S e) (f : v.ty.Contents (Elt F))
    {off : Fin S.rank → ℕ} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hoff inb y⟩),
    View.canon_cons_unit_zero hoff inb w L]

/-- A load through the whole shape of a whole memref whose contents read `X` reads `X`. -/
theorem load_whole_of_unread3 {m : Memref sg κ sp S e} (h : m.IsWhole)
    {off : Fin S.rank → ℕ} (hoff : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hoff inb]

/-- A load through the whole shape that follows one store through the whole shape reads that store's payload. -/
theorem load_after_whole_store3 (v : View sg κ sp S e)
    {off : Fin S.rank → ℕ} (hoff : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hoff inb w

end WholeAccess

set_option maxHeartbeats 1000000 in
/-- FIRST POINT (first test holds, second fails). The accumulator is entered at anything; it is cleared, read back
    (the read sees the cleared value), and left at the update of the cleared accumulator by the three blocks. The
    three streamed buffers are only read. No other buffer is touched. -/
theorem kernel3_first (c : Dev nD) (E : Set ℕ) (i : grid3.Coords)
    (arg1 : Memref sig .tc .vmem S2000x64 .f32) (harg1 : arg1.IsWhole)
    (arg2 : Memref sig .tc .vmem S2000x64 .bf16) (harg2 : arg2.IsWhole)
    (arg3 : Memref sig .tc .vmem S2000x64 .bf16) (harg3 : arg3.IsWhole)
    (arg4 : Memref sig .tc .vmem S64x10 .f32) (harg4 : arg4.IsWhole)
    (arg5 : Memref sig .tc .vmem S1x10 .f32) (harg5 : arg5.IsWhole)
    (arg6 : Memref sig .tc .vmem S64x1 .f32) (harg6 : arg6.IsWhole)
    (arg7 : Memref sig .tc .vmem S1x10 .f32) (harg7 : arg7.IsWhole)
    (arg8 : Memref sig .tc .vmem S64x64 .f32) (harg8 : arg8.IsWhole)
    (hc1 : cond3_1 i) (hc2 : ¬cond3_2 i)
    (x0 : Vec F S2000x64 .f32) (x1 x2 : Vec F S2000x64 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg8 fullShare (k3_pay2 x0 x1 x2 (k3_pay1 (F := F)))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%f2, %hf2, H2⟩, ⟨%d8, %f8, -, H8⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H8
  ipureintro
  sl_unfold_words
  refine (read_last_whole_store3 arg8.view f8 zeroOffsets3 _ _ _).trans ?_
  rw [load_whole_of_unread3 harg1 zeroOffsets3, load_whole_of_unread3 harg2 zeroOffsets3, load_whole_of_unread3 harg3 zeroOffsets3,
    load_after_whole_store3 arg8.view zeroOffsets3]

set_option maxHeartbeats 1000000 in
/-- A MIDDLE POINT (both tests fail). The accumulator is entered at `s` and left at the update of `s` by the three
    blocks; the three streamed buffers are only read; no other buffer is touched. -/
theorem kernel3_middle (c : Dev nD) (E : Set ℕ) (i : grid3.Coords)
    (arg1 : Memref sig .tc .vmem S2000x64 .f32) (harg1 : arg1.IsWhole)
    (arg2 : Memref sig .tc .vmem S2000x64 .bf16) (harg2 : arg2.IsWhole)
    (arg3 : Memref sig .tc .vmem S2000x64 .bf16) (harg3 : arg3.IsWhole)
    (arg4 : Memref sig .tc .vmem S64x10 .f32) (harg4 : arg4.IsWhole)
    (arg5 : Memref sig .tc .vmem S1x10 .f32) (harg5 : arg5.IsWhole)
    (arg6 : Memref sig .tc .vmem S64x1 .f32) (harg6 : arg6.IsWhole)
    (arg7 : Memref sig .tc .vmem S1x10 .f32) (harg7 : arg7.IsWhole)
    (arg8 : Memref sig .tc .vmem S64x64 .f32) (harg8 : arg8.IsWhole)
    (hc1 : ¬cond3_1 i) (hc2 : ¬cond3_2 i)
    (x0 : Vec F S2000x64 .f32) (x1 x2 : Vec F S2000x64 .bf16) (s : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg8 fullShare (k3_pay2 x0 x1 x2 s)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%f2, %hf2, H2⟩, ⟨%f8, %hf8, H8⟩, Hk⟩
  obtain rfl := harg1.eq_unread hf0; obtain rfl := harg2.eq_unread hf1; obtain rfl := harg3.eq_unread hf2
  obtain rfl := harg8.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H8
  ipureintro
  sl_unfold_words
  refine (read_last_whole_store3 arg8.view _ zeroOffsets3 _ _ _).trans ?_
  rw [load_whole_of_unread3 harg1 zeroOffsets3, load_whole_of_unread3 harg2 zeroOffsets3, load_whole_of_unread3 harg3 zeroOffsets3,
    load_whole_of_unread3 harg8 zeroOffsets3]

set_option maxHeartbeats 1000000 in
/-- THE LAST POINT (first test fails, second holds). The accumulator is entered at `s` and left at its update `s'` by
    the three blocks; then it is read back (the read sees `s'`) with the three resident buffers, and the result row
    computed from them is stored over the whole output buffer, which is entered at anything. -/
theorem kernel3_last (c : Dev nD) (E : Set ℕ) (i : grid3.Coords)
    (arg1 : Memref sig .tc .vmem S2000x64 .f32) (harg1 : arg1.IsWhole)
    (arg2 : Memref sig .tc .vmem S2000x64 .bf16) (harg2 : arg2.IsWhole)
    (arg3 : Memref sig .tc .vmem S2000x64 .bf16) (harg3 : arg3.IsWhole)
    (arg4 : Memref sig .tc .vmem S64x10 .f32) (harg4 : arg4.IsWhole)
    (arg5 : Memref sig .tc .vmem S1x10 .f32) (harg5 : arg5.IsWhole)
    (arg6 : Memref sig .tc .vmem S64x1 .f32) (harg6 : arg6.IsWhole)
    (arg7 : Memref sig .tc .vmem S1x10 .f32) (harg7 : arg7.IsWhole)
    (arg8 : Memref sig .tc .vmem S64x64 .f32) (harg8 : arg8.IsWhole)
    (hc1 : ¬cond3_1 i) (hc2 : cond3_2 i)
    (x0 : Vec F S2000x64 .f32) (x1 x2 : Vec F S2000x64 .bf16) (x3 : Vec F S64x10 .f32) (x4 : Vec F S1x10 .f32) (x5 : Vec F S64x1 .f32)
    (s : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k3_pay3 (k3_pay2 x0 x1 x2 s) x5 x3 x4)
            ∗ owns (c : Thread nD τ) arg8 fullShare (k3_pay2 x0 x1 x2 s)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    sl_unfold_words
    refine (read_last_whole_store3 arg7.view f7 zeroOffsets3 _ _ _).trans ?_
    rw [load_after_whole_store3 arg8.view zeroOffsets3, load_whole_of_unread3 harg1 zeroOffsets3, load_whole_of_unread3 harg2 zeroOffsets3,
      load_whole_of_unread3 harg3 zeroOffsets3, load_whole_of_unread3 harg8 zeroOffsets3, load_whole_of_unread3 harg6 zeroOffsets3,
      load_whole_of_unread3 harg4 zeroOffsets3, load_whole_of_unread3 harg5 zeroOffsets3]
  iexists _; isplitr
  swap; · iexact H8
  ipureintro
  sl_unfold_words
  refine (read_last_whole_store3 arg8.view _ zeroOffsets3 _ _ _).trans ?_
  rw [load_whole_of_unread3 harg1 zeroOffsets3, load_whole_of_unread3 harg2 zeroOffsets3, load_whole_of_unread3 harg3 zeroOffsets3,
    load_whole_of_unread3 harg8 zeroOffsets3]

/-! # The region's proof data -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator's memref: the kernel's one scratch operand, whole. -/
abbrev scM3 : Memref sig .tc .vmem S64x64 .f32 := Memref.whole cc3_scratch0

/-- THE ACCUMULATION. What the scratch holds after the body at position `n`: at the first point the update applied to
    the cleared accumulator, afterwards the update applied to what the point before left. -/
def sAt3 (c : Dev nD) : (n : ℕ) → n < cfg3.N → Vec F S64x64 .f32
  | 0, hn => k3_pay2 (iblk3 V c 0 ⟨0, hn⟩) (iblk3 V c 1 ⟨0, hn⟩) (iblk3 V c 2 ⟨0, hn⟩) (k3_pay1 (F := F))
  | n + 1, hn => k3_pay2 (iblk3 V c 0 ⟨n + 1, hn⟩) (iblk3 V c 1 ⟨n + 1, hn⟩) (iblk3 V c 2 ⟨n + 1, hn⟩) (sAt3 c n (Nat.lt_of_succ_lt hn))

theorem sAt3_zero (c : Dev nD) (hn : 0 < cfg3.N) :
    sAt3 V c 0 hn = k3_pay2 (iblk3 V c 0 ⟨0, hn⟩) (iblk3 V c 1 ⟨0, hn⟩) (iblk3 V c 2 ⟨0, hn⟩) (k3_pay1 (F := F)) := rfl
theorem sAt3_succ (c : Dev nD) (n : ℕ) (hn : n + 1 < cfg3.N) :
    sAt3 V c (n + 1) hn = k3_pay2 (iblk3 V c 0 ⟨n + 1, hn⟩) (iblk3 V c 1 ⟨n + 1, hn⟩) (iblk3 V c 2 ⟨n + 1, hn⟩) (sAt3 V c n (Nat.lt_of_succ_lt hn)) := rfl

/-- The core's scoped buffers that are neither a staging buffer of this region nor its accumulator, each at some
    contents: the other regions' staging buffers. The body touches none of them; the invariant carries them unopened. -/
abbrev others3 (c : Dev nD) : sProp 𝕄 :=
  Pipeline.scopedRestBut (Ix := Unit) (Name := ℕ) (U := UR sig nD τ) (Lvl := ℕ) (Val := Elt F) spec3 c [cc3_scratch0]

/-- The region invariant before position `n`: before the first point the plain scoped state (the scratch at anything);
    afterwards the scratch at what the point before left, the other scoped buffers unopened, and the generator register
    at some state. -/
def PhiS3 (c : Dev nD) : (n : ℕ) → n ≤ cfg3.N → sProp 𝕄
  | 0, _ => Pipeline.ΦA spec3 c
  | n + 1, hn => iprop(iprop(owns (c : Thread nD τ) scM3 fullShare (sAt3 V c n hn) ∗ others3 (F := F) c) ∗ (∃ r, prngReg c r))

/-- The region's proof data: the arrays as found; after the body each input buffer still holds its block; the output
    buffer's contents are stated as the result row computed from the accumulator at that point (it is only stored, and only
    written back, at the last point: elsewhere the window is idle and this value is not used); the invariant carries the
    accumulator; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay3 (sAt3 V c t.val t.isLt) (iblk3 V c 5 t) (iblk3 V c 3 t) (iblk3 V c 4 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = k3_pay3 (sAt3 V c t.val t.isLt) (iblk3 V c 5 t) (iblk3 V c 3 t) (iblk3 V c 4 t) := by dsimp only [dat3]

/-! ## The two tests in closed form, and where the output window is idle -/

/-- The first test holds at the first point only. -/
theorem hcond3_1 : ∀ t : Fin cfg3.N, cond3_1 (grid3.coords t) ↔ t.val = 0 :=
  (by decide +kernel : ∀ t : Fin grid3.N, cond3_1 (grid3.coords t) ↔ t.val = 0)
/-- The second test holds at the last point only. -/
theorem hcond3_2 : ∀ t : Fin cfg3.N, cond3_2 (grid3.coords t) ↔ t.val = 24 :=
  (by decide +kernel : ∀ t : Fin grid3.N, cond3_2 (grid3.coords t) ↔ t.val = 24)

/-- The six input windows are live at every point. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem live3_4 : ∀ t : Fin cfg3.N, cfg3.idle 4 (grid3.coords t) = false := by decide +kernel
theorem live3_5 : ∀ t : Fin cfg3.N, cfg3.idle 5 (grid3.coords t) = false := by decide +kernel
/-- Where the second test fails the output window is idle and is not written back; -/
theorem idle3_6 : ∀ t : Fin cfg3.N, ¬cond3_2 (grid3.coords t) → cfg3.idle 6 (grid3.coords t) = true := by decide +kernel
theorem noFlush3_6 : ∀ t : Fin cfg3.N, ¬cond3_2 (grid3.coords t) → (cfg3.win 6).flush t = false := by decide +kernel
/-- where it holds the window is live. -/
theorem live3_6 : ∀ t : Fin cfg3.N, cond3_2 (grid3.coords t) → cfg3.idle 6 (grid3.coords t) = false := by decide +kernel

/-! ## What each input buffer holds when the body starts

An input window is never idle and its blocks tile its array; the body only reads its buffer. So at every point the
buffer holds the window's block there, whether the pipeline fetched it at this point or the block index has not moved
since it was fetched. -/

theorem holds3_0 (c : Dev nD) (t : Fin cfg3.N) (d) : (dat3 V c).before 0 t d = iblk3 V c 0 t := by
  have keep : ∀ s, (cfg3.win 0).cut (cfg3.grid.coords s) ((dat3 V c).after 0 s) = (dat3 V c).blockOf 0 s := fun s => by
    rw [after3_0]; unfold Dat.blockOf iblk3; rw [A_eq3]; try rfl
  refine ((dat3 V c).before_in_eq_fetched 0 rfl (fun _ => rfl) (fun _ _ _ => rfl) keep t d).trans ?_
  unfold Dat.fetched Dat.blockOf iblk3; rw [A_eq3]; try rfl

theorem holds3_1 (c : Dev nD) (t : Fin cfg3.N) (d) : (dat3 V c).before 1 t d = iblk3 V c 1 t := by
  have keep : ∀ s, (cfg3.win 1).cut (cfg3.grid.coords s) ((dat3 V c).after 1 s) = (dat3 V c).blockOf 1 s := fun s => by
    rw [after3_1]; unfold Dat.blockOf iblk3; rw [A_eq3]; try rfl
  refine ((dat3 V c).before_in_eq_fetched 1 rfl (fun _ => rfl) (fun _ _ _ => rfl) keep t d).trans ?_
  unfold Dat.fetched Dat.blockOf iblk3; rw [A_eq3]; try rfl

theorem holds3_2 (c : Dev nD) (t : Fin cfg3.N) (d) : (dat3 V c).before 2 t d = iblk3 V c 2 t := by
  have keep : ∀ s, (cfg3.win 2).cut (cfg3.grid.coords s) ((dat3 V c).after 2 s) = (dat3 V c).blockOf 2 s := fun s => by
    rw [after3_2]; unfold Dat.blockOf iblk3; rw [A_eq3]; try rfl
  refine ((dat3 V c).before_in_eq_fetched 2 rfl (fun _ => rfl) (fun _ _ _ => rfl) keep t d).trans ?_
  unfold Dat.fetched Dat.blockOf iblk3; rw [A_eq3]; try rfl

theorem holds3_3 (c : Dev nD) (t : Fin cfg3.N) (d) : (dat3 V c).before 3 t d = iblk3 V c 3 t := by
  have keep : ∀ s, (cfg3.win 3).cut (cfg3.grid.coords s) ((dat3 V c).after 3 s) = (dat3 V c).blockOf 3 s := fun s => by
    rw [after3_3]; unfold Dat.blockOf iblk3; rw [A_eq3]; try rfl
  refine ((dat3 V c).before_in_eq_fetched 3 rfl (fun _ => rfl) (fun _ _ _ => rfl) keep t d).trans ?_
  unfold Dat.fetched Dat.blockOf iblk3; rw [A_eq3]; try rfl

theorem holds3_4 (c : Dev nD) (t : Fin cfg3.N) (d) : (dat3 V c).before 4 t d = iblk3 V c 4 t := by
  have keep : ∀ s, (cfg3.win 4).cut (cfg3.grid.coords s) ((dat3 V c).after 4 s) = (dat3 V c).blockOf 4 s := fun s => by
    rw [after3_4]; unfold Dat.blockOf iblk3; rw [A_eq3]; try rfl
  refine ((dat3 V c).before_in_eq_fetched 4 rfl (fun _ => rfl) (fun _ _ _ => rfl) keep t d).trans ?_
  unfold Dat.fetched Dat.blockOf iblk3; rw [A_eq3]; try rfl

theorem holds3_5 (c : Dev nD) (t : Fin cfg3.N) (d) : (dat3 V c).before 5 t d = iblk3 V c 5 t := by
  have keep : ∀ s, (cfg3.win 5).cut (cfg3.grid.coords s) ((dat3 V c).after 5 s) = (dat3 V c).blockOf 5 s := fun s => by
    rw [after3_5]; unfold Dat.blockOf iblk3; rw [A_eq3]; try rfl
  refine ((dat3 V c).before_in_eq_fetched 5 rfl (fun _ => rfl) (fun _ _ _ => rfl) keep t d).trans ?_
  unfold Dat.fetched Dat.blockOf iblk3; rw [A_eq3]; try rfl

/-! ## The accumulation and the invariant, read at a point -/

/-- At the first point the accumulator ends at the update of the cleared accumulator. -/
theorem sAt3_first (c : Dev nD) (t : Fin cfg3.N) (h : t.val = 0) :
    sAt3 V c t.val t.isLt = k3_pay2 (iblk3 V c 0 t) (iblk3 V c 1 t) (iblk3 V c 2 t) (k3_pay1 (F := F)) := by
  obtain ⟨n, hn⟩ := t
  cases n with
  | zero => rfl
  | succ n => exact absurd h (Nat.succ_ne_zero n)

/-- At any later point it ends at the update of what the point before left. -/
theorem sAt3_later (c : Dev nD) (t : Fin cfg3.N) (h : t.val ≠ 0) :
    sAt3 V c t.val t.isLt = k3_pay2 (iblk3 V c 0 t) (iblk3 V c 1 t) (iblk3 V c 2 t)
      (sAt3 V c (t.val - 1) (Nat.lt_of_le_of_lt (Nat.sub_le _ _) t.isLt)) := by
  obtain ⟨n, hn⟩ := t
  cases n with
  | zero => exact absurd rfl h
  | succ n => rfl

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (sAt3 V c n hn) ∗ others3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3 fullShare (sAt3 V c (n - 1) (by omega)) ∗ others3 (F := F) c) ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- The plain scoped state, opened at the accumulator: the accumulator at anything, the other scoped buffers unopened,
    the generator register at some state. -/
theorem PhiA3_eq (c : Dev nD) :
    (Pipeline.ΦA spec3 c : sProp 𝕄)
      = iprop(iprop((∃ d, owns (c : Thread nD τ) scM3 fullShare d) ∗ others3 (F := F) c) ∗ (∃ r, prngReg c r)) := by
  unfold Pipeline.ΦA
  rw [Pipeline.scopedRest_split_of_list spec3 c [cc3_scratch0] (by decide) (by decide)]
  simp only [Idealize.SL.BI.bigSepL_singleton, scM3, owns_whole]; try rfl

/-- What the body leaves in a live input window's buffer. -/
theorem leaves3_0 (c : Dev nD) (t : Fin cfg3.N) :
    (dat3 V c).leavesExact 0 t = owns (c : Thread nD τ) (st3_0 t) fullShare ((dat3 V c).after 0 t) := by
  unfold Dat.leavesExact; rw [live3_0 t]
theorem leaves3_1 (c : Dev nD) (t : Fin cfg3.N) :
    (dat3 V c).leavesExact 1 t = owns (c : Thread nD τ) (st3_1 t) fullShare ((dat3 V c).after 1 t) := by
  unfold Dat.leavesExact; rw [live3_1 t]
theorem leaves3_2 (c : Dev nD) (t : Fin cfg3.N) :
    (dat3 V c).leavesExact 2 t = owns (c : Thread nD τ) (st3_2 t) fullShare ((dat3 V c).after 2 t) := by
  unfold Dat.leavesExact; rw [live3_2 t]
theorem leaves3_3 (c : Dev nD) (t : Fin cfg3.N) :
    (dat3 V c).leavesExact 3 t = owns (c : Thread nD τ) (st3_3 t) fullShare ((dat3 V c).after 3 t) := by
  unfold Dat.leavesExact; rw [live3_3 t]
theorem leaves3_4 (c : Dev nD) (t : Fin cfg3.N) :
    (dat3 V c).leavesExact 4 t = owns (c : Thread nD τ) (st3_4 t) fullShare ((dat3 V c).after 4 t) := by
  unfold Dat.leavesExact; rw [live3_4 t]
theorem leaves3_5 (c : Dev nD) (t : Fin cfg3.N) :
    (dat3 V c).leavesExact 5 t = owns (c : Thread nD τ) (st3_5 t) fullShare ((dat3 V c).after 5 t) := by
  unfold Dat.leavesExact; rw [live3_5 t]

/-! ## The body obligation at a point -/

/-- What the body is handed at point `t`: the invariant, what the core owes, each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it hands back. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 1600000 in
/-- The body at any point. The input buffers hold their blocks. By the closed forms the point is the first, a middle or
    the last one, and that case's triple applies: the invariant hands the body the accumulator at what the point before
    left (at anything at the first point) and takes it back at this point's value; the buffers the case does not touch
    pass around the run; at the first and middle points the output buffer is handed back as found (the window is idle
    there), at the last it holds the result row. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [holds3_0, holds3_1, holds3_2, holds3_3, holds3_4, holds3_5]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5,
    after3_0, after3_1, after3_2, after3_3, after3_4, after3_5]
  have hN : t.val < 25 := lt_of_lt_of_eq t.isLt (show cfg3.N = 25 from N_3)
  by_cases h2 : t.val = 24
  · -- the last point
    have h1 : t.val ≠ 0 := by omega
    rw [show (dat3 V c).leavesExact 6 t = owns (c : Thread nD τ) (st3_6 t) fullShare ((dat3 V c).after 6 t) from by
      unfold Dat.leavesExact; rw [live3_6 t ((hcond3_2 t).mpr h2)], after3_6]
    rw [sAt3_later V c t h1, PhiS3_castSucc V c t, PhiS3_pos V c _ _ h1]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel3_last c Set.univ (grid3.coords t) _ _ _ _ _ _ _ _ _ _ _ _ _ _ _ _
      (fun h => h1 ((hcond3_1 t).mp h)) ((hcond3_2 t).mpr h2)
      (iblk3 V c 0 t) (iblk3 V c 1 t) (iblk3 V c 2 t) (iblk3 V c 3 t) (iblk3 V c 4 t) (iblk3 V c 5 t)
      (sAt3 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc2 : ¬cond3_2 (grid3.coords t) := fun h => h2 ((hcond3_2 t).mp h)
    rw [Dat.leavesExact_idle (dat3 V c) 6 t (idle3_6 t hc2) (noFlush3_6 t hc2)]
    by_cases h1 : t.val = 0
    · -- the first point
      rw [sAt3_first V c t h1, PhiS3_castSucc V c t, PhiS3_zero V c _ _ h1, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel3_first c Set.univ (grid3.coords t) _ _ _ _ _ _ _ _ _ _ _ _ _ _ _ _
        ((hcond3_1 t).mpr h1) hc2 (iblk3 V c 0 t) (iblk3 V c 1 t) (iblk3 V c 2 t) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a middle point
      rw [sAt3_later V c t h1, PhiS3_castSucc V c t, PhiS3_pos V c _ _ h1]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel3_middle c Set.univ (grid3.coords t) _ _ _ _ _ _ _ _ _ _ _ _ _ _ _ _
        (fun h => h1 ((hcond3_1 t).mp h)) hc2 (iblk3 V c 0 t) (iblk3 V c 1 t) (iblk3 V c 2 t)
        (sAt3 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body meets the proof data at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the plain scoped state back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 25 := N_3; omega), PhiA3_eq]
  iintro ⟨⟨HS, HR⟩, Hg⟩
  isplitl [HS HR]
  · isplitl [HS]
    · iexists _; iexact HS
    iexact HR
  iexact Hg

end Cert.Kernel.Hand

end
-- ==== Proof.KB.Run.lean ====
/-
  The whole run of the program: four pipelined regions among five stretches of host operations. The contents of every
  unscoped buffer are followed from the launch to the return as a fold — a host stretch applies its operations, a region
  replaces its windows' arrays by what its write-backs leave — and every weakly fair execution is shown to terminate,
  faulting nowhere, with each unscoped buffer at the fold's last value. From that one statement follow the frame (no
  stretch and no region writes an argument) and the value of the result buffer.
-/
import proofs.«413041_j89696097010223_3_alg».proof.Proof.KB.Reg0
import proofs.«413041_j89696097010223_3_alg».proof.Proof.KB.Reg1
import proofs.«413041_j89696097010223_3_alg».proof.Proof.KB.Reg2
import proofs.«413041_j89696097010223_3_alg».proof.Proof.KB.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Kit
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
/-- After the last host stretch: what the program returns with. -/
abbrev W9 : Dev nD → Valuation τ sig (Elt F) := fun c => StableHlo.after hostOps4 (W8 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

/-! ## What the host stretches write

Each stretch allocates nothing, and writes only the references listed for it: a reference outside the list is read after the
stretch as before it. -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_v6, main_v7, main_v8, main_v9, main_v10, main_cst, main_v11, main_cst_0, main_v12, main_v13, main_v14, main_v15]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v17, main_v18, main_c, main_v19, main_v20, main_c_1, main_v21, main_v22, main_v23, main_v24, main_v25, main_v26, main_cst_2, main_v27, main_v28, main_v29]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v31, main_v32, main_c_3, main_v33, main_v34, main_c_4, main_v35, main_v36, main_v37, main_v38, main_v39, main_v40, main_cst_5, main_v41, main_v42, main_v43]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v45, main_v46, main_c_6, main_v47, main_v48, main_c_7, main_v49, main_v50, main_v51, main_v52, main_v53, main_v54, main_cst_8, main_v55, main_v56, main_v57, main_v58]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v60]
theorem hostOps4_writes : (hostOps4 : List (HloOp τ sig (Elt F))).Forall fun op => op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## What each step of the fold leaves unchanged

A host stretch leaves every reference it does not write; a region leaves every reference that is no window's array, and the
array of an input window as well (the pipeline only reads it). -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-! ## The run

The program is run as nine segments: a host stretch, a region, a host stretch, …, and a last host stretch. Between two
segments a core holds every unscoped buffer whole at the fold's value for that boundary, beside its generator register at
some state and the record that it owes nothing. A host stretch moves the buffers from one value to the next by its own
rule. A region takes its windows' arrays out of the unscoped buffers, runs its pipeline on them, and puts them back at
what the write-backs leave; the buffers that are no window's array pass by unchanged. -/

/-- Region 0's exit contents read at the TensorCore's references. -/
abbrev E2 : (c : Dev nD) → (b : Ref sig .tc) → Buf (Elt F) ((c : Thread nD τ).loc b) := fun c b => W2 m ρ c b
/-- At region 0's exit each of its arrays holds what the pipeline leaves, -/
theorem hF0 (c : Dev nD) (w : Fin cfg0.W) : (dat0 (V1 m ρ) c).arrAt w cfg0.N = E2 m ρ c (Pipeline.arrRef spec0 w) :=
  (W2_arr m ρ c w).symm
/-- and a buffer that is no array of its windows holds what it held at entry. -/
theorem hrest0 (c : Dev nD) : ∀ b, b ∉ Finset.univ.image (Pipeline.arrRef spec0) → E2 m ρ c b = V1 m ρ c b :=
  fun b hb => W2_of_ne m ρ c b fun w e => hb (Finset.mem_image.mpr ⟨w, Finset.mem_univ _, e⟩)
/-- Region 1's exit contents read at the TensorCore's references. -/
abbrev E4 : (c : Dev nD) → (b : Ref sig .tc) → Buf (Elt F) ((c : Thread nD τ).loc b) := fun c b => W4 m ρ c b
/-- At region 1's exit each of its arrays holds what the pipeline leaves, -/
theorem hF1 (c : Dev nD) (w : Fin cfg1.W) : (dat1 (V3 m ρ) c).arrAt w cfg1.N = E4 m ρ c (Pipeline.arrRef spec1 w) :=
  (W4_arr m ρ c w).symm
/-- and a buffer that is no array of its windows holds what it held at entry. -/
theorem hrest1 (c : Dev nD) : ∀ b, b ∉ Finset.univ.image (Pipeline.arrRef spec1) → E4 m ρ c b = V3 m ρ c b :=
  fun b hb => W4_of_ne m ρ c b fun w e => hb (Finset.mem_image.mpr ⟨w, Finset.mem_univ _, e⟩)
/-- Region 2's exit contents read at the TensorCore's references. -/
abbrev E6 : (c : Dev nD) → (b : Ref sig .tc) → Buf (Elt F) ((c : Thread nD τ).loc b) := fun c b => W6 m ρ c b
/-- At region 2's exit each of its arrays holds what the pipeline leaves, -/
theorem hF2 (c : Dev nD) (w : Fin cfg2.W) : (dat2 (V5 m ρ) c).arrAt w cfg2.N = E6 m ρ c (Pipeline.arrRef spec2 w) :=
  (W6_arr m ρ c w).symm
/-- and a buffer that is no array of its windows holds what it held at entry. -/
theorem hrest2 (c : Dev nD) : ∀ b, b ∉ Finset.univ.image (Pipeline.arrRef spec2) → E6 m ρ c b = V5 m ρ c b :=
  fun b hb => W6_of_ne m ρ c b fun w e => hb (Finset.mem_image.mpr ⟨w, Finset.mem_univ _, e⟩)
/-- Region 3's exit contents read at the TensorCore's references. -/
abbrev E8 : (c : Dev nD) → (b : Ref sig .tc) → Buf (Elt F) ((c : Thread nD τ).loc b) := fun c b => W8 m ρ c b
/-- At region 3's exit each of its arrays holds what the pipeline leaves, -/
theorem hF3 (c : Dev nD) (w : Fin cfg3.W) : (dat3 (V7 m ρ) c).arrAt w cfg3.N = E8 m ρ c (Pipeline.arrRef spec3 w) :=
  (W8_arr m ρ c w).symm
/-- and a buffer that is no array of its windows holds what it held at entry. -/
theorem hrest3 (c : Dev nD) : ∀ b, b ∉ Finset.univ.image (Pipeline.arrRef spec3) → E8 m ρ c b = V7 m ρ c b :=
  fun b hb => W8_of_ne m ρ c b fun w e => hb (Finset.mem_image.mpr ⟨w, Finset.mem_univ _, e⟩)

/-- No pallas_call of the program has a prefetched table: the tables' admissible contents are the empty ones. -/
abbrev adm : (p : Fin 4) → (pcfgs (F := F) p).Adm := fun p => (cfgs p).toPCfg_adm
/-- Every pipeline's proof data, each at the contents its region is entered with. The match is on the literal index, so that
    the configuration pinned at a numeral reduces to that region's own. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core ever owes another a signal: no level is assigned. -/
abbrev L : GSem nD τ sig → Finset Unit := fun _ => ∅
abbrev lv : GSem nD τ sig → Unit → ℕ := fun _ _ => 0
/-- What a core holds beside its buffers at every boundary: its generator register at some state, and the record that it
    owes nothing. -/
abbrev R (c : Dev nD) : sProp 𝕄 := iprop((∃ r, prngReg c r) ∗ ∃ W, owes (c : Thread nD τ) (0 : CellTallies nD τ sig Unit) W)
/-- A host stretch as a segment over the unscoped buffers, entered at the contents `W`: it leaves them at
    `StableHlo.after ops (W c)`, the rest `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- What a core holds when the program returns, without the record of what it owes: every unscoped buffer at the fold's
    last value, the generator register at some state. -/
abbrev Tₙ (c : Dev nD) : sProp 𝕄 := iprop(StableHlo.held (c : Thread nD τ) (Pipeline.ucRefs τ sig) (W9 m ρ c) ∗ ∃ r, prngReg c r)

/-- What the last host stretch leaves is the returning state beside the record that the core owes nothing. -/
theorem last_post (c : Dev nD) :
    iprop(StableHlo.held (c : Thread nD τ) (Pipeline.ucRefs τ sig) (W9 m ρ c) ∗ R c)
      ⊢ iprop(Tₙ m ρ c ∗ ∃ W, owes (c : Thread nD τ) (0 : CellTallies nD τ sig Unit) W) := by
  iintro ⟨Hbufs, Hg, Ho⟩
  isplitl [Hbufs Hg]
  · isplitl [Hbufs]; · iexact Hbufs
    iexact Hg
  iexact Ho

/-! ### The regions as segments -/

-- the library's lemmas are stated over the pinned configuration: they meet this region's own only when unification may
-- unfold plain definitions inside a metavariable's type
set_option backward.isDefEq.respectTransparency.types false in
/-- Region 0 (the first pallas_call) as a segment: entered with every unscoped buffer at `W1`, left with them at `W2`. At entry the
    windows' arrays are split off the unscoped buffers and the rest passes by; at exit they are joined again at the exit
    contents. The body owes nothing, the kernel has no semaphore of its own, and the generator register goes into the region's invariant, which is the plain scoped state, and comes back out of it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hg, Ho⟩, -, -⟩
    ihave Hsp := hsplit $$ Hbufs
    icases Hsp with ⟨Harr, Hby⟩
    imodintro
    isplitl [Harr]; · iexact Harr
    isplitr
    · unfold Pipeline.prefHeld; rw [show (Finset.univ : Finset (Fin 0)) = ∅ from rfl, BI.bigSep_empty]; iempintro
    isplitl [Ho]
    · unfold Pipeline.Dat.owesAt Pipeline.owesWithin
      icases Ho with ⟨%Wo, Ho⟩; iexists Wo
      isplitr; · ipureintro; exact fun _ _ => Or.inl trivial
      iexact Ho
    isplitl [Hg]; · iexact Hg
    iexact Hby
  hin c := by
    rw [show (pdats m ρ 0 c).Φ 0 = Pipeline.ΦA spec0 c from rfl]; unfold Pipeline.ΦA
    iintro ⟨Hg, -, Hs⟩
    isplitl [Hs]; · iexact Hs
    iexact Hg
  hout c := by
    rw [Pipeline.ownSems0_none, show (pdats m ρ 0 c).Φ (Fin.last _) = Pipeline.ΦA spec0 c from rfl]; unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (E2 m ρ c) ((pdats m ρ 0 c).arrAt · cfg0.N) (hF0 m ρ c) (hrest0 m ρ c)
    rw [Pipeline.unscopedBufs_held] at hjoin
    iintro ⟨Harr, Ho, Hg, Hby⟩
    imodintro
    isplitl [Harr Hby]
    · iapply hjoin; isplitl [Harr] <;> iassumption
    isplitl [Hg]; · iexact Hg
    unfold Pipeline.Dat.owesAt Pipeline.owesWithin
    icases Ho with ⟨%Wo, -, Ho⟩; iexists Wo; iexact Ho

-- the library's lemmas are stated over the pinned configuration: they meet this region's own only when unification may
-- unfold plain definitions inside a metavariable's type
set_option backward.isDefEq.respectTransparency.types false in
/-- Region 1 (the second pallas_call) as a segment: entered with every unscoped buffer at `W3`, left with them at `W4`. At entry the
    windows' arrays are split off the unscoped buffers and the rest passes by; at exit they are joined again at the exit
    contents. The body owes nothing, the kernel has no semaphore of its own, and the generator register goes into the region's invariant, which is the plain scoped state, and comes back out of it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hbufs, Hg, Ho⟩, -, -⟩
    ihave Hsp := hsplit $$ Hbufs
    icases Hsp with ⟨Harr, Hby⟩
    imodintro
    isplitl [Harr]; · iexact Harr
    isplitr
    · unfold Pipeline.prefHeld; rw [show (Finset.univ : Finset (Fin 0)) = ∅ from rfl, BI.bigSep_empty]; iempintro
    isplitl [Ho]
    · unfold Pipeline.Dat.owesAt Pipeline.owesWithin
      icases Ho with ⟨%Wo, Ho⟩; iexists Wo
      isplitr; · ipureintro; exact fun _ _ => Or.inl trivial
      iexact Ho
    isplitl [Hg]; · iexact Hg
    iexact Hby
  hin c := by
    rw [show (pdats m ρ 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m ρ 1 c).Φ (Fin.last _) = Pipeline.ΦA spec1 c from rfl]; unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (E4 m ρ c) ((pdats m ρ 1 c).arrAt · cfg1.N) (hF1 m ρ c) (hrest1 m ρ c)
    rw [Pipeline.unscopedBufs_held] at hjoin
    iintro ⟨Harr, Ho, Hg, Hby⟩
    imodintro
    isplitl [Harr Hby]
    · iapply hjoin; isplitl [Harr] <;> iassumption
    isplitl [Hg]; · iexact Hg
    unfold Pipeline.Dat.owesAt Pipeline.owesWithin
    icases Ho with ⟨%Wo, -, Ho⟩; iexists Wo; iexact Ho

-- the library's lemmas are stated over the pinned configuration: they meet this region's own only when unification may
-- unfold plain definitions inside a metavariable's type
set_option backward.isDefEq.respectTransparency.types false in
/-- Region 2 (the third pallas_call) as a segment: entered with every unscoped buffer at `W5`, left with them at `W6`. At entry the
    windows' arrays are split off the unscoped buffers and the rest passes by; at exit they are joined again at the exit
    contents. The body owes nothing, the kernel has no semaphore of its own, and the generator register goes into the region's invariant, which is the plain scoped state, and comes back out of it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hbufs, Hg, Ho⟩, -, -⟩
    ihave Hsp := hsplit $$ Hbufs
    icases Hsp with ⟨Harr, Hby⟩
    imodintro
    isplitl [Harr]; · iexact Harr
    isplitr
    · unfold Pipeline.prefHeld; rw [show (Finset.univ : Finset (Fin 0)) = ∅ from rfl, BI.bigSep_empty]; iempintro
    isplitl [Ho]
    · unfold Pipeline.Dat.owesAt Pipeline.owesWithin
      icases Ho with ⟨%Wo, Ho⟩; iexists Wo
      isplitr; · ipureintro; exact fun _ _ => Or.inl trivial
      iexact Ho
    isplitl [Hg]; · iexact Hg
    iexact Hby
  hin c := by
    rw [show (pdats m ρ 2 c).Φ 0 = Pipeline.ΦA spec2 c from rfl]; unfold Pipeline.ΦA
    iintro ⟨Hg, -, Hs⟩
    isplitl [Hs]; · iexact Hs
    iexact Hg
  hout c := by
    rw [Pipeline.ownSems0_none, show (pdats m ρ 2 c).Φ (Fin.last _) = Pipeline.ΦA spec2 c from rfl]; unfold Pipeline.ΦA
    iintro ⟨Hs, Hg⟩
    isplitl [Hg]; · iexact Hg
    isplitr; · iempintro
    iexact Hs
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (E6 m ρ c) ((pdats m ρ 2 c).arrAt · cfg2.N) (hF2 m ρ c) (hrest2 m ρ c)
    rw [Pipeline.unscopedBufs_held] at hjoin
    iintro ⟨Harr, Ho, Hg, Hby⟩
    imodintro
    isplitl [Harr Hby]
    · iapply hjoin; isplitl [Harr] <;> iassumption
    isplitl [Hg]; · iexact Hg
    unfold Pipeline.Dat.owesAt Pipeline.owesWithin
    icases Ho with ⟨%Wo, -, Ho⟩; iexists Wo; iexact Ho

-- the library's lemmas are stated over the pinned configuration: they meet this region's own only when unification may
-- unfold plain definitions inside a metavariable's type
set_option backward.isDefEq.respectTransparency.types false in
/-- Region 3 (the last pallas_call) as a segment: entered with every unscoped buffer at `W7`, left with them at `W8`. At entry the
    windows' arrays are split off the unscoped buffers and the rest passes by; at exit they are joined again at the exit
    contents. The body owes nothing, the kernel has no semaphore of its own, and the generator register goes into the plain scoped state, from which the region's own invariant starts and to which it returns at the last point. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hbufs, Hg, Ho⟩, -, -⟩
    ihave Hsp := hsplit $$ Hbufs
    icases Hsp with ⟨Harr, Hby⟩
    imodintro
    isplitl [Harr]; · iexact Harr
    isplitr
    · unfold Pipeline.prefHeld; rw [show (Finset.univ : Finset (Fin 0)) = ∅ from rfl, BI.bigSep_empty]; iempintro
    isplitl [Ho]
    · unfold Pipeline.Dat.owesAt Pipeline.owesWithin
      icases Ho with ⟨%Wo, Ho⟩; iexists Wo
      isplitr; · ipureintro; exact fun _ _ => Or.inl trivial
      iexact Ho
    isplitl [Hg]; · iexact Hg
    iexact Hby
  hin c := by
    rw [show (pdats m ρ 3 c).Φ 0 = (dat3 (V7 m ρ) c).Φ 0 from rfl]
    refine BIBase.Entails.trans ?_ (hin3 (V7 m ρ) c)
    unfold Pipeline.ΦA
    iintro ⟨Hg, -, Hs⟩
    isplitl [Hs]; · iexact Hs
    iexact Hg
  hout c := by
    rw [Pipeline.ownSems0_none, show (pdats m ρ 3 c).Φ (Fin.last _) = (dat3 (V7 m ρ) c).Φ (Fin.last cfg3.N) from rfl]
    refine (hout3 (V7 m ρ) c).trans ?_
    unfold Pipeline.ΦA
    iintro ⟨Hs, Hg⟩
    isplitl [Hg]; · iexact Hg
    isplitr; · iempintro
    iexact Hs
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (E8 m ρ c) ((pdats m ρ 3 c).arrAt · cfg3.N) (hF3 m ρ c) (hrest3 m ρ c)
    rw [Pipeline.unscopedBufs_held] at hjoin
    iintro ⟨Harr, Ho, Hg, Hby⟩
    imodintro
    isplitl [Harr Hby]
    · iapply hjoin; isplitl [Harr] <;> iassumption
    isplitl [Hg]; · iexact Hg
    unfold Pipeline.Dat.owesAt Pipeline.owesWithin
    icases Ho with ⟨%Wo, -, Ho⟩; iexists Wo; iexact Ho

/-! ### The program as segments, and the launch -/

/-- The nine segments in order, each host stretch entered at its boundary's contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- The program is the run of these segments: it is the chain of its items, and the segments' run unfolds to the same chain. -/
theorem main_run (c : Dev nD) : main (F := F) c = Pipeline.Seg.run (segs m ρ) := (main_chain c).trans (by chain_rfl)

-- the launch theorem's implicit arguments are found by unifying its conclusion with the goal, which takes unfolding plain
-- definitions inside a metavariable's type
set_option backward.isDefEq.respectTransparency.types false in
/-- Every weakly fair execution of @main from memory `m` with zero counters terminates, nothing faulting, and every final
    state holds each unscoped buffer of every core at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Ho, -, Hg, -⟩, -⟩
      imodintro
      isplitl [Hbufs]; · iexact Hbufs
      isplitl [Hg]; · iexists _; iexact Hg
      iexists ∅; iexact Ho)
    (QY := fun c s => ∀ b ∈ Pipeline.ucRefs τ sig, s.mem (((c : Thread nD τ)).1, b) = W9 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W9 m ρ c) s')
      isplitl [Hbufs] <;> iassumption)
    (hQ := fun s h c b hb => h c b hb)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

theorem W9_main_arg0 (c : Dev nD) : W9 m ρ c (Proc.devRef .tc main_arg0) = m ((c : Thread nD τ).loc main_arg0) :=
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_in m ρ c 0 rfl).trans <|
  (W1_of m ρ c main_arg0 (by decide)).trans rfl
theorem W9_main_arg1 (c : Dev nD) : W9 m ρ c (Proc.devRef .tc main_arg1) = m ((c : Thread nD τ).loc main_arg1) :=
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W9_main_arg2 (c : Dev nD) : W9 m ρ c (Proc.devRef .tc main_arg2) = m ((c : Thread nD τ).loc main_arg2) :=
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W9_main_arg3 (c : Dev nD) : W9 m ρ c (Proc.devRef .tc main_arg3) = m ((c : Thread nD τ).loc main_arg3) :=
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_in m ρ c 1 rfl).trans <|
  (W1_of m ρ c main_arg3 (by decide)).trans rfl
theorem W9_main_arg4 (c : Dev nD) : W9 m ρ c (Proc.devRef .tc main_arg4) = m ((c : Thread nD τ).loc main_arg4) :=
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_in m ρ c 2 rfl).trans <|
  (W1_of m ρ c main_arg4 (by decide)).trans rfl
theorem W9_main_arg5 (c : Dev nD) : W9 m ρ c (Proc.devRef .tc main_arg5) = m ((c : Thread nD τ).loc main_arg5) :=
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_in m ρ c 2 rfl).trans <|
  (W3_of m ρ c main_arg5 (by decide)).trans <|
  (W2_of_ne m ρ c main_arg5 (by decide)).trans <|
  (W1_of m ρ c main_arg5 (by decide)).trans rfl
theorem W9_main_arg6 (c : Dev nD) : W9 m ρ c (Proc.devRef .tc main_arg6) = m ((c : Thread nD τ).loc main_arg6) :=
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_in m ρ c 3 rfl).trans <|
  (W3_of m ρ c main_arg6 (by decide)).trans <|
  (W2_of_ne m ρ c main_arg6 (by decide)).trans <|
  (W1_of m ρ c main_arg6 (by decide)).trans rfl
theorem W9_main_arg7 (c : Dev nD) : W9 m ρ c (Proc.devRef .tc main_arg7) = m ((c : Thread nD τ).loc main_arg7) :=
  (W9_of m ρ c main_arg7 (by decide)).trans <|
  (W8_of_ne m ρ c main_arg7 (by decide)).trans <|
  (W7_of m ρ c main_arg7 (by decide)).trans <|
  (W6_in m ρ c 2 rfl).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem W9_main_arg8 (c : Dev nD) : W9 m ρ c (Proc.devRef .tc main_arg8) = m ((c : Thread nD τ).loc main_arg8) :=
  (W9_of m ρ c main_arg8 (by decide)).trans <|
  (W8_of_ne m ρ c main_arg8 (by decide)).trans <|
  (W7_of m ρ c main_arg8 (by decide)).trans <|
  (W6_in m ρ c 3 rfl).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem W9_main_arg9 (c : Dev nD) : W9 m ρ c (Proc.devRef .tc main_arg9) = m ((c : Thread nD τ).loc main_arg9) :=
  (W9_of m ρ c main_arg9 (by decide)).trans <|
  (W8_in m ρ c 3 rfl).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W9_main_arg10 (c : Dev nD) : W9 m ρ c (Proc.devRef .tc main_arg10) = m ((c : Thread nD τ).loc main_arg10) :=
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl

/-- THE FRAME at any `F`: the run, with each argument's buffer walked back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c)⟩) (run_main m ρ)

end Cert.Kernel.Hand

end
-- ==== Proof.KI.Reg0.lean ====
/-
  Region 0 (the first pallas_call): per grid point the kernel reads a block of 2000 node rows and both 128×64 weight
  matrices, and writes the block's two products side by side. This module fixes what the region's pipeline holds at
  every point, for any contents `V` the region is entered with, and states that the body meets it.
-/
import proofs.«413041_j89696097010223_3_alg».proof.Proof.Gen.KernelIdeal.Launch
import proofs.«413041_j89696097010223_3_alg».proof.Proof.Gen.KernelIdeal.Skeleton
import proofs.«413041_j89696097010223_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the arrays as found; after the body each input buffer still holds its block and the
    output buffer holds the body's one stored value of the three input blocks; nothing owed, nothing carried. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

/-! ## Whole-buffer loads and stores -/

/-- A rank-2 offset written `![0, 0]` is the zero offset. -/
theorem zero_offset2 : (![0, 0] : Fin 2 → ℕ) = fun _ => 0 := by
  funext a; fin_cases a <;> rfl

section WholeBuffer
variable {sg : RefSig} {κ : Kind} {sp : Space} {S : Shape} {e : EltTy}

/-- One store through the whole-shape rectangle at offset zero leaves exactly its payload, whatever the buffer held:
    the single piece covers every index, and read back through the same rectangle it is the payload. -/
theorem read_store_whole (v : View sg κ sp S e) (f : v.ty.Contents (Elt F))
    {off : Fin S.rank → ℕ} (hoff : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hoff inb y⟩),
    View.canon_unit_zero hoff inb w]

/-- A load through the whole-shape rectangle at offset zero reads the buffer's contents. -/
theorem load_whole (v : View sg κ sp S e) (f : v.ty.Contents (Elt F))
    {off : Fin S.rank → ℕ} (hoff : off = fun _ => 0) (inb : ∀ a, off a + S.size a ≤ S.size a) :
    v.readAt (Elt F) (Rect.unit off S.size inb).toLoadRect f = v.read (Elt F) f := by
  rw [View.readAt_eq_ld, View.ld_unit_zero hoff inb]

end WholeBuffer

/-! ## What each input buffer holds when the body starts -/

/-- The node block's buffer (window 0, fetched at every point) holds block `t` of the node array when the body
    starts at point `t`: the window is an input, never idle and uncut, and the body leaves its block in place. -/
theorem holds0_0 (c : Dev nD) (t : Fin cfg0.N) (d) : (dat0 V c).before 0 t d = iblk0 V c 0 t := by
  have keep : ∀ s, (cfg0.win 0).cut (cfg0.grid.coords s) ((dat0 V c).after 0 s) = (dat0 V c).blockOf 0 s := by
    intro s; rw [after0_0]; unfold Dat.blockOf iblk0; rw [A_eq0]
  rw [(dat0 V c).before_in_eq_fetched 0 rfl (fun _ => rfl) (fun _ _ _ => rfl) keep t d]
  unfold Dat.fetched Dat.blockOf iblk0; rw [A_eq0]; rfl

/-- The first weight matrix's buffer (window 1) is filled at the first point only; since the body never changes it
    and its block index never moves, it holds the whole matrix at every point. -/
theorem holds0_1 (c : Dev nD) (t : Fin cfg0.N) (d) : (dat0 V c).before 1 t d = iblk0 V c 1 t := by
  have keep : ∀ s, (cfg0.win 1).cut (cfg0.grid.coords s) ((dat0 V c).after 1 s) = (dat0 V c).blockOf 1 s := by
    intro s; rw [after0_1]; unfold Dat.blockOf iblk0; rw [A_eq0]
  rw [(dat0 V c).before_in_eq_fetched 1 rfl (fun _ => rfl) (fun _ _ _ => rfl) keep t d]
  unfold Dat.fetched Dat.blockOf iblk0; rw [A_eq0]; rfl

/-- Likewise the second weight matrix's buffer (window 2). -/
theorem holds0_2 (c : Dev nD) (t : Fin cfg0.N) (d) : (dat0 V c).before 2 t d = iblk0 V c 2 t := by
  have keep : ∀ s, (cfg0.win 2).cut (cfg0.grid.coords s) ((dat0 V c).after 2 s) = (dat0 V c).blockOf 2 s := by
    intro s; rw [after0_2]; unfold Dat.blockOf iblk0; rw [A_eq0]
  rw [(dat0 V c).before_in_eq_fetched 2 rfl (fun _ => rfl) (fun _ _ _ => rfl) keep t d]
  unfold Dat.fetched Dat.blockOf iblk0; rw [A_eq0]; rfl

/-! ## The body on four whole buffers -/

set_option maxHeartbeats 1000000 in
/-- The body reads the node block `x` and the two weight matrices `p`, `q` whole, and overwrites the whole output
    buffer (whatever it held) with the one stored value `k0_pay1 x p q`; the three inputs are left as read. -/
theorem kernel_triple0 (c : Dev nD) (E : Set ℕ) (i : grid0.Coords)
    (a0 : Memref sig .tc .vmem S2000x128 .f32) (h0 : a0.IsWhole)
    (a1 : Memref sig .tc .vmem S128x64 .f32) (h1 : a1.IsWhole)
    (a2 : Memref sig .tc .vmem S128x64 .f32) (h2 : a2.IsWhole)
    (a3 : Memref sig .tc .vmem S2000x128 .bf16) (h3 : a3.IsWhole)
    (x : Vec F S2000x128 .f32) (p q : Vec F S128x64 .f32) (K : PUnit → sProp 𝕄) :
    iprop(owns (c : Thread nD τ) a0 fullShare x ∗ owns (c : Thread nD τ) a1 fullShare p
        ∗ owns (c : Thread nD τ) a2 fullShare q ∗ (∃ d, owns (c : Thread nD τ) a3 fullShare d)
        ∗ (iprop(owns (c : Thread nD τ) a0 fullShare x ∗ owns (c : Thread nD τ) a1 fullShare p
            ∗ owns (c : Thread nD τ) a2 fullShare q ∗ owns (c : Thread nD τ) a3 fullShare (k0_pay1 x p q)) -∗ K ⟨⟩))
      ⊢ wp frame (wpE (defs₀ (F := F)) Variants.none c none) E (cc0__pre_kernel i a0 h0 a1 h1 a2 h2 a3 h3) K := by
  simp only [cc0__pre_kernel_eq_skeleton]; unfold cc0__pre_kernel_skel
  unfold owns
  iintro ⟨⟨%f0, %e0, H0⟩, ⟨%f1, %e1, H1⟩, ⟨%f2, %e2, H2⟩, ⟨%d3, %f3, -, H3⟩, HK⟩
  subst e0 e1 e2
  sl_exec
  sl_step
  iapply HK
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the output buffer, so it reads back as the stored value; each load read a whole input buffer
  refine (read_store_whole a3.view f3 zero_offset2 _ _).trans ?_
  rw [load_whole a0.view f0 zero_offset2, load_whole a1.view f1 zero_offset2, load_whole a2.view f2 zero_offset2]

/-! ## The body obligation at a point -/

/-- What the body is handed at point `t`: the invariant, what the core owes, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers hold their blocks, so the triple above applies at those blocks;
    the invariant and what the core owes are the same before and after, and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [holds0_0, holds0_1, holds0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, B0⟩, ⟨%d1, B1⟩, ⟨%d2, B2⟩, ⟨%d3, B3⟩⟩
  iapply (kernel_triple0 c Set.univ _ _ _ _ _ _ _ _ _ (iblk0 V c 0 t) (iblk0 V c 1 t) (iblk0 V c 2 t) _)
  isplitl [B0]; · iexact B0
  isplitl [B1]; · iexact B1
  isplitl [B2]; · iexact B2
  isplitl [B3]; · iexists _; iexact B3
  iintro ⟨B0, B1, B2, B3⟩
  isplitl [HΦ]; · iexact HΦ
  isplitl [Ho]; · iexact Ho
  isplitl [B0]; · iexact B0
  isplitl [B1]; · iexact B1
  isplitl [B2]; · iexact B2
  iexact B3

/-- The body meets the proof data at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 (pallas_call 1): per grid point the kernel reads a block of 2000 rows of the aggregated messages and of the
  previous layer's root term, rectifies their sum, and writes that block's products with both 64×64 weight matrices side
  by side. This module fixes what the region's pipeline holds at every point, for any contents `V` the region is entered
  with, and states that the body meets it.
-/
import proofs.«413041_j89696097010223_3_alg».proof.Proof.Gen.KernelIdeal.Launch
import proofs.«413041_j89696097010223_3_alg».proof.Proof.Gen.KernelIdeal.Skeleton
import proofs.«413041_j89696097010223_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The region's proof data: the arrays as found; after the body each input buffer still holds its block and the
    output buffer holds the body's one stored value of the four input blocks; nothing owed, nothing carried. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 0 t) (iblk1 V c 1 t) (iblk1 V c 2 t) (iblk1 V c 3 t) := by dsimp only [dat1]

/-! ## Vocabulary -/

/-- The all-zero offsets of a rank-two rectangle, as a constant function. -/
theorem zeroOffs1 : (![0, 0] : Fin 2 → Nat) = fun _ => 0 := funext fun a => by fin_cases a <;> rfl

/-! ## Whole-buffer loads and stores -/

section Whole
variable {σ : RefSig} {κ : Kind} {sp : Space} {S : Shape} {e : EltTy} {Val : EltTy → Type}

/-- A load through the whole-buffer rectangle (all of the shape, at zero offsets) reads the buffer's contents. -/
theorem readAt_whole1 (v : View σ κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through the whole-buffer rectangle leaves its payload, whatever the buffer held. -/
theorem read_store_whole1 [∀ e, Nonempty (Val e)] (v : View σ κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Whole

/-! ## The input buffers at a point -/

/-- Window 0's buffer holds its block of the aggregated messages at every point: an input the body leaves in place
    holds what a fetch at the point would bring, whether or not the point fetches. -/
theorem before1_0 (c : Dev nD) (t : Fin cfg1.N) (d) : (dat1 V c).before 0 t d = iblk1 V c 0 t := by
  refine ((dat1 V c).before_in_eq_fetched 0 rfl (fun _ => rfl) (fun _ _ _ => rfl) (fun s => ?_) t d).trans ?_
  · rw [after1_0]; unfold Dat.blockOf iblk1; rw [A_eq1]
  · unfold Dat.fetched Dat.blockOf iblk1; rw [A_eq1]; rfl

/-- Window 1's buffer holds its block of the previous layer's root term at every point. -/
theorem before1_1 (c : Dev nD) (t : Fin cfg1.N) (d) : (dat1 V c).before 1 t d = iblk1 V c 1 t := by
  refine ((dat1 V c).before_in_eq_fetched 1 rfl (fun _ => rfl) (fun _ _ _ => rfl) (fun s => ?_) t d).trans ?_
  · rw [after1_1]; unfold Dat.blockOf iblk1; rw [A_eq1]
  · unfold Dat.fetched Dat.blockOf iblk1; rw [A_eq1]; rfl

/-- Window 2's buffer holds the first weight matrix at every point, though only the first point fetches it: its
    block index never moves, so the block a later point would fetch is the one already there. -/
theorem before1_2 (c : Dev nD) (t : Fin cfg1.N) (d) : (dat1 V c).before 2 t d = iblk1 V c 2 t := by
  refine ((dat1 V c).before_in_eq_fetched 2 rfl (fun _ => rfl) (fun _ _ _ => rfl) (fun s => ?_) t d).trans ?_
  · rw [after1_2]; unfold Dat.blockOf iblk1; rw [A_eq1]
  · unfold Dat.fetched Dat.blockOf iblk1; rw [A_eq1]; rfl

/-- Window 3's buffer holds the second weight matrix at every point, likewise. -/
theorem before1_3 (c : Dev nD) (t : Fin cfg1.N) (d) : (dat1 V c).before 3 t d = iblk1 V c 3 t := by
  refine ((dat1 V c).before_in_eq_fetched 3 rfl (fun _ => rfl) (fun _ _ _ => rfl) (fun s => ?_) t d).trans ?_
  · rw [after1_3]; unfold Dat.blockOf iblk1; rw [A_eq1]
  · unfold Dat.fetched Dat.blockOf iblk1; rw [A_eq1]; rfl

/-! ## The body's triple -/

set_option maxHeartbeats 1000000 in
/-- The body on whole buffers — the four inputs' at read contents `xa xb xc xd`, the output's at anything — runs to
    the continuation with the inputs' as they were and the output's holding the stored value of the four: five
    whole-buffer loads, then one store through the whole-buffer rectangle, which leaves its payload. -/
theorem sound_kernel1 (c : Dev nD) (E : Set ℕ) (i : grid1.Coords)
    (ma : Memref sig .tc .vmem S2000x64 .f32) (hma : ma.IsWhole) (mb : Memref sig .tc .vmem S2000x64 .bf16) (hmb : mb.IsWhole)
    (mc : Memref sig .tc .vmem S64x64 .f32) (hmc : mc.IsWhole) (md : Memref sig .tc .vmem S64x64 .f32) (hmd : md.IsWhole)
    (me : Memref sig .tc .vmem S2000x128 .bf16) (hme : me.IsWhole)
    (xa : Vec F S2000x64 .f32) (xb : Vec F S2000x64 .bf16) (xc xd : Vec F S64x64 .f32) (K : PUnit → sProp 𝕄) :
    iprop(owns (c : Thread nD τ) ma fullShare xa ∗ owns (c : Thread nD τ) mb fullShare xb
        ∗ owns (c : Thread nD τ) mc fullShare xc ∗ owns (c : Thread nD τ) md fullShare xd
        ∗ (∃ d, owns (c : Thread nD τ) me fullShare d)
        ∗ (iprop(owns (c : Thread nD τ) ma fullShare xa ∗ owns (c : Thread nD τ) mb fullShare xb
            ∗ owns (c : Thread nD τ) mc fullShare xc ∗ owns (c : Thread nD τ) md fullShare xd
            ∗ owns (c : Thread nD τ) me fullShare (k1_pay1 xa xb xc xd)) -∗ K ⟨⟩))
      ⊢ wp frame (wpE (defs₀ (F := F)) Variants.none c none) E (cc1__mid_kernel i ma hma mb hmb mc hmc md hmd me hme) K := by
  simp only [cc1__mid_kernel_eq_skeleton]; unfold cc1__mid_kernel_skel
  unfold owns
  iintro ⟨⟨%fa, %hfa, Ha⟩, ⟨%fb, %hfb, Hb⟩, ⟨%fc, %hfc, Hc⟩, ⟨%fd, %hfd, Hd⟩, ⟨%de, %fe, -, He⟩, Hk⟩
  subst hfa hfb hfc hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact He
  ipureintro
  refine (read_store_whole1 (S := S2000x128) me.view fe zeroOffs1 inb_S2000x128_S2000x128_0_0 _).trans ?_
  rw [readAt_whole1 (S := S2000x64) ma.view fa zeroOffs1, readAt_whole1 (S := S2000x64) mb.view fb zeroOffs1,
    readAt_whole1 (S := S64x64) mc.view fc zeroOffs1, readAt_whole1 (S := S64x64) md.view fd zeroOffs1]

/-! ## The body obligation, at a generic point -/

/-- What the body is handed at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What it hands back: the same invariant and debts, each buffer at what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so the body's triple applies at those blocks; the
    invariant and the debts are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%da, Ha⟩, ⟨%db, Hb⟩, ⟨%dc, Hc⟩, ⟨%dd, Hd⟩, ⟨%de, He⟩⟩
  iapply (sound_kernel1 c Set.univ _ _ _ _ _ _ _ _ _ _ _ (iblk1 V c 0 t) (iblk1 V c 1 t) (iblk1 V c 2 t) (iblk1 V c 3 t) _)
  isplitl [Ha]; · iexact Ha
  isplitl [Hb]; · iexact Hb
  isplitl [Hc]; · iexact Hc
  isplitl [Hd]; · iexact Hd
  isplitl [He]; · iexists _; iexact He
  iintro ⟨Ha, Hb, Hc, Hd, He⟩
  isplitl [HΦ]; · iexact HΦ
  isplitl [Ho]; · iexact Ho
  isplitl [Ha]; · iexact Ha
  isplitl [Hb]; · iexact Hb
  isplitl [Hc]; · iexact Hc
  isplitl [Hd]; · iexact Hd
  iexact He

/-- The body meets the proof data at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 (pallas_call 2): per grid point the kernel reads a block of 2000 rows of the aggregated messages and of the
  previous layer's root term, rectifies their sum, and writes that block's products with both 64×64 weight matrices side
  by side. This module fixes what the region's pipeline holds at every point, for any contents `V` the region is entered
  with, and states that the body meets it.
-/
import proofs.«413041_j89696097010223_3_alg».proof.Proof.Gen.KernelIdeal.Launch
import proofs.«413041_j89696097010223_3_alg».proof.Proof.Gen.KernelIdeal.Skeleton
import proofs.«413041_j89696097010223_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The region's proof data: the arrays as found; after the body each input buffer still holds its block and the
    output buffer holds the body's one stored value of the four input blocks; nothing owed, nothing carried. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay1 (iblk2 V c 0 t) (iblk2 V c 1 t) (iblk2 V c 2 t) (iblk2 V c 3 t) := by dsimp only [dat2]

/-! ## Vocabulary -/

/-- The all-zero offsets of a rank-two rectangle, as a constant function. -/
theorem zeroOffs2 : (![0, 0] : Fin 2 → Nat) = fun _ => 0 := funext fun a => by fin_cases a <;> rfl

/-! ## Whole-buffer loads and stores -/

section Whole
variable {σ : RefSig} {κ : Kind} {sp : Space} {S : Shape} {e : EltTy} {Val : EltTy → Type}

/-- A load through the whole-buffer rectangle (all of the shape, at zero offsets) reads the buffer's contents. -/
theorem readAt_whole2 (v : View σ κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- One store through the whole-buffer rectangle leaves its payload, whatever the buffer held. -/
theorem read_store_whole2 [∀ e, Nonempty (Val e)] (v : View σ κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

end Whole

/-! ## The input buffers at a point -/

/-- Window 0's buffer holds its block of the aggregated messages at every point: an input the body leaves in place
    holds what a fetch at the point would bring, whether or not the point fetches. -/
theorem before2_0 (c : Dev nD) (t : Fin cfg2.N) (d) : (dat2 V c).before 0 t d = iblk2 V c 0 t := by
  refine ((dat2 V c).before_in_eq_fetched 0 rfl (fun _ => rfl) (fun _ _ _ => rfl) (fun s => ?_) t d).trans ?_
  · rw [after2_0]; unfold Dat.blockOf iblk2; rw [A_eq2]
  · unfold Dat.fetched Dat.blockOf iblk2; rw [A_eq2]; rfl

/-- Window 1's buffer holds its block of the previous layer's root term at every point. -/
theorem before2_1 (c : Dev nD) (t : Fin cfg2.N) (d) : (dat2 V c).before 1 t d = iblk2 V c 1 t := by
  refine ((dat2 V c).before_in_eq_fetched 1 rfl (fun _ => rfl) (fun _ _ _ => rfl) (fun s => ?_) t d).trans ?_
  · rw [after2_1]; unfold Dat.blockOf iblk2; rw [A_eq2]
  · unfold Dat.fetched Dat.blockOf iblk2; rw [A_eq2]; rfl

/-- Window 2's buffer holds the first weight matrix at every point, though only the first point fetches it: its
    block index never moves, so the block a later point would fetch is the one already there. -/
theorem before2_2 (c : Dev nD) (t : Fin cfg2.N) (d) : (dat2 V c).before 2 t d = iblk2 V c 2 t := by
  refine ((dat2 V c).before_in_eq_fetched 2 rfl (fun _ => rfl) (fun _ _ _ => rfl) (fun s => ?_) t d).trans ?_
  · rw [after2_2]; unfold Dat.blockOf iblk2; rw [A_eq2]
  · unfold Dat.fetched Dat.blockOf iblk2; rw [A_eq2]; rfl

/-- Window 3's buffer holds the second weight matrix at every point, likewise. -/
theorem before2_3 (c : Dev nD) (t : Fin cfg2.N) (d) : (dat2 V c).before 3 t d = iblk2 V c 3 t := by
  refine ((dat2 V c).before_in_eq_fetched 3 rfl (fun _ => rfl) (fun _ _ _ => rfl) (fun s => ?_) t d).trans ?_
  · rw [after2_3]; unfold Dat.blockOf iblk2; rw [A_eq2]
  · unfold Dat.fetched Dat.blockOf iblk2; rw [A_eq2]; rfl

/-! ## The body's triple -/

set_option maxHeartbeats 1000000 in
/-- The body on whole buffers — the four inputs' at read contents `xa xb xc xd`, the output's at anything — runs to
    the continuation with the inputs' as they were and the output's holding the stored value of the four: five
    whole-buffer loads, then one store through the whole-buffer rectangle, which leaves its payload. -/
theorem sound_kernel2 (c : Dev nD) (E : Set ℕ) (i : grid2.Coords)
    (ma : Memref sig .tc .vmem S2000x64 .f32) (hma : ma.IsWhole) (mb : Memref sig .tc .vmem S2000x64 .bf16) (hmb : mb.IsWhole)
    (mc : Memref sig .tc .vmem S64x64 .f32) (hmc : mc.IsWhole) (md : Memref sig .tc .vmem S64x64 .f32) (hmd : md.IsWhole)
    (me : Memref sig .tc .vmem S2000x128 .bf16) (hme : me.IsWhole)
    (xa : Vec F S2000x64 .f32) (xb : Vec F S2000x64 .bf16) (xc xd : Vec F S64x64 .f32) (K : PUnit → sProp 𝕄) :
    iprop(owns (c : Thread nD τ) ma fullShare xa ∗ owns (c : Thread nD τ) mb fullShare xb
        ∗ owns (c : Thread nD τ) mc fullShare xc ∗ owns (c : Thread nD τ) md fullShare xd
        ∗ (∃ d, owns (c : Thread nD τ) me fullShare d)
        ∗ (iprop(owns (c : Thread nD τ) ma fullShare xa ∗ owns (c : Thread nD τ) mb fullShare xb
            ∗ owns (c : Thread nD τ) mc fullShare xc ∗ owns (c : Thread nD τ) md fullShare xd
            ∗ owns (c : Thread nD τ) me fullShare (k2_pay1 xa xb xc xd)) -∗ K ⟨⟩))
      ⊢ wp frame (wpE (defs₀ (F := F)) Variants.none c none) E (cc2__mid_kernel i ma hma mb hmb mc hmc md hmd me hme) K := by
  simp only [cc2__mid_kernel_eq_skeleton]; unfold cc2__mid_kernel_skel
  unfold owns
  iintro ⟨⟨%fa, %hfa, Ha⟩, ⟨%fb, %hfb, Hb⟩, ⟨%fc, %hfc, Hc⟩, ⟨%fd, %hfd, Hd⟩, ⟨%de, %fe, -, He⟩, Hk⟩
  subst hfa hfb hfc hfd
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  iexists _; isplitr
  swap; · iexact He
  ipureintro
  refine (read_store_whole2 (S := S2000x128) me.view fe zeroOffs2 inb_S2000x128_S2000x128_0_0 _).trans ?_
  rw [readAt_whole2 (S := S2000x64) ma.view fa zeroOffs2, readAt_whole2 (S := S2000x64) mb.view fb zeroOffs2,
    readAt_whole2 (S := S64x64) mc.view fc zeroOffs2, readAt_whole2 (S := S64x64) md.view fd zeroOffs2]

/-! ## The body obligation, at a generic point -/

/-- What the body is handed at point `t`: the invariant, what the core owes, and each window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What it hands back: the same invariant and debts, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the input buffers hold their blocks, so the body's triple applies at those blocks; the
    invariant and the debts are not read and pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%da, Ha⟩, ⟨%db, Hb⟩, ⟨%dc, Hc⟩, ⟨%dd, Hd⟩, ⟨%de, He⟩⟩
  iapply (sound_kernel2 c Set.univ _ _ _ _ _ _ _ _ _ _ _ (iblk2 V c 0 t) (iblk2 V c 1 t) (iblk2 V c 2 t) (iblk2 V c 3 t) _)
  isplitl [Ha]; · iexact Ha
  isplitl [Hb]; · iexact Hb
  isplitl [Hc]; · iexact Hc
  isplitl [Hd]; · iexact Hd
  isplitl [He]; · iexists _; iexact He
  iintro ⟨Ha, Hb, Hc, Hd, He⟩
  isplitl [HΦ]; · iexact HΦ
  isplitl [Ho]; · iexact Ho
  isplitl [Ha]; · iexact Ha
  isplitl [Hb]; · iexact Hb
  isplitl [Hc]; · iexact Hc
  isplitl [Hd]; · iexact Hd
  iexact He

/-- The body meets the proof data at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 (the last pallas_call): over 25 grid points the kernel keeps a 64×64 accumulator in a scratch buffer that lives
  across points. The first point clears it; every point adds the block's contribution (the membership block contracted
  against the rectified features); the last point turns the accumulator into the result row and stores it, the only
  point at which the output window is written. This module fixes what the region's pipeline and the accumulator hold at
  every point, for any contents `V` the region is entered with, and states that the body meets it and that the
  invariant starts from and ends in the plain scoped state.
-/
import proofs.«413041_j89696097010223_3_alg».proof.Proof.Gen.KernelIdeal.Launch
import proofs.«413041_j89696097010223_3_alg».proof.Proof.Gen.KernelIdeal.Skeleton
import proofs.«413041_j89696097010223_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The kernel body on arbitrary whole buffers, case by case

The body has two conditionals on the grid coordinate: the first clears the accumulator (taken at the first point only),
the second turns the accumulator into the result row (taken at the last point only). Between them, at every point, it
loads the three streamed blocks and the accumulator and stores the accumulator updated by the block's contribution.
Each case is a triple whose post names the stored values as the body's payloads of the contents the buffers were
entered with: every store overwrites a whole buffer, so what a buffer reads afterwards is the last payload stored into
it, and a load that follows a store in the same run reads that store's payload. -/

/-- The first conditional's test, from the grid coordinate: the coordinate is zero. -/
abbrev cond3_1 (i : grid3.Coords) : Prop := (Scalar.cmpi .ne (Scalar.extui (Scalar.cmpi .eq (BitVec.ofNat 32 (i 0).val) 0#32)) 0#32) = 1#1
/-- The second conditional's test: the coordinate is the last one. -/
abbrev cond3_2 (i : grid3.Coords) : Prop := k3_cond2 i = 1#1

/-- The zero offsets of a rank-2 whole-buffer access, as a constant function. -/
theorem zeroOffsets3 : (![0, 0] : Fin 2 → Nat) = fun _ => 0 := funext fun a => by fin_cases a <;> rfl

/-! ## Whole-buffer accesses

Every access of this kernel goes through the rectangle that is the whole shape at offset zero. Three facts about such
accesses, stated once over an abstract view so that no buffer of the kernel's extents is ever unfolded. -/

section WholeAccess
variable {sg : RefSig} {κ : Kind} {sp : Space} {S : Shape} {e : EltTy}

/-- If the LAST store into a buffer goes through the whole shape, the buffer afterwards reads as that store's payload,
    whatever was stored before and whatever the buffer held. -/
theorem read_last_whole_store3 (v : View sg κ sp S e) (f : v.ty.Contents (Elt F))
    {off : Fin S.rank → ℕ} (hoff : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hoff inb y⟩),
    View.canon_cons_unit_zero hoff inb w L]

/-- A load through the whole shape of a whole memref whose contents read `X` reads `X`. -/
theorem load_whole_of_unread3 {m : Memref sg κ sp S e} (h : m.IsWhole)
    {off : Fin S.rank → ℕ} (hoff : off = fun _ => 0) (inb : ∀ a, off a + S.size a ≤ S.size a) (X : S.Idx → Elt F e) :
    m.view.readAt (Elt F) (Rect.unit off S.size inb).toLoadRect (h.unread X) = X := by
  rw [View.readAt_eq_ld, h.read_unread, View.ld_unit_zero hoff inb]

/-- A load through the whole shape that follows one store through the whole shape reads that store's payload. -/
theorem load_after_whole_store3 (v : View sg κ sp S e)
    {off : Fin S.rank → ℕ} (hoff : off = fun _ => 0) (inb : ∀ a, off a + S.size a ≤ S.size a) (w : S.Idx → Elt F e) :
    v.readCov [(⟨Rect.unit off S.size inb, w⟩ : View.Piece (Elt F) S e)] (Rect.unit off S.size inb).toLoadRect = w :=
  View.readCov_unit_zero v hoff inb w

end WholeAccess

set_option maxHeartbeats 1000000 in
/-- FIRST POINT (first test holds, second fails). The accumulator is entered at anything; it is cleared, read back
    (the read sees the cleared value), and left at the update of the cleared accumulator by the three blocks. The
    three streamed buffers are only read. No other buffer is touched. -/
theorem kernel3_first (c : Dev nD) (E : Set ℕ) (i : grid3.Coords)
    (arg1 : Memref sig .tc .vmem S2000x64 .f32) (harg1 : arg1.IsWhole)
    (arg2 : Memref sig .tc .vmem S2000x64 .bf16) (harg2 : arg2.IsWhole)
    (arg3 : Memref sig .tc .vmem S2000x64 .bf16) (harg3 : arg3.IsWhole)
    (arg4 : Memref sig .tc .vmem S64x10 .f32) (harg4 : arg4.IsWhole)
    (arg5 : Memref sig .tc .vmem S1x10 .f32) (harg5 : arg5.IsWhole)
    (arg6 : Memref sig .tc .vmem S64x1 .f32) (harg6 : arg6.IsWhole)
    (arg7 : Memref sig .tc .vmem S1x10 .f32) (harg7 : arg7.IsWhole)
    (arg8 : Memref sig .tc .vmem S64x64 .f32) (harg8 : arg8.IsWhole)
    (hc1 : cond3_1 i) (hc2 : ¬cond3_2 i)
    (x0 : Vec F S2000x64 .f32) (x1 x2 : Vec F S2000x64 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg8 fullShare (k3_pay2 x0 x1 x2 (k3_pay1 (F := F)))) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%f2, %hf2, H2⟩, ⟨%d8, %f8, -, H8⟩, Hk⟩
  obtain rfl := harg1.eq_unread hf0; obtain rfl := harg2.eq_unread hf1; obtain rfl := harg3.eq_unread hf2
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H8
  ipureintro
  sl_unfold_words
  refine (read_last_whole_store3 arg8.view f8 zeroOffsets3 _ _ _).trans ?_
  rw [load_whole_of_unread3 harg1 zeroOffsets3, load_whole_of_unread3 harg2 zeroOffsets3, load_whole_of_unread3 harg3 zeroOffsets3,
    load_after_whole_store3 arg8.view zeroOffsets3]

set_option maxHeartbeats 1000000 in
/-- A MIDDLE POINT (both tests fail). The accumulator is entered at `s` and left at the update of `s` by the three
    blocks; the three streamed buffers are only read; no other buffer is touched. -/
theorem kernel3_middle (c : Dev nD) (E : Set ℕ) (i : grid3.Coords)
    (arg1 : Memref sig .tc .vmem S2000x64 .f32) (harg1 : arg1.IsWhole)
    (arg2 : Memref sig .tc .vmem S2000x64 .bf16) (harg2 : arg2.IsWhole)
    (arg3 : Memref sig .tc .vmem S2000x64 .bf16) (harg3 : arg3.IsWhole)
    (arg4 : Memref sig .tc .vmem S64x10 .f32) (harg4 : arg4.IsWhole)
    (arg5 : Memref sig .tc .vmem S1x10 .f32) (harg5 : arg5.IsWhole)
    (arg6 : Memref sig .tc .vmem S64x1 .f32) (harg6 : arg6.IsWhole)
    (arg7 : Memref sig .tc .vmem S1x10 .f32) (harg7 : arg7.IsWhole)
    (arg8 : Memref sig .tc .vmem S64x64 .f32) (harg8 : arg8.IsWhole)
    (hc1 : ¬cond3_1 i) (hc2 : ¬cond3_2 i)
    (x0 : Vec F S2000x64 .f32) (x1 x2 : Vec F S2000x64 .bf16) (s : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg8 fullShare (k3_pay2 x0 x1 x2 s)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%f2, %hf2, H2⟩, ⟨%f8, %hf8, H8⟩, Hk⟩
  obtain rfl := harg1.eq_unread hf0; obtain rfl := harg2.eq_unread hf1; obtain rfl := harg3.eq_unread hf2
  obtain rfl := harg8.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H8
  ipureintro
  sl_unfold_words
  refine (read_last_whole_store3 arg8.view _ zeroOffsets3 _ _ _).trans ?_
  rw [load_whole_of_unread3 harg1 zeroOffsets3, load_whole_of_unread3 harg2 zeroOffsets3, load_whole_of_unread3 harg3 zeroOffsets3,
    load_whole_of_unread3 harg8 zeroOffsets3]

set_option maxHeartbeats 1000000 in
/-- THE LAST POINT (first test fails, second holds). The accumulator is entered at `s` and left at its update `s'` by
    the three blocks; then it is read back (the read sees `s'`) with the three resident buffers, and the result row
    computed from them is stored over the whole output buffer, which is entered at anything. -/
theorem kernel3_last (c : Dev nD) (E : Set ℕ) (i : grid3.Coords)
    (arg1 : Memref sig .tc .vmem S2000x64 .f32) (harg1 : arg1.IsWhole)
    (arg2 : Memref sig .tc .vmem S2000x64 .bf16) (harg2 : arg2.IsWhole)
    (arg3 : Memref sig .tc .vmem S2000x64 .bf16) (harg3 : arg3.IsWhole)
    (arg4 : Memref sig .tc .vmem S64x10 .f32) (harg4 : arg4.IsWhole)
    (arg5 : Memref sig .tc .vmem S1x10 .f32) (harg5 : arg5.IsWhole)
    (arg6 : Memref sig .tc .vmem S64x1 .f32) (harg6 : arg6.IsWhole)
    (arg7 : Memref sig .tc .vmem S1x10 .f32) (harg7 : arg7.IsWhole)
    (arg8 : Memref sig .tc .vmem S64x64 .f32) (harg8 : arg8.IsWhole)
    (hc1 : ¬cond3_1 i) (hc2 : cond3_2 i)
    (x0 : Vec F S2000x64 .f32) (x1 x2 : Vec F S2000x64 .bf16) (x3 : Vec F S64x10 .f32) (x4 : Vec F S1x10 .f32) (x5 : Vec F S64x1 .f32)
    (s : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ owns (c : Thread nD τ) arg8 fullShare s
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k3_pay3 (k3_pay2 x0 x1 x2 s) x5 x3 x4)
            ∗ owns (c : Thread nD τ) arg8 fullShare (k3_pay2 x0 x1 x2 s)) -∗ K ⟨⟩))
      ⊢ wp frame (wpE (defs₀ (F := F)) Variants.none c none) E (cc3__pool_kernel i arg1 harg1 arg2 harg2 arg3 harg3 arg4 harg4 arg5 harg5 arg6 harg6 arg7 harg7 arg8 harg8) K := by
  simp only [cc3__pool_kernel_eq_skeleton]; unfold cc3__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf8
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    sl_unfold_words
    refine (read_last_whole_store3 arg7.view f7 zeroOffsets3 _ _ _).trans ?_
    rw [load_after_whole_store3 arg8.view zeroOffsets3, load_whole_of_unread3 harg1 zeroOffsets3, load_whole_of_unread3 harg2 zeroOffsets3,
      load_whole_of_unread3 harg3 zeroOffsets3, load_whole_of_unread3 harg8 zeroOffsets3, load_whole_of_unread3 harg6 zeroOffsets3,
      load_whole_of_unread3 harg4 zeroOffsets3, load_whole_of_unread3 harg5 zeroOffsets3]
  iexists _; isplitr
  swap; · iexact H8
  ipureintro
  sl_unfold_words
  refine (read_last_whole_store3 arg8.view _ zeroOffsets3 _ _ _).trans ?_
  rw [load_whole_of_unread3 harg1 zeroOffsets3, load_whole_of_unread3 harg2 zeroOffsets3, load_whole_of_unread3 harg3 zeroOffsets3,
    load_whole_of_unread3 harg8 zeroOffsets3]

/-! # The region's proof data -/

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The accumulator's memref: the kernel's one scratch operand, whole. -/
abbrev scM3 : Memref sig .tc .vmem S64x64 .f32 := Memref.whole cc3_scratch0

/-- THE ACCUMULATION. What the scratch holds after the body at position `n`: at the first point the update applied to
    the cleared accumulator, afterwards the update applied to what the point before left. -/
def sAt3 (c : Dev nD) : (n : ℕ) → n < cfg3.N → Vec F S64x64 .f32
  | 0, hn => k3_pay2 (iblk3 V c 0 ⟨0, hn⟩) (iblk3 V c 1 ⟨0, hn⟩) (iblk3 V c 2 ⟨0, hn⟩) (k3_pay1 (F := F))
  | n + 1, hn => k3_pay2 (iblk3 V c 0 ⟨n + 1, hn⟩) (iblk3 V c 1 ⟨n + 1, hn⟩) (iblk3 V c 2 ⟨n + 1, hn⟩) (sAt3 c n (Nat.lt_of_succ_lt hn))

theorem sAt3_zero (c : Dev nD) (hn : 0 < cfg3.N) :
    sAt3 V c 0 hn = k3_pay2 (iblk3 V c 0 ⟨0, hn⟩) (iblk3 V c 1 ⟨0, hn⟩) (iblk3 V c 2 ⟨0, hn⟩) (k3_pay1 (F := F)) := rfl
theorem sAt3_succ (c : Dev nD) (n : ℕ) (hn : n + 1 < cfg3.N) :
    sAt3 V c (n + 1) hn = k3_pay2 (iblk3 V c 0 ⟨n + 1, hn⟩) (iblk3 V c 1 ⟨n + 1, hn⟩) (iblk3 V c 2 ⟨n + 1, hn⟩) (sAt3 V c n (Nat.lt_of_succ_lt hn)) := rfl

/-- The core's scoped buffers that are neither a staging buffer of this region nor its accumulator, each at some
    contents: the other regions' staging buffers. The body touches none of them; the invariant carries them unopened. -/
abbrev others3 (c : Dev nD) : sProp 𝕄 :=
  Pipeline.scopedRestBut (Ix := Unit) (Name := ℕ) (U := UR sig nD τ) (Lvl := ℕ) (Val := Elt F) spec3 c [cc3_scratch0]

/-- The region invariant before position `n`: before the first point the plain scoped state (the scratch at anything);
    afterwards the scratch at what the point before left, the other scoped buffers unopened, and the generator register
    at some state. -/
def PhiS3 (c : Dev nD) : (n : ℕ) → n ≤ cfg3.N → sProp 𝕄
  | 0, _ => Pipeline.ΦA spec3 c
  | n + 1, hn => iprop(iprop(owns (c : Thread nD τ) scM3 fullShare (sAt3 V c n hn) ∗ others3 (F := F) c) ∗ (∃ r, prngReg c r))

/-- The region's proof data: the arrays as found; after the body each input buffer still holds its block; the output
    buffer's contents are stated as the result row computed from the accumulator at that point (it is only stored, and only
    written back, at the last point: elsewhere the window is idle and this value is not used); the invariant carries the
    accumulator; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => k3_pay3 (sAt3 V c t.val t.isLt) (iblk3 V c 5 t) (iblk3 V c 3 t) (iblk3 V c 4 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) :
    (dat3 V c).after 6 t = k3_pay3 (sAt3 V c t.val t.isLt) (iblk3 V c 5 t) (iblk3 V c 3 t) (iblk3 V c 4 t) := by dsimp only [dat3]

/-! ## The two tests in closed form, and where the output window is idle -/

/-- The first test holds at the first point only. -/
theorem hcond3_1 : ∀ t : Fin cfg3.N, cond3_1 (grid3.coords t) ↔ t.val = 0 :=
  (by decide +kernel : ∀ t : Fin grid3.N, cond3_1 (grid3.coords t) ↔ t.val = 0)
/-- The second test holds at the last point only. -/
theorem hcond3_2 : ∀ t : Fin cfg3.N, cond3_2 (grid3.coords t) ↔ t.val = 24 :=
  (by decide +kernel : ∀ t : Fin grid3.N, cond3_2 (grid3.coords t) ↔ t.val = 24)

/-- The six input windows are live at every point. -/
theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cfg3.idle 2 (grid3.coords t) = false := by decide +kernel
theorem live3_3 : ∀ t : Fin cfg3.N, cfg3.idle 3 (grid3.coords t) = false := by decide +kernel
theorem live3_4 : ∀ t : Fin cfg3.N, cfg3.idle 4 (grid3.coords t) = false := by decide +kernel
theorem live3_5 : ∀ t : Fin cfg3.N, cfg3.idle 5 (grid3.coords t) = false := by decide +kernel
/-- Where the second test fails the output window is idle and is not written back; -/
theorem idle3_6 : ∀ t : Fin cfg3.N, ¬cond3_2 (grid3.coords t) → cfg3.idle 6 (grid3.coords t) = true := by decide +kernel
theorem noFlush3_6 : ∀ t : Fin cfg3.N, ¬cond3_2 (grid3.coords t) → (cfg3.win 6).flush t = false := by decide +kernel
/-- where it holds the window is live. -/
theorem live3_6 : ∀ t : Fin cfg3.N, cond3_2 (grid3.coords t) → cfg3.idle 6 (grid3.coords t) = false := by decide +kernel

/-! ## What each input buffer holds when the body starts

An input window is never idle and its blocks tile its array; the body only reads its buffer. So at every point the
buffer holds the window's block there, whether the pipeline fetched it at this point or the block index has not moved
since it was fetched. -/

theorem holds3_0 (c : Dev nD) (t : Fin cfg3.N) (d) : (dat3 V c).before 0 t d = iblk3 V c 0 t := by
  have keep : ∀ s, (cfg3.win 0).cut (cfg3.grid.coords s) ((dat3 V c).after 0 s) = (dat3 V c).blockOf 0 s := fun s => by
    rw [after3_0]; unfold Dat.blockOf iblk3; rw [A_eq3]; try rfl
  refine ((dat3 V c).before_in_eq_fetched 0 rfl (fun _ => rfl) (fun _ _ _ => rfl) keep t d).trans ?_
  unfold Dat.fetched Dat.blockOf iblk3; rw [A_eq3]; try rfl

theorem holds3_1 (c : Dev nD) (t : Fin cfg3.N) (d) : (dat3 V c).before 1 t d = iblk3 V c 1 t := by
  have keep : ∀ s, (cfg3.win 1).cut (cfg3.grid.coords s) ((dat3 V c).after 1 s) = (dat3 V c).blockOf 1 s := fun s => by
    rw [after3_1]; unfold Dat.blockOf iblk3; rw [A_eq3]; try rfl
  refine ((dat3 V c).before_in_eq_fetched 1 rfl (fun _ => rfl) (fun _ _ _ => rfl) keep t d).trans ?_
  unfold Dat.fetched Dat.blockOf iblk3; rw [A_eq3]; try rfl

theorem holds3_2 (c : Dev nD) (t : Fin cfg3.N) (d) : (dat3 V c).before 2 t d = iblk3 V c 2 t := by
  have keep : ∀ s, (cfg3.win 2).cut (cfg3.grid.coords s) ((dat3 V c).after 2 s) = (dat3 V c).blockOf 2 s := fun s => by
    rw [after3_2]; unfold Dat.blockOf iblk3; rw [A_eq3]; try rfl
  refine ((dat3 V c).before_in_eq_fetched 2 rfl (fun _ => rfl) (fun _ _ _ => rfl) keep t d).trans ?_
  unfold Dat.fetched Dat.blockOf iblk3; rw [A_eq3]; try rfl

theorem holds3_3 (c : Dev nD) (t : Fin cfg3.N) (d) : (dat3 V c).before 3 t d = iblk3 V c 3 t := by
  have keep : ∀ s, (cfg3.win 3).cut (cfg3.grid.coords s) ((dat3 V c).after 3 s) = (dat3 V c).blockOf 3 s := fun s => by
    rw [after3_3]; unfold Dat.blockOf iblk3; rw [A_eq3]; try rfl
  refine ((dat3 V c).before_in_eq_fetched 3 rfl (fun _ => rfl) (fun _ _ _ => rfl) keep t d).trans ?_
  unfold Dat.fetched Dat.blockOf iblk3; rw [A_eq3]; try rfl

theorem holds3_4 (c : Dev nD) (t : Fin cfg3.N) (d) : (dat3 V c).before 4 t d = iblk3 V c 4 t := by
  have keep : ∀ s, (cfg3.win 4).cut (cfg3.grid.coords s) ((dat3 V c).after 4 s) = (dat3 V c).blockOf 4 s := fun s => by
    rw [after3_4]; unfold Dat.blockOf iblk3; rw [A_eq3]; try rfl
  refine ((dat3 V c).before_in_eq_fetched 4 rfl (fun _ => rfl) (fun _ _ _ => rfl) keep t d).trans ?_
  unfold Dat.fetched Dat.blockOf iblk3; rw [A_eq3]; try rfl

theorem holds3_5 (c : Dev nD) (t : Fin cfg3.N) (d) : (dat3 V c).before 5 t d = iblk3 V c 5 t := by
  have keep : ∀ s, (cfg3.win 5).cut (cfg3.grid.coords s) ((dat3 V c).after 5 s) = (dat3 V c).blockOf 5 s := fun s => by
    rw [after3_5]; unfold Dat.blockOf iblk3; rw [A_eq3]; try rfl
  refine ((dat3 V c).before_in_eq_fetched 5 rfl (fun _ => rfl) (fun _ _ _ => rfl) keep t d).trans ?_
  unfold Dat.fetched Dat.blockOf iblk3; rw [A_eq3]; try rfl

/-! ## The accumulation and the invariant, read at a point -/

/-- At the first point the accumulator ends at the update of the cleared accumulator. -/
theorem sAt3_first (c : Dev nD) (t : Fin cfg3.N) (h : t.val = 0) :
    sAt3 V c t.val t.isLt = k3_pay2 (iblk3 V c 0 t) (iblk3 V c 1 t) (iblk3 V c 2 t) (k3_pay1 (F := F)) := by
  obtain ⟨n, hn⟩ := t
  cases n with
  | zero => rfl
  | succ n => exact absurd h (Nat.succ_ne_zero n)

/-- At any later point it ends at the update of what the point before left. -/
theorem sAt3_later (c : Dev nD) (t : Fin cfg3.N) (h : t.val ≠ 0) :
    sAt3 V c t.val t.isLt = k3_pay2 (iblk3 V c 0 t) (iblk3 V c 1 t) (iblk3 V c 2 t)
      (sAt3 V c (t.val - 1) (Nat.lt_of_le_of_lt (Nat.sub_le _ _) t.isLt)) := by
  obtain ⟨n, hn⟩ := t
  cases n with
  | zero => exact absurd rfl h
  | succ n => rfl

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (sAt3 V c n hn) ∗ others3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3 fullShare (sAt3 V c (n - 1) (by omega)) ∗ others3 (F := F) c) ∗ (∃ r, prngReg c r)) := by
  cases n with
  | zero => exact absurd rfl hz
  | succ n => rfl

/-- The invariant at a point's start, restated at the point's position. -/
theorem PhiS3_castSucc (c : Dev nD) (t : Fin cfg3.N) :
    (dat3 V c).Φ t.castSucc = PhiS3 V c t.val (Nat.le_of_lt t.isLt) := by
  dsimp only [dat3]; simp only [Fin.coe_castSucc]

/-- The plain scoped state, opened at the accumulator: the accumulator at anything, the other scoped buffers unopened,
    the generator register at some state. -/
theorem PhiA3_eq (c : Dev nD) :
    (Pipeline.ΦA spec3 c : sProp 𝕄)
      = iprop(iprop((∃ d, owns (c : Thread nD τ) scM3 fullShare d) ∗ others3 (F := F) c) ∗ (∃ r, prngReg c r)) := by
  unfold Pipeline.ΦA
  rw [Pipeline.scopedRest_split_of_list spec3 c [cc3_scratch0] (by decide) (by decide)]
  simp only [Idealize.SL.BI.bigSepL_singleton, scM3, owns_whole]; try rfl

/-- What the body leaves in a live input window's buffer. -/
theorem leaves3_0 (c : Dev nD) (t : Fin cfg3.N) :
    (dat3 V c).leavesExact 0 t = owns (c : Thread nD τ) (st3_0 t) fullShare ((dat3 V c).after 0 t) := by
  unfold Dat.leavesExact; rw [live3_0 t]
theorem leaves3_1 (c : Dev nD) (t : Fin cfg3.N) :
    (dat3 V c).leavesExact 1 t = owns (c : Thread nD τ) (st3_1 t) fullShare ((dat3 V c).after 1 t) := by
  unfold Dat.leavesExact; rw [live3_1 t]
theorem leaves3_2 (c : Dev nD) (t : Fin cfg3.N) :
    (dat3 V c).leavesExact 2 t = owns (c : Thread nD τ) (st3_2 t) fullShare ((dat3 V c).after 2 t) := by
  unfold Dat.leavesExact; rw [live3_2 t]
theorem leaves3_3 (c : Dev nD) (t : Fin cfg3.N) :
    (dat3 V c).leavesExact 3 t = owns (c : Thread nD τ) (st3_3 t) fullShare ((dat3 V c).after 3 t) := by
  unfold Dat.leavesExact; rw [live3_3 t]
theorem leaves3_4 (c : Dev nD) (t : Fin cfg3.N) :
    (dat3 V c).leavesExact 4 t = owns (c : Thread nD τ) (st3_4 t) fullShare ((dat3 V c).after 4 t) := by
  unfold Dat.leavesExact; rw [live3_4 t]
theorem leaves3_5 (c : Dev nD) (t : Fin cfg3.N) :
    (dat3 V c).leavesExact 5 t = owns (c : Thread nD τ) (st3_5 t) fullShare ((dat3 V c).after 5 t) := by
  unfold Dat.leavesExact; rw [live3_5 t]

/-! ## The body obligation at a point -/

/-- What the body is handed at point `t`: the invariant, what the core owes, each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it hands back. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 1600000 in
/-- The body at any point. The input buffers hold their blocks. By the closed forms the point is the first, a middle or
    the last one, and that case's triple applies: the invariant hands the body the accumulator at what the point before
    left (at anything at the first point) and takes it back at this point's value; the buffers the case does not touch
    pass around the run; at the first and middle points the output buffer is handed back as found (the window is idle
    there), at the last it holds the result row. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [holds3_0, holds3_1, holds3_2, holds3_3, holds3_4, holds3_5]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5,
    after3_0, after3_1, after3_2, after3_3, after3_4, after3_5]
  have hN : t.val < 25 := lt_of_lt_of_eq t.isLt (show cfg3.N = 25 from N_3)
  by_cases h2 : t.val = 24
  · -- the last point
    have h1 : t.val ≠ 0 := by omega
    rw [show (dat3 V c).leavesExact 6 t = owns (c : Thread nD τ) (st3_6 t) fullShare ((dat3 V c).after 6 t) from by
      unfold Dat.leavesExact; rw [live3_6 t ((hcond3_2 t).mpr h2)], after3_6]
    rw [sAt3_later V c t h1, PhiS3_castSucc V c t, PhiS3_pos V c _ _ h1]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (kernel3_last c Set.univ (grid3.coords t) _ _ _ _ _ _ _ _ _ _ _ _ _ _ _ _
      (fun h => h1 ((hcond3_1 t).mp h)) ((hcond3_2 t).mpr h2)
      (iblk3 V c 0 t) (iblk3 V c 1 t) (iblk3 V c 2 t) (iblk3 V c 3 t) (iblk3 V c 4 t) (iblk3 V c 5 t)
      (sAt3 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc2 : ¬cond3_2 (grid3.coords t) := fun h => h2 ((hcond3_2 t).mp h)
    rw [Dat.leavesExact_idle (dat3 V c) 6 t (idle3_6 t hc2) (noFlush3_6 t hc2)]
    by_cases h1 : t.val = 0
    · -- the first point
      rw [sAt3_first V c t h1, PhiS3_castSucc V c t, PhiS3_zero V c _ _ h1, PhiA3_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel3_first c Set.univ (grid3.coords t) _ _ _ _ _ _ _ _ _ _ _ _ _ _ _ _
        ((hcond3_1 t).mpr h1) hc2 (iblk3 V c 0 t) (iblk3 V c 1 t) (iblk3 V c 2 t) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a middle point
      rw [sAt3_later V c t h1, PhiS3_castSucc V c t, PhiS3_pos V c _ _ h1]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (kernel3_middle c Set.univ (grid3.coords t) _ _ _ _ _ _ _ _ _ _ _ _ _ _ _ _
        (fun h => h1 ((hcond3_1 t).mp h)) hc2 (iblk3 V c 0 t) (iblk3 V c 1 t) (iblk3 V c 2 t)
        (sAt3 V c (t.val - 1) (Nat.lt_of_le_of_lt (Nat.sub_le _ _) t.isLt)) _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The body meets the proof data at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]

/-- After the last point the invariant gives the plain scoped state back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 25 := N_3; omega), PhiA3_eq]
  iintro ⟨⟨HS, HR⟩, Hg⟩
  isplitl [HS HR]
  · isplitl [HS]
    · iexists _; iexact HS
    iexact HR
  iexact Hg

end Cert.KernelIdeal.Hand

end
-- ==== Proof.KI.Run.lean ====
/-
  The whole run of the program: four pipelined regions among five stretches of host operations. The contents of every
  unscoped buffer are followed from the launch to the return as a fold — a host stretch applies its operations, a region
  replaces its windows' arrays by what its write-backs leave — and every weakly fair execution is shown to terminate,
  faulting nowhere, with each unscoped buffer at the fold's last value. From that one statement follow the frame (no
  stretch and no region writes an argument) and the value of the result buffer.
-/
import proofs.«413041_j89696097010223_3_alg».proof.Proof.KI.Reg0
import proofs.«413041_j89696097010223_3_alg».proof.Proof.KI.Reg1
import proofs.«413041_j89696097010223_3_alg».proof.Proof.KI.Reg2
import proofs.«413041_j89696097010223_3_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Kit
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit. -/
def W8 (c : Dev nD) : Valuation τ sig (Elt F) :=
  Pipeline.withArrays spec3 c (W7 m ρ c) fun w => (dat3 (V7 m ρ) c).arrAt w cfg3.N
/-- After the last host stretch: what the program returns with. -/
abbrev W9 : Dev nD → Valuation τ sig (Elt F) := fun c => StableHlo.after hostOps4 (W8 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

/-! ## What the host stretches write

Each stretch allocates nothing, and writes only the references listed for it: a reference outside the list is read after the
stretch as before it. -/

/-- No operation of `hostOps0` allocates a buffer. -/
theorem hostOps0_fresh : (hostOps0 : List (HloOp τ sig (Elt F))).Forall fun op => op.fresh = ∅ := by
  simp only [List.Forall]; repeat' constructor
/-- The references `hostOps0`'s operations write. -/
abbrev hostOps0_W : List (Ref sig .tc) := [main_v0, main_v1, main_v2, main_v3, main_v4, main_v5, main_v6, main_v7, main_v8, main_v9, main_v10, main_cst, main_v11, main_cst_0, main_v12, main_v13, main_v14, main_v15]
theorem hostOps0_writes : (hostOps0 : List (HloOp τ sig (Elt F))).Forall fun op => op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- No operation of `hostOps1` allocates a buffer. -/
theorem hostOps1_fresh : (hostOps1 : List (HloOp τ sig (Elt F))).Forall fun op => op.fresh = ∅ := by
  simp only [List.Forall]; repeat' constructor
/-- The references `hostOps1`'s operations write. -/
abbrev hostOps1_W : List (Ref sig .tc) := [main_v17, main_v18, main_c, main_v19, main_v20, main_c_1, main_v21, main_v22, main_v23, main_v24, main_v25, main_v26, main_cst_2, main_v27, main_v28, main_v29]
theorem hostOps1_writes : (hostOps1 : List (HloOp τ sig (Elt F))).Forall fun op => op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- No operation of `hostOps2` allocates a buffer. -/
theorem hostOps2_fresh : (hostOps2 : List (HloOp τ sig (Elt F))).Forall fun op => op.fresh = ∅ := by
  simp only [List.Forall]; repeat' constructor
/-- The references `hostOps2`'s operations write. -/
abbrev hostOps2_W : List (Ref sig .tc) := [main_v31, main_v32, main_c_3, main_v33, main_v34, main_c_4, main_v35, main_v36, main_v37, main_v38, main_v39, main_v40, main_cst_5, main_v41, main_v42, main_v43]
theorem hostOps2_writes : (hostOps2 : List (HloOp τ sig (Elt F))).Forall fun op => op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- No operation of `hostOps3` allocates a buffer. -/
theorem hostOps3_fresh : (hostOps3 : List (HloOp τ sig (Elt F))).Forall fun op => op.fresh = ∅ := by
  simp only [List.Forall]; repeat' constructor
/-- The references `hostOps3`'s operations write. -/
abbrev hostOps3_W : List (Ref sig .tc) := [main_v45, main_v46, main_c_6, main_v47, main_v48, main_c_7, main_v49, main_v50, main_v51, main_v52, main_v53, main_v54, main_cst_8, main_v55, main_v56, main_v57, main_v58]
theorem hostOps3_writes : (hostOps3 : List (HloOp τ sig (Elt F))).Forall fun op => op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
/-- No operation of `hostOps4` allocates a buffer. -/
theorem hostOps4_fresh : (hostOps4 : List (HloOp τ sig (Elt F))).Forall fun op => op.fresh = ∅ := by
  simp only [List.Forall]; repeat' constructor
/-- The references `hostOps4`'s operations write. -/
abbrev hostOps4_W : List (Ref sig .tc) := [main_v60]
theorem hostOps4_writes : (hostOps4 : List (HloOp τ sig (Elt F))).Forall fun op => op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-! ## What each step of the fold leaves unchanged

A host stretch leaves every reference it does not write; a region leaves every reference that is no window's array, and the
array of an input window as well (the pipeline only reads it). -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-! ## The run

The program is run as nine segments: a host stretch, a region, a host stretch, …, and a last host stretch. Between two
segments a core holds every unscoped buffer whole at the fold's value for that boundary, beside its generator register at
some state and the record that it owes nothing. A host stretch moves the buffers from one value to the next by its own
rule. A region takes its windows' arrays out of the unscoped buffers, runs its pipeline on them, and puts them back at
what the write-backs leave; the buffers that are no window's array pass by unchanged. -/

/-- Region 0's exit contents read at the TensorCore's references. -/
abbrev E2 : (c : Dev nD) → (b : Ref sig .tc) → Buf (Elt F) ((c : Thread nD τ).loc b) := fun c b => W2 m ρ c b
/-- At region 0's exit each of its arrays holds what the pipeline leaves, -/
theorem hF0 (c : Dev nD) (w : Fin cfg0.W) : (dat0 (V1 m ρ) c).arrAt w cfg0.N = E2 m ρ c (Pipeline.arrRef spec0 w) :=
  (W2_arr m ρ c w).symm
/-- and a buffer that is no array of its windows holds what it held at entry. -/
theorem hrest0 (c : Dev nD) : ∀ b, b ∉ Finset.univ.image (Pipeline.arrRef spec0) → E2 m ρ c b = V1 m ρ c b :=
  fun b hb => W2_of_ne m ρ c b fun w e => hb (Finset.mem_image.mpr ⟨w, Finset.mem_univ _, e⟩)
/-- Region 1's exit contents read at the TensorCore's references. -/
abbrev E4 : (c : Dev nD) → (b : Ref sig .tc) → Buf (Elt F) ((c : Thread nD τ).loc b) := fun c b => W4 m ρ c b
/-- At region 1's exit each of its arrays holds what the pipeline leaves, -/
theorem hF1 (c : Dev nD) (w : Fin cfg1.W) : (dat1 (V3 m ρ) c).arrAt w cfg1.N = E4 m ρ c (Pipeline.arrRef spec1 w) :=
  (W4_arr m ρ c w).symm
/-- and a buffer that is no array of its windows holds what it held at entry. -/
theorem hrest1 (c : Dev nD) : ∀ b, b ∉ Finset.univ.image (Pipeline.arrRef spec1) → E4 m ρ c b = V3 m ρ c b :=
  fun b hb => W4_of_ne m ρ c b fun w e => hb (Finset.mem_image.mpr ⟨w, Finset.mem_univ _, e⟩)
/-- Region 2's exit contents read at the TensorCore's references. -/
abbrev E6 : (c : Dev nD) → (b : Ref sig .tc) → Buf (Elt F) ((c : Thread nD τ).loc b) := fun c b => W6 m ρ c b
/-- At region 2's exit each of its arrays holds what the pipeline leaves, -/
theorem hF2 (c : Dev nD) (w : Fin cfg2.W) : (dat2 (V5 m ρ) c).arrAt w cfg2.N = E6 m ρ c (Pipeline.arrRef spec2 w) :=
  (W6_arr m ρ c w).symm
/-- and a buffer that is no array of its windows holds what it held at entry. -/
theorem hrest2 (c : Dev nD) : ∀ b, b ∉ Finset.univ.image (Pipeline.arrRef spec2) → E6 m ρ c b = V5 m ρ c b :=
  fun b hb => W6_of_ne m ρ c b fun w e => hb (Finset.mem_image.mpr ⟨w, Finset.mem_univ _, e⟩)
/-- Region 3's exit contents read at the TensorCore's references. -/
abbrev E8 : (c : Dev nD) → (b : Ref sig .tc) → Buf (Elt F) ((c : Thread nD τ).loc b) := fun c b => W8 m ρ c b
/-- At region 3's exit each of its arrays holds what the pipeline leaves, -/
theorem hF3 (c : Dev nD) (w : Fin cfg3.W) : (dat3 (V7 m ρ) c).arrAt w cfg3.N = E8 m ρ c (Pipeline.arrRef spec3 w) :=
  (W8_arr m ρ c w).symm
/-- and a buffer that is no array of its windows holds what it held at entry. -/
theorem hrest3 (c : Dev nD) : ∀ b, b ∉ Finset.univ.image (Pipeline.arrRef spec3) → E8 m ρ c b = V7 m ρ c b :=
  fun b hb => W8_of_ne m ρ c b fun w e => hb (Finset.mem_image.mpr ⟨w, Finset.mem_univ _, e⟩)

/-- No pallas_call of the program has a prefetched table: the tables' admissible contents are the empty ones. -/
abbrev adm : (p : Fin 4) → (pcfgs (F := F) p).Adm := fun p => (cfgs p).toPCfg_adm
/-- Every pipeline's proof data, each at the contents its region is entered with. The match is on the literal index, so that
    the configuration pinned at a numeral reduces to that region's own. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core ever owes another a signal: no level is assigned. -/
abbrev L : GSem nD τ sig → Finset Unit := fun _ => ∅
abbrev lv : GSem nD τ sig → Unit → ℕ := fun _ _ => 0
/-- What a core holds beside its buffers at every boundary: its generator register at some state, and the record that it
    owes nothing. -/
abbrev R (c : Dev nD) : sProp 𝕄 := iprop((∃ r, prngReg c r) ∗ ∃ W, owes (c : Thread nD τ) (0 : CellTallies nD τ sig Unit) W)
/-- A host stretch as a segment over the unscoped buffers, entered at the contents `W`: it leaves them at
    `StableHlo.after ops (W c)`, the rest `R` untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- What a core holds when the program returns, without the record of what it owes: every unscoped buffer at the fold's
    last value, the generator register at some state. -/
abbrev Tₙ (c : Dev nD) : sProp 𝕄 := iprop(StableHlo.held (c : Thread nD τ) (Pipeline.ucRefs τ sig) (W9 m ρ c) ∗ ∃ r, prngReg c r)

/-- What the last host stretch leaves is the returning state beside the record that the core owes nothing. -/
theorem last_post (c : Dev nD) :
    iprop(StableHlo.held (c : Thread nD τ) (Pipeline.ucRefs τ sig) (W9 m ρ c) ∗ R c)
      ⊢ iprop(Tₙ m ρ c ∗ ∃ W, owes (c : Thread nD τ) (0 : CellTallies nD τ sig Unit) W) := by
  iintro ⟨Hbufs, Hg, Ho⟩
  isplitl [Hbufs Hg]
  · isplitl [Hbufs]; · iexact Hbufs
    iexact Hg
  iexact Ho

/-! ### The regions as segments -/

-- the library's lemmas are stated over the pinned configuration: they meet this region's own only when unification may
-- unfold plain definitions inside a metavariable's type
set_option backward.isDefEq.respectTransparency.types false in
/-- Region 0 (the first pallas_call) as a segment: entered with every unscoped buffer at `W1`, left with them at `W2`. At entry the
    windows' arrays are split off the unscoped buffers and the rest passes by; at exit they are joined again at the exit
    contents. The body owes nothing, the kernel has no semaphore of its own, and the generator register goes into the region's invariant, which is the plain scoped state, and comes back out of it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hbufs, Hg, Ho⟩, -, -⟩
    ihave Hsp := hsplit $$ Hbufs
    icases Hsp with ⟨Harr, Hby⟩
    imodintro
    isplitl [Harr]; · iexact Harr
    isplitr
    · unfold Pipeline.prefHeld; rw [show (Finset.univ : Finset (Fin 0)) = ∅ from rfl, BI.bigSep_empty]; iempintro
    isplitl [Ho]
    · unfold Pipeline.Dat.owesAt Pipeline.owesWithin
      icases Ho with ⟨%Wo, Ho⟩; iexists Wo
      isplitr; · ipureintro; exact fun _ _ => Or.inl trivial
      iexact Ho
    isplitl [Hg]; · iexact Hg
    iexact Hby
  hin c := by
    rw [show (pdats m ρ 0 c).Φ 0 = Pipeline.ΦA spec0 c from rfl]; unfold Pipeline.ΦA
    iintro ⟨Hg, -, Hs⟩
    isplitl [Hs]; · iexact Hs
    iexact Hg
  hout c := by
    rw [Pipeline.ownSems0_none, show (pdats m ρ 0 c).Φ (Fin.last _) = Pipeline.ΦA spec0 c from rfl]; unfold Pipeline.ΦA
    iintro ⟨Hs, Hg⟩
    isplitl [Hg]; · iexact Hg
    isplitr; · iempintro
    iexact Hs
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (E2 m ρ c) ((pdats m ρ 0 c).arrAt · cfg0.N) (hF0 m ρ c) (hrest0 m ρ c)
    rw [Pipeline.unscopedBufs_held] at hjoin
    iintro ⟨Harr, Ho, Hg, Hby⟩
    imodintro
    isplitl [Harr Hby]
    · iapply hjoin; isplitl [Harr] <;> iassumption
    isplitl [Hg]; · iexact Hg
    unfold Pipeline.Dat.owesAt Pipeline.owesWithin
    icases Ho with ⟨%Wo, -, Ho⟩; iexists Wo; iexact Ho

-- the library's lemmas are stated over the pinned configuration: they meet this region's own only when unification may
-- unfold plain definitions inside a metavariable's type
set_option backward.isDefEq.respectTransparency.types false in
/-- Region 1 (the second pallas_call) as a segment: entered with every unscoped buffer at `W3`, left with them at `W4`. At entry the
    windows' arrays are split off the unscoped buffers and the rest passes by; at exit they are joined again at the exit
    contents. The body owes nothing, the kernel has no semaphore of its own, and the generator register goes into the region's invariant, which is the plain scoped state, and comes back out of it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hbufs, Hg, Ho⟩, -, -⟩
    ihave Hsp := hsplit $$ Hbufs
    icases Hsp with ⟨Harr, Hby⟩
    imodintro
    isplitl [Harr]; · iexact Harr
    isplitr
    · unfold Pipeline.prefHeld; rw [show (Finset.univ : Finset (Fin 0)) = ∅ from rfl, BI.bigSep_empty]; iempintro
    isplitl [Ho]
    · unfold Pipeline.Dat.owesAt Pipeline.owesWithin
      icases Ho with ⟨%Wo, Ho⟩; iexists Wo
      isplitr; · ipureintro; exact fun _ _ => Or.inl trivial
      iexact Ho
    isplitl [Hg]; · iexact Hg
    iexact Hby
  hin c := by
    rw [show (pdats m ρ 1 c).Φ 0 = Pipeline.ΦA spec1 c from rfl]; unfold Pipeline.ΦA
    iintro ⟨Hg, -, Hs⟩
    isplitl [Hs]; · iexact Hs
    iexact Hg
  hout c := by
    rw [Pipeline.ownSems0_none, show (pdats m ρ 1 c).Φ (Fin.last _) = Pipeline.ΦA spec1 c from rfl]; unfold Pipeline.ΦA
    iintro ⟨Hs, Hg⟩
    isplitl [Hg]; · iexact Hg
    isplitr; · iempintro
    iexact Hs
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (E4 m ρ c) ((pdats m ρ 1 c).arrAt · cfg1.N) (hF1 m ρ c) (hrest1 m ρ c)
    rw [Pipeline.unscopedBufs_held] at hjoin
    iintro ⟨Harr, Ho, Hg, Hby⟩
    imodintro
    isplitl [Harr Hby]
    · iapply hjoin; isplitl [Harr] <;> iassumption
    isplitl [Hg]; · iexact Hg
    unfold Pipeline.Dat.owesAt Pipeline.owesWithin
    icases Ho with ⟨%Wo, -, Ho⟩; iexists Wo; iexact Ho

-- the library's lemmas are stated over the pinned configuration: they meet this region's own only when unification may
-- unfold plain definitions inside a metavariable's type
set_option backward.isDefEq.respectTransparency.types false in
/-- Region 2 (the third pallas_call) as a segment: entered with every unscoped buffer at `W5`, left with them at `W6`. At entry the
    windows' arrays are split off the unscoped buffers and the rest passes by; at exit they are joined again at the exit
    contents. The body owes nothing, the kernel has no semaphore of its own, and the generator register goes into the region's invariant, which is the plain scoped state, and comes back out of it. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hbufs, Hg, Ho⟩, -, -⟩
    ihave Hsp := hsplit $$ Hbufs
    icases Hsp with ⟨Harr, Hby⟩
    imodintro
    isplitl [Harr]; · iexact Harr
    isplitr
    · unfold Pipeline.prefHeld; rw [show (Finset.univ : Finset (Fin 0)) = ∅ from rfl, BI.bigSep_empty]; iempintro
    isplitl [Ho]
    · unfold Pipeline.Dat.owesAt Pipeline.owesWithin
      icases Ho with ⟨%Wo, Ho⟩; iexists Wo
      isplitr; · ipureintro; exact fun _ _ => Or.inl trivial
      iexact Ho
    isplitl [Hg]; · iexact Hg
    iexact Hby
  hin c := by
    rw [show (pdats m ρ 2 c).Φ 0 = Pipeline.ΦA spec2 c from rfl]; unfold Pipeline.ΦA
    iintro ⟨Hg, -, Hs⟩
    isplitl [Hs]; · iexact Hs
    iexact Hg
  hout c := by
    rw [Pipeline.ownSems0_none, show (pdats m ρ 2 c).Φ (Fin.last _) = Pipeline.ΦA spec2 c from rfl]; unfold Pipeline.ΦA
    iintro ⟨Hs, Hg⟩
    isplitl [Hg]; · iexact Hg
    isplitr; · iempintro
    iexact Hs
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (E6 m ρ c) ((pdats m ρ 2 c).arrAt · cfg2.N) (hF2 m ρ c) (hrest2 m ρ c)
    rw [Pipeline.unscopedBufs_held] at hjoin
    iintro ⟨Harr, Ho, Hg, Hby⟩
    imodintro
    isplitl [Harr Hby]
    · iapply hjoin; isplitl [Harr] <;> iassumption
    isplitl [Hg]; · iexact Hg
    unfold Pipeline.Dat.owesAt Pipeline.owesWithin
    icases Ho with ⟨%Wo, -, Ho⟩; iexists Wo; iexact Ho

-- the library's lemmas are stated over the pinned configuration: they meet this region's own only when unification may
-- unfold plain definitions inside a metavariable's type
set_option backward.isDefEq.respectTransparency.types false in
/-- Region 3 (the last pallas_call) as a segment: entered with every unscoped buffer at `W7`, left with them at `W8`. At entry the
    windows' arrays are split off the unscoped buffers and the rest passes by; at exit they are joined again at the exit
    contents. The body owes nothing, the kernel has no semaphore of its own, and the generator register goes into the plain scoped state, from which the region's own invariant starts and to which it returns at the last point. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hbufs, Hg, Ho⟩, -, -⟩
    ihave Hsp := hsplit $$ Hbufs
    icases Hsp with ⟨Harr, Hby⟩
    imodintro
    isplitl [Harr]; · iexact Harr
    isplitr
    · unfold Pipeline.prefHeld; rw [show (Finset.univ : Finset (Fin 0)) = ∅ from rfl, BI.bigSep_empty]; iempintro
    isplitl [Ho]
    · unfold Pipeline.Dat.owesAt Pipeline.owesWithin
      icases Ho with ⟨%Wo, Ho⟩; iexists Wo
      isplitr; · ipureintro; exact fun _ _ => Or.inl trivial
      iexact Ho
    isplitl [Hg]; · iexact Hg
    iexact Hby
  hin c := by
    rw [show (pdats m ρ 3 c).Φ 0 = (dat3 (V7 m ρ) c).Φ 0 from rfl]
    refine BIBase.Entails.trans ?_ (hin3 (V7 m ρ) c)
    unfold Pipeline.ΦA
    iintro ⟨Hg, -, Hs⟩
    isplitl [Hs]; · iexact Hs
    iexact Hg
  hout c := by
    rw [Pipeline.ownSems0_none, show (pdats m ρ 3 c).Φ (Fin.last _) = (dat3 (V7 m ρ) c).Φ (Fin.last cfg3.N) from rfl]
    refine (hout3 (V7 m ρ) c).trans ?_
    unfold Pipeline.ΦA
    iintro ⟨Hs, Hg⟩
    isplitl [Hg]; · iexact Hg
    isplitr; · iempintro
    iexact Hs
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (E8 m ρ c) ((pdats m ρ 3 c).arrAt · cfg3.N) (hF3 m ρ c) (hrest3 m ρ c)
    rw [Pipeline.unscopedBufs_held] at hjoin
    iintro ⟨Harr, Ho, Hg, Hby⟩
    imodintro
    isplitl [Harr Hby]
    · iapply hjoin; isplitl [Harr] <;> iassumption
    isplitl [Hg]; · iexact Hg
    unfold Pipeline.Dat.owesAt Pipeline.owesWithin
    icases Ho with ⟨%Wo, -, Ho⟩; iexists Wo; iexact Ho

/-! ### The program as segments, and the launch -/

/-- The nine segments in order, each host stretch entered at its boundary's contents. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- The program is the run of these segments: it is the chain of its items, and the segments' run unfolds to the same chain. -/
theorem main_run (c : Dev nD) : main (F := F) c = Pipeline.Seg.run (segs m ρ) := (main_chain c).trans (by chain_rfl)

-- the launch theorem's implicit arguments are found by unifying its conclusion with the goal, which takes unfolding plain
-- definitions inside a metavariable's type
set_option backward.isDefEq.respectTransparency.types false in
/-- Every weakly fair execution of @main from memory `m` with zero counters terminates, nothing faulting, and every final
    state holds each unscoped buffer of every core at the last boundary's contents. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => last_post m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Ho, -, Hg, -⟩, -⟩
      imodintro
      isplitl [Hbufs]; · iexact Hbufs
      isplitl [Hg]; · iexists _; iexact Hg
      iexists ∅; iexact Ho)
    (QY := fun c s => ∀ b ∈ Pipeline.ucRefs τ sig, s.mem (((c : Thread nD τ)).1, b) = W9 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W9 m ρ c) s')
      isplitl [Hbufs] <;> iassumption)
    (hQ := fun s h c b hb => h c b hb)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

theorem W9_main_arg0 (c : Dev nD) : W9 m ρ c (Proc.devRef .tc main_arg0) = m ((c : Thread nD τ).loc main_arg0) :=
  (W9_of m ρ c main_arg0 (by decide)).trans <|
  (W8_of_ne m ρ c main_arg0 (by decide)).trans <|
  (W7_of m ρ c main_arg0 (by decide)).trans <|
  (W6_of_ne m ρ c main_arg0 (by decide)).trans <|
  (W5_of m ρ c main_arg0 (by decide)).trans <|
  (W4_of_ne m ρ c main_arg0 (by decide)).trans <|
  (W3_of m ρ c main_arg0 (by decide)).trans <|
  (W2_in m ρ c 0 rfl).trans <|
  (W1_of m ρ c main_arg0 (by decide)).trans rfl
theorem W9_main_arg1 (c : Dev nD) : W9 m ρ c (Proc.devRef .tc main_arg1) = m ((c : Thread nD τ).loc main_arg1) :=
  (W9_of m ρ c main_arg1 (by decide)).trans <|
  (W8_of_ne m ρ c main_arg1 (by decide)).trans <|
  (W7_of m ρ c main_arg1 (by decide)).trans <|
  (W6_of_ne m ρ c main_arg1 (by decide)).trans <|
  (W5_of m ρ c main_arg1 (by decide)).trans <|
  (W4_of_ne m ρ c main_arg1 (by decide)).trans <|
  (W3_of m ρ c main_arg1 (by decide)).trans <|
  (W2_of_ne m ρ c main_arg1 (by decide)).trans <|
  (W1_of m ρ c main_arg1 (by decide)).trans rfl
theorem W9_main_arg2 (c : Dev nD) : W9 m ρ c (Proc.devRef .tc main_arg2) = m ((c : Thread nD τ).loc main_arg2) :=
  (W9_of m ρ c main_arg2 (by decide)).trans <|
  (W8_of_ne m ρ c main_arg2 (by decide)).trans <|
  (W7_of m ρ c main_arg2 (by decide)).trans <|
  (W6_of_ne m ρ c main_arg2 (by decide)).trans <|
  (W5_of m ρ c main_arg2 (by decide)).trans <|
  (W4_of_ne m ρ c main_arg2 (by decide)).trans <|
  (W3_of m ρ c main_arg2 (by decide)).trans <|
  (W2_of_ne m ρ c main_arg2 (by decide)).trans <|
  (W1_of m ρ c main_arg2 (by decide)).trans rfl
theorem W9_main_arg3 (c : Dev nD) : W9 m ρ c (Proc.devRef .tc main_arg3) = m ((c : Thread nD τ).loc main_arg3) :=
  (W9_of m ρ c main_arg3 (by decide)).trans <|
  (W8_of_ne m ρ c main_arg3 (by decide)).trans <|
  (W7_of m ρ c main_arg3 (by decide)).trans <|
  (W6_of_ne m ρ c main_arg3 (by decide)).trans <|
  (W5_of m ρ c main_arg3 (by decide)).trans <|
  (W4_of_ne m ρ c main_arg3 (by decide)).trans <|
  (W3_of m ρ c main_arg3 (by decide)).trans <|
  (W2_in m ρ c 1 rfl).trans <|
  (W1_of m ρ c main_arg3 (by decide)).trans rfl
theorem W9_main_arg4 (c : Dev nD) : W9 m ρ c (Proc.devRef .tc main_arg4) = m ((c : Thread nD τ).loc main_arg4) :=
  (W9_of m ρ c main_arg4 (by decide)).trans <|
  (W8_of_ne m ρ c main_arg4 (by decide)).trans <|
  (W7_of m ρ c main_arg4 (by decide)).trans <|
  (W6_of_ne m ρ c main_arg4 (by decide)).trans <|
  (W5_of m ρ c main_arg4 (by decide)).trans <|
  (W4_of_ne m ρ c main_arg4 (by decide)).trans <|
  (W3_of m ρ c main_arg4 (by decide)).trans <|
  (W2_in m ρ c 2 rfl).trans <|
  (W1_of m ρ c main_arg4 (by decide)).trans rfl
theorem W9_main_arg5 (c : Dev nD) : W9 m ρ c (Proc.devRef .tc main_arg5) = m ((c : Thread nD τ).loc main_arg5) :=
  (W9_of m ρ c main_arg5 (by decide)).trans <|
  (W8_of_ne m ρ c main_arg5 (by decide)).trans <|
  (W7_of m ρ c main_arg5 (by decide)).trans <|
  (W6_of_ne m ρ c main_arg5 (by decide)).trans <|
  (W5_of m ρ c main_arg5 (by decide)).trans <|
  (W4_in m ρ c 2 rfl).trans <|
  (W3_of m ρ c main_arg5 (by decide)).trans <|
  (W2_of_ne m ρ c main_arg5 (by decide)).trans <|
  (W1_of m ρ c main_arg5 (by decide)).trans rfl
theorem W9_main_arg6 (c : Dev nD) : W9 m ρ c (Proc.devRef .tc main_arg6) = m ((c : Thread nD τ).loc main_arg6) :=
  (W9_of m ρ c main_arg6 (by decide)).trans <|
  (W8_of_ne m ρ c main_arg6 (by decide)).trans <|
  (W7_of m ρ c main_arg6 (by decide)).trans <|
  (W6_of_ne m ρ c main_arg6 (by decide)).trans <|
  (W5_of m ρ c main_arg6 (by decide)).trans <|
  (W4_in m ρ c 3 rfl).trans <|
  (W3_of m ρ c main_arg6 (by decide)).trans <|
  (W2_of_ne m ρ c main_arg6 (by decide)).trans <|
  (W1_of m ρ c main_arg6 (by decide)).trans rfl
theorem W9_main_arg7 (c : Dev nD) : W9 m ρ c (Proc.devRef .tc main_arg7) = m ((c : Thread nD τ).loc main_arg7) :=
  (W9_of m ρ c main_arg7 (by decide)).trans <|
  (W8_of_ne m ρ c main_arg7 (by decide)).trans <|
  (W7_of m ρ c main_arg7 (by decide)).trans <|
  (W6_in m ρ c 2 rfl).trans <|
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem W9_main_arg8 (c : Dev nD) : W9 m ρ c (Proc.devRef .tc main_arg8) = m ((c : Thread nD τ).loc main_arg8) :=
  (W9_of m ρ c main_arg8 (by decide)).trans <|
  (W8_of_ne m ρ c main_arg8 (by decide)).trans <|
  (W7_of m ρ c main_arg8 (by decide)).trans <|
  (W6_in m ρ c 3 rfl).trans <|
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl
theorem W9_main_arg9 (c : Dev nD) : W9 m ρ c (Proc.devRef .tc main_arg9) = m ((c : Thread nD τ).loc main_arg9) :=
  (W9_of m ρ c main_arg9 (by decide)).trans <|
  (W8_in m ρ c 3 rfl).trans <|
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl
theorem W9_main_arg10 (c : Dev nD) : W9 m ρ c (Proc.devRef .tc main_arg10) = m ((c : Thread nD τ).loc main_arg10) :=
  (W9_of m ρ c main_arg10 (by decide)).trans <|
  (W8_of_ne m ρ c main_arg10 (by decide)).trans <|
  (W7_of m ρ c main_arg10 (by decide)).trans <|
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl

/-- THE FRAME at any `F`: the run, with each argument's buffer walked back through the fold to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c),
     (h c _ (mem_uc main_arg9 (by decide))).trans (W9_main_arg9 m ρ c),
     (h c _ (mem_uc main_arg10 (by decide))).trans (W9_main_arg10 m ρ c)⟩) (run_main m ρ)

end Cert.KernelIdeal.Hand

end
-- ==== Proof.Spec.lean ====
/-
  The mathematics both programs compute, stated once over plain finite index types, at the extended reals.

  A graph convolution layer takes node features `h : node → feature`, gathers the feature row of each edge's
  source node, adds the rows of the edges that land on a node, and applies two linear maps:
  `relu ((A h) W_rel + h W_root)`, where `(A h) n = 0 + ∑ e ∈ into n, h (src e)`. The reference applies `W_rel`
  after the aggregation; the kernel applies it before (`A (h W_rel)`). The two agree when every entry is a real
  number, because a finite sum of reals distributes over the product.
  After three layers the features are pooled per graph — the reference adds the rows of the nodes of graph `g`,
  the kernel contracts a 0/1 membership matrix against the features —, divided by the graph's node count (at least
  one), sent through a last linear map with a bias, and row 0 of the softmax is returned.
-/
import Idealize.ShloMosaic.PureOps.Ideal
import Mathlib.Algebra.BigOperators.Group.Finset.Basic

noncomputable section

namespace Cert.Spec

open Idealize.ShloMosaic

variable {Nn Ne : ℕ}

/-- A matrix product over curried finite index types. -/
def mm {A K J : ℕ} (h : Fin A → Fin K → EReal) (w : Fin K → Fin J → EReal) : Fin A → Fin J → EReal :=
  fun a j => ∑ k : Fin K, h a k * w k j

/-- Neighbourhood aggregation: node `n` receives, onto zero, the rows `f (src e)` of the edges `e` that land on it. -/
def agg {J : ℕ} (src : Fin Ne → Fin Nn) (into : Fin Nn → Finset (Fin Ne)) (f : Fin Nn → Fin J → EReal) :
    Fin Nn → Fin J → EReal :=
  fun n j => 0 + ∑ e ∈ into n, f (src e) j

/-- The rectified sum of two arrays, entry by entry. -/
def relu2 {A B : ℕ} (a r : Fin A → Fin B → EReal) : Fin A → Fin B → EReal := fun n k => max (a n k + r n k) 0

/-- One layer as the reference spells it: aggregate, then both linear maps, then the rectifier. -/
def layerR {K J : ℕ} (src : Fin Ne → Fin Nn) (into : Fin Nn → Finset (Fin Ne))
    (h : Fin Nn → Fin K → EReal) (wrel wroot : Fin K → Fin J → EReal) : Fin Nn → Fin J → EReal :=
  fun n j => max (mm (agg src into h) wrel n j + mm h wroot n j) 0

/-- One layer as the kernel spells it: the neighbour map first, then the aggregation of its rows. -/
def layerK {K J : ℕ} (src : Fin Ne → Fin Nn) (into : Fin Nn → Finset (Fin Ne))
    (h : Fin Nn → Fin K → EReal) (wrel wroot : Fin K → Fin J → EReal) : Fin Nn → Fin J → EReal :=
  fun n j => max (agg src into (mm h wrel) n j + mm h wroot n j) 0

/-- The kernel's layer is the rectified sum of the aggregated neighbour map and the root map. -/
theorem layerK_eq {K J : ℕ} (src : Fin Ne → Fin Nn) (into : Fin Nn → Finset (Fin Ne))
    (h : Fin Nn → Fin K → EReal) (wrel wroot : Fin K → Fin J → EReal) :
    layerK src into h wrel wroot = relu2 (agg src into (mm h wrel)) (mm h wroot) := rfl

/-- Per-graph sums as the reference spells them: onto zero, the rows of the nodes that belong to graph `g`. -/
def poolR {G J : ℕ} (mem : Fin G → Finset (Fin Nn)) (h : Fin Nn → Fin J → EReal) : Fin G → Fin J → EReal :=
  fun g j => 0 + ∑ n ∈ mem g, h n j

/-- Per-graph sums as the kernel spells them: the membership matrix contracted against the features over all nodes. -/
def poolK {G J : ℕ} (oh : Fin Nn → Fin G → EReal) (h : Fin Nn → Fin J → EReal) : Fin G → Fin J → EReal :=
  fun g j => ∑ n : Fin Nn, oh n g * h n j

/-- The three layers, reference order. -/
def feats3R (src : Fin Ne → Fin Nn) (into : Fin Nn → Finset (Fin Ne)) (x : Fin Nn → Fin 128 → EReal)
    (wr1 wo1 : Fin 128 → Fin 64 → EReal) (wr2 wo2 wr3 wo3 : Fin 64 → Fin 64 → EReal) : Fin Nn → Fin 64 → EReal :=
  layerR src into (layerR src into (layerR src into x wr1 wo1) wr2 wo2) wr3 wo3

/-- The three layers, kernel order. -/
def feats3K (src : Fin Ne → Fin Nn) (into : Fin Nn → Finset (Fin Ne)) (x : Fin Nn → Fin 128 → EReal)
    (wr1 wo1 : Fin 128 → Fin 64 → EReal) (wr2 wo2 wr3 wo3 : Fin 64 → Fin 64 → EReal) : Fin Nn → Fin 64 → EReal :=
  layerK src into (layerK src into (layerK src into x wr1 wo1) wr2 wo2) wr3 wo3

/-- What follows the pooled sums in both programs: the mean over the node count (at least one), the last linear map
    with its bias, and row 0 of the softmax (the row maximum taken from minus infinity, the exponentials summed onto zero).
    The float literals stay as the words both programs print. -/
def tail (sums : Fin 64 → Fin 64 → EReal) (cnt : Fin 64 → EReal) (wfc : Fin 64 → Fin 10 → EReal)
    (bfc : Fin 10 → EReal) (t : Fin 10) : EReal :=
  let one : EReal := Ideal.ofBits .f32 0x3F800000#32
  let ninf : EReal := Ideal.ofBits .f32 0xFF800000#32
  let logit : Fin 10 → EReal := fun u => (∑ j : Fin 64, Ideal.div (sums 0 j) (max (cnt 0) one) * wfc j u) + bfc u
  let mx : EReal := max ninf ((Finset.univ : Finset (Fin 10)).fold max ninf logit)
  let ex : Fin 10 → EReal := fun u => Ideal.exp (logit u - mx)
  Ideal.div (ex t) (0 + ∑ u : Fin 10, ex u)

/-- An extended real that is a real number. -/
def IsReal (a : EReal) : Prop := ∃ r : ℝ, a = (r : EReal)

end Cert.Spec

end
-- ==== Proof.LibScatterRows.lean ====
/-
  The host's accumulating float scatter, read row-wise, on the extended reals.

  The accumulating scatter adds, to every operand element, the exact sum of the update elements whose result index
  is that element. For the row pattern — operand `[N, C]` (or `[N, A, B]`), one signed scatter index per update row
  held in a column `[M, 1]`, updates `[M, C]` (or `[M, A, B]`), the updates' trailing axes the window, the operand's
  leading axis inserted and the one scattered to — update element `(m, c)` lands on operand element `(n, c)` exactly
  when the index word of row `m`, read signed, is `n`; an index outside `[0, N)` lands nowhere. So the scatter at
  `(n, c)` is the operand there plus the sum of `upd (m, c)` over the rows `m` whose index is `n`.

  Addition on the extended reals is commutative and associative with no finiteness condition, and a sum over
  `M₁ + M₂` rows filtered by a predicate splits over the first `M₁` and the last `M₂` rows; hence scattering two
  stacked blocks of updates at two stacked index columns is scattering the first block and then the second.
-/
import Idealize.ShloMosaic.PureOps.Ideal
import Idealize.ShloMosaic.Lib.ValueIdx
import Idealize.ShloMosaic.Lib.Pipeline.Value
import Mathlib.Algebra.BigOperators.Fin

noncomputable section

open scoped BigOperators

namespace Cert.Lib

open Idealize.ShloMosaic Idealize.ShloMosaic.ValueIdx

/-- An element of a one-element list, whatever the position's proof: the element. -/
theorem getElem_singleton_any {α : Type} (a : α) (k : Nat) (h : k < [a].length) : [a][k] = a := by
  have : k = 0 := by simpa using h
  subst this; rfl

/-! ## Rank 2: operand `[N, C]`, indices `[M, 1]`, updates `[M, C]` -/

/-- The row pattern's dimension numbers at rank 2: `update_window_dims = [1]`, `inserted_window_dims = [0]`,
    `scatter_dims_to_operand_dims = [0]`, `index_vector_dim = 1`. At a printed record every field is `rfl`:
    `⟨rfl, rfl, rfl, rfl⟩`. -/
structure RowScatter2 {N M C : Nat} (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- Where an update element lands, in the row pattern at rank 2: update `(m, c)` lands on operand `(n, c')` exactly when
    row `m`'s index word, read signed, is `n`, and `c = c'`. An index word that is negative or at least `N` equals no
    `n : Fin N`: that update is dropped. -/
theorem resultIdx?_rows2 {N M C w : Nat} (d : ScatterDims ⟨2, ![N, C]⟩ ⟨2, ![M, 1]⟩ ⟨2, ![M, C]⟩)
    (hd : RowScatter2 d) (m : Fin M) (c : Fin C) (idx : IVec ⟨2, ![M, 1]⟩ w) (n : Fin N) (c' : Fin C) :
    d.resultIdx? (ix2 m c) idx = some (ix2 n c') ↔ (idx (ix2 m 0)).toInt = (n.val : Int) ∧ c = c' := by
  obtain ⟨hu, hi, hs, hv⟩ := hd
  obtain ⟨uw, iw, sd, iv, wf⟩ := d
  simp only at hu hi hs hv
  subst hu hi hs hv
  have hsi : ∀ (j : (⟨2, ![M, C]⟩ : Shape).Idx) (k : Fin 1), ScatterDims.siIdx (s := ⟨2, ![N, C]⟩) ⟨[1], [0], [0], 1, wf⟩ j k = ix2 (j 0) 0 := by
    intro j k
    funext b
    match b with
    | ⟨0, _⟩ =>
      unfold ScatterDims.siIdx ScatterDims.siCoord
      rw [dif_neg (by simp)]
      apply Fin.ext
      show (j (([0] : List (Fin 2))[_]'_)).val = (j 0).val
      exact congrArg (fun a => (j a).val) (getElem_singleton_any _ _ _)
    | ⟨1, _⟩ => exact Subsingleton.elim (α := Fin 1) _ _
  have hst0 : ∀ j : (⟨2, ![M, C]⟩ : Shape).Idx, ScatterDims.start (s := ⟨2, ![N, C]⟩) ⟨[1], [0], [0], 1, wf⟩ j idx 0 = (idx (ix2 (j 0) 0)).toInt := by
    intro j
    unfold ScatterDims.start
    rw [dif_pos (List.mem_singleton.2 rfl)]
    exact congrArg (fun t => (idx t).toInt) (hsi j _)
  have hst1 : ∀ j : (⟨2, ![M, C]⟩ : Shape).Idx, ScatterDims.start (s := ⟨2, ![N, C]⟩) ⟨[1], [0], [0], 1, wf⟩ j idx 1 = 0 := by
    intro j
    unfold ScatterDims.start
    rw [dif_neg (by simp)]
  have hw0 : ∀ j : (⟨2, ![M, C]⟩ : Shape).Idx, ScatterDims.window (s := ⟨2, ![N, C]⟩) (si := ⟨2, ![M, 1]⟩) ⟨[1], [0], [0], 1, wf⟩ j 0 = 0 := by
    intro j
    have h0 : (0 : Fin 2) ∉ ScatterDims.sKept (s := ⟨2, ![N, C]⟩) (si := ⟨2, ![M, 1]⟩) (u := ⟨2, ![M, C]⟩) ⟨[1], [0], [0], 1, wf⟩ := by
      show (0 : Fin 2) ∉ ([1] : List (Fin 2)); simp
    unfold ScatterDims.window
    rw [dif_neg h0]
  have hw1 : ∀ j : (⟨2, ![M, C]⟩ : Shape).Idx, ScatterDims.window (s := ⟨2, ![N, C]⟩) (si := ⟨2, ![M, 1]⟩) ⟨[1], [0], [0], 1, wf⟩ j 1 = (j 1).val := by
    intro j
    have h1 : (1 : Fin 2) ∈ ScatterDims.sKept (s := ⟨2, ![N, C]⟩) (si := ⟨2, ![M, 1]⟩) (u := ⟨2, ![M, C]⟩) ⟨[1], [0], [0], 1, wf⟩ := by
      show (1 : Fin 2) ∈ ([1] : List (Fin 2)); simp
    unfold ScatterDims.window
    rw [dif_pos h1]
    exact congrArg (fun a => (j a).val) (getElem_singleton_any _ _ _)
  constructor
  · intro h
    unfold ScatterDims.resultIdx? at h
    split at h
    · next hc =>
      have hf := Option.some.inj h
      have e0 := congrArg Fin.val (congrFun hf 0)
      have e1 := congrArg Fin.val (congrFun hf 1)
      have c0 := hc 0
      simp only [hst0, hw0] at e0 c0
      simp only [hst1, hw1] at e1
      change ((idx (ix2 m 0)).toInt + ((0 : Nat) : Int)).toNat = n.val at e0
      change 0 ≤ (idx (ix2 m 0)).toInt + ((0 : Nat) : Int) ∧ _ at c0
      change (0 + ((c.val : Nat) : Int)).toNat = c'.val at e1
      refine ⟨by omega, Fin.ext (by omega)⟩
    · exact absurd h (by simp)
  · rintro ⟨hT, rfl⟩
    have hcond : ∀ a : Fin 2, 0 ≤ ScatterDims.start (s := ⟨2, ![N, C]⟩) ⟨[1], [0], [0], 1, wf⟩ (ix2 m c) idx a
          + (ScatterDims.window (s := ⟨2, ![N, C]⟩) (si := ⟨2, ![M, 1]⟩) ⟨[1], [0], [0], 1, wf⟩ (ix2 m c) a : Int) ∧
        ScatterDims.start (s := ⟨2, ![N, C]⟩) ⟨[1], [0], [0], 1, wf⟩ (ix2 m c) idx a
          + (ScatterDims.window (s := ⟨2, ![N, C]⟩) (si := ⟨2, ![M, 1]⟩) ⟨[1], [0], [0], 1, wf⟩ (ix2 m c) a : Int)
          < ((⟨2, ![N, C]⟩ : Shape).size a : Int) := by
      intro a
      match a with
      | ⟨0, _⟩ =>
        rw [show (⟨0, by omega⟩ : Fin 2) = 0 from rfl, hst0, hw0]
        change 0 ≤ (idx (ix2 m 0)).toInt + ((0 : Nat) : Int) ∧ (idx (ix2 m 0)).toInt + ((0 : Nat) : Int) < (N : Int)
        have := n.isLt
        omega
      | ⟨1, _⟩ =>
        rw [show (⟨1, by omega⟩ : Fin 2) = 1 from rfl, hst1, hw1]
        change 0 ≤ 0 + ((c.val : Nat) : Int) ∧ 0 + ((c.val : Nat) : Int) < (C : Int)
        have := c.isLt
        omega
    unfold ScatterDims.resultIdx?
    rw [dif_pos hcond]
    congr 1
    funext a
    apply Fin.ext
    match a with
    | ⟨0, _⟩ =>
      show (ScatterDims.start (s := ⟨2, ![N, C]⟩) ⟨[1], [0], [0], 1, wf⟩ (ix2 m c) idx 0
          + (ScatterDims.window (s := ⟨2, ![N, C]⟩) (si := ⟨2, ![M, 1]⟩) ⟨[1], [0], [0], 1, wf⟩ (ix2 m c) 0 : Int)).toNat = n.val
      rw [hst0, hw0]
      change ((idx (ix2 m 0)).toInt + ((0 : Nat) : Int)).toNat = n.val
      omega
    | ⟨1, _⟩ =>
      show (ScatterDims.start (s := ⟨2, ![N, C]⟩) ⟨[1], [0], [0], 1, wf⟩ (ix2 m c) idx 1
          + (ScatterDims.window (s := ⟨2, ![N, C]⟩) (si := ⟨2, ![M, 1]⟩) ⟨[1], [0], [0], 1, wf⟩ (ix2 m c) 1 : Int)).toNat = c.val
      rw [hst1, hw1]
      change (0 + ((c.val : Nat) : Int)).toNat = c.val
      omega

/-- THE ROW FORM at rank 2: the accumulating scatter at operand element `(n, c)` is the operand there plus the sum of
    `upd (m, c)` over the update rows `m` whose index word `idx (m, 0)`, read signed, is `n`. -/
theorem hostScatterAdd_rows2 {N M C w : Nat} (d : ScatterDims ⟨2, ![N, C]⟩ ⟨2, ![M, 1]⟩ ⟨2, ![M, C]⟩)
    (hd : RowScatter2 d) (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd d x idx upd (ix2 n c)
      = x (ix2 n c) + ∑ m ∈ Finset.univ.filter (fun m : Fin M => (idx (ix2 m 0)).toInt = (n.val : Int)), upd (ix2 m c) := by
  unfold Ideal.hostScatterAdd
  congr 1
  symm
  refine Finset.sum_bij (fun m _ => ix2 m c) ?_ ?_ ?_ ?_
  · intro m hm
    simp only [Finset.mem_filter, Finset.mem_univ, true_and] at hm ⊢
    exact (resultIdx?_rows2 d hd m c idx n c).2 ⟨hm, rfl⟩
  · intro m₁ _ m₂ _ h
    exact congrFun h 0
  · intro j hj
    obtain ⟨a, b, rfl⟩ : ∃ a b, j = ix2 a b := ⟨j 0, j 1, eq_ix2 j⟩
    simp only [Finset.mem_filter, Finset.mem_univ, true_and] at hj
    obtain ⟨hT, hc⟩ := (resultIdx?_rows2 d hd a b idx n c).1 hj
    subst hc
    exact ⟨a, by simp only [Finset.mem_filter, Finset.mem_univ, true_and]; exact hT, rfl⟩
  · intro m _; rfl

/-- The row form stated on the printed operation: at the extended reals `Host.scatterAdd d x idx upd` is
    `Ideal.hostScatterAdd d x idx upd` (by definition), so it reads row-wise as above. -/
theorem scatterAdd_rows2 {N M C w : Nat} {φ : FTy} (d : ScatterDims ⟨2, ![N, C]⟩ ⟨2, ![M, 1]⟩ ⟨2, ![M, C]⟩)
    (hd : RowScatter2 d) (x : FVec Ideal ⟨2, ![N, C]⟩ φ) (idx : IVec ⟨2, ![M, 1]⟩ w)
    (upd : FVec Ideal ⟨2, ![M, C]⟩ φ) (n : Fin N) (c : Fin C) :
    Host.scatterAdd d x idx upd (ix2 n c)
      = x (ix2 n c) + ∑ m ∈ Finset.univ.filter (fun m : Fin M => (idx (ix2 m 0)).toInt = (n.val : Int)), upd (ix2 m c) :=
  hostScatterAdd_rows2 d hd x idx upd n c

/-- A sum over `Fin (M₁ + M₂)` filtered by a predicate splits over the first `M₁` and the last `M₂` positions. -/
theorem sum_filter_fin_add {α : Type*} [AddCommMonoid α] {M₁ M₂ : Nat} (q : Fin (M₁ + M₂) → Prop) [DecidablePred q]
    (f : Fin (M₁ + M₂) → α) :
    ∑ m ∈ Finset.univ.filter q, f m
      = ∑ m ∈ Finset.univ.filter (fun m : Fin M₁ => q (Fin.castAdd M₂ m)), f (Fin.castAdd M₂ m)
        + ∑ m ∈ Finset.univ.filter (fun m : Fin M₂ => q (Fin.natAdd M₁ m)), f (Fin.natAdd M₁ m) := by
  rw [Finset.sum_filter, Finset.sum_filter, Finset.sum_filter, Fin.sum_univ_add]

/-- Row `m` of the first `M₁` rows is below `M = M₁ + M₂`. -/
theorem lt_of_left {M M₁ M₂ : Nat} (hM : M = M₁ + M₂) (m : Fin M₁) : m.val < M := by have := m.isLt; omega
/-- Row `M₁ + m`, `m` among the last `M₂` rows, is below `M = M₁ + M₂`. -/
theorem lt_of_right {M M₁ M₂ : Nat} (hM : M = M₁ + M₂) (m : Fin M₂) : M₁ + m.val < M := by have := m.isLt; omega

/-- THE ROW FORM OVER TWO STACKED BLOCKS: with `M = M₁ + M₂` update rows, the accumulating scatter at `(n, c)` is the
    operand there plus the sum over the rows `m < M₁` whose index is `n` plus the sum over the rows `M₁ + m`, `m < M₂`,
    whose index is `n`. -/
theorem hostScatterAdd_rows2_halves {N M M₁ M₂ C w : Nat} (hM : M = M₁ + M₂)
    (d : ScatterDims ⟨2, ![N, C]⟩ ⟨2, ![M, 1]⟩ ⟨2, ![M, C]⟩) (hd : RowScatter2 d)
    (x : (⟨2, ![N, C]⟩ : Shape).Idx → EReal) (idx : IVec ⟨2, ![M, 1]⟩ w)
    (upd : (⟨2, ![M, C]⟩ : Shape).Idx → EReal) (n : Fin N) (c : Fin C) :
    Ideal.hostScatterAdd d x idx upd (ix2 n c)
      = x (ix2 n c)
        + ∑ m ∈ Finset.univ.filter (fun m : Fin M₁ => (idx (ix2 ⟨m.val, lt_of_left hM m⟩ 0)).toInt = (n.val : Int)),
            upd (ix2 ⟨m.val, lt_of_left hM m⟩ c)
        + ∑ m ∈ Finset.univ.filter (fun m : Fin M₂ => (idx (ix2 ⟨M₁ + m.val, lt_of_right hM m⟩ 0)).toInt = (n.val : Int)),
            upd (ix2 ⟨M₁ + m.val, lt_of_right hM m⟩ c) := by
  subst hM
  rw [hostScatterAdd_rows2 d hd, add_assoc]
  congr 1
  exact sum_filter_fin_add (fun m : Fin (M₁ + M₂) => (idx (ix2 m 0)).toInt = (n.val : Int)) (fun m => upd (ix2 m c))

/-- THE MERGE LAW at rank 2: if the index column `idx : [M, 1]` reads (signed) as `i₁` on its first `M₁` rows and as
    `i₂` on its last `M₂`, and the updates `upd : [M, C]` are `u₁` on the first `M₁` rows and `u₂` on the last `M₂`
    (`M = M₁ + M₂`), then scattering `upd` at `idx` into `x` is scattering `u₁` at `i₁` into `x` and then `u₂` at `i₂`
    into the result. No finiteness: the extended reals' addition is commutative and associative. The index words'
    widths may differ. -/
theorem hostScatterAdd_rows2_merge {N M M₁ M₂ C w w₁ w₂ : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x : (⟨2, ![N, C]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨2, ![M₁, C]⟩ : Shape).Idx → EReal)
    (u₂ : (⟨2, ![M₂, C]⟩ : Shape).Idx → EReal)
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ (m : Fin M₁) (c : Fin C), upd (ix2 ⟨m.val, lt_of_left hM m⟩ c) = u₁ (ix2 m c))
    (hu₂ : ∀ (m : Fin M₂) (c : Fin C), upd (ix2 ⟨M₁ + m.val, lt_of_right hM m⟩ c) = u₂ (ix2 m c)) :
    Ideal.hostScatterAdd d x idx upd = Ideal.hostScatterAdd d₂ (Ideal.hostScatterAdd d₁ x i₁ u₁) i₂ u₂ := by
  funext j
  obtain ⟨n, c, rfl⟩ : ∃ n c, j = ix2 n c := ⟨j 0, j 1, eq_ix2 j⟩
  rw [hostScatterAdd_rows2_halves hM d hd, hostScatterAdd_rows2 d₂ hd₂, hostScatterAdd_rows2 d₁ hd₁]
  congr 1
  · congr 1
    exact Finset.sum_congr (Finset.filter_congr fun m _ => by rw [hi₁]) fun m _ => hu₁ m c
  · exact Finset.sum_congr (Finset.filter_congr fun m _ => by rw [hi₂]) fun m _ => hu₂ m c

/-! ## A two-block concatenation along axis 0 read at a row -/

/-- A concatenation of `[M₁, C]` and `[M₂, C]` along axis 0, read at a row `j` of the first block (`j = m < M₁`):
    the first block at `(m, c)`. -/
theorem concatenate_rows2_left {α : Type} {M M₁ M₂ C : Nat} (x₁ : (⟨2, ![M₁, C]⟩ : Shape).Idx → α)
    (x₂ : (⟨2, ![M₂, C]⟩ : Shape).Idx → α)
    (h : Shape.Concatenates [⟨2, ![M₁, C]⟩, ⟨2, ![M₂, C]⟩] ⟨2, ![M, C]⟩ 0) (j : Fin M) (m : Fin M₁) (c : Fin C)
    (hj : j.val = m.val) :
    concatenate ⟨2, ![M, C]⟩ 0 [⟨⟨2, ![M₁, C]⟩, x₁⟩, ⟨⟨2, ![M₂, C]⟩, x₂⟩] h (ix2 j c) = x₁ (ix2 m c) := by
  refine concatenate_pair_apply_left (0 : Fin 2) x₁ x₂ h (ix2 j c) rfl (ix2 m c) fun b => ?_
  match b with
  | ⟨0, _⟩ => exact hj.symm
  | ⟨1, _⟩ => rfl

/-- A concatenation of `[M₁, C]` and `[M₂, C]` along axis 0, read at a row `j` of the second block (`j = M₁ + m`,
    `m < M₂`): the second block at `(m, c)`. -/
theorem concatenate_rows2_right {α : Type} {M M₁ M₂ C : Nat} (x₁ : (⟨2, ![M₁, C]⟩ : Shape).Idx → α)
    (x₂ : (⟨2, ![M₂, C]⟩ : Shape).Idx → α)
    (h : Shape.Concatenates [⟨2, ![M₁, C]⟩, ⟨2, ![M₂, C]⟩] ⟨2, ![M, C]⟩ 0) (j : Fin M) (m : Fin M₂) (c : Fin C)
    (hj : j.val = M₁ + m.val) :
    concatenate ⟨2, ![M, C]⟩ 0 [⟨⟨2, ![M₁, C]⟩, x₁⟩, ⟨⟨2, ![M₂, C]⟩, x₂⟩] h (ix2 j c) = x₂ (ix2 m c) := by
  refine concatenate_pair_apply_right (0 : Fin 2) x₁ x₂ h (ix2 j c) rfl rfl (ix2 m c) (fun b hb => ?_) ?_
  · match b with
    | ⟨0, _⟩ => exact absurd rfl hb
    | ⟨1, _⟩ => rfl
  · show m.val + M₁ = j.val
    omega

/-- A concatenation of two vectors `[M₁]` and `[M₂]`, read at a position `j = m < M₁`: the first at `m`. -/
theorem concatenate_rows1_left {α : Type} {M M₁ M₂ : Nat} (x₁ : (⟨1, ![M₁]⟩ : Shape).Idx → α)
    (x₂ : (⟨1, ![M₂]⟩ : Shape).Idx → α)
    (h : Shape.Concatenates [⟨1, ![M₁]⟩, ⟨1, ![M₂]⟩] ⟨1, ![M]⟩ 0) (j : Fin M) (m : Fin M₁) (hj : j.val = m.val) :
    concatenate ⟨1, ![M]⟩ 0 [⟨⟨1, ![M₁]⟩, x₁⟩, ⟨⟨1, ![M₂]⟩, x₂⟩] h (ix1 j) = x₁ (ix1 m) := by
  refine concatenate_pair_apply_left (0 : Fin 1) x₁ x₂ h (ix1 j) rfl (ix1 m) fun b => ?_
  match b with
  | ⟨0, _⟩ => exact hj.symm

/-- A concatenation of two vectors `[M₁]` and `[M₂]`, read at a position `j = M₁ + m`, `m < M₂`: the second at `m`. -/
theorem concatenate_rows1_right {α : Type} {M M₁ M₂ : Nat} (x₁ : (⟨1, ![M₁]⟩ : Shape).Idx → α)
    (x₂ : (⟨1, ![M₂]⟩ : Shape).Idx → α)
    (h : Shape.Concatenates [⟨1, ![M₁]⟩, ⟨1, ![M₂]⟩] ⟨1, ![M]⟩ 0) (j : Fin M) (m : Fin M₂)
    (hj : j.val = M₁ + m.val) :
    concatenate ⟨1, ![M]⟩ 0 [⟨⟨1, ![M₁]⟩, x₁⟩, ⟨⟨1, ![M₂]⟩, x₂⟩] h (ix1 j) = x₂ (ix1 m) := by
  refine concatenate_pair_apply_right (0 : Fin 1) x₁ x₂ h (ix1 j) rfl rfl (ix1 m) (fun b hb => ?_) ?_
  · match b with
    | ⟨0, _⟩ => exact absurd rfl hb
  · show m.val + M₁ = j.val
    omega

/-- THE MERGE LAW AGAINST THE CONCATENATION at rank 2: scattering the concatenation (along axis 0) of two update blocks
    `u₁ : [M₁, C]`, `u₂ : [M₂, C]` at the concatenation of two index columns `i₁ : [M₁, 1]`, `i₂ : [M₂, 1]` into `x` is
    scattering `u₁` at `i₁` into `x` and then `u₂` at `i₂` into the result. -/
theorem hostScatterAdd_rows2_concat {N M M₁ M₂ C w : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x : (⟨2, ![N, C]⟩ : Shape).Idx → EReal) (i₁ : IVec ⟨2, ![M₁, 1]⟩ w) (i₂ : IVec ⟨2, ![M₂, 1]⟩ w)
    (u₁ : (⟨2, ![M₁, C]⟩ : Shape).Idx → EReal) (u₂ : (⟨2, ![M₂, C]⟩ : Shape).Idx → EReal)
    (hI : Shape.Concatenates [⟨2, ![M₁, 1]⟩, ⟨2, ![M₂, 1]⟩] ⟨2, ![M, 1]⟩ 0)
    (hU : Shape.Concatenates [⟨2, ![M₁, C]⟩, ⟨2, ![M₂, C]⟩] ⟨2, ![M, C]⟩ 0) :
    Ideal.hostScatterAdd d x (concatenate ⟨2, ![M, 1]⟩ 0 [⟨⟨2, ![M₁, 1]⟩, i₁⟩, ⟨⟨2, ![M₂, 1]⟩, i₂⟩] hI)
        (concatenate ⟨2, ![M, C]⟩ 0 [⟨⟨2, ![M₁, C]⟩, u₁⟩, ⟨⟨2, ![M₂, C]⟩, u₂⟩] hU)
      = Ideal.hostScatterAdd d₂ (Ideal.hostScatterAdd d₁ x i₁ u₁) i₂ u₂ :=
  hostScatterAdd_rows2_merge hM d hd d₁ hd₁ d₂ hd₂ x _ i₁ i₂ _ u₁ u₂
    (fun m => congrArg BitVec.toInt (concatenate_rows2_left i₁ i₂ hI _ m 0 rfl))
    (fun m => congrArg BitVec.toInt (concatenate_rows2_right i₁ i₂ hI _ m 0 rfl))
    (fun m c => concatenate_rows2_left u₁ u₂ hU _ m c rfl)
    (fun m c => concatenate_rows2_right u₁ u₂ hU _ m c rfl)

/-! ## Rank 3: operand `[N, A, B]`, indices `[M, 1]`, updates `[M, A, B]` -/

/-- The row pattern's dimension numbers at rank 3: `update_window_dims = [1, 2]`, `inserted_window_dims = [0]`,
    `scatter_dims_to_operand_dims = [0]`, `index_vector_dim = 1`. At a printed record: `⟨rfl, rfl, rfl, rfl⟩`. -/
structure RowScatter3 {N M A B : Nat} (d : ScatterDims ⟨3, ![N, A, B]⟩ ⟨2, ![M, 1]⟩ ⟨3, ![M, A, B]⟩) : Prop where
  uw : d.updateWindowDims = [1, 2]
  iw : d.insertedWindowDims = [0]
  sd : d.scatterDimsToOperandDims = [0]
  iv : d.indexVectorDim = 1

/-- Where an update element lands, in the row pattern at rank 3: update `(m, a, b)` lands on operand `(n, a', b')`
    exactly when row `m`'s index word, read signed, is `n`, and `a = a'`, `b = b'`. -/
theorem resultIdx?_rows3 {N M A B w : Nat} (d : ScatterDims ⟨3, ![N, A, B]⟩ ⟨2, ![M, 1]⟩ ⟨3, ![M, A, B]⟩)
    (hd : RowScatter3 d) (m : Fin M) (a : Fin A) (b : Fin B) (idx : IVec ⟨2, ![M, 1]⟩ w) (n : Fin N) (a' : Fin A)
    (b' : Fin B) :
    d.resultIdx? (ix3 m a b) idx = some (ix3 n a' b') ↔ (idx (ix2 m 0)).toInt = (n.val : Int) ∧ a = a' ∧ b = b' := by
  obtain ⟨hu, hi, hs, hv⟩ := hd
  obtain ⟨uw, iw, sd, iv, wf⟩ := d
  simp only at hu hi hs hv
  subst hu hi hs hv
  have hsi : ∀ (j : (⟨3, ![M, A, B]⟩ : Shape).Idx) (k : Fin 1),
      ScatterDims.siIdx (s := ⟨3, ![N, A, B]⟩) ⟨[1, 2], [0], [0], 1, wf⟩ j k = ix2 (j 0) 0 := by
    intro j k
    funext q
    match q with
    | ⟨0, _⟩ =>
      unfold ScatterDims.siIdx ScatterDims.siCoord
      rw [dif_neg (by simp)]
      apply Fin.ext
      show (j (([0] : List (Fin 3))[_]'_)).val = (j 0).val
      exact congrArg (fun t => (j t).val) (getElem_singleton_any _ _ _)
    | ⟨1, _⟩ => exact Subsingleton.elim (α := Fin 1) _ _
  have hst0 : ∀ j : (⟨3, ![M, A, B]⟩ : Shape).Idx,
      ScatterDims.start (s := ⟨3, ![N, A, B]⟩) ⟨[1, 2], [0], [0], 1, wf⟩ j idx 0 = (idx (ix2 (j 0) 0)).toInt := by
    intro j
    unfold ScatterDims.start
    rw [dif_pos (List.mem_singleton.2 rfl)]
    exact congrArg (fun t => (idx t).toInt) (hsi j _)
  have hst1 : ∀ j : (⟨3, ![M, A, B]⟩ : Shape).Idx,
      ScatterDims.start (s := ⟨3, ![N, A, B]⟩) ⟨[1, 2], [0], [0], 1, wf⟩ j idx 1 = 0 := by
    intro j
    unfold ScatterDims.start
    rw [dif_neg (by simp)]
  have hst2 : ∀ j : (⟨3, ![M, A, B]⟩ : Shape).Idx,
      ScatterDims.start (s := ⟨3, ![N, A, B]⟩) ⟨[1, 2], [0], [0], 1, wf⟩ j idx 2 = 0 := by
    intro j
    unfold ScatterDims.start
    rw [dif_neg (by simp)]
  have hw0 : ∀ j : (⟨3, ![M, A, B]⟩ : Shape).Idx,
      ScatterDims.window (s := ⟨3, ![N, A, B]⟩) (si := ⟨2, ![M, 1]⟩) ⟨[1, 2], [0], [0], 1, wf⟩ j 0 = 0 := by
    intro j
    have h0 : (0 : Fin 3) ∉ ScatterDims.sKept (s := ⟨3, ![N, A, B]⟩) (si := ⟨2, ![M, 1]⟩) (u := ⟨3, ![M, A, B]⟩)
        ⟨[1, 2], [0], [0], 1, wf⟩ := by
      show (0 : Fin 3) ∉ ([1, 2] : List (Fin 3)); simp
    unfold ScatterDims.window
    rw [dif_neg h0]
  have hw1 : ∀ j : (⟨3, ![M, A, B]⟩ : Shape).Idx,
      ScatterDims.window (s := ⟨3, ![N, A, B]⟩) (si := ⟨2, ![M, 1]⟩) ⟨[1, 2], [0], [0], 1, wf⟩ j 1 = (j 1).val := by
    intro j
    have h1 : (1 : Fin 3) ∈ ScatterDims.sKept (s := ⟨3, ![N, A, B]⟩) (si := ⟨2, ![M, 1]⟩) (u := ⟨3, ![M, A, B]⟩)
        ⟨[1, 2], [0], [0], 1, wf⟩ := by
      show (1 : Fin 3) ∈ ([1, 2] : List (Fin 3)); simp
    unfold ScatterDims.window
    rw [dif_pos h1]
    show (j (([1, 2] : List (Fin 3))[List.idxOf (1 : Fin 3) ([1, 2] : List (Fin 3))]'_)).val = (j 1).val
    exact congrArg (fun t => (j t).val) (List.getElem_idxOf _)
  have hw2 : ∀ j : (⟨3, ![M, A, B]⟩ : Shape).Idx,
      ScatterDims.window (s := ⟨3, ![N, A, B]⟩) (si := ⟨2, ![M, 1]⟩) ⟨[1, 2], [0], [0], 1, wf⟩ j 2 = (j 2).val := by
    intro j
    have h2 : (2 : Fin 3) ∈ ScatterDims.sKept (s := ⟨3, ![N, A, B]⟩) (si := ⟨2, ![M, 1]⟩) (u := ⟨3, ![M, A, B]⟩)
        ⟨[1, 2], [0], [0], 1, wf⟩ := by
      show (2 : Fin 3) ∈ ([1, 2] : List (Fin 3)); simp
    unfold ScatterDims.window
    rw [dif_pos h2]
    show (j (([1, 2] : List (Fin 3))[List.idxOf (2 : Fin 3) ([1, 2] : List (Fin 3))]'_)).val = (j 2).val
    exact congrArg (fun t => (j t).val) (List.getElem_idxOf _)
  constructor
  · intro h
    unfold ScatterDims.resultIdx? at h
    split at h
    · next hc =>
      have hf := Option.some.inj h
      have e0 := congrArg Fin.val (congrFun hf 0)
      have e1 := congrArg Fin.val (congrFun hf 1)
      have e2 := congrArg Fin.val (congrFun hf 2)
      have c0 := hc 0
      simp only [hst0, hw0] at e0 c0
      simp only [hst1, hw1] at e1
      simp only [hst2, hw2] at e2
      change ((idx (ix2 m 0)).toInt + ((0 : Nat) : Int)).toNat = n.val at e0
      change 0 ≤ (idx (ix2 m 0)).toInt + ((0 : Nat) : Int) ∧ _ at c0
      change (0 + ((a.val : Nat) : Int)).toNat = a'.val at e1
      change (0 + ((b.val : Nat) : Int)).toNat = b'.val at e2
      exact ⟨by omega, Fin.ext (by omega), Fin.ext (by omega)⟩
    · exact absurd h (by simp)
  · rintro ⟨hT, rfl, rfl⟩
    have hcond : ∀ q : Fin 3, 0 ≤ ScatterDims.start (s := ⟨3, ![N, A, B]⟩) ⟨[1, 2], [0], [0], 1, wf⟩ (ix3 m a b) idx q
          + (ScatterDims.window (s := ⟨3, ![N, A, B]⟩) (si := ⟨2, ![M, 1]⟩) ⟨[1, 2], [0], [0], 1, wf⟩ (ix3 m a b) q : Int) ∧
        ScatterDims.start (s := ⟨3, ![N, A, B]⟩) ⟨[1, 2], [0], [0], 1, wf⟩ (ix3 m a b) idx q
          + (ScatterDims.window (s := ⟨3, ![N, A, B]⟩) (si := ⟨2, ![M, 1]⟩) ⟨[1, 2], [0], [0], 1, wf⟩ (ix3 m a b) q : Int)
          < ((⟨3, ![N, A, B]⟩ : Shape).size q : Int) := by
      intro q
      match q with
      | ⟨0, _⟩ =>
        rw [show (⟨0, by omega⟩ : Fin 3) = 0 from rfl, hst0, hw0]
        change 0 ≤ (idx (ix2 m 0)).toInt + ((0 : Nat) : Int) ∧ (idx (ix2 m 0)).toInt + ((0 : Nat) : Int) < (N : Int)
        have := n.isLt
        omega
      | ⟨1, _⟩ =>
        rw [show (⟨1, by omega⟩ : Fin 3) = 1 from rfl, hst1, hw1]
        change 0 ≤ 0 + ((a.val : Nat) : Int) ∧ 0 + ((a.val : Nat) : Int) < (A : Int)
        have := a.isLt
        omega
      | ⟨2, _⟩ =>
        rw [show (⟨2, by omega⟩ : Fin 3) = 2 from rfl, hst2, hw2]
        change 0 ≤ 0 + ((b.val : Nat) : Int) ∧ 0 + ((b.val : Nat) : Int) < (B : Int)
        have := b.isLt
        omega
    unfold ScatterDims.resultIdx?
    rw [dif_pos hcond]
    congr 1
    funext q
    apply Fin.ext
    match q with
    | ⟨0, _⟩ =>
      show (ScatterDims.start (s := ⟨3, ![N, A, B]⟩) ⟨[1, 2], [0], [0], 1, wf⟩ (ix3 m a b) idx 0
          + (ScatterDims.window (s := ⟨3, ![N, A, B]⟩) (si := ⟨2, ![M, 1]⟩) ⟨[1, 2], [0], [0], 1, wf⟩ (ix3 m a b) 0 : Int)).toNat = n.val
      rw [hst0, hw0]
      change ((idx (ix2 m 0)).toInt + ((0 : Nat) : Int)).toNat = n.val
      omega
    | ⟨1, _⟩ =>
      show (ScatterDims.start (s := ⟨3, ![N, A, B]⟩) ⟨[1, 2], [0], [0], 1, wf⟩ (ix3 m a b) idx 1
          + (ScatterDims.window (s := ⟨3, ![N, A, B]⟩) (si := ⟨2, ![M, 1]⟩) ⟨[1, 2], [0], [0], 1, wf⟩ (ix3 m a b) 1 : Int)).toNat = a.val
      rw [hst1, hw1]
      change (0 + ((a.val : Nat) : Int)).toNat = a.val
      omega
    | ⟨2, _⟩ =>
      show (ScatterDims.start (s := ⟨3, ![N, A, B]⟩) ⟨[1, 2], [0], [0], 1, wf⟩ (ix3 m a b) idx 2
          + (ScatterDims.window (s := ⟨3, ![N, A, B]⟩) (si := ⟨2, ![M, 1]⟩) ⟨[1, 2], [0], [0], 1, wf⟩ (ix3 m a b) 2 : Int)).toNat = b.val
      rw [hst2, hw2]
      change (0 + ((b.val : Nat) : Int)).toNat = b.val
      omega

/-- THE ROW FORM at rank 3: the accumulating scatter at operand element `(n, a, b)` is the operand there plus the sum of
    `upd (m, a, b)` over the update rows `m` whose index word `idx (m, 0)`, read signed, is `n`. -/
theorem hostScatterAdd_rows3 {N M A B w : Nat} (d : ScatterDims ⟨3, ![N, A, B]⟩ ⟨2, ![M, 1]⟩ ⟨3, ![M, A, B]⟩)
    (hd : RowScatter3 d) (x : (⟨3, ![N, A, B]⟩ : Shape).Idx → EReal) (idx : IVec ⟨2, ![M, 1]⟩ w)
    (upd : (⟨3, ![M, A, B]⟩ : Shape).Idx → EReal) (n : Fin N) (a : Fin A) (b : Fin B) :
    Ideal.hostScatterAdd d x idx upd (ix3 n a b)
      = x (ix3 n a b)
        + ∑ m ∈ Finset.univ.filter (fun m : Fin M => (idx (ix2 m 0)).toInt = (n.val : Int)), upd (ix3 m a b) := by
  unfold Ideal.hostScatterAdd
  congr 1
  symm
  refine Finset.sum_bij (fun m _ => ix3 m a b) ?_ ?_ ?_ ?_
  · intro m hm
    simp only [Finset.mem_filter, Finset.mem_univ, true_and] at hm ⊢
    exact (resultIdx?_rows3 d hd m a b idx n a b).2 ⟨hm, rfl, rfl⟩
  · intro m₁ _ m₂ _ h
    exact congrFun h 0
  · intro j hj
    obtain ⟨m, a₀, b₀, rfl⟩ : ∃ m a₀ b₀, j = ix3 m a₀ b₀ := ⟨j 0, j 1, j 2, eq_ix3 j⟩
    simp only [Finset.mem_filter, Finset.mem_univ, true_and] at hj
    obtain ⟨hT, ha, hb⟩ := (resultIdx?_rows3 d hd m a₀ b₀ idx n a b).1 hj
    subst ha hb
    exact ⟨m, by simp only [Finset.mem_filter, Finset.mem_univ, true_and]; exact hT, rfl⟩
  · intro m _; rfl

/-- The rank-3 row form stated on the printed operation (at the extended reals `Host.scatterAdd` is
    `Ideal.hostScatterAdd` by definition). -/
theorem scatterAdd_rows3 {N M A B w : Nat} {φ : FTy} (d : ScatterDims ⟨3, ![N, A, B]⟩ ⟨2, ![M, 1]⟩ ⟨3, ![M, A, B]⟩)
    (hd : RowScatter3 d) (x : FVec Ideal ⟨3, ![N, A, B]⟩ φ) (idx : IVec ⟨2, ![M, 1]⟩ w)
    (upd : FVec Ideal ⟨3, ![M, A, B]⟩ φ) (n : Fin N) (a : Fin A) (b : Fin B) :
    Host.scatterAdd d x idx upd (ix3 n a b)
      = x (ix3 n a b)
        + ∑ m ∈ Finset.univ.filter (fun m : Fin M => (idx (ix2 m 0)).toInt = (n.val : Int)), upd (ix3 m a b) :=
  hostScatterAdd_rows3 d hd x idx upd n a b

/-- A rank-3 row scatter of updates `[M, A, B]` and the rank-2 row scatter of the same updates flattened to
    `[M, A * B]`-style columns agree row-wise whenever the two update arrays agree elementwise and the operands do: both
    are "operand plus the sum over the rows whose index is `n`". Stated at one element: if `x₃ (n, a, b) = x₂ (n, c)`
    and `u₃ (m, a, b) = u₂ (m, c)` for every row `m`, and the two index columns read the same signed words, the two
    scatters agree at `(n, a, b)` / `(n, c)`. -/
theorem hostScatterAdd_rows3_eq_rows2 {N M A B C w w' : Nat}
    (d₃ : ScatterDims ⟨3, ![N, A, B]⟩ ⟨2, ![M, 1]⟩ ⟨3, ![M, A, B]⟩) (hd₃ : RowScatter3 d₃)
    (d₂ : ScatterDims ⟨2, ![N, C]⟩ ⟨2, ![M, 1]⟩ ⟨2, ![M, C]⟩) (hd₂ : RowScatter2 d₂)
    (x₃ : (⟨3, ![N, A, B]⟩ : Shape).Idx → EReal) (x₂ : (⟨2, ![N, C]⟩ : Shape).Idx → EReal)
    (i₃ : IVec ⟨2, ![M, 1]⟩ w) (i₂ : IVec ⟨2, ![M, 1]⟩ w')
    (u₃ : (⟨3, ![M, A, B]⟩ : Shape).Idx → EReal) (u₂ : (⟨2, ![M, C]⟩ : Shape).Idx → EReal)
    (n : Fin N) (a : Fin A) (b : Fin B) (c : Fin C)
    (hx : x₃ (ix3 n a b) = x₂ (ix2 n c)) (hi : ∀ m : Fin M, (i₃ (ix2 m 0)).toInt = (i₂ (ix2 m 0)).toInt)
    (hu : ∀ m : Fin M, u₃ (ix3 m a b) = u₂ (ix2 m c)) :
    Ideal.hostScatterAdd d₃ x₃ i₃ u₃ (ix3 n a b) = Ideal.hostScatterAdd d₂ x₂ i₂ u₂ (ix2 n c) := by
  rw [hostScatterAdd_rows3 d₃ hd₃, hostScatterAdd_rows2 d₂ hd₂, hx]
  congr 1
  exact Finset.sum_congr (Finset.filter_congr fun m _ => by rw [hi]) fun m _ => hu m

/-! ## The merged rank-2 scatter against two successive rank-3 scatters -/

/-- THE MERGE LAW ACROSS RANKS, at one element: a rank-2 row scatter of `M = M₁ + M₂` update rows `[M, C]` into
    `x₂ : [N, C]`, read at `(n, c)`, is the rank-3 row scatter of `u₁ : [M₁, A, B]` at `i₁` into `x₃ : [N, A, B]` followed by
    that of `u₂ : [M₂, A, B]` at `i₂`, read at `(n, a, b)`, whenever at that element the operands agree, the index column
    reads (signed) as `i₁` on its first `M₁` rows and as `i₂` on its last `M₂`, and column `c` of the updates is
    `u₁ (·, a, b)` on the first `M₁` rows and `u₂ (·, a, b)` on the last `M₂`. -/
theorem hostScatterAdd_rows2_merge_rows3 {N M M₁ M₂ A B C w w₁ w₂ : Nat} (hM : M = M₁ + M₂)
    (d : ScatterDims ⟨2, ![N, C]⟩ ⟨2, ![M, 1]⟩ ⟨2, ![M, C]⟩) (hd : RowScatter2 d)
    (d₁ : ScatterDims ⟨3, ![N, A, B]⟩ ⟨2, ![M₁, 1]⟩ ⟨3, ![M₁, A, B]⟩) (hd₁ : RowScatter3 d₁)
    (d₂ : ScatterDims ⟨3, ![N, A, B]⟩ ⟨2, ![M₂, 1]⟩ ⟨3, ![M₂, A, B]⟩) (hd₂ : RowScatter3 d₂)
    (x₂ : (⟨2, ![N, C]⟩ : Shape).Idx → EReal) (x₃ : (⟨3, ![N, A, B]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨3, ![M₁, A, B]⟩ : Shape).Idx → EReal)
    (u₂ : (⟨3, ![M₂, A, B]⟩ : Shape).Idx → EReal) (n : Fin N) (a : Fin A) (b : Fin B) (c : Fin C)
    (hx : x₂ (ix2 n c) = x₃ (ix3 n a b))
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ m : Fin M₁, upd (ix2 ⟨m.val, lt_of_left hM m⟩ c) = u₁ (ix3 m a b))
    (hu₂ : ∀ m : Fin M₂, upd (ix2 ⟨M₁ + m.val, lt_of_right hM m⟩ c) = u₂ (ix3 m a b)) :
    Ideal.hostScatterAdd d x₂ idx upd (ix2 n c)
      = Ideal.hostScatterAdd d₂ (Ideal.hostScatterAdd d₁ x₃ i₁ u₁) i₂ u₂ (ix3 n a b) := by
  rw [hostScatterAdd_rows2_halves hM d hd, hostScatterAdd_rows3 d₂ hd₂, hostScatterAdd_rows3 d₁ hd₁, hx]
  congr 1
  · congr 1
    exact Finset.sum_congr (Finset.filter_congr fun m _ => by rw [hi₁]) fun m _ => hu₁ m
  · exact Finset.sum_congr (Finset.filter_congr fun m _ => by rw [hi₂]) fun m _ => hu₂ m

/-- THE MERGE LAW at rank 2, at one element (the pointwise form of `hostScatterAdd_rows2_merge`, its hypotheses asked
    only at the column `c` read). -/
theorem hostScatterAdd_rows2_merge_at {N M M₁ M₂ C w w₁ w₂ : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (x x' : (⟨2, ![N, C]⟩ : Shape).Idx → EReal)
    (idx : IVec ⟨2, ![M, 1]⟩ w) (i₁ : IVec ⟨2, ![M₁, 1]⟩ w₁) (i₂ : IVec ⟨2, ![M₂, 1]⟩ w₂)
    (upd : (⟨2, ![M, C]⟩ : Shape).Idx → EReal) (u₁ : (⟨2, ![M₁, C]⟩ : Shape).Idx → EReal)
    (u₂ : (⟨2, ![M₂, C]⟩ : Shape).Idx → EReal) (n : Fin N) (c : Fin C)
    (hx : x (ix2 n c) = x' (ix2 n c))
    (hi₁ : ∀ m : Fin M₁, (idx (ix2 ⟨m.val, lt_of_left hM m⟩ 0)).toInt = (i₁ (ix2 m 0)).toInt)
    (hi₂ : ∀ m : Fin M₂, (idx (ix2 ⟨M₁ + m.val, lt_of_right hM m⟩ 0)).toInt = (i₂ (ix2 m 0)).toInt)
    (hu₁ : ∀ m : Fin M₁, upd (ix2 ⟨m.val, lt_of_left hM m⟩ c) = u₁ (ix2 m c))
    (hu₂ : ∀ m : Fin M₂, upd (ix2 ⟨M₁ + m.val, lt_of_right hM m⟩ c) = u₂ (ix2 m c)) :
    Ideal.hostScatterAdd d x idx upd (ix2 n c)
      = Ideal.hostScatterAdd d₂ (Ideal.hostScatterAdd d₁ x' i₁ u₁) i₂ u₂ (ix2 n c) := by
  rw [hostScatterAdd_rows2_halves hM d hd, hostScatterAdd_rows2 d₂ hd₂, hostScatterAdd_rows2 d₁ hd₁, hx]
  congr 1
  · congr 1
    exact Finset.sum_congr (Finset.filter_congr fun m _ => by rw [hi₁]) fun m _ => hu₁ m
  · exact Finset.sum_congr (Finset.filter_congr fun m _ => by rw [hi₂]) fun m _ => hu₂ m

/-! ## An index column broadcast from an index vector -/

/-- A vector `[M]` broadcast to a column `[M, 1]` (`broadcast_in_dim` with `dims = [0]`), read at row `j`: the vector
    at `j`. -/
theorem broadcastInDim_col_apply {α : Type} {M : Nat}
    (h : (⟨1, ![M]⟩ : Shape).BroadcastsInDim ⟨2, ![M, 1]⟩ (![0] : Fin 1 → Fin 2))
    (x : (⟨1, ![M]⟩ : Shape).Idx → α) (j : Fin M) (k : Fin 1) :
    broadcastInDim ⟨2, ![M, 1]⟩ ![0] h x (ix2 j k) = x (ix1 j) := by
  refine broadcastInDim_apply _ h x (ix2 j k) (ix1 j) fun a => ?_
  match a with
  | ⟨0, _⟩ =>
    show j.val = if M = 1 then 0 else j.val
    split
    · next h1 => have := j.isLt; omega
    · rfl

/-! ## The index wrap, and the merged index column of two stacked index vectors -/

/-- A negative index word counted from the end: `v + n` where `v` is negative (read signed), else `v`. -/
def wrapW (n v : BitVec 32) : BitVec 32 := Scalar.select (IntOp.cmpi .slt v 0#32) (IntOp.addi v n) v

/-- The wrap of an index array of shape `s` by `n`, operation by operation: where the word is negative (the signed
    comparison with the broadcast constant `0`) the word plus the broadcast constant `n`, elsewhere the word. -/
abbrev wrapI (s : Shape) (hb : (⟨0, ![]⟩ : Shape).BroadcastsInDim s (![] : Fin 0 → Fin s.rank)) (n : BitVec 32)
    (x : IVec s 32) : IVec s 32 :=
  select (cmpi .slt x (broadcastInDim s ![] hb (constantI ⟨0, ![]⟩ 32 0#32)))
    (addi x (broadcastInDim s ![] hb (constantI ⟨0, ![]⟩ 32 n))) x

/-- The wrap acts word by word. -/
theorem wrapI_apply (s : Shape) (hb : (⟨0, ![]⟩ : Shape).BroadcastsInDim s (![] : Fin 0 → Fin s.rank)) (n : BitVec 32)
    (x : IVec s 32) (i : s.Idx) : wrapI s hb n x i = wrapW n (x i) := rfl

/-- The wrapped index column of an index vector `[M]`: the vector wrapped by `n` and broadcast to a column `[M, 1]`. -/
abbrev wrapCol {M : Nat} (hb : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2)) (n : BitVec 32)
    (v : IVec ⟨1, ![M]⟩ 32) : IVec ⟨2, ![M, 1]⟩ 32 :=
  broadcastInDim ⟨2, ![M, 1]⟩ ![0] hc (wrapI ⟨1, ![M]⟩ hb n v)

/-- The wrapped index column at row `j`: the wrap of the vector's word `j`. -/
theorem wrapCol_apply {M : Nat} (hb : (⟨0, ![]⟩ : Shape).BroadcastsInDim ⟨1, ![M]⟩ (![] : Fin 0 → Fin 1))
    (hc : (⟨1, ![M]⟩ : Shape).BroadcastsInDim ⟨2, ![M, 1]⟩ (![0] : Fin 1 → Fin 2)) (n : BitVec 32)
    (v : IVec ⟨1, ![M]⟩ 32) (j : Fin M) (k : Fin 1) : wrapCol hb hc n v (ix2 j k) = wrapW n (v (ix1 j)) := by
  unfold wrapCol
  rw [broadcastInDim_col_apply]
  rfl

/-- Wrapping after stacking is wrapping before, on the first block: the wrapped column of the concatenation of
    `t₁ : [M₁]` and `t₂ : [M₂]`, at a row `j = m < M₁`, is the wrapped column of `t₁` at `m`. -/
theorem wrapCol_concat_left {M M₁ M₂ : Nat}
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hI : Shape.Concatenates [⟨1, ![M₁]⟩, ⟨1, ![M₂]⟩] ⟨1, ![M]⟩ 0) (n : BitVec 32)
    (t₁ : IVec ⟨1, ![M₁]⟩ 32) (t₂ : IVec ⟨1, ![M₂]⟩ 32) (j : Fin M) (m : Fin M₁) (hj : j.val = m.val) (k : Fin 1) :
    wrapCol hbM hcM n (concatenate ⟨1, ![M]⟩ 0 [⟨⟨1, ![M₁]⟩, t₁⟩, ⟨⟨1, ![M₂]⟩, t₂⟩] hI) (ix2 j k)
      = wrapCol hb₁ hc₁ n t₁ (ix2 m k) := by
  rw [wrapCol_apply, wrapCol_apply, concatenate_rows1_left t₁ t₂ hI j m hj]

/-- Wrapping after stacking is wrapping before, on the second block: at a row `j = M₁ + m`, `m < M₂`, the wrapped
    column of the concatenation is the wrapped column of `t₂` at `m`. -/
theorem wrapCol_concat_right {M M₁ M₂ : Nat}
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0) (n : BitVec 32)
    (t₁ : IVec ⟨1, ![M₁]⟩ 32) (t₂ : IVec ⟨1, ![M₂]⟩ 32) (j : Fin M) (m : Fin M₂) (hj : j.val = M₁ + m.val)
    (k : Fin 1) :
    wrapCol hbM hcM n (concatenate ⟨1, ![M]⟩ 0 [⟨⟨1, ![M₁]⟩, t₁⟩, ⟨⟨1, ![M₂]⟩, t₂⟩] hI) (ix2 j k)
      = wrapCol hb₂ hc₂ n t₂ (ix2 m k) := by
  rw [wrapCol_apply, wrapCol_apply, concatenate_rows1_right t₁ t₂ hI j m hj]

/-- THE MERGED SCATTER, whole arrays at rank 2: ONE scatter of two stacked update blocks `u₁ : [M₁, C]`, `u₂ : [M₂, C]`
    at the wrapped column of two stacked index vectors `t₁ : [M₁]`, `t₂ : [M₂]` (wrapped AFTER stacking) is the scatter
    of `u₁` at the wrapped column of `t₁` followed by the scatter of `u₂` at the wrapped column of `t₂` (each wrapped
    BEFORE). -/
theorem hostScatterAdd_rows2_wrapcat {N M M₁ M₂ C : Nat} (hM : M = M₁ + M₂)
    (d : ScatterDims ⟨2, ![N, C]⟩ ⟨2, ![M, 1]⟩ ⟨2, ![M, C]⟩) (hd : RowScatter2 d)
    (d₁ : ScatterDims ⟨2, ![N, C]⟩ ⟨2, ![M₁, 1]⟩ ⟨2, ![M₁, C]⟩) (hd₁ : RowScatter2 d₁)
    (d₂ : ScatterDims ⟨2, ![N, C]⟩ ⟨2, ![M₂, 1]⟩ ⟨2, ![M₂, C]⟩) (hd₂ : RowScatter2 d₂)
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0)
    (hU : Shape.Concatenates [⟨2, ![M₁, C]⟩, ⟨2, ![M₂, C]⟩] ⟨2, ![M, C]⟩ 0) (n : BitVec 32)
    (x : (⟨2, ![N, C]⟩ : Shape).Idx → EReal) (t₁ : IVec ⟨1, ![M₁]⟩ 32) (t₂ : IVec ⟨1, ![M₂]⟩ 32)
    (u₁ : (⟨2, ![M₁, C]⟩ : Shape).Idx → EReal) (u₂ : (⟨2, ![M₂, C]⟩ : Shape).Idx → EReal) :
    Ideal.hostScatterAdd d x
        (wrapCol hbM hcM n (concatenate ⟨1, ![M]⟩ 0 [⟨⟨1, ![M₁]⟩, t₁⟩, ⟨⟨1, ![M₂]⟩, t₂⟩] hI))
        (concatenate ⟨2, ![M, C]⟩ 0 [⟨⟨2, ![M₁, C]⟩, u₁⟩, ⟨⟨2, ![M₂, C]⟩, u₂⟩] hU)
      = Ideal.hostScatterAdd d₂ (Ideal.hostScatterAdd d₁ x (wrapCol hb₁ hc₁ n t₁) u₁) (wrapCol hb₂ hc₂ n t₂) u₂ :=
  hostScatterAdd_rows2_merge hM d hd d₁ hd₁ d₂ hd₂ x _ _ _ _ u₁ u₂
    (fun m => congrArg BitVec.toInt (wrapCol_concat_left hbM hcM hb₁ hc₁ hI n t₁ t₂ _ m rfl 0))
    (fun m => congrArg BitVec.toInt (wrapCol_concat_right hbM hcM hb₂ hc₂ hI n t₁ t₂ _ m rfl 0))
    (fun m c => concatenate_rows2_left u₁ u₂ hU _ m c rfl)
    (fun m c => concatenate_rows2_right u₁ u₂ hU _ m c rfl)

/-- THE MERGED SCATTER AGAINST TWO RANK-3 SCATTERS, at one element: ONE rank-2 scatter of two stacked update blocks
    `u₁ : [M₁, C]`, `u₂ : [M₂, C]` at the wrapped column of two stacked index vectors, read at `(k, c)`, is the rank-3
    scatter of `v₁ : [M₁, A, B]` at the wrapped column of `t₁` followed by that of `v₂ : [M₂, A, B]` at the wrapped column
    of `t₂`, read at `(k, a, b)`, whenever the operands agree at that element and column `c` of `u₁`, `u₂` is
    `v₁ (·, a, b)`, `v₂ (·, a, b)`. -/
theorem hostScatterAdd_rows2_wrapcat_rows3 {N M M₁ M₂ A B C : Nat} (hM : M = M₁ + M₂)
    (d : ScatterDims ⟨2, ![N, C]⟩ ⟨2, ![M, 1]⟩ ⟨2, ![M, C]⟩) (hd : RowScatter2 d)
    (d₁ : ScatterDims ⟨3, ![N, A, B]⟩ ⟨2, ![M₁, 1]⟩ ⟨3, ![M₁, A, B]⟩) (hd₁ : RowScatter3 d₁)
    (d₂ : ScatterDims ⟨3, ![N, A, B]⟩ ⟨2, ![M₂, 1]⟩ ⟨3, ![M₂, A, B]⟩) (hd₂ : RowScatter3 d₂)
    (hbM : (⟨0, ![]⟩ : Shape).BroadcastsInDim ⟨1, ![M]⟩ (![] : Fin 0 → Fin 1))
    (hcM : (⟨1, ![M]⟩ : Shape).BroadcastsInDim ⟨2, ![M, 1]⟩ (![0] : Fin 1 → Fin 2))
    (hb₁ : (⟨0, ![]⟩ : Shape).BroadcastsInDim ⟨1, ![M₁]⟩ (![] : Fin 0 → Fin 1))
    (hc₁ : (⟨1, ![M₁]⟩ : Shape).BroadcastsInDim ⟨2, ![M₁, 1]⟩ (![0] : Fin 1 → Fin 2))
    (hb₂ : (⟨0, ![]⟩ : Shape).BroadcastsInDim ⟨1, ![M₂]⟩ (![] : Fin 0 → Fin 1))
    (hc₂ : (⟨1, ![M₂]⟩ : Shape).BroadcastsInDim ⟨2, ![M₂, 1]⟩ (![0] : Fin 1 → Fin 2))
    (hI : Shape.Concatenates [⟨1, ![M₁]⟩, ⟨1, ![M₂]⟩] ⟨1, ![M]⟩ 0)
    (hU : Shape.Concatenates [⟨2, ![M₁, C]⟩, ⟨2, ![M₂, C]⟩] ⟨2, ![M, C]⟩ 0) (n : BitVec 32)
    (x₂ : (⟨2, ![N, C]⟩ : Shape).Idx → EReal) (x₃ : (⟨3, ![N, A, B]⟩ : Shape).Idx → EReal)
    (t₁ : IVec ⟨1, ![M₁]⟩ 32) (t₂ : IVec ⟨1, ![M₂]⟩ 32)
    (u₁ : (⟨2, ![M₁, C]⟩ : Shape).Idx → EReal) (u₂ : (⟨2, ![M₂, C]⟩ : Shape).Idx → EReal)
    (v₁ : (⟨3, ![M₁, A, B]⟩ : Shape).Idx → EReal) (v₂ : (⟨3, ![M₂, A, B]⟩ : Shape).Idx → EReal)
    (k : Fin N) (a : Fin A) (b : Fin B) (c : Fin C)
    (hx : x₂ (ix2 k c) = x₃ (ix3 k a b))
    (hv₁ : ∀ m : Fin M₁, u₁ (ix2 m c) = v₁ (ix3 m a b)) (hv₂ : ∀ m : Fin M₂, u₂ (ix2 m c) = v₂ (ix3 m a b)) :
    Ideal.hostScatterAdd d x₂
        (wrapCol hbM hcM n (concatenate ⟨1, ![M]⟩ 0 [⟨⟨1, ![M₁]⟩, t₁⟩, ⟨⟨1, ![M₂]⟩, t₂⟩] hI))
        (concatenate ⟨2, ![M, C]⟩ 0 [⟨⟨2, ![M₁, C]⟩, u₁⟩, ⟨⟨2, ![M₂, C]⟩, u₂⟩] hU) (ix2 k c)
      = Ideal.hostScatterAdd d₂ (Ideal.hostScatterAdd d₁ x₃ (wrapCol hb₁ hc₁ n t₁) v₁) (wrapCol hb₂ hc₂ n t₂) v₂
          (ix3 k a b) :=
  hostScatterAdd_rows2_merge_rows3 hM d hd d₁ hd₁ d₂ hd₂ x₂ x₃ _ _ _ _ v₁ v₂ k a b c hx
    (fun m => congrArg BitVec.toInt (wrapCol_concat_left hbM hcM hb₁ hc₁ hI n t₁ t₂ _ m rfl 0))
    (fun m => congrArg BitVec.toInt (wrapCol_concat_right hbM hcM hb₂ hc₂ hI n t₁ t₂ _ m rfl 0))
    (fun m => (concatenate_rows2_left u₁ u₂ hU _ m c rfl).trans (hv₁ m))
    (fun m => (concatenate_rows2_right u₁ u₂ hU _ m c rfl).trans (hv₂ m))

end Cert.Lib
-- ==== Proof.Decode.lean ====
/-
  How the programs' argument arrays are read as the specification's data. Both programs take the same arrays and apply
  the same index arithmetic to them, so the reading is stated once:
  * an edge's source row: the source word, a negative word wrapped by the node count, then clamped into the table (the
    row a gather of whole rows reads);
  * the edges landing on node `n`: those whose destination word, read signed, is `n` (a scatter drops the others);
  * the nodes of graph `g`: those whose graph word, read signed, is `g`; the membership entry is 1 there and 0 elsewhere;
  * a graph's node count: one added, onto zero, per node of the graph.
-/
import proofs.«413041_j89696097010223_3_alg».proof.Proof.Spec
import proofs.«413041_j89696097010223_3_alg».proof.Proof.LibScatterRows
import Idealize.ShloMosaic.Lib.ValueIdx

noncomputable section

namespace Cert.Decode

open Idealize.ShloMosaic Idealize.ShloMosaic.ValueIdx

/-- A two-axis array as a curried function of its coordinates. -/
def cur2 {A B : ℕ} (x : (⟨2, ![A, B]⟩ : Shape).Idx → EReal) : Fin A → Fin B → EReal := fun a b => x (ix2 a b)

/-- A one-axis array as a function of its coordinate. -/
def cur1 {A : ℕ} (x : (⟨1, ![A]⟩ : Shape).Idx → EReal) : Fin A → EReal := fun a => x (ix1 a)

/-- The node row an edge's message is gathered from. -/
def srcOf (ei : IVec ⟨2, ![2, 800000]⟩ 32) : Fin 800000 → Fin 50000 :=
  fun e => ⟨min (Cert.Lib.wrapW 50000#32 (ei (ix2 0 e))).toInt.toNat (50000 - 1), by omega⟩

/-- The edges whose message is added onto node `n`. -/
def intoOf (ei : IVec ⟨2, ![2, 800000]⟩ 32) : Fin 50000 → Finset (Fin 800000) :=
  fun n => Finset.univ.filter (fun e : Fin 800000 => (ei (ix2 1 e)).toInt = (n.val : Int))

/-- The nodes that belong to graph `g`. -/
def memOf (b : IVec ⟨1, ![50000]⟩ 32) : Fin 64 → Finset (Fin 50000) :=
  fun g => Finset.univ.filter (fun n : Fin 50000 => (b (ix1 n)).toInt = (g.val : Int))

/-- The membership matrix: 1 where the node belongs to the graph, 0 elsewhere. -/
def ohOf (b : IVec ⟨1, ![50000]⟩ 32) : Fin 50000 → Fin 64 → EReal :=
  fun n g => if n ∈ memOf b g then 1 else 0

/-- A graph's node count: the float one added onto zero once per node of the graph. -/
def cntOf (b : IVec ⟨1, ![50000]⟩ 32) : Fin 64 → EReal :=
  fun g => 0 + ∑ _n ∈ memOf b g, Ideal.ofBits .f32 0x3F800000#32

end Cert.Decode

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.KV.Val0.lean ====
/-
  What region 0 leaves in its output array, at the extended reals: row `p` of the array holds, in its first 64 columns,
  row `p` of the node features times the first weight matrix, and in its last 64 columns the same row times the second.
  Every block of 2000 rows is the restriction of that one array, and the 25 blocks cover it.
-/
import proofs.«413041_j89696097010223_3_alg».proof.Proof.KI.Reg0
import proofs.«413041_j89696097010223_3_alg».proof.Proof.Spec
import proofs.«413041_j89696097010223_3_alg».proof.Proof.Decode
import proofs.«413041_j89696097010223_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec Cert.Decode

variable (V : (c : Dev nD) → (b : Ref sig .tc) → Buf (Elt Ideal) ((c : Thread nD τ).loc b))

/-! The auxiliary facts of this region sit in their own namespace. -/
namespace Region0

/-- The printed dimension numbers are those of a plain product. -/
theorem plain_dot : Cert.Lib.PlainDot dot_S2000x128_S128x64_S2000x64_1_0_0_1_n_n :=
  ⟨rfl, rfl, rfl, rfl, rfl, rfl⟩

/-- The stored value at a column of the left half: the row of the node block against the first weight matrix. -/
theorem pay_left (v0 : Vec Ideal S2000x128 .f32) (v2 v4 : Vec Ideal S128x64 .f32) (p : Fin 2000) (j : Fin 64) :
    (k0_pay1 v0 v2 v4 : S2000x128.Idx → EReal) (ix2 p ⟨j.val, by omega⟩)
      = ∑ k : Fin 128, (v0 : S2000x128.Idx → EReal) (ix2 p k) * (v2 : S128x64.Idx → EReal) (ix2 k j) := by
  unfold k0_pay1
  refine (concatenate_pair_apply_left (t := S2000x128) (s₁ := S2000x64) (s₂ := S2000x64) (1 : Fin 2) _ _ _ _ rfl (ix2 p j) ?_).trans ?_
  · intro b
    match b with
    | ⟨0, _⟩ => rfl
    | ⟨1, _⟩ => rfl
  · exact plain_dot.matmul_zero_apply none _ _ p j

/-- The stored value at a column of the right half: the same row against the second weight matrix. -/
theorem pay_right (v0 : Vec Ideal S2000x128 .f32) (v2 v4 : Vec Ideal S128x64 .f32) (p : Fin 2000) (j : Fin 64) :
    (k0_pay1 v0 v2 v4 : S2000x128.Idx → EReal) (ix2 p ⟨64 + j.val, by omega⟩)
      = ∑ k : Fin 128, (v0 : S2000x128.Idx → EReal) (ix2 p k) * (v4 : S128x64.Idx → EReal) (ix2 k j) := by
  unfold k0_pay1
  refine (concatenate_pair_apply_right (t := S2000x128) (s₁ := S2000x64) (s₂ := S2000x64) (1 : Fin 2) _ _ _ _ rfl rfl (ix2 p j) ?_ ?_).trans ?_
  · intro b hb
    match b with
    | ⟨0, _⟩ => rfl
    | ⟨1, _⟩ => exact absurd rfl hb
  · show j.val + 64 = 64 + j.val
    omega
  · exact plain_dot.matmul_zero_apply none _ _ p j

/-- The one whole array region 0 leaves: at row `r`, the first 64 columns are row `r` of the features times the
    first weight matrix, the last 64 the same row times the second. -/
def prod2 (x : S50000x128.Idx → EReal) (w1 w2 : S128x64.Idx → EReal) : S50000x128.Idx → EReal := fun i =>
  if h : (i 1).val < 64 then ∑ k : Fin 128, x (ix2 (i 0) k) * w1 (ix2 k ⟨(i 1).val, h⟩)
  else ∑ k : Fin 128, x (ix2 (i 0) k) * w2 (ix2 k ⟨(i 1).val - 64, by have h128 : (i 1).val < 128 := (i 1).isLt; omega⟩)

theorem prod2_left (x : S50000x128.Idx → EReal) (w1 w2 : S128x64.Idx → EReal) (i : S50000x128.Idx) (j : Fin 64)
    (h : (i 1).val = j.val) : prod2 x w1 w2 i = ∑ k : Fin 128, x (ix2 (i 0) k) * w1 (ix2 k j) := by
  unfold prod2
  rw [dif_pos (by rw [h]; exact j.isLt)]
  have e : (⟨(i 1).val, by rw [h]; exact j.isLt⟩ : Fin 64) = j := Fin.ext h
  rw [e]

theorem prod2_right (x : S50000x128.Idx → EReal) (w1 w2 : S128x64.Idx → EReal) (i : S50000x128.Idx) (j : Fin 64)
    (h : (i 1).val = 64 + j.val) : prod2 x w1 w2 i = ∑ k : Fin 128, x (ix2 (i 0) k) * w2 (ix2 k j) := by
  unfold prod2
  rw [dif_neg (by rw [h]; omega)]
  have e : (⟨(i 1).val - 64, by have h128 : (i 1).val < 128 := (i 1).isLt; omega⟩ : Fin 64) = j := Fin.ext (by show (i 1).val - 64 = j.val; omega)
  rw [e]

/-- The stored block against the whole array: if the node block holds rows `2000 r …` of `x` and the two weight
    blocks are the weight matrices, the stored value at `y` is the whole array at row `2000 r + y₀`, column `y₁`. -/
theorem pay_prod2 (x : S50000x128.Idx → EReal) (w1 w2 : S128x64.Idx → EReal)
    (v0 : Vec Ideal S2000x128 .f32) (v2 v4 : Vec Ideal S128x64 .f32) (r : Nat) (y : S2000x128.Idx) (i : S50000x128.Idx)
    (h0 : (i 0).val = r * 2000 + (y 0).val) (h1 : (i 1).val = (y 1).val)
    (hv0 : ∀ (y' : S2000x128.Idx) (i' : S50000x128.Idx), (i' 0).val = r * 2000 + (y' 0).val → (i' 1).val = (y' 1).val →
      (v0 : S2000x128.Idx → EReal) y' = x i')
    (hv2 : (v2 : S128x64.Idx → EReal) = w1) (hv4 : (v4 : S128x64.Idx → EReal) = w2) :
    (k0_pay1 v0 v2 v4 : S2000x128.Idx → EReal) y = prod2 x w1 w2 i := by
  obtain ⟨p, q, rfl⟩ : ∃ (p : Fin 2000) (q : Fin 128), y = ix2 p q := ⟨y 0, y 1, eq_ix2 y⟩
  have hrow : ∀ k : Fin 128, (v0 : S2000x128.Idx → EReal) (ix2 p k) = x (ix2 (i 0) k) := fun k => hv0 _ _ h0 rfl
  by_cases hq : q.val < 64
  · rw [prod2_left x w1 w2 i ⟨q.val, hq⟩ h1]
    refine (pay_left v0 v2 v4 p ⟨q.val, hq⟩).trans ?_
    refine Finset.sum_congr rfl fun k _ => ?_
    rw [hrow k, hv2]
  · have hq' : q.val - 64 < 64 := by have := q.isLt; omega
    rw [prod2_right x w1 w2 i ⟨q.val - 64, hq'⟩ (by show (i 1).val = 64 + (q.val - 64); rw [h1]; show q.val = _; omega)]
    have eq : q = ⟨64 + (q.val - 64), by have := q.isLt; omega⟩ := Fin.ext (by show q.val = 64 + (q.val - 64); omega)
    have := pay_right v0 v2 v4 p ⟨q.val - 64, hq'⟩
    rw [← eq] at this
    refine this.trans ?_
    refine Finset.sum_congr rfl fun k _ => ?_
    rw [hrow k, hv4]

/-- The printed index maps over the grid: the node window and the output window sit at block `(t, 0)`, the two
    weight windows at block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The node window's block at point `t` holds rows `2000 t … 2000 t + 1999` of the feature array. -/
theorem blk0_apply (c : Dev nD) (t : Fin cfg0.N) (y : S2000x128.Idx) (i : S50000x128.Idx)
    (h0 : (i 0).val = t.val * 2000 + (y 0).val) (h1 : (i 1).val = (y 1).val) :
    (iblk0 V c 0 t : S2000x128.Idx → EReal) y = (V c main_arg0 : S50000x128.Idx → EReal) i := by
  obtain ⟨e00, e01, -⟩ := idx_facts0 t
  unfold iblk0
  rw [View.read_apply]
  show V c main_arg0 _ = V c main_arg0 i
  congr 1
  funext a
  apply Fin.ext
  match a with
  | ⟨0, _⟩ => show win0_0.index t (0 : Fin 2) * 2000 + 1 * (y 0).val = (i 0).val; rw [e00, h0]; omega
  | ⟨1, _⟩ => show win0_0.index t (1 : Fin 2) * 128 + 1 * (y 1).val = (i 1).val; rw [e01, h1]; omega

/-- The first weight window's block is the whole first weight matrix at every point. -/
theorem blk1_eq (c : Dev nD) (t : Fin cfg0.N) :
    (iblk0 V c 1 t : S128x64.Idx → EReal) = (V c main_arg3 : S128x64.Idx → EReal) := by
  obtain ⟨-, -, e10, e11, -⟩ := idx_facts0 t
  funext y
  unfold iblk0
  rw [View.read_apply]
  show V c main_arg3 _ = V c main_arg3 y
  congr 1
  funext a
  apply Fin.ext
  match a with
  | ⟨0, _⟩ => show win0_1.index t (0 : Fin 2) * 128 + 1 * (y 0).val = (y 0).val; rw [e10]; omega
  | ⟨1, _⟩ => show win0_1.index t (1 : Fin 2) * 64 + 1 * (y 1).val = (y 1).val; rw [e11]; omega

/-- The second weight window's block is the whole second weight matrix at every point. -/
theorem blk2_eq (c : Dev nD) (t : Fin cfg0.N) :
    (iblk0 V c 2 t : S128x64.Idx → EReal) = (V c main_arg4 : S128x64.Idx → EReal) := by
  obtain ⟨-, -, -, -, e20, e21, -⟩ := idx_facts0 t
  funext y
  unfold iblk0
  rw [View.read_apply]
  show V c main_arg4 _ = V c main_arg4 y
  congr 1
  funext a
  apply Fin.ext
  match a with
  | ⟨0, _⟩ => show win0_2.index t (0 : Fin 2) * 128 + 1 * (y 0).val = (y 0).val; rw [e20]; omega
  | ⟨1, _⟩ => show win0_2.index t (1 : Fin 2) * 64 + 1 * (y 1).val = (y 1).val; rw [e21]; omega

/-- What point `t` writes back is block `t` of the one whole array. -/
theorem flushed0_eq (c : Dev nD) (t : Fin cfg0.N) :
    (dat0 V c).flushed 3 t = ((cfg0.win 3).blk t).view.read (Elt Ideal)
      (prod2 (V c main_arg0 : S50000x128.Idx → EReal) (V c main_arg3 : S128x64.Idx → EReal) (V c main_arg4 : S128x64.Idx → EReal)) := by
  show (cfg0.win 3).cut (grid0.coords t) ((dat0 V c).after 3 t) = _
  rw [after0_3]
  obtain ⟨-, -, -, -, -, -, e30, e31⟩ := idx_facts0 t
  funext y
  rw [View.read_apply]
  show (k0_pay1 (iblk0 V c 0 t) (iblk0 V c 1 t) (iblk0 V c 2 t) : S2000x128.Idx → EReal) y = prod2 _ _ _ (((cfg0.win 3).blk t).view.emb y)
  refine pay_prod2 _ _ _ _ _ _ t.val y _ ?_ ?_ (fun y' i' h0 h1 => blk0_apply V c t y' i' h0 h1) (blk1_eq V c t) (blk2_eq V c t)
  · show win0_3.index t (0 : Fin 2) * 2000 + 1 * (y 0).val = t.val * 2000 + (y 0).val
    rw [e30]; omega
  · show win0_3.index t (1 : Fin 2) * 128 + 1 * (y 1).val = (y 1).val
    rw [e31]; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- Every index of the output array lies in the block of the point its row falls to: row `r` in point `r / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  rw [mem_blk0]
  obtain ⟨-, -, -, -, -, -, e30, e31⟩ := idx_facts0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e30]
    show (i 0).val / 2000 * 2000 ≤ (i 0).val ∧ (i 0).val < (i 0).val / 2000 * 2000 + 2000
    omega
  | ⟨1, _⟩ =>
    show win0_3.index _ (1 : Fin 2) * 128 ≤ (i 1).val ∧ (i 1).val < win0_3.index _ (1 : Fin 2) * 128 + 128
    rw [e31]
    omega

/-- The output array after the region: the one whole array of the region's three input arrays. -/
theorem final0 (c : Dev nD) :
    ((dat0 V c).arrAt 3 cfg0.N : S50000x128.Idx → EReal)
      = prod2 (V c main_arg0 : S50000x128.Idx → EReal) (V c main_arg3 : S128x64.Idx → EReal) (V c main_arg4 : S128x64.Idx → EReal) :=
  (dat0 V c).arrAt_eq_of_cover 3 _ (fun t _ => flushed0_eq V c t) cover0

end Region0

/-- The first 64 columns of region 0's output array: the features times the neighbour weights. -/
theorem final0_left (c : Dev nD) (p : Fin 50000) (j : Fin 64) :
    ((dat0 V c).arrAt 3 cfg0.N : S50000x128.Idx → EReal) (ix2 p ⟨j.val, by omega⟩)
      = mm (cur2 (V c main_arg0 : S50000x128.Idx → EReal)) (cur2 (V c main_arg3 : S128x64.Idx → EReal)) p j := by
  rw [Region0.final0]
  exact Region0.prod2_left _ _ _ (ix2 p ⟨j.val, by omega⟩) j rfl

/-- The last 64 columns: the features times the root weights. -/
theorem final0_right (c : Dev nD) (p : Fin 50000) (j : Fin 64) :
    ((dat0 V c).arrAt 3 cfg0.N : S50000x128.Idx → EReal) (ix2 p ⟨64 + j.val, by omega⟩)
      = mm (cur2 (V c main_arg0 : S50000x128.Idx → EReal)) (cur2 (V c main_arg4 : S128x64.Idx → EReal)) p j := by
  rw [Region0.final0]
  exact Region0.prod2_right _ _ _ (ix2 p ⟨64 + j.val, by omega⟩) j rfl

end Cert.KernelIdeal.Val

end
-- ==== Proof.KV.Val1.lean ====
/-
  What region 1 leaves in its output array, at the extended reals. With `h` the rectified sum of the aggregated messages
  and the root term it is entered with, row `p` of the array holds, in its first 64 columns, row `p` of `h` times the first
  64×64 weight matrix, and in its last 64 columns the same row times the second. Every block of 2000 rows is the
  restriction of that one array, and the 25 blocks cover it.
-/
import proofs.«413041_j89696097010223_3_alg».proof.Proof.KI.Reg1
import proofs.«413041_j89696097010223_3_alg».proof.Proof.Spec
import proofs.«413041_j89696097010223_3_alg».proof.Proof.Decode
import proofs.«413041_j89696097010223_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec Cert.Decode

variable (V : (c : Dev nD) → (b : Ref sig .tc) → Buf (Elt Ideal) ((c : Thread nD τ).loc b))

/-! The region's auxiliary facts sit in a namespace of their own. -/
namespace Region1

/-- The dimension numbers of the region's two products are a plain product's. -/
theorem plain1 : Cert.Lib.PlainDot dot_S2000x64_S64x64_S2000x64_1_0_0_1_n_n := ⟨rfl, rfl, rfl, rfl, rfl, rfl⟩

/-- Two blocks of 64 columns laid side by side, read at one of the first 64 columns: the first block there. -/
theorem cols1_left {α : Type} (x₁ x₂ : S2000x64.Idx → α) (h : Shape.Concatenates [S2000x64, S2000x64] S2000x128 1)
    (p : Fin 2000) (j : Fin 64) :
    concatenate S2000x128 1 [⟨S2000x64, x₁⟩, ⟨S2000x64, x₂⟩] h (ix2 p (⟨j.val, by omega⟩ : Fin 128)) = x₁ (ix2 p j) := by
  refine concatenate_pair_apply_left (t := S2000x128) (s₁ := S2000x64) (s₂ := S2000x64) 1 x₁ x₂ h _ rfl (ix2 p j) ?_
  intro b; match b with | ⟨0, _⟩ => rfl | ⟨1, _⟩ => rfl

/-- Read at one of the last 64 columns: the second block, 64 columns back. -/
theorem cols1_right {α : Type} (x₁ x₂ : S2000x64.Idx → α) (h : Shape.Concatenates [S2000x64, S2000x64] S2000x128 1)
    (p : Fin 2000) (j : Fin 64) :
    concatenate S2000x128 1 [⟨S2000x64, x₁⟩, ⟨S2000x64, x₂⟩] h (ix2 p (⟨64 + j.val, by omega⟩ : Fin 128)) = x₂ (ix2 p j) := by
  refine concatenate_pair_apply_right (t := S2000x128) (s₁ := S2000x64) (s₂ := S2000x64) 1 x₁ x₂ h _ rfl rfl (ix2 p j) ?_ ?_
  · intro b hb; match b with | ⟨0, _⟩ => rfl | ⟨1, _⟩ => exact absurd rfl hb
  · show j.val + 64 = 64 + j.val; omega

/-- The body's stored value at row `p` and one of the first 64 columns: the rectified sum of the two row blocks,
    contracted against the first weight matrix (the format changes are the identity on the extended reals, and the
    product is accumulated into zero). -/
theorem stored1_left (v0 : Vec Ideal S2000x64 .f32) (v2 : Vec Ideal S2000x64 .bf16) (v9 v11 : Vec Ideal S64x64 .f32)
    (p : Fin 2000) (j : Fin 64) :
    (k1_pay1 v0 v2 v9 v11 : S2000x128.Idx → EReal) (ix2 p (⟨j.val, by omega⟩ : Fin 128))
      = ∑ k : Fin 64, max ((v0 (ix2 p k) : EReal) + v2 (ix2 p k)) 0 * v9 (ix2 k j) := by
  unfold k1_pay1
  refine (cols1_left _ _ _ p j).trans ?_
  refine (truncf_apply (ψ := FTy.bf16) (φ := FTy.f32) _ bitsLt_bf16_f32 (ix2 p j)).trans ?_
  refine (plain1.matmul_zero_apply none _ _ p j).trans ?_
  refine Finset.sum_congr rfl fun k _ => ?_
  rw [shapeCast_self, shapeCast_self]
  show max ((v0 (ix2 p k) : EReal) + v2 (ix2 p k)) (Idealize.ShloMosaic.Ideal.ofBits .f32 0x00000000#32) * v9 (ix2 k j) = _
  rw [Idealize.ShloMosaic.Ideal.ofBits_zero_f32]

/-- At one of the last 64 columns: the same row contracted against the second weight matrix. -/
theorem stored1_right (v0 : Vec Ideal S2000x64 .f32) (v2 : Vec Ideal S2000x64 .bf16) (v9 v11 : Vec Ideal S64x64 .f32)
    (p : Fin 2000) (j : Fin 64) :
    (k1_pay1 v0 v2 v9 v11 : S2000x128.Idx → EReal) (ix2 p (⟨64 + j.val, by omega⟩ : Fin 128))
      = ∑ k : Fin 64, max ((v0 (ix2 p k) : EReal) + v2 (ix2 p k)) 0 * v11 (ix2 k j) := by
  unfold k1_pay1
  refine (cols1_right _ _ _ p j).trans ?_
  refine (truncf_apply (ψ := FTy.bf16) (φ := FTy.f32) _ bitsLt_bf16_f32 (ix2 p j)).trans ?_
  refine (plain1.matmul_zero_apply none _ _ p j).trans ?_
  refine Finset.sum_congr rfl fun k _ => ?_
  rw [shapeCast_self, shapeCast_self]
  show max ((v0 (ix2 p k) : EReal) + v2 (ix2 p k)) (Idealize.ShloMosaic.Ideal.ofBits .f32 0x00000000#32) * v11 (ix2 k j) = _
  rw [Idealize.ShloMosaic.Ideal.ofBits_zero_f32]

/-- What region 1's output array ends holding: at row `p`, the first 64 columns are row `p` of the rectified sum times
    the first weight matrix, the last 64 the same row times the second. -/
def G1 (a0 a1 : S50000x64.Idx → EReal) (wa wb : S64x64.Idx → EReal) : S50000x128.Idx → EReal := fun i =>
  if h : (i 1).val < 64 then mm (relu2 (cur2 a0) (cur2 a1)) (cur2 wa) (i 0) ⟨(i 1).val, h⟩
  else mm (relu2 (cur2 a0) (cur2 a1)) (cur2 wb) (i 0) ⟨(i 1).val - 64, by have := idx2_lt1 i; omega⟩

/-- `G1` at one of the first 64 columns. -/
theorem G1_left (a0 a1 : S50000x64.Idx → EReal) (wa wb : S64x64.Idx → EReal) (p : Fin 50000) (j : Fin 64) :
    G1 a0 a1 wa wb (ix2 p (⟨j.val, by omega⟩ : Fin 128)) = mm (relu2 (cur2 a0) (cur2 a1)) (cur2 wa) p j := by
  unfold G1
  exact dif_pos j.isLt

/-- `G1` at one of the last 64 columns. -/
theorem G1_right (a0 a1 : S50000x64.Idx → EReal) (wa wb : S64x64.Idx → EReal) (p : Fin 50000) (j : Fin 64) :
    G1 a0 a1 wa wb (ix2 p (⟨64 + j.val, by omega⟩ : Fin 128)) = mm (relu2 (cur2 a0) (cur2 a1)) (cur2 wb) p j := by
  unfold G1
  refine (dif_neg (show ¬ 64 + j.val < 64 by omega)).trans ?_
  exact congrArg (mm (relu2 (cur2 a0) (cur2 a1)) (cur2 wb) p) (Fin.ext (show 64 + j.val - 64 = j.val by omega))

/-- A grid point of region 1 is below 25. -/
theorem pt1_lt (t : Fin cfg1.N) : t.val < 25 := lt_of_lt_of_eq t.isLt N_1

/-- Row `p` of the block of 2000 rows at point `t`, as a row of the whole array. -/
def row1 (t : Fin cfg1.N) (p : Fin 2000) : Fin 50000 := ⟨t.val * 2000 + p.val, by have := pt1_lt t; omega⟩

/-- The windows' block indices at grid point `t`, decided over the 25 points: the three windows cut into blocks of 2000
    rows sit at block row `t`, block column 0; the two weight windows at block (0, 0). -/
theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Window 0's block at point `t` is rows `2000 t … 2000 t + 1999` of the aggregated messages. -/
theorem iblk1_0_apply (c : Dev nD) (t : Fin cfg1.N) (p : Fin 2000) (k : Fin 64) :
    (iblk1 V c 0 t : S2000x64.Idx → EReal) (ix2 p k) = (V c main_v29 : S50000x64.Idx → EReal) (ix2 (row1 t p) k) := by
  obtain ⟨e0, e1, -⟩ := idx1_facts t
  unfold iblk1
  rw [View.read_apply]
  show (V c main_v29 : S50000x64.Idx → EReal) (((cfg1.win 0).blk t).view.emb (ix2 p k)) = _
  congr 1
  funext a
  apply Fin.ext
  match a with
  | ⟨0, _⟩ => show win1_0.index t (0 : Fin 2) * 2000 + 1 * p.val = t.val * 2000 + p.val; rw [e0]; omega
  | ⟨1, _⟩ => show win1_0.index t (1 : Fin 2) * 64 + 1 * k.val = k.val; rw [e1]; omega

/-- Window 1's block at point `t` is the same rows of the root term. -/
theorem iblk1_1_apply (c : Dev nD) (t : Fin cfg1.N) (p : Fin 2000) (k : Fin 64) :
    (iblk1 V c 1 t : S2000x64.Idx → EReal) (ix2 p k) = (V c main_v18 : S50000x64.Idx → EReal) (ix2 (row1 t p) k) := by
  obtain ⟨-, -, e0, e1, -⟩ := idx1_facts t
  unfold iblk1
  rw [View.read_apply]
  show (V c main_v18 : S50000x64.Idx → EReal) (((cfg1.win 1).blk t).view.emb (ix2 p k)) = _
  congr 1
  funext a
  apply Fin.ext
  match a with
  | ⟨0, _⟩ => show win1_1.index t (0 : Fin 2) * 2000 + 1 * p.val = t.val * 2000 + p.val; rw [e0]; omega
  | ⟨1, _⟩ => show win1_1.index t (1 : Fin 2) * 64 + 1 * k.val = k.val; rw [e1]; omega

/-- Window 2's block is the whole first weight matrix at every point. -/
theorem iblk1_2_apply (c : Dev nD) (t : Fin cfg1.N) (k j : Fin 64) :
    (iblk1 V c 2 t : S64x64.Idx → EReal) (ix2 k j) = (V c main_arg5 : S64x64.Idx → EReal) (ix2 k j) := by
  obtain ⟨-, -, -, -, e0, e1, -⟩ := idx1_facts t
  unfold iblk1
  rw [View.read_apply]
  show (V c main_arg5 : S64x64.Idx → EReal) (((cfg1.win 2).blk t).view.emb (ix2 k j)) = _
  congr 1
  funext a
  apply Fin.ext
  match a with
  | ⟨0, _⟩ => show win1_2.index t (0 : Fin 2) * 64 + 1 * k.val = k.val; rw [e0]; omega
  | ⟨1, _⟩ => show win1_2.index t (1 : Fin 2) * 64 + 1 * j.val = j.val; rw [e1]; omega

/-- Window 3's block is the whole second weight matrix at every point. -/
theorem iblk1_3_apply (c : Dev nD) (t : Fin cfg1.N) (k j : Fin 64) :
    (iblk1 V c 3 t : S64x64.Idx → EReal) (ix2 k j) = (V c main_arg6 : S64x64.Idx → EReal) (ix2 k j) := by
  obtain ⟨-, -, -, -, -, -, e0, e1, -⟩ := idx1_facts t
  unfold iblk1
  rw [View.read_apply]
  show (V c main_arg6 : S64x64.Idx → EReal) (((cfg1.win 3).blk t).view.emb (ix2 k j)) = _
  congr 1
  funext a
  apply Fin.ext
  match a with
  | ⟨0, _⟩ => show win1_3.index t (0 : Fin 2) * 64 + 1 * k.val = k.val; rw [e0]; omega
  | ⟨1, _⟩ => show win1_3.index t (1 : Fin 2) * 64 + 1 * j.val = j.val; rw [e1]; omega

/-- A column of the output is one of the first 64 or 64 further on. -/
theorem col1_cases (q : Fin 128) :
    (∃ j : Fin 64, q = (⟨j.val, by omega⟩ : Fin 128)) ∨ (∃ j : Fin 64, q = (⟨64 + j.val, by omega⟩ : Fin 128)) := by
  by_cases hq : q.val < 64
  · exact .inl ⟨⟨q.val, hq⟩, rfl⟩
  · exact .inr ⟨⟨q.val - 64, by have := q.isLt; omega⟩, Fin.ext (show q.val = 64 + (q.val - 64) by omega)⟩

/-- What point `t` writes back is its block of 2000 rows of `G1` of the arrays the region is entered with. -/
theorem flushed1_eq (c : Dev nD) (t : Fin cfg1.N) :
    (dat1 V c).flushed 4 t = ((cfg1.win 4).blk t).view.read (Elt Ideal)
      (G1 (V c main_v29) (V c main_v18) (V c main_arg5) (V c main_arg6)) := by
  show (cfg1.win 4).cut (grid1.coords t) ((dat1 V c).after 4 t) = _
  rw [after1_4]
  funext y
  obtain ⟨p, q, rfl⟩ : ∃ (p : Fin 2000) (q : Fin 128), y = ix2 p q := ⟨y 0, y 1, eq_ix2 y⟩
  have hemb : ((cfg1.win 4).blk t).view.emb (ix2 p q) = (ix2 (row1 t p) q : S50000x128.Idx) := by
    obtain ⟨-, -, -, -, -, -, -, -, e0, e1⟩ := idx1_facts t
    funext a
    apply Fin.ext
    match a with
    | ⟨0, _⟩ => show win1_4.index t (0 : Fin 2) * 2000 + 1 * p.val = t.val * 2000 + p.val; rw [e0]; omega
    | ⟨1, _⟩ => show win1_4.index t (1 : Fin 2) * 128 + 1 * q.val = q.val; rw [e1]; omega
  rw [View.read_apply, hemb]
  show (k1_pay1 (iblk1 V c 0 t) (iblk1 V c 1 t) (iblk1 V c 2 t) (iblk1 V c 3 t) : S2000x128.Idx → EReal) (ix2 p q)
    = G1 (V c main_v29) (V c main_v18) (V c main_arg5) (V c main_arg6) (ix2 (row1 t p) q)
  rcases col1_cases q with ⟨j, rfl⟩ | ⟨j, rfl⟩
  · rw [stored1_left, G1_left]
    refine Finset.sum_congr rfl fun k _ => ?_
    rw [iblk1_0_apply, iblk1_1_apply, iblk1_2_apply]
    rfl
  · rw [stored1_right, G1_right]
    refine Finset.sum_congr rfl fun k _ => ?_
    rw [iblk1_0_apply, iblk1_1_apply, iblk1_3_apply]
    rfl

/-- An index of the array is in point `t`'s block iff each coordinate is in the block's range on its axis. -/
theorem mem1_blk (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole (Pipeline.arrRef spec1 4)).slice (win1_4.rect t)).set ↔ _
  rw [View.set_slice_whole, Rect.mem_set_unit]
  exact Iff.rfl

/-- The 25 blocks of 2000 rows cover the array: row `r` lies in the block of point `r / 2000`. -/
theorem cover1 (i : S50000x128.Idx) :
    ∃ t : Fin cfg1.N, (cfg1.win 4).flush t = true ∧ i ∈ ((cfg1.win 4).blk t).view.set := by
  have h0 : (i 0).val < 50000 := idx2_lt0 i
  have h1 : (i 1).val < 128 := idx2_lt1 i
  obtain ⟨t, ht⟩ : ∃ t : Fin cfg1.N, t.val = (i 0).val / 2000 :=
    ⟨⟨(i 0).val / 2000, lt_of_lt_of_eq (show (i 0).val / 2000 < 25 by omega) N_1.symm⟩, rfl⟩
  obtain ⟨-, -, -, -, -, -, -, -, e0, e1⟩ := idx1_facts t
  refine ⟨t, flush1_4 t, ?_⟩
  rw [mem1_blk]
  intro a
  match a with
  | ⟨0, _⟩ =>
    show win1_4.index t (0 : Fin 2) * 2000 ≤ (i 0).val ∧ (i 0).val < win1_4.index t (0 : Fin 2) * 2000 + 2000
    rw [e0, ht]; omega
  | ⟨1, _⟩ =>
    show win1_4.index t (1 : Fin 2) * 128 ≤ (i 1).val ∧ (i 1).val < win1_4.index t (1 : Fin 2) * 128 + 128
    rw [e1]; omega

/-- So region 1's output array ends holding `G1` of the arrays the region is entered with. -/
theorem arr1_eq (c : Dev nD) :
    (dat1 V c).arrAt 4 cfg1.N = G1 (V c main_v29) (V c main_v18) (V c main_arg5) (V c main_arg6) :=
  (dat1 V c).arrAt_eq_of_cover 4 (G1 (V c main_v29) (V c main_v18) (V c main_arg5) (V c main_arg6))
    (fun t _ => flushed1_eq V c t) cover1

end Region1

/-- The first 64 columns of region 1's output array: the rectified features times the neighbour weights. -/
theorem final1_left (c : Dev nD) (p : Fin 50000) (j : Fin 64) :
    ((dat1 V c).arrAt 4 cfg1.N : S50000x128.Idx → EReal) (ix2 p ⟨j.val, by omega⟩)
      = mm (relu2 (cur2 (V c main_v29 : S50000x64.Idx → EReal)) (cur2 (V c main_v18 : S50000x64.Idx → EReal)))
          (cur2 (V c main_arg5 : S64x64.Idx → EReal)) p j := by
  rw [Region1.arr1_eq]
  exact Region1.G1_left _ _ _ _ p j

/-- The last 64 columns: the rectified features times the root weights. -/
theorem final1_right (c : Dev nD) (p : Fin 50000) (j : Fin 64) :
    ((dat1 V c).arrAt 4 cfg1.N : S50000x128.Idx → EReal) (ix2 p ⟨64 + j.val, by omega⟩)
      = mm (relu2 (cur2 (V c main_v29 : S50000x64.Idx → EReal)) (cur2 (V c main_v18 : S50000x64.Idx → EReal)))
          (cur2 (V c main_arg6 : S64x64.Idx → EReal)) p j := by
  rw [Region1.arr1_eq]
  exact Region1.G1_right _ _ _ _ p j

end Cert.KernelIdeal.Val

end
-- ==== Proof.KV.Val2.lean ====
/-
  What region 2 leaves in its output array, at the extended reals. With `h` the rectified sum of the aggregated messages
  and the root term it is entered with, row `p` of the array holds, in its first 64 columns, row `p` of `h` times the first
  64×64 weight matrix, and in its last 64 columns the same row times the second. Every block of 2000 rows is the
  restriction of that one array, and the 25 blocks cover it.
-/
import proofs.«413041_j89696097010223_3_alg».proof.Proof.KI.Reg2
import proofs.«413041_j89696097010223_3_alg».proof.Proof.Spec
import proofs.«413041_j89696097010223_3_alg».proof.Proof.Decode
import proofs.«413041_j89696097010223_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec Cert.Decode

variable (V : (c : Dev nD) → (b : Ref sig .tc) → Buf (Elt Ideal) ((c : Thread nD τ).loc b))

/-! The region's auxiliary facts sit in a namespace of their own. -/
namespace Region2

/-- The dimension numbers of the region's two products are a plain product's. -/
theorem plain2 : Cert.Lib.PlainDot dot_S2000x64_S64x64_S2000x64_1_0_0_1_n_n := ⟨rfl, rfl, rfl, rfl, rfl, rfl⟩

/-- Two blocks of 64 columns laid side by side, read at one of the first 64 columns: the first block there. -/
theorem cols2_left {α : Type} (x₁ x₂ : S2000x64.Idx → α) (h : Shape.Concatenates [S2000x64, S2000x64] S2000x128 1)
    (p : Fin 2000) (j : Fin 64) :
    concatenate S2000x128 1 [⟨S2000x64, x₁⟩, ⟨S2000x64, x₂⟩] h (ix2 p (⟨j.val, by omega⟩ : Fin 128)) = x₁ (ix2 p j) := by
  refine concatenate_pair_apply_left (t := S2000x128) (s₁ := S2000x64) (s₂ := S2000x64) 1 x₁ x₂ h _ rfl (ix2 p j) ?_
  intro b; match b with | ⟨0, _⟩ => rfl | ⟨1, _⟩ => rfl

/-- Read at one of the last 64 columns: the second block, 64 columns back. -/
theorem cols2_right {α : Type} (x₁ x₂ : S2000x64.Idx → α) (h : Shape.Concatenates [S2000x64, S2000x64] S2000x128 1)
    (p : Fin 2000) (j : Fin 64) :
    concatenate S2000x128 1 [⟨S2000x64, x₁⟩, ⟨S2000x64, x₂⟩] h (ix2 p (⟨64 + j.val, by omega⟩ : Fin 128)) = x₂ (ix2 p j) := by
  refine concatenate_pair_apply_right (t := S2000x128) (s₁ := S2000x64) (s₂ := S2000x64) 1 x₁ x₂ h _ rfl rfl (ix2 p j) ?_ ?_
  · intro b hb; match b with | ⟨0, _⟩ => rfl | ⟨1, _⟩ => exact absurd rfl hb
  · show j.val + 64 = 64 + j.val; omega

/-- The body's stored value at row `p` and one of the first 64 columns: the rectified sum of the two row blocks,
    contracted against the first weight matrix (the format changes are the identity on the extended reals, and the
    product is accumulated into zero). -/
theorem stored2_left (v0 : Vec Ideal S2000x64 .f32) (v2 : Vec Ideal S2000x64 .bf16) (v9 v11 : Vec Ideal S64x64 .f32)
    (p : Fin 2000) (j : Fin 64) :
    (k2_pay1 v0 v2 v9 v11 : S2000x128.Idx → EReal) (ix2 p (⟨j.val, by omega⟩ : Fin 128))
      = ∑ k : Fin 64, max ((v0 (ix2 p k) : EReal) + v2 (ix2 p k)) 0 * v9 (ix2 k j) := by
  unfold k2_pay1
  refine (cols2_left _ _ _ p j).trans ?_
  refine (truncf_apply (ψ := FTy.bf16) (φ := FTy.f32) _ bitsLt_bf16_f32 (ix2 p j)).trans ?_
  refine (plain2.matmul_zero_apply none _ _ p j).trans ?_
  refine Finset.sum_congr rfl fun k _ => ?_
  rw [shapeCast_self, shapeCast_self]
  show max ((v0 (ix2 p k) : EReal) + v2 (ix2 p k)) (Idealize.ShloMosaic.Ideal.ofBits .f32 0x00000000#32) * v9 (ix2 k j) = _
  rw [Idealize.ShloMosaic.Ideal.ofBits_zero_f32]

/-- At one of the last 64 columns: the same row contracted against the second weight matrix. -/
theorem stored2_right (v0 : Vec Ideal S2000x64 .f32) (v2 : Vec Ideal S2000x64 .bf16) (v9 v11 : Vec Ideal S64x64 .f32)
    (p : Fin 2000) (j : Fin 64) :
    (k2_pay1 v0 v2 v9 v11 : S2000x128.Idx → EReal) (ix2 p (⟨64 + j.val, by omega⟩ : Fin 128))
      = ∑ k : Fin 64, max ((v0 (ix2 p k) : EReal) + v2 (ix2 p k)) 0 * v11 (ix2 k j) := by
  unfold k2_pay1
  refine (cols2_right _ _ _ p j).trans ?_
  refine (truncf_apply (ψ := FTy.bf16) (φ := FTy.f32) _ bitsLt_bf16_f32 (ix2 p j)).trans ?_
  refine (plain2.matmul_zero_apply none _ _ p j).trans ?_
  refine Finset.sum_congr rfl fun k _ => ?_
  rw [shapeCast_self, shapeCast_self]
  show max ((v0 (ix2 p k) : EReal) + v2 (ix2 p k)) (Idealize.ShloMosaic.Ideal.ofBits .f32 0x00000000#32) * v11 (ix2 k j) = _
  rw [Idealize.ShloMosaic.Ideal.ofBits_zero_f32]

/-- What region 2's output array ends holding: at row `p`, the first 64 columns are row `p` of the rectified sum times
    the first weight matrix, the last 64 the same row times the second. -/
def G2 (a0 a1 : S50000x64.Idx → EReal) (wa wb : S64x64.Idx → EReal) : S50000x128.Idx → EReal := fun i =>
  if h : (i 1).val < 64 then mm (relu2 (cur2 a0) (cur2 a1)) (cur2 wa) (i 0) ⟨(i 1).val, h⟩
  else mm (relu2 (cur2 a0) (cur2 a1)) (cur2 wb) (i 0) ⟨(i 1).val - 64, by have := idx2_lt1 i; omega⟩

/-- `G2` at one of the first 64 columns. -/
theorem G2_left (a0 a1 : S50000x64.Idx → EReal) (wa wb : S64x64.Idx → EReal) (p : Fin 50000) (j : Fin 64) :
    G2 a0 a1 wa wb (ix2 p (⟨j.val, by omega⟩ : Fin 128)) = mm (relu2 (cur2 a0) (cur2 a1)) (cur2 wa) p j := by
  unfold G2
  exact dif_pos j.isLt

/-- `G2` at one of the last 64 columns. -/
theorem G2_right (a0 a1 : S50000x64.Idx → EReal) (wa wb : S64x64.Idx → EReal) (p : Fin 50000) (j : Fin 64) :
    G2 a0 a1 wa wb (ix2 p (⟨64 + j.val, by omega⟩ : Fin 128)) = mm (relu2 (cur2 a0) (cur2 a1)) (cur2 wb) p j := by
  unfold G2
  refine (dif_neg (show ¬ 64 + j.val < 64 by omega)).trans ?_
  exact congrArg (mm (relu2 (cur2 a0) (cur2 a1)) (cur2 wb) p) (Fin.ext (show 64 + j.val - 64 = j.val by omega))

/-- A grid point of region 2 is below 25. -/
theorem pt2_lt (t : Fin cfg2.N) : t.val < 25 := lt_of_lt_of_eq t.isLt N_2

/-- Row `p` of the block of 2000 rows at point `t`, as a row of the whole array. -/
def row2 (t : Fin cfg2.N) (p : Fin 2000) : Fin 50000 := ⟨t.val * 2000 + p.val, by have := pt2_lt t; omega⟩

/-- The windows' block indices at grid point `t`, decided over the 25 points: the three windows cut into blocks of 2000
    rows sit at block row `t`, block column 0; the two weight windows at block (0, 0). -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `2000 t … 2000 t + 1999` of the aggregated messages. -/
theorem iblk2_0_apply (c : Dev nD) (t : Fin cfg2.N) (p : Fin 2000) (k : Fin 64) :
    (iblk2 V c 0 t : S2000x64.Idx → EReal) (ix2 p k) = (V c main_v43 : S50000x64.Idx → EReal) (ix2 (row2 t p) k) := by
  obtain ⟨e0, e1, -⟩ := idx2_facts t
  unfold iblk2
  rw [View.read_apply]
  show (V c main_v43 : S50000x64.Idx → EReal) (((cfg2.win 0).blk t).view.emb (ix2 p k)) = _
  congr 1
  funext a
  apply Fin.ext
  match a with
  | ⟨0, _⟩ => show win2_0.index t (0 : Fin 2) * 2000 + 1 * p.val = t.val * 2000 + p.val; rw [e0]; omega
  | ⟨1, _⟩ => show win2_0.index t (1 : Fin 2) * 64 + 1 * k.val = k.val; rw [e1]; omega

/-- Window 1's block at point `t` is the same rows of the root term. -/
theorem iblk2_1_apply (c : Dev nD) (t : Fin cfg2.N) (p : Fin 2000) (k : Fin 64) :
    (iblk2 V c 1 t : S2000x64.Idx → EReal) (ix2 p k) = (V c main_v32 : S50000x64.Idx → EReal) (ix2 (row2 t p) k) := by
  obtain ⟨-, -, e0, e1, -⟩ := idx2_facts t
  unfold iblk2
  rw [View.read_apply]
  show (V c main_v32 : S50000x64.Idx → EReal) (((cfg2.win 1).blk t).view.emb (ix2 p k)) = _
  congr 1
  funext a
  apply Fin.ext
  match a with
  | ⟨0, _⟩ => show win2_1.index t (0 : Fin 2) * 2000 + 1 * p.val = t.val * 2000 + p.val; rw [e0]; omega
  | ⟨1, _⟩ => show win2_1.index t (1 : Fin 2) * 64 + 1 * k.val = k.val; rw [e1]; omega

/-- Window 2's block is the whole first weight matrix at every point. -/
theorem iblk2_2_apply (c : Dev nD) (t : Fin cfg2.N) (k j : Fin 64) :
    (iblk2 V c 2 t : S64x64.Idx → EReal) (ix2 k j) = (V c main_arg7 : S64x64.Idx → EReal) (ix2 k j) := by
  obtain ⟨-, -, -, -, e0, e1, -⟩ := idx2_facts t
  unfold iblk2
  rw [View.read_apply]
  show (V c main_arg7 : S64x64.Idx → EReal) (((cfg2.win 2).blk t).view.emb (ix2 k j)) = _
  congr 1
  funext a
  apply Fin.ext
  match a with
  | ⟨0, _⟩ => show win2_2.index t (0 : Fin 2) * 64 + 1 * k.val = k.val; rw [e0]; omega
  | ⟨1, _⟩ => show win2_2.index t (1 : Fin 2) * 64 + 1 * j.val = j.val; rw [e1]; omega

/-- Window 3's block is the whole second weight matrix at every point. -/
theorem iblk2_3_apply (c : Dev nD) (t : Fin cfg2.N) (k j : Fin 64) :
    (iblk2 V c 3 t : S64x64.Idx → EReal) (ix2 k j) = (V c main_arg8 : S64x64.Idx → EReal) (ix2 k j) := by
  obtain ⟨-, -, -, -, -, -, e0, e1, -⟩ := idx2_facts t
  unfold iblk2
  rw [View.read_apply]
  show (V c main_arg8 : S64x64.Idx → EReal) (((cfg2.win 3).blk t).view.emb (ix2 k j)) = _
  congr 1
  funext a
  apply Fin.ext
  match a with
  | ⟨0, _⟩ => show win2_3.index t (0 : Fin 2) * 64 + 1 * k.val = k.val; rw [e0]; omega
  | ⟨1, _⟩ => show win2_3.index t (1 : Fin 2) * 64 + 1 * j.val = j.val; rw [e1]; omega

/-- A column of the output is one of the first 64 or 64 further on. -/
theorem col2_cases (q : Fin 128) :
    (∃ j : Fin 64, q = (⟨j.val, by omega⟩ : Fin 128)) ∨ (∃ j : Fin 64, q = (⟨64 + j.val, by omega⟩ : Fin 128)) := by
  by_cases hq : q.val < 64
  · exact .inl ⟨⟨q.val, hq⟩, rfl⟩
  · exact .inr ⟨⟨q.val - 64, by have := q.isLt; omega⟩, Fin.ext (show q.val = 64 + (q.val - 64) by omega)⟩

/-- What point `t` writes back is its block of 2000 rows of `G2` of the arrays the region is entered with. -/
theorem flushed2_eq (c : Dev nD) (t : Fin cfg2.N) :
    (dat2 V c).flushed 4 t = ((cfg2.win 4).blk t).view.read (Elt Ideal)
      (G2 (V c main_v43) (V c main_v32) (V c main_arg7) (V c main_arg8)) := by
  show (cfg2.win 4).cut (grid2.coords t) ((dat2 V c).after 4 t) = _
  rw [after2_4]
  funext y
  obtain ⟨p, q, rfl⟩ : ∃ (p : Fin 2000) (q : Fin 128), y = ix2 p q := ⟨y 0, y 1, eq_ix2 y⟩
  have hemb : ((cfg2.win 4).blk t).view.emb (ix2 p q) = (ix2 (row2 t p) q : S50000x128.Idx) := by
    obtain ⟨-, -, -, -, -, -, -, -, e0, e1⟩ := idx2_facts t
    funext a
    apply Fin.ext
    match a with
    | ⟨0, _⟩ => show win2_4.index t (0 : Fin 2) * 2000 + 1 * p.val = t.val * 2000 + p.val; rw [e0]; omega
    | ⟨1, _⟩ => show win2_4.index t (1 : Fin 2) * 128 + 1 * q.val = q.val; rw [e1]; omega
  rw [View.read_apply, hemb]
  show (k2_pay1 (iblk2 V c 0 t) (iblk2 V c 1 t) (iblk2 V c 2 t) (iblk2 V c 3 t) : S2000x128.Idx → EReal) (ix2 p q)
    = G2 (V c main_v43) (V c main_v32) (V c main_arg7) (V c main_arg8) (ix2 (row2 t p) q)
  rcases col2_cases q with ⟨j, rfl⟩ | ⟨j, rfl⟩
  · rw [stored2_left, G2_left]
    refine Finset.sum_congr rfl fun k _ => ?_
    rw [iblk2_0_apply, iblk2_1_apply, iblk2_2_apply]
    rfl
  · rw [stored2_right, G2_right]
    refine Finset.sum_congr rfl fun k _ => ?_
    rw [iblk2_0_apply, iblk2_1_apply, iblk2_3_apply]
    rfl

/-- An index of the array is in point `t`'s block iff each coordinate is in the block's range on its axis. -/
theorem mem2_blk (t : Fin cfg2.N) (i : S50000x128.Idx) :
    i ∈ ((cfg2.win 4).blk t).view.set ↔ ∀ a : Fin 2, win2_4.index t a * S2000x128.size a ≤ (i a).val
      ∧ (i a).val < win2_4.index t a * S2000x128.size a + S2000x128.size a := by
  show i ∈ ((View.whole (Pipeline.arrRef spec2 4)).slice (win2_4.rect t)).set ↔ _
  rw [View.set_slice_whole, Rect.mem_set_unit]
  exact Iff.rfl

/-- The 25 blocks of 2000 rows cover the array: row `r` lies in the block of point `r / 2000`. -/
theorem cover2 (i : S50000x128.Idx) :
    ∃ t : Fin cfg2.N, (cfg2.win 4).flush t = true ∧ i ∈ ((cfg2.win 4).blk t).view.set := by
  have h0 : (i 0).val < 50000 := idx2_lt0 i
  have h1 : (i 1).val < 128 := idx2_lt1 i
  obtain ⟨t, ht⟩ : ∃ t : Fin cfg2.N, t.val = (i 0).val / 2000 :=
    ⟨⟨(i 0).val / 2000, lt_of_lt_of_eq (show (i 0).val / 2000 < 25 by omega) N_2.symm⟩, rfl⟩
  obtain ⟨-, -, -, -, -, -, -, -, e0, e1⟩ := idx2_facts t
  refine ⟨t, flush2_4 t, ?_⟩
  rw [mem2_blk]
  intro a
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 128 ≤ (i 1).val ∧ (i 1).val < win2_4.index t (1 : Fin 2) * 128 + 128
    rw [e1]; omega

/-- So region 2's output array ends holding `G2` of the arrays the region is entered with. -/
theorem arr2_eq (c : Dev nD) :
    (dat2 V c).arrAt 4 cfg2.N = G2 (V c main_v43) (V c main_v32) (V c main_arg7) (V c main_arg8) :=
  (dat2 V c).arrAt_eq_of_cover 4 (G2 (V c main_v43) (V c main_v32) (V c main_arg7) (V c main_arg8))
    (fun t _ => flushed2_eq V c t) cover2

end Region2

/-- The first 64 columns of region 2's output array: the rectified features times the neighbour weights. -/
theorem final2_left (c : Dev nD) (p : Fin 50000) (j : Fin 64) :
    ((dat2 V c).arrAt 4 cfg2.N : S50000x128.Idx → EReal) (ix2 p ⟨j.val, by omega⟩)
      = mm (relu2 (cur2 (V c main_v43 : S50000x64.Idx → EReal)) (cur2 (V c main_v32 : S50000x64.Idx → EReal)))
          (cur2 (V c main_arg7 : S64x64.Idx → EReal)) p j := by
  rw [Region2.arr2_eq]
  exact Region2.G2_left _ _ _ _ p j

/-- The last 64 columns: the rectified features times the root weights. -/
theorem final2_right (c : Dev nD) (p : Fin 50000) (j : Fin 64) :
    ((dat2 V c).arrAt 4 cfg2.N : S50000x128.Idx → EReal) (ix2 p ⟨64 + j.val, by omega⟩)
      = mm (relu2 (cur2 (V c main_v43 : S50000x64.Idx → EReal)) (cur2 (V c main_v32 : S50000x64.Idx → EReal)))
          (cur2 (V c main_arg8 : S64x64.Idx → EReal)) p j := by
  rw [Region2.arr2_eq]
  exact Region2.G2_right _ _ _ _ p j

end Cert.KernelIdeal.Val

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«413041_j89696097010223_3_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.KV.Val3.lean ====
/-
  What region 3 leaves in its output array, at the extended reals. The accumulator after the last grid point is the
  membership matrix contracted against the rectified features over all 50000 nodes (25 blocks of 2000 added in turn onto
  zero); the one block the region writes back, at the last point, is the result row computed from it: the mean over the
  node counts, the last linear map with its bias, row 0 of the softmax.
-/
import proofs.«413041_j89696097010223_3_alg».proof.Proof.KI.Reg3
import proofs.«413041_j89696097010223_3_alg».proof.Proof.Spec
import proofs.«413041_j89696097010223_3_alg».proof.Proof.Decode
import proofs.«413041_j89696097010223_3_alg».proof.Proof.LibPlainDot
import proofs.«413041_j89696097010223_3_alg».proof.Proof.LibRowReduce
import proofs.«413041_j89696097010223_3_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec Cert.Decode

variable (V : (c : Dev nD) → (b : Ref sig .tc) → Buf (Elt Ideal) ((c : Thread nD τ).loc b))

namespace Region3

/-! ## A product that contracts the rows of both operands

For the dimension numbers `[K, M] × [K, N] → [M, N]` with axis 0 of both operands contracted, the operand indices
at output element `(a, b)` and contraction coordinate `k` are `(k, a)` and `(k, b)`: the product into the zero
splat is `∑ k, lhs (k, a) * rhs (k, b)`. -/

/-- The dimension numbers of a product contracting axis 0 of both operands, no batch axes. -/
structure RowsDot {K M N : Nat} (d : DotDims ⟨2, ![K, M]⟩ ⟨2, ![K, N]⟩ ⟨2, ![M, N]⟩) : Prop where
  lc : d.lhsContracting = [0]
  rc : d.rhsContracting = [0]
  ln : d.lhsNonContracting = [1]
  rn : d.rhsNonContracting = [1]
  lb : d.lhsBatch = []
  rb : d.rhsBatch = []

section RowsDot

variable {K M N : Nat} {d : DotDims ⟨2, ![K, M]⟩ ⟨2, ![K, N]⟩ ⟨2, ![M, N]⟩}

/-- One axis is contracted. -/
theorem RowsDot.rank_contr (hd : RowsDot d) : d.contr.rank = 1 := by
  rw [d.rank_contr, hd.lc]; rfl

/-- Its extent is the operands' number of rows. -/
theorem RowsDot.size_contr (hd : RowsDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the contraction coordinate. -/
theorem RowsDot.lhs0 (hd : RowsDot d) (i : (⟨2, ![M, N]⟩ : Shape).Idx) (q : d.contr.Idx) :
    (d.lhsIdx i q 0).val = (q ⟨0, by rw [hd.rank_contr]; exact Nat.one_pos⟩).val :=
  d.lhsIdx_val_of_single hd.lc i q

/-- The left operand's column is the output's row. -/
theorem RowsDot.lhs1 (hd : RowsDot d) (i : (⟨2, ![M, N]⟩ : Shape).Idx) (q : d.contr.Idx) :
    (d.lhsIdx i q 1).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The right operand's row is the contraction coordinate. -/
theorem RowsDot.rhs0 (hd : RowsDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem RowsDot.rhs1 (hd : RowsDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction re-indexed by the contracted row. -/
theorem RowsDot.sum_contr (hd : RowsDot d) (lhs : (⟨2, ![K, M]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 k a) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 k a :=
    funext fun x => Fin.ext (by
      match x with
      | ⟨0, _⟩ => exact (hd.lhs0 _ _).trans hk
      | ⟨1, _⟩ => exact hd.lhs1 _ _)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- Accumulated into the zero splat, at element `(a, b)`: `∑ k, lhs (k, a) * rhs (k, b)`. -/
theorem RowsDot.matmul_zero_apply (hd : RowsDot d) {φ₁ φ₂ : FTy} (prec : Option ContractPrecision)
    (lhs : FVec Ideal ⟨2, ![K, M]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 k a) * rhs (ix2 k b) :=
  (Ideal.matmul_constant_zero_apply d prec lhs rhs (ix2 a b)).trans (hd.sum_contr lhs rhs a b)

end RowsDot

/-- The block update's product contracts the 2000 rows of both operands. -/
theorem rowsDot_blk : RowsDot dot_S2000x64_S2000x64_S64x64_0_0_1_1_n_n := ⟨rfl, rfl, rfl, rfl, rfl, rfl⟩

/-- The tail's product is a plain one. -/
theorem plainDot_fc : Cert.Lib.PlainDot dot_S64x64_S64x10_S64x10_1_0_0_1_n_n := ⟨rfl, rfl, rfl, rfl, rfl, rfl⟩

/-! ## The block update at an entry -/

/-- The update at entry `(g, j)`: what the accumulator held plus, over the block's rows, the membership entry of row
    `r` for graph `g` times the rectified feature `(r, j)`. -/
theorem pay2_apply (v3 : Vec Ideal S2000x64 .f32) (v5 v12 : Vec Ideal S2000x64 .bf16) (v15 : Vec Ideal S64x64 .f32)
    (g j : Fin 64) :
    (k3_pay2 v3 v5 v12 v15 : S64x64.Idx → EReal) (ix2 g j)
      = v15 (ix2 g j) + ∑ r : Fin 2000, v12 (ix2 r g) * max (v3 (ix2 r j) + v5 (ix2 r j)) 0 := by
  unfold k3_pay2
  simp only [shapeCast_self]
  rw [addf_apply]
  refine congrArg (v15 (ix2 g j) + ·) ?_
  refine (rowsDot_blk.matmul_zero_apply none _ _ g j).trans ?_
  refine Finset.sum_congr rfl fun r _ => ?_
  rw [truncf_apply, maximumf_apply, addf_apply, extf_apply, broadcast_apply]
  show _ * max _ (Ideal.ofBits .f32 0x00000000#32) = _
  rw [Ideal.ofBits_zero_f32]

/-- The cleared accumulator is zero everywhere. -/
theorem pay1_apply (i : S64x64.Idx) : (k3_pay1 (F := Ideal) : S64x64.Idx → EReal) i = 0 := by
  unfold k3_pay1
  simp only [shapeCast_self]
  rw [broadcast_apply]
  exact Ideal.ofBits_zero_f32

/-! ## Where each window's block sits, and the blocks read off their arrays -/

/-- The grid has 25 points. -/
theorem N3 : cfg3.N = 25 := N_3

/-- The printed index maps over the grid: the three streamed windows sit at block `(t, 0)`, every other window at
    block `(0, 0)`. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row `r` of the aggregated messages' block at point `t` is row `2000 t + r` of the array. -/
theorem blk0_apply (c : Dev nD) (t : Fin cfg3.N) (r : Fin 2000) (j : Fin 64) (k : Fin 50000)
    (hk : k.val = 2000 * t.val + r.val) :
    (iblk3 V c 0 t : S2000x64.Idx → EReal) (ix2 r j) = (V c main_v57 : S50000x64.Idx → EReal) (ix2 k j) := by
  obtain ⟨e0, e1, -⟩ := idx_facts3 t
  show (V c main_v57 : S50000x64.Idx → EReal) (((cfg3.win 0).blk t).view.emb (ix2 r j)) = _
  refine congrArg _ (funext fun a => Fin.ext ?_)
  match a with
  | ⟨0, _⟩ => show win3_0.index t (0 : Fin 2) * 2000 + 1 * r.val = k.val; omega
  | ⟨1, _⟩ => show win3_0.index t (1 : Fin 2) * 64 + 1 * j.val = j.val; omega

/-- The same for the root term's block. -/
theorem blk1_apply (c : Dev nD) (t : Fin cfg3.N) (r : Fin 2000) (j : Fin 64) (k : Fin 50000)
    (hk : k.val = 2000 * t.val + r.val) :
    (iblk3 V c 1 t : S2000x64.Idx → EReal) (ix2 r j) = (V c main_v46 : S50000x64.Idx → EReal) (ix2 k j) := by
  obtain ⟨-, -, e0, e1, -⟩ := idx_facts3 t
  show (V c main_v46 : S50000x64.Idx → EReal) (((cfg3.win 1).blk t).view.emb (ix2 r j)) = _
  refine congrArg _ (funext fun a => Fin.ext ?_)
  match a with
  | ⟨0, _⟩ => show win3_1.index t (0 : Fin 2) * 2000 + 1 * r.val = k.val; omega
  | ⟨1, _⟩ => show win3_1.index t (1 : Fin 2) * 64 + 1 * j.val = j.val; omega

/-- The same for the membership matrix's block. -/
theorem blk2_apply (c : Dev nD) (t : Fin cfg3.N) (r : Fin 2000) (j : Fin 64) (k : Fin 50000)
    (hk : k.val = 2000 * t.val + r.val) :
    (iblk3 V c 2 t : S2000x64.Idx → EReal) (ix2 r j) = (V c main_v10 : S50000x64.Idx → EReal) (ix2 k j) := by
  obtain ⟨-, -, -, -, e0, e1, -⟩ := idx_facts3 t
  show (V c main_v10 : S50000x64.Idx → EReal) (((cfg3.win 2).blk t).view.emb (ix2 r j)) = _
  refine congrArg _ (funext fun a => Fin.ext ?_)
  match a with
  | ⟨0, _⟩ => show win3_2.index t (0 : Fin 2) * 2000 + 1 * r.val = k.val; omega
  | ⟨1, _⟩ => show win3_2.index t (1 : Fin 2) * 64 + 1 * j.val = j.val; omega

/-- The last linear map's window is its whole array at every point. -/
theorem blk3_eq (c : Dev nD) (t : Fin cfg3.N) :
    (iblk3 V c 3 t : S64x10.Idx → EReal) = (V c main_arg9 : S64x10.Idx → EReal) := by
  obtain ⟨-, -, -, -, -, -, e0, e1, -⟩ := idx_facts3 t
  funext y
  show (V c main_arg9 : S64x10.Idx → EReal) (((cfg3.win 3).blk t).view.emb y) = _
  refine congrArg _ (funext fun a => Fin.ext ?_)
  match a with
  | ⟨0, _⟩ => show win3_3.index t (0 : Fin 2) * 64 + 1 * (y 0).val = (y 0).val; omega
  | ⟨1, _⟩ => show win3_3.index t (1 : Fin 2) * 10 + 1 * (y 1).val = (y 1).val; omega

/-- So is the bias's. -/
theorem blk4_eq (c : Dev nD) (t : Fin cfg3.N) :
    (iblk3 V c 4 t : S1x10.Idx → EReal) = (V c main_v58 : S1x10.Idx → EReal) := by
  obtain ⟨-, -, -, -, -, -, -, -, e0, e1, -⟩ := idx_facts3 t
  funext y
  show (V c main_v58 : S1x10.Idx → EReal) (((cfg3.win 4).blk t).view.emb y) = _
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 10 + 1 * (y 1).val = (y 1).val; omega

/-- So is the node counts'. -/
theorem blk5_eq (c : Dev nD) (t : Fin cfg3.N) :
    (iblk3 V c 5 t : S64x1.Idx → EReal) = (V c main_v15 : S64x1.Idx → EReal) := by
  obtain ⟨-, -, -, -, -, -, -, -, -, -, e0, e1, -⟩ := idx_facts3 t
  funext y
  show (V c main_v15 : S64x1.Idx → EReal) (((cfg3.win 5).blk t).view.emb y) = _
  refine congrArg _ (funext fun a => Fin.ext ?_)
  match a with
  | ⟨0, _⟩ => show win3_5.index t (0 : Fin 2) * 64 + 1 * (y 0).val = (y 0).val; omega
  | ⟨1, _⟩ => show win3_5.index t (1 : Fin 2) * 1 + 1 * (y 1).val = (y 1).val; omega

/-! ## The accumulator: block sums added in turn onto zero -/

/-- Node `n`'s term of the pooled entry `(g, j)`: its membership entry for graph `g` times its rectified feature `j`. -/
def nodeTerm (c : Dev nD) (g j : Fin 64) (n : Fin 50000) : EReal :=
  cur2 (V c main_v10 : S50000x64.Idx → EReal) n g
    * relu2 (cur2 (V c main_v57 : S50000x64.Idx → EReal)) (cur2 (V c main_v46 : S50000x64.Idx → EReal)) n j

/-- The sum of the node terms over the 2000 nodes of block `s` (zero past the grid). -/
def blockSum (c : Dev nD) (g j : Fin 64) (s : ℕ) : EReal :=
  if h : s < 25 then ∑ r : Fin 2000, nodeTerm V c g j ⟨2000 * s + r.val, Cert.Lib.block_pos_lt (n := 50000) (by norm_num) ⟨s, h⟩ r⟩ else 0

/-- One update at point `t` adds block `t`'s sum to every entry of what the accumulator held. -/
theorem step_apply (c : Dev nD) (t : Fin cfg3.N) (acc : Vec Ideal S64x64 .f32) (g j : Fin 64) :
    (k3_pay2 (iblk3 V c 0 t) (iblk3 V c 1 t) (iblk3 V c 2 t) acc : S64x64.Idx → EReal) (ix2 g j)
      = acc (ix2 g j) + blockSum V c g j t.val := by
  have ht : t.val < 25 := N3 ▸ t.isLt
  refine (pay2_apply _ _ _ _ g j).trans ?_
  refine congrArg (acc (ix2 g j) + ·) ?_
  unfold blockSum
  rw [dif_pos ht]
  refine Finset.sum_congr rfl fun r _ => ?_
  rw [blk2_apply V c t r g ⟨2000 * t.val + r.val, by have := r.isLt; omega⟩ rfl,
    blk0_apply V c t r j ⟨2000 * t.val + r.val, by have := r.isLt; omega⟩ rfl,
    blk1_apply V c t r j ⟨2000 * t.val + r.val, by have := r.isLt; omega⟩ rfl]
  rfl

/-- After position `n` the accumulator's entry `(g, j)` is the sum of the first `n + 1` block sums. -/
theorem sAt3_apply (c : Dev nD) (g j : Fin 64) : ∀ (n : ℕ) (hn : n < cfg3.N),
    (sAt3 V c n hn : S64x64.Idx → EReal) (ix2 g j) = ∑ s ∈ Finset.range (n + 1), blockSum V c g j s
  | 0, hn => by
    rw [sAt3_zero]
    refine (step_apply V c ⟨0, hn⟩ _ g j).trans ?_
    rw [pay1_apply, zero_add, Finset.sum_range_one]
  | n + 1, hn => by
    rw [sAt3_succ]
    refine (step_apply V c ⟨n + 1, hn⟩ _ g j).trans ?_
    rw [sAt3_apply c g j n (Nat.lt_of_succ_lt hn), Finset.sum_range_succ _ (n + 1)]

/-- After the last point the accumulator is the membership matrix contracted against the rectified features over
    all nodes. -/
theorem sAt3_last (c : Dev nD) (h24 : 24 < cfg3.N) (g j : Fin 64) :
    (sAt3 V c 24 h24 : S64x64.Idx → EReal) (ix2 g j)
      = poolK (cur2 (V c main_v10 : S50000x64.Idx → EReal))
          (relu2 (cur2 (V c main_v57 : S50000x64.Idx → EReal)) (cur2 (V c main_v46 : S50000x64.Idx → EReal))) g j := by
  rw [sAt3_apply V c g j 24 h24, Finset.sum_range]
  show _ = ∑ n : Fin 50000, nodeTerm V c g j n
  rw [← Cert.Lib.sum_blocks (n := 50000) (H := 25) (B := 2000) (by norm_num) (nodeTerm V c g j)]
  refine Finset.sum_congr rfl fun s _ => ?_
  unfold blockSum
  rw [dif_pos s.isLt]

/-! ## The tail: the mean, the last linear map, row 0 of the softmax -/

/-- A pointwise exponential at an index. -/
theorem exp_apply {s : Shape} {φ : FTy} (x : FVec Ideal s φ) (i : s.Idx) : exp x i = Ideal.exp (x i) := rfl

/-- The logits as the kernel computes them: the accumulator over the node counts (at least one), through the last
    linear map, plus the bias row. -/
def logitsK (v23 : FVec Ideal S64x64 .f32) (v24 : FVec Ideal S64x1 .f32) (v30 : FVec Ideal S64x10 .f32)
    (v32 : FVec Ideal S1x10 .f32) : FVec Ideal S64x10 .f32 :=
  addf (matmul dot_S64x64_S64x10_S64x10_1_0_0_1_n_n (some .fp32)
      (divf v23 (broadcastTo S64x64 (maximumf (shapeCast S64x1 v24 shapeCasts_S64x1_S64x1)
        (broadcast S64x1 (Scalar.ofBits (F := Ideal) .f32 0x3F800000#32))) broadcasts_S64x1_S64x64))
      v30 (constant (F := Ideal) S64x10 .f32 0x00000000#32))
    (broadcastTo S64x10 (shapeCast S1x10 v32 shapeCasts_S1x10_S1x10) broadcasts_S1x10_S64x10)

/-- The row maxima, taken from minus infinity and once more against minus infinity. -/
def rowMaxK (L : FVec Ideal S64x10 .f32) : FVec Ideal S64 .f32 :=
  maximumf (broadcast S64 (Scalar.ofBits (F := Ideal) .f32 0xFF800000#32))
    (multiReduction .maximumf [1] S64 L 0xFF800000#32 reduces_S64x10_S64 (.inl rfl) rfl)

/-- The exponentials of the logits less their row's maximum. -/
def expK (L : FVec Ideal S64x10 .f32) : FVec Ideal S64x10 .f32 :=
  exp (subf L (broadcastTo S64x10 (shapeCast S64x1 (rowMaxK L) shapeCasts_S64_S64x1) broadcasts_S64x1_S64x10))

/-- Row 0 of the exponentials over their row sums. -/
def rowZeroK (L : FVec Ideal S64x10 .f32) : FVec Ideal S1x10 .f32 :=
  extractStridedSlice S1x10 ![0, 0]
    (divf (expK L) (broadcastTo S64x10 (shapeCast S64x1
      (multiReduction .add [1] S64 (expK L) 0x00000000#32 reduces_S64x10_S64 (.inl rfl) rfl)
      shapeCasts_S64_S64x1) broadcasts_S64x1_S64x10))
    slices_S64x10_o0_0_S1x10

/-- The tail's payload is these three stages composed. -/
theorem pay3_eq (v23 : Vec Ideal S64x64 .f32) (v24 : Vec Ideal S64x1 .f32) (v30 : Vec Ideal S64x10 .f32)
    (v32 : Vec Ideal S1x10 .f32) : k3_pay3 v23 v24 v30 v32 = rowZeroK (logitsK v23 v24 v30 v32) := rfl

/-- A logit: the mean features of graph `a` through the last linear map, plus the bias. -/
theorem logitsK_apply (v23 : Vec Ideal S64x64 .f32) (v24 : Vec Ideal S64x1 .f32) (v30 : Vec Ideal S64x10 .f32)
    (v32 : Vec Ideal S1x10 .f32) (a : Fin 64) (u : Fin 10) :
    logitsK v23 v24 v30 v32 (ix2 a u)
      = (∑ j : Fin 64, Ideal.div (v23 (ix2 a j)) (max (v24 (ix2 a 0)) (Ideal.ofBits .f32 0x3F800000#32)) * v30 (ix2 j u))
        + v32 (ix2 0 u) := by
  unfold logitsK
  simp only [shapeCast_self]
  rw [addf_apply]
  refine congrArg₂ (· + ·) ((plainDot_fc.matmul_zero_apply _ _ _ a u).trans (Finset.sum_congr rfl fun j _ => ?_))
    (broadcastTo_1b_ab_apply _ _ a u)
  rw [divf_apply, Cert.RowReduce.broadcastTo_a1_ab_apply, maximumf_apply, broadcast_apply]
  rfl

/-- A row's maximum: the fold of `max` over the row from minus infinity, once more against minus infinity. -/
theorem rowMaxK_apply (L : FVec Ideal S64x10 .f32) (a : Fin 64) :
    rowMaxK L (ix1 a) = max (Ideal.ofBits .f32 0xFF800000#32)
      ((Finset.univ : Finset (Fin 10)).fold max (Ideal.ofBits .f32 0xFF800000#32) (fun k => L (ix2 a k))) := by
  unfold rowMaxK
  rw [maximumf_apply, broadcast_apply]
  exact congrArg (max _) (Cert.RowReduce.rowMax_apply L _ _ _ _ a)

/-- An exponential: of the logit less its row's maximum. -/
theorem expK_apply (L : FVec Ideal S64x10 .f32) (a : Fin 64) (u : Fin 10) :
    expK L (ix2 a u) = Ideal.exp (L (ix2 a u) - rowMaxK L (ix1 a)) := by
  unfold expK
  rw [exp_apply, subf_apply, Cert.RowReduce.broadcastTo_a1_ab_apply, Cert.RowReduce.shapeCast_a_a1_apply]

/-- Row 0 of the result: the exponential over the sum of the row's exponentials. -/
theorem rowZeroK_apply (L : FVec Ideal S64x10 .f32) (t : Fin 10) :
    rowZeroK L (ix2 0 t) = Ideal.div (expK L (ix2 0 t)) (∑ u : Fin 10, expK L (ix2 0 u)) := by
  unfold rowZeroK
  refine (extractStridedSlice_apply _ _ _ (ix2 0 t) (ix2 (0 : Fin 64) t) (fun a => ?_)).trans ?_
  · match a with
    | ⟨0, _⟩ => rfl
    | ⟨1, _⟩ => exact (Nat.zero_add _).symm
  rw [divf_apply, Cert.RowReduce.broadcastTo_a1_ab_apply, Cert.RowReduce.shapeCast_a_a1_apply]
  exact congrArg (Ideal.div _) (Cert.RowReduce.rowSum_apply (expK L) _ _ _ _ 0)

/-- THE TAIL at entry `t` of row 0, over any accumulator, counts, weights and bias. -/
theorem pay3_apply (S : Vec Ideal S64x64 .f32) (cnt : Vec Ideal S64x1 .f32) (wfc : Vec Ideal S64x10 .f32)
    (bfc : Vec Ideal S1x10 .f32) (t : Fin 10) :
    (k3_pay3 S cnt wfc bfc : S1x10.Idx → EReal) (ix2 0 t)
      = tail (cur2 S) (fun g => cnt (ix2 g 0)) (cur2 wfc) (fun u => bfc (ix2 0 u)) t := by
  rw [pay3_eq, rowZeroK_apply]
  simp only [expK_apply, rowMaxK_apply, logitsK_apply]
  unfold tail
  simp only [zero_add, cur2]

/-! ## From the one flushed block to the array -/

/-- The last point is in the grid. -/
theorem h24 : 24 < cfg3.N := by rw [N3]; norm_num

/-- The result row as one whole array: the tail of the accumulator after the last point, over the count, weight
    and bias arrays as the region finds them. -/
def resultRow (c : Dev nD) : S1x10.Idx → EReal :=
  k3_pay3 (sAt3 V c 24 h24) (V c main_v15 : S64x1.Idx → EReal) (V c main_arg9 : S64x10.Idx → EReal)
    (V c main_v58 : S1x10.Idx → EReal)

/-- The one write-back, at the last point, writes the result row: the output's block `(0, 0)` is its whole array. -/
theorem flushed3_eq (c : Dev nD) (t : Fin cfg3.N) (hf : (cfg3.win 6).flush t = true) :
    (dat3 V c).flushed 6 t = ((cfg3.win 6).blk t).view.read (Elt Ideal) (resultRow V c) := by
  have h1 : t.val = 24 := by
    have h := (flush3_6 t).mp hf
    have hlt : t.val < 25 := N3 ▸ t.isLt
    omega
  obtain rfl : t = ⟨24, h24⟩ := Fin.ext h1
  show (cfg3.win 6).cut (grid3.coords ⟨24, h24⟩) ((dat3 V c).after 6 ⟨24, h24⟩) = _
  rw [after3_6, blk3_eq, blk4_eq, blk5_eq]
  obtain ⟨-, -, -, -, -, -, -, -, -, -, -, -, e0, e1⟩ := idx_facts3 ⟨24, h24⟩
  funext y
  rw [View.read_apply]
  have hy : ((cfg3.win 6).blk ⟨24, h24⟩).view.emb y = y := funext fun a => Fin.ext (by
    match a with
    | ⟨0, _⟩ => show win3_6.index ⟨24, h24⟩ (0 : Fin 2) * 1 + 1 * (y 0).val = (y 0).val; omega
    | ⟨1, _⟩ => show win3_6.index ⟨24, h24⟩ (1 : Fin 2) * 10 + 1 * (y 1).val = (y 1).val; omega)
  rw [hy]
  rfl

/-- An index of the output array is in point `t`'s block iff each coordinate is in the block's range on its axis. -/
theorem mem_blk6 (t : Fin cfg3.N) (i : S1x10.Idx) :
    i ∈ ((cfg3.win 6).blk t).view.set ↔ ∀ a : Fin 2, win3_6.index t a * S1x10.size a ≤ (i a).val ∧ (i a).val < win3_6.index t a * S1x10.size a + S1x10.size a := by
  show i ∈ ((View.whole main_v59).slice (win3_6.rect t)).set ↔ _
  rw [View.set_slice_whole, Rect.mem_set_unit]
  exact Iff.rfl

/-- Every index of the output array lies in the last point's block. -/
theorem cover3 (i : S1x10.Idx) :
    ∃ t : Fin cfg3.N, (cfg3.win 6).flush t = true ∧ i ∈ ((cfg3.win 6).blk t).view.set := by
  have hi0 : (i 0).val < 1 := (i 0).isLt
  have hi1 : (i 1).val < 10 := (i 1).isLt
  refine ⟨⟨24, h24⟩, (flush3_6 _).mpr rfl, ?_⟩
  rw [mem_blk6]
  obtain ⟨-, -, -, -, -, -, -, -, -, -, -, -, e0, e1⟩ := idx_facts3 ⟨24, h24⟩
  intro a
  match a with
  | ⟨0, _⟩ =>
    show win3_6.index ⟨24, h24⟩ (0 : Fin 2) * 1 ≤ (i 0).val ∧ (i 0).val < win3_6.index ⟨24, h24⟩ (0 : Fin 2) * 1 + 1
    omega
  | ⟨1, _⟩ =>
    show win3_6.index ⟨24, h24⟩ (1 : Fin 2) * 10 ≤ (i 1).val ∧ (i 1).val < win3_6.index ⟨24, h24⟩ (1 : Fin 2) * 10 + 10
    omega

/-- The output array after the region is the result row. -/
theorem final3 (c : Dev nD) : ((dat3 V c).arrAt 6 cfg3.N : S1x10.Idx → EReal) = resultRow V c :=
  (dat3 V c).arrAt_eq_of_cover 6 _ (fun t hf => flushed3_eq V c t hf) cover3

end Region3

open Region3

/-- Region 3's output array, entry `t` of its one row. -/
theorem final3_apply (c : Dev nD) (t : Fin 10) :
    ((dat3 V c).arrAt 6 cfg3.N : S1x10.Idx → EReal) (ix2 0 t)
      = tail (poolK (cur2 (V c main_v10 : S50000x64.Idx → EReal))
                (relu2 (cur2 (V c main_v57 : S50000x64.Idx → EReal)) (cur2 (V c main_v46 : S50000x64.Idx → EReal))))
          (fun g => (V c main_v15 : S64x1.Idx → EReal) (ix2 g 0))
          (cur2 (V c main_arg9 : S64x10.Idx → EReal))
          (fun u => (V c main_v58 : S1x10.Idx → EReal) (ix2 0 u)) t := by
  rw [Region3.final3]
  show (k3_pay3 (sAt3 V c 24 h24) (V c main_v15 : S64x1.Idx → EReal) (V c main_arg9 : S64x10.Idx → EReal)
    (V c main_v58 : S1x10.Idx → EReal) : S1x10.Idx → EReal) (ix2 0 t) = _
  rw [pay3_apply]
  have hS : cur2 (sAt3 V c 24 h24 : S64x64.Idx → EReal)
      = poolK (cur2 (V c main_v10 : S50000x64.Idx → EReal))
          (relu2 (cur2 (V c main_v57 : S50000x64.Idx → EReal)) (cur2 (V c main_v46 : S50000x64.Idx → EReal))) :=
    funext fun g => funext fun j => sAt3_last V c h24 g j
  rw [hS]

end Cert.KernelIdeal.Val

end
-- ==== Proof.KV.Args.lean ====
/-
  The two integer arguments of the kernel program as launched: the edge array and the graph-word array.
-/
import proofs.«413041_j89696097010223_3_alg».proof.Proof.KI.Run
import proofs.«413041_j89696097010223_3_alg».proof.Proof.Spec
import proofs.«413041_j89696097010223_3_alg».proof.Proof.Decode
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec Cert.Decode

variable (m : (ℓ : Loc nD τ sig) → Buf (Elt Ideal) ℓ)

/-- The edge array and the graph-word array as launched. -/
abbrev eiOf (c : Dev nD) : S2x800000.Idx → BitVec 32 := m ((c : Thread nD τ).loc main_arg1)
abbrev bOf (c : Dev nD) : S50000.Idx → BitVec 32 := m ((c : Thread nD τ).loc main_arg2)

end Cert.KernelIdeal.Val

end
-- ==== Proof.LibRowGather.lean ====
/-
  A row gather read at an element. jnp's `table[idx]` over a rank-2 table `[N, M]` with a vector of `n` row numbers
  lowers to a `stablehlo.gather` whose start indices are the `[n, 1]` column of row numbers, whose operand axis 0 is
  collapsed and start-indexed, whose operand axis 1 is kept whole as the result's offset axis 1, and whose index vector
  sits on axis 1 of the start indices. Result element `(p, q)` is the table at row "start index of `p`, read signed and
  clamped into `[0, N - 1]`" and column `q`.
-/
import Idealize.ShloMosaic.Lib.StableHlo.Predicate

namespace Cert.LibRowGather

open Idealize.ShloMosaic Idealize.ShloMosaic.StableHlo.Predicate

/-- The one entry of a list known to be a singleton. -/
theorem getElem_of_eq_singleton {α : Type} {L : List α} {x : α} (h : L = [x]) (k : Nat) (hk : k < L.length) : L[k] = x := by
  subst h
  have hk0 : k = 0 := by simpa using hk
  subst hk0
  rfl

section
variable {α : Type} {N M n w : Nat} (d : GatherDims ⟨2, ![N, M]⟩ ⟨2, ![n, 1]⟩ ⟨2, ![n, M]⟩)
  (hoff : d.offsetDims = [1]) (hcoll : d.collapsedSliceDims = [0]) (hob : d.operandBatchingDims = [])
  (hsim : d.startIndexMap = [0]) (hivd : d.indexVectorDim = 1)
include hoff hcoll hob hsim hivd

/-- The start-indices entry that result row `p` reads its row number from is entry `(p, 0)`. -/
theorem siIdx_row (p : Fin n) (q : Fin M) (c : Fin d.startIndexMap.length) : d.siIdx (ij p q) c = ixP p := by
  have hc : c.val = 0 := by
    have hlen : d.startIndexMap.length = 1 := by rw [hsim]; rfl
    have := c.isLt
    omega
  funext b
  match b with
  | ⟨0, _⟩ =>
    unfold GatherDims.siIdx
    rw [dif_neg (by rw [hivd]; simp)]
    unfold GatherDims.siCoord
    apply Fin.ext
    simp only [Fin.val_cast]
    have hbd : d.batchDims = [0] := by
      show (⟨2, ![n, M]⟩ : Shape).kept d.offsetDims = [0]
      rw [hoff]; rfl
    rw [getElem_of_eq_singleton hbd]
    rfl
  | ⟨1, _⟩ =>
    unfold GatherDims.siIdx
    rw [dif_pos (by rw [hivd])]
    apply Fin.ext
    exact hc

/-- On the table's row axis the operand index is the clamped start index. -/
theorem operandIdx_row (idx : IVec ⟨2, ![n, 1]⟩ w) (p : Fin n) (q : Fin M) :
    (d.operandIdx (ij p q) idx 0).val = min (idx (ixP p)).toInt.toNat (N - 1) := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes 0 = 1 := d.slice_collapsed 0 (by rw [hcoll]; exact List.mem_singleton.mpr rfl)
  simp only [GatherDims.operandIdx, GatherDims.batchCoord_eq_zero _ _ _ hb, GatherDims.offCoord_eq_zero _ _ _ hk,
    Nat.add_zero, GatherDims.start, dif_pos hm]
  rw [siIdx_row d hoff hcoll hob hsim hivd p q, hsl]
  rfl

/-- On the table's column axis the operand index is the result's column. -/
theorem operandIdx_col (idx : IVec ⟨2, ![n, 1]⟩ w) (p : Fin n) (q : Fin M) :
    (d.operandIdx (ij p q) idx 1).val = q.val := by
  have hb : (1 : Fin 2) ∉ d.operandBatchingDims := by rw [hob]; exact List.not_mem_nil
  have hm : (1 : Fin 2) ∉ d.startIndexMap := by rw [hsim]; simp
  have hk : (1 : Fin 2) ∈ d.sKept := by rw [GatherDims.mem_sKept, hcoll, hob]; simp
  simp only [GatherDims.operandIdx, GatherDims.batchCoord_eq_zero _ _ _ hb, Nat.add_zero, GatherDims.start, dif_neg hm,
    Nat.zero_add, GatherDims.offCoord, dif_pos hk]
  rw [getElem_of_eq_singleton hoff]
  rfl

/-- THE ROW GATHER at `(p, q)`: the table at the clamped row number of `p` and at column `q`. -/
theorem gather_rows (x : (⟨2, ![N, M]⟩ : Shape).Idx → α) (idx : IVec ⟨2, ![n, 1]⟩ w) (p : Fin n) (q : Fin M) (hN : 0 < N) :
    Host.gather d x idx (ij p q) = x (ij ⟨min (idx (ixP p)).toInt.toNat (N - 1), by omega⟩ q) := by
  unfold Host.gather
  congr 1
  funext a
  match a with
  | ⟨0, _⟩ => exact Fin.ext (operandIdx_row d hoff hcoll hob hsim hivd idx p q)
  | ⟨1, _⟩ => exact Fin.ext (operandIdx_col d hoff hcoll hob hsim hivd idx p q)

end

end Cert.LibRowGather
-- ==== Proof.KV.KHostAgg.lean ====
/-
  The three host stretches between the regions, read at an index. Each slices a region's two-part output into the
  neighbour map (first 64 columns) and the root term (last 64 columns), gathers the neighbour map's rows along the
  edges' sources — the source word of row 0 of the edge array, a negative word wrapped by the node count, clamped into
  the table — and adds the gathered rows onto the zero array at the edges' destinations (row 1 of the edge array, read
  signed; a word that names no node drops its row). The edge array is still as launched: no stretch and no region
  writes it.
-/
import proofs.«413041_j89696097010223_3_alg».proof.Proof.KI.Run
import proofs.«413041_j89696097010223_3_alg».proof.Proof.KV.Args
import proofs.«413041_j89696097010223_3_alg».proof.Proof.LibRowGather
import proofs.«413041_j89696097010223_3_alg».proof.Proof.LibScatterRows
import proofs.«413041_j89696097010223_3_alg».proof.Proof.Spec
import proofs.«413041_j89696097010223_3_alg».proof.Proof.Decode
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec Cert.Decode

variable (m : (ℓ : Loc nD τ sig) → Buf (Elt Ideal) ℓ) (ρ : Dev nD → PrngReg)

/-! ## One stretch's operations, read at an entry -/

/-- The operations of one stretch on a region's two-part output `o`, the source words `v1` and the destination words
    `v3`: the first 64 columns of `o`, its rows gathered at the wrapped source words, widened, and added onto the zero
    array at the destination words. -/
def aggOps (o : FVec Ideal S50000x128 .bf16) (v1 v3 : IVec S800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 v3)
    (extf .f32
      (Host.gather gather_S50000x64_S800000x1_S800000x64_1_0_n_n_0_1_164
        (extractStridedSlice S50000x64 ![0, 0] o slices_S50000x128_S50000x64_0_0)
        (Cert.Lib.wrapCol bcast_S_S800000 bcast_S800000_S800000x1_0 50000#32 v1))
      bitsLt_bf16_f32)

/-- The two spellings of a matrix index agree. -/
theorem ij_eq_ix2 {a b : ℕ} (p : Fin a) (q : Fin b) : StableHlo.Predicate.ij p q = ix2 p q := by
  funext d; match d with | ⟨0, _⟩ => rfl | ⟨1, _⟩ => rfl

theorem ixP_eq_ix2 {a : ℕ} (p : Fin a) : StableHlo.Predicate.ixP p = ix2 p (0 : Fin 1) := by
  funext d; match d with | ⟨0, _⟩ => rfl | ⟨1, _⟩ => rfl

/-- The zero array at an entry. -/
theorem zeros_apply (n : Fin 50000) (j : Fin 64) :
    broadcastInDim S50000x64 ![] bcast_S_S50000x64 (constant (F := Ideal) S_ .f32 0x00000000#32) (ix2 n j) = (0 : EReal) := by
  rw [broadcastInDim_apply _ bcast_S_S50000x64 _ (ix2 n j) ix0 (fun a => a.elim0), constant_apply]
  exact Ideal.ofBits_zero_f32

/-- A gathered row at a column: the first-half column of the output's row at the clamped wrapped source word. -/
theorem gathered_apply (o : FVec Ideal S50000x128 .bf16) (v1 : IVec S800000 32) (e : Fin 800000) (j : Fin 64) :
    Host.gather gather_S50000x64_S800000x1_S800000x64_1_0_n_n_0_1_164
        (extractStridedSlice S50000x64 ![0, 0] o slices_S50000x128_S50000x64_0_0)
        (Cert.Lib.wrapCol bcast_S_S800000 bcast_S800000_S800000x1_0 50000#32 v1) (ix2 e j)
      = o (ix2 ⟨min (Cert.Lib.wrapW 50000#32 (v1 (ix1 e))).toInt.toNat (50000 - 1), by omega⟩ ⟨j.val, by omega⟩) := by
  rw [← ij_eq_ix2 e j,
    Cert.LibRowGather.gather_rows gather_S50000x64_S800000x1_S800000x64_1_0_n_n_0_1_164 rfl rfl rfl rfl rfl _ _ e j (by decide),
    ij_eq_ix2, slice2_axis1_eq 0 o slices_S50000x128_S50000x64_0_0]
  refine congrArg o (Shape.idx_ext₂ ?_ (Nat.zero_add _))
  show min (Cert.Lib.wrapCol bcast_S_S800000 bcast_S800000_S800000x1_0 50000#32 v1 (StableHlo.Predicate.ixP e)).toInt.toNat (50000 - 1)
    = min (Cert.Lib.wrapW 50000#32 (v1 (ix1 e))).toInt.toNat (50000 - 1)
  rw [ixP_eq_ix2, Cert.Lib.wrapCol_apply]

/-- ONE STRETCH at `(n, j)`: onto zero, the first-half column `j` of the output's rows at the edges' source rows, over the
    edges whose destination word is `n` — for any edge array `ei` whose row 0 the source words are and whose row 1 the
    destination words are. -/
theorem aggOps_apply (o : FVec Ideal S50000x128 .bf16) (v1 v3 : IVec S800000 32) (ei : IVec S2x800000 32)
    (h1 : ∀ e : Fin 800000, v1 (ix1 e) = ei (ix2 0 e)) (h3 : ∀ e : Fin 800000, v3 (ix1 e) = ei (ix2 1 e))
    (n : Fin 50000) (j : Fin 64) :
    aggOps o v1 v3 (ix2 n j)
      = agg (srcOf ei) (intoOf ei) (fun p q => (o : S50000x128.Idx → EReal) (ix2 p ⟨q.val, by omega⟩)) n j := by
  unfold aggOps
  rw [Cert.Lib.scatterAdd_rows2 scatter_S50000x64_S800000x1_S800000x64_1_0_0_1 ⟨rfl, rfl, rfl, rfl⟩, zeros_apply]
  unfold agg intoOf
  refine congrArg (fun s : EReal => 0 + s) ?_
  refine Finset.sum_congr (Finset.filter_congr fun e _ => ?_) (fun e _ => ?_)
  · rw [Cert.Lib.broadcastInDim_col_apply, h3]
  · rw [extf_apply, gathered_apply]
    refine congrArg o (Shape.idx_ext₂ ?_ rfl)
    show min (Cert.Lib.wrapW 50000#32 (v1 (ix1 e))).toInt.toNat (50000 - 1)
      = min (Cert.Lib.wrapW 50000#32 (ei (ix2 0 e))).toInt.toNat (50000 - 1)
    rw [h1]

/-! ## The edge words, as every stretch finds them

The first stretch slices rows 0 and 1 off the edge array and drops the unit axis; no later stretch and no region
writes the two word vectors, so every stretch reads them as the first one left them. -/

set_option maxHeartbeats 4000000 in
/-- The source words after the first stretch: row 0 of the edge array. -/
theorem srcWords_at1 (c : Dev nD) (e : Fin 800000) :
    (V1 m ρ c main_v1 : S800000.Idx → BitVec 32) (ix1 e) = eiOf m c (ix2 0 e) := by
  have h : (V1 m ρ c main_v1 : S800000.Idx → BitVec 32)
      = shapeCast S800000 (extractStridedSlice S1x800000 ![0, 0] (eiOf m c) slices_S2x800000_S1x800000_0_0)
          shapeCasts_S1x800000_S800000 := by
    show StableHlo.after hostOps0 (W0 m ρ c) (Proc.devRef .tc main_v1) = _
    after_results
    rfl
  rw [h, shapeCast_1a_a_apply, slice2_axis0_eq 0]
  rfl

set_option maxHeartbeats 4000000 in
/-- The destination words after the first stretch: row 1 of the edge array. -/
theorem dstWords_at1 (c : Dev nD) (e : Fin 800000) :
    (V1 m ρ c main_v3 : S800000.Idx → BitVec 32) (ix1 e) = eiOf m c (ix2 1 e) := by
  have h : (V1 m ρ c main_v3 : S800000.Idx → BitVec 32)
      = shapeCast S800000 (extractStridedSlice S1x800000 ![1, 0] (eiOf m c) slices_S2x800000_S1x800000_1_0)
          shapeCasts_S1x800000_S800000 := by
    show StableHlo.after hostOps0 (W0 m ρ c) (Proc.devRef .tc main_v3) = _
    after_results
    rfl
  rw [h, shapeCast_1a_a_apply, slice2_axis0_eq 1]
  rfl

/-- Region 0 leaves the word vectors (they are none of its windows' arrays); -/
theorem srcWords_at2 (c : Dev nD) : W2 m ρ c (Proc.devRef .tc main_v1) = V1 m ρ c main_v1 := W2_of_ne m ρ c main_v1 (by decide)
theorem dstWords_at2 (c : Dev nD) : W2 m ρ c (Proc.devRef .tc main_v3) = V1 m ρ c main_v3 := W2_of_ne m ρ c main_v3 (by decide)
/-- so do the second stretch and region 1; -/
theorem srcWords_at4 (c : Dev nD) : W4 m ρ c (Proc.devRef .tc main_v1) = V1 m ρ c main_v1 :=
  (W4_of_ne m ρ c main_v1 (by decide)).trans ((W3_of m ρ c main_v1 (by decide)).trans (srcWords_at2 m ρ c))
theorem dstWords_at4 (c : Dev nD) : W4 m ρ c (Proc.devRef .tc main_v3) = V1 m ρ c main_v3 :=
  (W4_of_ne m ρ c main_v3 (by decide)).trans ((W3_of m ρ c main_v3 (by decide)).trans (dstWords_at2 m ρ c))
/-- and the third stretch and region 2. -/
theorem srcWords_at6 (c : Dev nD) : W6 m ρ c (Proc.devRef .tc main_v1) = V1 m ρ c main_v1 :=
  (W6_of_ne m ρ c main_v1 (by decide)).trans ((W5_of m ρ c main_v1 (by decide)).trans (srcWords_at4 m ρ c))
theorem dstWords_at6 (c : Dev nD) : W6 m ρ c (Proc.devRef .tc main_v3) = V1 m ρ c main_v3 :=
  (W6_of_ne m ρ c main_v3 (by decide)).trans ((W5_of m ρ c main_v3 (by decide)).trans (dstWords_at4 m ρ c))

/-! ## The three stretches -/

set_option maxHeartbeats 4000000 in
/-- After the stretch that follows region 0: the aggregated messages are the first 64 columns of the region's output,
    gathered along the edges' sources and added onto the edges' destinations. -/
theorem agg1_eq (c : Dev nD) (n : Fin 50000) (j : Fin 64) :
    (V3 m ρ c main_v29 : S50000x64.Idx → EReal) (ix2 n j)
      = agg (srcOf (eiOf m c)) (intoOf (eiOf m c))
          (fun p q => (W2 m ρ c (Proc.devRef .tc main_v16) : S50000x128.Idx → EReal) (ix2 p ⟨q.val, by omega⟩)) n j := by
  have h : (V3 m ρ c main_v29 : S50000x64.Idx → EReal)
      = aggOps (W2 m ρ c (Proc.devRef .tc main_v16)) (W2 m ρ c (Proc.devRef .tc main_v1)) (W2 m ρ c (Proc.devRef .tc main_v3)) := by
    show StableHlo.after hostOps1 (W2 m ρ c) (Proc.devRef .tc main_v29) = _
    after_results
    rfl
  rw [h, srcWords_at2, dstWords_at2]
  exact aggOps_apply _ _ _ (eiOf m c) (srcWords_at1 m ρ c) (dstWords_at1 m ρ c) n j

set_option maxHeartbeats 4000000 in
/-- The root term is the last 64 columns of the region's output. -/
theorem r1_eq (c : Dev nD) (n : Fin 50000) (j : Fin 64) :
    (V3 m ρ c main_v18 : S50000x64.Idx → EReal) (ix2 n j)
      = (W2 m ρ c (Proc.devRef .tc main_v16) : S50000x128.Idx → EReal) (ix2 n ⟨64 + j.val, by omega⟩) := by
  have h : (V3 m ρ c main_v18 : S50000x64.Idx → EReal)
      = extractStridedSlice S50000x64 ![0, 64] (W2 m ρ c (Proc.devRef .tc main_v16)) slices_S50000x128_S50000x64_0_64 := by
    show StableHlo.after hostOps1 (W2 m ρ c) (Proc.devRef .tc main_v18) = _
    after_results
  rw [h]
  exact slice2_axis1_eq 64 _ slices_S50000x128_S50000x64_0_64 n j

set_option maxHeartbeats 4000000 in
/-- After the stretch that follows region 1: the aggregated messages are the first 64 columns of the region's output,
    gathered along the edges' sources and added onto the edges' destinations. -/
theorem agg2_eq (c : Dev nD) (n : Fin 50000) (j : Fin 64) :
    (V5 m ρ c main_v43 : S50000x64.Idx → EReal) (ix2 n j)
      = agg (srcOf (eiOf m c)) (intoOf (eiOf m c))
          (fun p q => (W4 m ρ c (Proc.devRef .tc main_v30) : S50000x128.Idx → EReal) (ix2 p ⟨q.val, by omega⟩)) n j := by
  have h : (V5 m ρ c main_v43 : S50000x64.Idx → EReal)
      = aggOps (W4 m ρ c (Proc.devRef .tc main_v30)) (W4 m ρ c (Proc.devRef .tc main_v1)) (W4 m ρ c (Proc.devRef .tc main_v3)) := by
    show StableHlo.after hostOps2 (W4 m ρ c) (Proc.devRef .tc main_v43) = _
    after_results
    rfl
  rw [h, srcWords_at4, dstWords_at4]
  exact aggOps_apply _ _ _ (eiOf m c) (srcWords_at1 m ρ c) (dstWords_at1 m ρ c) n j

set_option maxHeartbeats 4000000 in
/-- The root term is the last 64 columns of the region's output. -/
theorem r2_eq (c : Dev nD) (n : Fin 50000) (j : Fin 64) :
    (V5 m ρ c main_v32 : S50000x64.Idx → EReal) (ix2 n j)
      = (W4 m ρ c (Proc.devRef .tc main_v30) : S50000x128.Idx → EReal) (ix2 n ⟨64 + j.val, by omega⟩) := by
  have h : (V5 m ρ c main_v32 : S50000x64.Idx → EReal)
      = extractStridedSlice S50000x64 ![0, 64] (W4 m ρ c (Proc.devRef .tc main_v30)) slices_S50000x128_S50000x64_0_64 := by
    show StableHlo.after hostOps2 (W4 m ρ c) (Proc.devRef .tc main_v32) = _
    after_results
  rw [h]
  exact slice2_axis1_eq 64 _ slices_S50000x128_S50000x64_0_64 n j

set_option maxHeartbeats 4000000 in
/-- After the stretch that follows region 2: the aggregated messages are the first 64 columns of the region's output,
    gathered along the edges' sources and added onto the edges' destinations. -/
theorem agg3_eq (c : Dev nD) (n : Fin 50000) (j : Fin 64) :
    (V7 m ρ c main_v57 : S50000x64.Idx → EReal) (ix2 n j)
      = agg (srcOf (eiOf m c)) (intoOf (eiOf m c))
          (fun p q => (W6 m ρ c (Proc.devRef .tc main_v44) : S50000x128.Idx → EReal) (ix2 p ⟨q.val, by omega⟩)) n j := by
  have h : (V7 m ρ c main_v57 : S50000x64.Idx → EReal)
      = aggOps (W6 m ρ c (Proc.devRef .tc main_v44)) (W6 m ρ c (Proc.devRef .tc main_v1)) (W6 m ρ c (Proc.devRef .tc main_v3)) := by
    show StableHlo.after hostOps3 (W6 m ρ c) (Proc.devRef .tc main_v57) = _
    after_results
    rfl
  rw [h, srcWords_at6, dstWords_at6]
  exact aggOps_apply _ _ _ (eiOf m c) (srcWords_at1 m ρ c) (dstWords_at1 m ρ c) n j

set_option maxHeartbeats 4000000 in
/-- The root term is the last 64 columns of the region's output. -/
theorem r3_eq (c : Dev nD) (n : Fin 50000) (j : Fin 64) :
    (V7 m ρ c main_v46 : S50000x64.Idx → EReal) (ix2 n j)
      = (W6 m ρ c (Proc.devRef .tc main_v44) : S50000x128.Idx → EReal) (ix2 n ⟨64 + j.val, by omega⟩) := by
  have h : (V7 m ρ c main_v46 : S50000x64.Idx → EReal)
      = extractStridedSlice S50000x64 ![0, 64] (W6 m ρ c (Proc.devRef .tc main_v44)) slices_S50000x128_S50000x64_0_64 := by
    show StableHlo.after hostOps3 (W6 m ρ c) (Proc.devRef .tc main_v46) = _
    after_results
  rw [h]
  exact slice2_axis1_eq 64 _ slices_S50000x128_S50000x64_0_64 n j

end Cert.KernelIdeal.Val

end
-- ==== Proof.LibScatterVec.lean ====
/-
  A general lemma about the host's accumulating float scatter at the extended reals, in the pattern of a count or a
  histogram: a one-axis operand `[N]`, a column `[M, 1]` of index words and one update per index `[M]`. Element `n` of
  the result is the operand there plus the sum of the updates whose index word, read signed, is `n`; an index word that
  is negative or at least `N` names no element, and its update is dropped.
-/
import Idealize.ShloMosaic.PureOps.Ideal
import Idealize.ShloMosaic.Lib.ValueIdx
import Idealize.ShloMosaic.Lib.Pipeline.Value
import Mathlib.Algebra.BigOperators.Fin

noncomputable section

namespace Cert.Lib

open Idealize.ShloMosaic Idealize.ShloMosaic.ValueIdx

/-- The dimension numbers of a scatter of one update per index into a one-axis operand: no update window axis, the
    operand's axis inserted, the index vector (of length one, along axis 1 of the index column) naming that axis. At a
    printed record every field is `rfl`. -/
structure VecScatter {N M : Nat} (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

/-- Where an update lands, in the one-axis pattern: update `m` lands on operand element `n` exactly when its index word
    `idx (m, 0)`, read signed, is `n`. There is no window axis, so the landing place is the start index alone; an index
    word that is negative or at least `N` equals no `n : Fin N`, and that update is dropped. -/
theorem resultIdx?_vec {N M w : Nat} (d : ScatterDims ⟨1, ![N]⟩ ⟨2, ![M, 1]⟩ ⟨1, ![M]⟩)
    (hd : VecScatter d) (m : Fin M) (idx : IVec ⟨2, ![M, 1]⟩ w) (n : Fin N) :
    d.resultIdx? (ix1 m) idx = some (ix1 n) ↔ (idx (ix2 m 0)).toInt = (n.val : Int) := by
  obtain ⟨hu, hi, hs, hv⟩ := hd
  obtain ⟨uw, iw, sd, iv, wf⟩ := d
  simp only at hu hi hs hv
  subst hu hi hs hv
  -- the index column is read at row `j 0`, column `0`: the update's only axis is its scatter axis
  have hsi : ∀ (j : (⟨1, ![M]⟩ : Shape).Idx) (k : Fin 1),
      ScatterDims.siIdx (s := ⟨1, ![N]⟩) ⟨[], [0], [0], 1, wf⟩ j k = ix2 (j 0) 0 := by
    intro j k
    funext b
    match b with
    | ⟨0, _⟩ =>
      unfold ScatterDims.siIdx ScatterDims.siCoord
      rw [dif_neg (by simp)]
      apply Fin.ext
      show (j _).val = (j 0).val
      exact congrArg (fun a => (j a).val) (Subsingleton.elim _ _)
    | ⟨1, _⟩ => exact Subsingleton.elim (α := Fin 1) _ _
  -- the start on the operand's axis is that index word, read signed
  have hst : ∀ (j : (⟨1, ![M]⟩ : Shape).Idx) (a : Fin 1),
      ScatterDims.start (s := ⟨1, ![N]⟩) ⟨[], [0], [0], 1, wf⟩ j idx a = (idx (ix2 (j 0) 0)).toInt := by
    intro j a
    obtain rfl : a = 0 := Subsingleton.elim _ _
    unfold ScatterDims.start
    rw [dif_pos (List.mem_singleton.2 rfl)]
    exact congrArg (fun t => (idx t).toInt) (hsi j _)
  -- the operand's axis is inserted: no window coordinate on it
  have hw : ∀ (j : (⟨1, ![M]⟩ : Shape).Idx) (a : Fin 1),
      ScatterDims.window (s := ⟨1, ![N]⟩) (si := ⟨2, ![M, 1]⟩) ⟨[], [0], [0], 1, wf⟩ j a = 0 := by
    intro j a
    have h0 : a ∉ ScatterDims.sKept (s := ⟨1, ![N]⟩) (si := ⟨2, ![M, 1]⟩) (u := ⟨1, ![M]⟩) ⟨[], [0], [0], 1, wf⟩ := by
      show a ∉ ([] : List (Fin 1)); simp
    unfold ScatterDims.window
    rw [dif_neg h0]
  constructor
  · intro h
    unfold ScatterDims.resultIdx? at h
    split at h
    · next hc =>
      have hf := Option.some.inj h
      have e0 := congrArg Fin.val (congrFun hf 0)
      have c0 := hc 0
      simp only [hst, hw] at e0 c0
      change ((idx (ix2 m 0)).toInt + ((0 : Nat) : Int)).toNat = n.val at e0
      change 0 ≤ (idx (ix2 m 0)).toInt + ((0 : Nat) : Int) ∧ _ at c0
      omega
    · exact absurd h (by simp)
  · intro hT
    have hcond : ∀ a : Fin 1, 0 ≤ ScatterDims.start (s := ⟨1, ![N]⟩) ⟨[], [0], [0], 1, wf⟩ (ix1 m) idx a
          + (ScatterDims.window (s := ⟨1, ![N]⟩) (si := ⟨2, ![M, 1]⟩) ⟨[], [0], [0], 1, wf⟩ (ix1 m) a : Int) ∧
        ScatterDims.start (s := ⟨1, ![N]⟩) ⟨[], [0], [0], 1, wf⟩ (ix1 m) idx a
          + (ScatterDims.window (s := ⟨1, ![N]⟩) (si := ⟨2, ![M, 1]⟩) ⟨[], [0], [0], 1, wf⟩ (ix1 m) a : Int)
          < ((⟨1, ![N]⟩ : Shape).size a : Int) := by
      intro a
      obtain rfl : a = 0 := Subsingleton.elim _ _
      rw [hst, hw]
      change 0 ≤ (idx (ix2 m 0)).toInt + ((0 : Nat) : Int) ∧ (idx (ix2 m 0)).toInt + ((0 : Nat) : Int) < (N : Int)
      have := n.isLt
      omega
    unfold ScatterDims.resultIdx?
    rw [dif_pos hcond]
    congr 1
    funext a
    apply Fin.ext
    match a with
    | ⟨0, _⟩ =>
      show (ScatterDims.start (s := ⟨1, ![N]⟩) ⟨[], [0], [0], 1, wf⟩ (ix1 m) idx 0
          + (ScatterDims.window (s := ⟨1, ![N]⟩) (si := ⟨2, ![M, 1]⟩) ⟨[], [0], [0], 1, wf⟩ (ix1 m) 0 : Int)).toNat = n.val
      rw [hst, hw]
      change ((idx (ix2 m 0)).toInt + ((0 : Nat) : Int)).toNat = n.val
      omega

/-- THE ELEMENT FORM on the extended reals: the accumulating scatter at operand element `n` is the operand there plus the
    sum of `upd m` over the updates `m` whose index word `idx (m, 0)`, read signed, is `n`. The updates that land on
    `n` are in bijection with those positions `m`. -/
theorem hostScatterAdd_vec {N M w : Nat} (d : ScatterDims ⟨1, ![N]⟩ ⟨2, ![M, 1]⟩ ⟨1, ![M]⟩)
    (hd : VecScatter d) (x : (⟨1, ![N]⟩ : Shape).Idx → EReal) (idx : IVec ⟨2, ![M, 1]⟩ w)
    (upd : (⟨1, ![M]⟩ : Shape).Idx → EReal) (n : Fin N) :
    Ideal.hostScatterAdd d x idx upd (ix1 n)
      = x (ix1 n) + ∑ m ∈ Finset.univ.filter (fun m : Fin M => (idx (ix2 m 0)).toInt = (n.val : Int)), upd (ix1 m) := by
  unfold Ideal.hostScatterAdd
  congr 1
  symm
  refine Finset.sum_bij (fun m _ => ix1 m) ?_ ?_ ?_ ?_
  · intro m hm
    simp only [Finset.mem_filter, Finset.mem_univ, true_and] at hm ⊢
    exact (resultIdx?_vec d hd m idx n).2 hm
  · intro m₁ _ m₂ _ h
    exact congrFun h 0
  · intro j hj
    obtain ⟨a, rfl⟩ : ∃ a, j = ix1 a := ⟨j 0, eq_ix1 j⟩
    simp only [Finset.mem_filter, Finset.mem_univ, true_and] at hj
    have hT := (resultIdx?_vec d hd a idx n).1 hj
    exact ⟨a, by simp only [Finset.mem_filter, Finset.mem_univ, true_and]; exact hT, rfl⟩
  · intro m _; rfl

/-- THE ELEMENT FORM: the accumulating scatter at operand element `n` is the operand there plus the sum of `upd m` over
    the updates `m` whose index word `idx (m, 0)`, read signed, is `n`. -/
theorem scatterAdd_vec {N M w : Nat} {φ : FTy} (d : ScatterDims ⟨1, ![N]⟩ ⟨2, ![M, 1]⟩ ⟨1, ![M]⟩)
    (hd : VecScatter d) (x : FVec Ideal ⟨1, ![N]⟩ φ) (idx : IVec ⟨2, ![M, 1]⟩ w)
    (upd : FVec Ideal ⟨1, ![M]⟩ φ) (n : Fin N) :
    Host.scatterAdd d x idx upd (ix1 n)
      = x (ix1 n) + ∑ m ∈ Finset.univ.filter (fun m : Fin M => (idx (ix2 m 0)).toInt = (n.val : Int)), upd (ix1 m) :=
  hostScatterAdd_vec d hd x idx upd n

end Cert.Lib

end
-- ==== Proof.KV.KHostMisc.lean ====
/-
  The remaining host operations of the kernel program, read at an index: the first stretch builds the membership matrix
  (the graph word of node `n` compared with `g`, as a float 0 or 1) and the node counts (a one added onto zero per node of
  the graph); the stretch before the last region reshapes the bias into a row; the last stretch reshapes the region's
  one-row result into the returned vector. The membership matrix, the counts and the arguments are still as first
  computed when the last region reads them.
-/
import proofs.«413041_j89696097010223_3_alg».proof.Proof.KI.Run
import proofs.«413041_j89696097010223_3_alg».proof.Proof.KV.Args
import proofs.«413041_j89696097010223_3_alg».proof.Proof.LibScatterVec
import proofs.«413041_j89696097010223_3_alg».proof.Proof.LibBlockSum
import proofs.«413041_j89696097010223_3_alg».proof.Proof.Spec
import proofs.«413041_j89696097010223_3_alg».proof.Proof.Decode
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec Cert.Decode

variable (m : (ℓ : Loc nD τ sig) → Buf (Elt Ideal) ℓ) (ρ : Dev nD → PrngReg)

/-! ## Buffers that are as first written when the last region reads them -/

/-- The membership matrix is written by the first stretch only, and the regions before the last do not hold it. -/
theorem v10_at7 (c : Dev nD) : V7 m ρ c main_v10 = V1 m ρ c main_v10 :=
  (W7_of m ρ c main_v10 (by decide)).trans <|
  (W6_of_ne m ρ c main_v10 (by decide)).trans <|
  (W5_of m ρ c main_v10 (by decide)).trans <|
  (W4_of_ne m ρ c main_v10 (by decide)).trans <|
  (W3_of m ρ c main_v10 (by decide)).trans <|
  (W2_of_ne m ρ c main_v10 (by decide))

/-- Likewise the node counts. -/
theorem v15_at7 (c : Dev nD) : V7 m ρ c main_v15 = V1 m ρ c main_v15 :=
  (W7_of m ρ c main_v15 (by decide)).trans <|
  (W6_of_ne m ρ c main_v15 (by decide)).trans <|
  (W5_of m ρ c main_v15 (by decide)).trans <|
  (W4_of_ne m ρ c main_v15 (by decide)).trans <|
  (W3_of m ρ c main_v15 (by decide)).trans <|
  (W2_of_ne m ρ c main_v15 (by decide))

/-- The bias vector is as launched when the fourth stretch reshapes it. -/
theorem arg10_at6 (c : Dev nD) :
    (W6 m ρ c (Proc.devRef .tc main_arg10) : S10.Idx → EReal) = (m ((c : Thread nD τ).loc main_arg10) : S10.Idx → EReal) :=
  (W6_of_ne m ρ c main_arg10 (by decide)).trans <|
  (W5_of m ρ c main_arg10 (by decide)).trans <|
  (W4_of_ne m ρ c main_arg10 (by decide)).trans <|
  (W3_of m ρ c main_arg10 (by decide)).trans <|
  (W2_of_ne m ρ c main_arg10 (by decide)).trans <|
  (W1_of m ρ c main_arg10 (by decide)).trans rfl

/-! ## The first stretch read at an index -/

/-- A vector laid along the rows of the node-by-graph rectangle reads, at `(n, g)`, the vector at `n`. -/
theorem rows_at {α : Type} (b : S50000.Idx → α) (n : Fin 50000) (g : Fin 64) :
    broadcastInDim S50000x64 ![0, 1] bcast_S50000x1_S50000x64_0_1 (broadcastInDim S50000x1 ![0] bcast_S50000_S50000x1_0 b) (ix2 n g)
      = b (ix1 n) :=
  (broadcastInDim_apply _ _ _ (ix2 n g) (ix2 n (0 : Fin 1)) (fun a => by match a with | ⟨0, _⟩ => rfl | ⟨1, _⟩ => rfl)).trans
    (broadcastInDim_apply _ _ b (ix2 n (0 : Fin 1)) (ix1 n) (fun a => by match a with | ⟨0, _⟩ => rfl))

/-- A vector laid along the columns of the rectangle reads, at `(n, g)`, the vector at `g`. -/
theorem cols_at {α : Type} (v : S64.Idx → α) (n : Fin 50000) (g : Fin 64) :
    broadcastInDim S50000x64 ![0, 1] bcast_S1x64_S50000x64_0_1 (broadcastInDim S1x64 ![1] bcast_S64_S1x64_1 v) (ix2 n g)
      = v (ix1 g) :=
  (broadcastInDim_apply _ _ _ (ix2 n g) (ix2 (0 : Fin 1) g) (fun a => by match a with | ⟨0, _⟩ => rfl | ⟨1, _⟩ => rfl)).trans
    (broadcastInDim_apply _ _ v (ix2 (0 : Fin 1) g) (ix1 g) (fun a => by match a with | ⟨0, _⟩ => rfl))

/-- The graph words as a column read, at `(n, 0)`, node `n`'s word. -/
theorem col_at {α : Type} (b : S50000.Idx → α) (n : Fin 50000) :
    broadcastInDim S50000x1 ![0] bcast_S50000_S50000x1_0 b (ix2 n (0 : Fin 1)) = b (ix1 n) :=
  broadcastInDim_apply _ _ b (ix2 n (0 : Fin 1)) (ix1 n) (fun a => by match a with | ⟨0, _⟩ => rfl)

/-- What the first stretch leaves in the membership matrix's buffer: the graph words along the rows compared for equality
    with the positions `0 … 63` along the columns, the one-bit answer read as a float. -/
theorem v10_term (c : Dev nD) :
    (V1 m ρ c main_v10 : S50000x64.Idx → EReal)
      = uitofp (F := Ideal) .bf16 (cmpi .eq
          (broadcastInDim S50000x64 ![0, 1] bcast_S50000x1_S50000x64_0_1 (broadcastInDim S50000x1 ![0] bcast_S50000_S50000x1_0 (bOf m c)))
          (broadcastInDim S50000x64 ![0, 1] bcast_S1x64_S50000x64_0_1 (broadcastInDim S1x64 ![1] bcast_S64_S1x64_1 (iotaInDim S64 32 0)))) := by
  dsimp only [V1, W1, hostOps0]; after_results <;> rfl

/-- What the first stretch leaves in the node counts' buffer: onto the zero vector, the float one scattered at each node's
    graph word, the 64 sums kept as a column. -/
theorem v15_term (c : Dev nD) :
    (V1 m ρ c main_v15 : S64x1.Idx → EReal)
      = shapeCast S64x1 (Host.scatterAdd (F := Ideal) scatter_S64_S50000x1_S50000_n_0_0_1
          (broadcastInDim S64 ![] bcast_S_S64 (constant (F := Ideal) S_ .f32 0x00000000#32))
          (broadcastInDim S50000x1 ![0] bcast_S50000_S50000x1_0 (bOf m c))
          (broadcastInDim S50000 ![] bcast_S_S50000 (constant (F := Ideal) S_ .f32 0x3F800000#32))) shapeCasts_S64_S64x1 := by
  dsimp only [V1, W1, hostOps0]; after_results <;> rfl

/-! ## What the last region and the return read -/

/-- The membership matrix as the last region finds it. -/
theorem oh_eq (c : Dev nD) (n : Fin 50000) (g : Fin 64) :
    (V7 m ρ c main_v10 : S50000x64.Idx → EReal) (ix2 n g) = ohOf (bOf m c) n g := by
  rw [show (V7 m ρ c main_v10 : S50000x64.Idx → EReal) = (V1 m ρ c main_v10 : S50000x64.Idx → EReal) from v10_at7 m ρ c, v10_term]
  show (((IntOp.cmpi .eq
      (broadcastInDim S50000x64 ![0, 1] bcast_S50000x1_S50000x64_0_1 (broadcastInDim S50000x1 ![0] bcast_S50000_S50000x1_0 (bOf m c)) (ix2 n g))
      (broadcastInDim S50000x64 ![0, 1] bcast_S1x64_S50000x64_0_1 (broadcastInDim S1x64 ![1] bcast_S64_S1x64_1 (iotaInDim S64 32 0)) (ix2 n g))).toNat : ℝ) : EReal) = _
  rw [rows_at, cols_at]
  show (((IntOp.cmpi .eq (bOf m c (ix1 n)) (BitVec.ofNat 32 g.val)).toNat : ℝ) : EReal) = _
  have hmem : n ∈ memOf (bOf m c) g ↔ bOf m c (ix1 n) = BitVec.ofNat 32 g.val := by
    unfold memOf
    rw [Finset.mem_filter, ← Cert.Lib.ofNat_eq_iff_toInt g.val (by have := g.isLt; omega)]
    exact ⟨fun h => h.2.symm, fun h => ⟨Finset.mem_univ _, h.symm⟩⟩
  unfold ohOf
  by_cases h : bOf m c (ix1 n) = BitVec.ofNat 32 g.val
  · rw [if_pos (hmem.2 h), StableHlo.Predicate.cmpi_eq_iff.2 h]
    norm_num
  · rw [if_neg (fun hm => h (hmem.1 hm)), eq_zero_of_ne_one (fun hc => h (StableHlo.Predicate.cmpi_eq_iff.1 hc))]
    norm_num

/-- The node counts as the last region finds them. -/
theorem cnt_eq (c : Dev nD) (g : Fin 64) :
    (V7 m ρ c main_v15 : S64x1.Idx → EReal) (ix2 g 0) = cntOf (bOf m c) g := by
  rw [show (V7 m ρ c main_v15 : S64x1.Idx → EReal) = (V1 m ρ c main_v15 : S64x1.Idx → EReal) from v15_at7 m ρ c, v15_term]
  rw [shapeCast_apply _ shapeCasts_S64_S64x1 (ix2 g (0 : Fin 1)) (ix1 g) (by
    rw [Shape.rowMajor_val_two, Shape.rowMajor_val_one]
    show g.val = g.val * 1 + 0
    omega)]
  rw [Cert.Lib.scatterAdd_vec scatter_S64_S50000x1_S50000_n_0_0_1 ⟨rfl, rfl, rfl, rfl⟩]
  unfold cntOf
  have h0 : broadcastInDim S64 ![] bcast_S_S64 (constant (F := Ideal) S_ .f32 0x00000000#32) (ix1 g) = 0 :=
    Ideal.ofBits_zero_f32
  rw [h0]
  refine congrArg (fun s : EReal => 0 + s) ?_
  unfold memOf
  refine Finset.sum_congr (Finset.filter_congr fun k _ => ?_) fun k _ => rfl
  rw [col_at]

/-- The bias row as the last region finds it. -/
theorem bfc_eq (c : Dev nD) (u : Fin 10) :
    (V7 m ρ c main_v58 : S1x10.Idx → EReal) (ix2 0 u) = cur1 (m ((c : Thread nD τ).loc main_arg10) : S10.Idx → EReal) u := by
  have e : (V7 m ρ c main_v58 : S1x10.Idx → EReal)
      = shapeCast S1x10 (W6 m ρ c (Proc.devRef .tc main_arg10) : S10.Idx → EReal) shapeCasts_S10_S1x10 := by
    dsimp only [V7, W7, hostOps3]; after_results <;> rfl
  rw [e, shapeCast_a_1a_apply, arg10_at6]
  rfl

/-- The last linear map's weights as the last region finds them. -/
theorem wfc_eq (c : Dev nD) : (V7 m ρ c main_arg9 : S64x10.Idx → EReal) = (m ((c : Thread nD τ).loc main_arg9) : S64x10.Idx → EReal) :=
  (W7_of m ρ c main_arg9 (by decide)).trans <|
  (W6_of_ne m ρ c main_arg9 (by decide)).trans <|
  (W5_of m ρ c main_arg9 (by decide)).trans <|
  (W4_of_ne m ρ c main_arg9 (by decide)).trans <|
  (W3_of m ρ c main_arg9 (by decide)).trans <|
  (W2_of_ne m ρ c main_arg9 (by decide)).trans <|
  (W1_of m ρ c main_arg9 (by decide)).trans rfl

/-- The returned vector is the last region's one-row result. -/
theorem out_eq (c : Dev nD) (t : Fin 10) :
    (W9 m ρ c (Proc.devRef .tc main_v60) : S10.Idx → EReal) (ix1 t)
      = (W8 m ρ c (Proc.devRef .tc main_v59) : S1x10.Idx → EReal) (ix2 0 t) := by
  have e : (W9 m ρ c (Proc.devRef .tc main_v60) : S10.Idx → EReal)
      = shapeCast S10 (W8 m ρ c (Proc.devRef .tc main_v59) : S1x10.Idx → EReal) shapeCasts_S1x10_S10 := by
    dsimp only [W9, hostOps4]; after_results <;> rfl
  rw [e, shapeCast_1a_a_apply]

/-- The arguments the regions read are as launched when they are read. -/
theorem arg0_at1 (c : Dev nD) : (V1 m ρ c main_arg0 : S50000x128.Idx → EReal) = (m ((c : Thread nD τ).loc main_arg0) : S50000x128.Idx → EReal) :=
  (W1_of m ρ c main_arg0 (by decide)).trans rfl
theorem arg3_at1 (c : Dev nD) : (V1 m ρ c main_arg3 : S128x64.Idx → EReal) = (m ((c : Thread nD τ).loc main_arg3) : S128x64.Idx → EReal) :=
  (W1_of m ρ c main_arg3 (by decide)).trans rfl
theorem arg4_at1 (c : Dev nD) : (V1 m ρ c main_arg4 : S128x64.Idx → EReal) = (m ((c : Thread nD τ).loc main_arg4) : S128x64.Idx → EReal) :=
  (W1_of m ρ c main_arg4 (by decide)).trans rfl
theorem arg5_at3 (c : Dev nD) : (V3 m ρ c main_arg5 : S64x64.Idx → EReal) = (m ((c : Thread nD τ).loc main_arg5) : S64x64.Idx → EReal) :=
  (W3_of m ρ c main_arg5 (by decide)).trans <|
  (W2_of_ne m ρ c main_arg5 (by decide)).trans <|
  (W1_of m ρ c main_arg5 (by decide)).trans rfl
theorem arg6_at3 (c : Dev nD) : (V3 m ρ c main_arg6 : S64x64.Idx → EReal) = (m ((c : Thread nD τ).loc main_arg6) : S64x64.Idx → EReal) :=
  (W3_of m ρ c main_arg6 (by decide)).trans <|
  (W2_of_ne m ρ c main_arg6 (by decide)).trans <|
  (W1_of m ρ c main_arg6 (by decide)).trans rfl
theorem arg7_at5 (c : Dev nD) : (V5 m ρ c main_arg7 : S64x64.Idx → EReal) = (m ((c : Thread nD τ).loc main_arg7) : S64x64.Idx → EReal) :=
  (W5_of m ρ c main_arg7 (by decide)).trans <|
  (W4_of_ne m ρ c main_arg7 (by decide)).trans <|
  (W3_of m ρ c main_arg7 (by decide)).trans <|
  (W2_of_ne m ρ c main_arg7 (by decide)).trans <|
  (W1_of m ρ c main_arg7 (by decide)).trans rfl
theorem arg8_at5 (c : Dev nD) : (V5 m ρ c main_arg8 : S64x64.Idx → EReal) = (m ((c : Thread nD τ).loc main_arg8) : S64x64.Idx → EReal) :=
  (W5_of m ρ c main_arg8 (by decide)).trans <|
  (W4_of_ne m ρ c main_arg8 (by decide)).trans <|
  (W3_of m ρ c main_arg8 (by decide)).trans <|
  (W2_of_ne m ρ c main_arg8 (by decide)).trans <|
  (W1_of m ρ c main_arg8 (by decide)).trans rfl

end Cert.KernelIdeal.Val

end
-- ==== Proof.KV.KVal.lean ====
/-
  The kernel program's result, entry by entry, in the specification's terms. The result buffer is followed back through
  the program: the last stretch reshapes region 3's one-row output; region 3 pools the rectified third-layer features;
  each earlier stretch slices a region's two-part output into the neighbour map and the root term, gathers the
  neighbour map's rows along the edges' sources and adds them onto the edges' destinations; each earlier region applies
  the next layer's two linear maps to the rectified sum. The membership matrix and the node counts come from the first
  stretch.
-/
import proofs.«413041_j89696097010223_3_alg».proof.Proof.KI.Run
import proofs.«413041_j89696097010223_3_alg».proof.Proof.KV.Val0
import proofs.«413041_j89696097010223_3_alg».proof.Proof.KV.Val1
import proofs.«413041_j89696097010223_3_alg».proof.Proof.KV.Val2
import proofs.«413041_j89696097010223_3_alg».proof.Proof.KV.Val3
import proofs.«413041_j89696097010223_3_alg».proof.Proof.KV.KHostAgg
import proofs.«413041_j89696097010223_3_alg».proof.Proof.KV.KHostMisc
import proofs.«413041_j89696097010223_3_alg».proof.Proof.Spec
import proofs.«413041_j89696097010223_3_alg».proof.Proof.Decode
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec Cert.Decode

variable (m : (ℓ : Loc nD τ sig) → Buf (Elt Ideal) ℓ) (ρ : Dev nD → PrngReg)

/-- The node features and the six layer weights as launched, curried. -/
abbrev xOf (c : Dev nD) : Fin 50000 → Fin 128 → EReal := cur2 (m ((c : Thread nD τ).loc main_arg0) : S50000x128.Idx → EReal)
abbrev wr1Of (c : Dev nD) : Fin 128 → Fin 64 → EReal := cur2 (m ((c : Thread nD τ).loc main_arg3) : S128x64.Idx → EReal)
abbrev wo1Of (c : Dev nD) : Fin 128 → Fin 64 → EReal := cur2 (m ((c : Thread nD τ).loc main_arg4) : S128x64.Idx → EReal)
abbrev wr2Of (c : Dev nD) : Fin 64 → Fin 64 → EReal := cur2 (m ((c : Thread nD τ).loc main_arg5) : S64x64.Idx → EReal)
abbrev wo2Of (c : Dev nD) : Fin 64 → Fin 64 → EReal := cur2 (m ((c : Thread nD τ).loc main_arg6) : S64x64.Idx → EReal)
abbrev wr3Of (c : Dev nD) : Fin 64 → Fin 64 → EReal := cur2 (m ((c : Thread nD τ).loc main_arg7) : S64x64.Idx → EReal)
abbrev wo3Of (c : Dev nD) : Fin 64 → Fin 64 → EReal := cur2 (m ((c : Thread nD τ).loc main_arg8) : S64x64.Idx → EReal)

/-- The first layer's features, kernel order. -/
abbrev h1Of (c : Dev nD) : Fin 50000 → Fin 64 → EReal :=
  layerK (srcOf (eiOf m c)) (intoOf (eiOf m c)) (xOf m c) (wr1Of m c) (wo1Of m c)
/-- The second layer's features, kernel order. -/
abbrev h2Of (c : Dev nD) : Fin 50000 → Fin 64 → EReal :=
  layerK (srcOf (eiOf m c)) (intoOf (eiOf m c)) (h1Of m c) (wr2Of m c) (wo2Of m c)

/-- Region 0's output array is region-0's exit contents of its output buffer. -/
theorem out0_eq (c : Dev nD) :
    (W2 m ρ c (Proc.devRef .tc main_v16) : S50000x128.Idx → EReal) = ((dat0 (V1 m ρ) c).arrAt 3 cfg0.N : S50000x128.Idx → EReal) :=
  W2_arr m ρ c 3
theorem out1_eq (c : Dev nD) :
    (W4 m ρ c (Proc.devRef .tc main_v30) : S50000x128.Idx → EReal) = ((dat1 (V3 m ρ) c).arrAt 4 cfg1.N : S50000x128.Idx → EReal) :=
  W4_arr m ρ c 4
theorem out2_eq (c : Dev nD) :
    (W6 m ρ c (Proc.devRef .tc main_v44) : S50000x128.Idx → EReal) = ((dat2 (V5 m ρ) c).arrAt 4 cfg2.N : S50000x128.Idx → EReal) :=
  W6_arr m ρ c 4
theorem out3_eq (c : Dev nD) :
    (W8 m ρ c (Proc.devRef .tc main_v59) : S1x10.Idx → EReal) = ((dat3 (V7 m ρ) c).arrAt 6 cfg3.N : S1x10.Idx → EReal) :=
  W8_arr m ρ c 6

/-- What region 1 is entered with: the aggregated first neighbour map and the first root term. -/
theorem agg1_is (c : Dev nD) :
    cur2 (V3 m ρ c main_v29 : S50000x64.Idx → EReal)
      = agg (srcOf (eiOf m c)) (intoOf (eiOf m c)) (mm (xOf m c) (wr1Of m c)) := by
  funext n j
  show (V3 m ρ c main_v29 : S50000x64.Idx → EReal) (ix2 n j) = _
  rw [agg1_eq m ρ c n j]
  unfold agg
  refine congrArg (fun s => (0 : EReal) + s) (Finset.sum_congr rfl fun e _ => ?_)
  rw [out0_eq m ρ c]
  exact (final0_left (V1 m ρ) c (srcOf (eiOf m c) e) j).trans (by rw [arg0_at1 m ρ c, arg3_at1 m ρ c])

theorem r1_is (c : Dev nD) :
    cur2 (V3 m ρ c main_v18 : S50000x64.Idx → EReal) = mm (xOf m c) (wo1Of m c) := by
  funext n j
  show (V3 m ρ c main_v18 : S50000x64.Idx → EReal) (ix2 n j) = _
  rw [r1_eq m ρ c n j, out0_eq m ρ c, final0_right (V1 m ρ) c n j, arg0_at1 m ρ c, arg4_at1 m ρ c]

/-- The rectified sum region 1 forms is the first layer's features. -/
theorem h1_is (c : Dev nD) :
    relu2 (cur2 (V3 m ρ c main_v29 : S50000x64.Idx → EReal)) (cur2 (V3 m ρ c main_v18 : S50000x64.Idx → EReal)) = h1Of m c := by
  rw [agg1_is m ρ c, r1_is m ρ c]; exact (layerK_eq _ _ _ _ _).symm

theorem agg2_is (c : Dev nD) :
    cur2 (V5 m ρ c main_v43 : S50000x64.Idx → EReal)
      = agg (srcOf (eiOf m c)) (intoOf (eiOf m c)) (mm (h1Of m c) (wr2Of m c)) := by
  funext n j
  show (V5 m ρ c main_v43 : S50000x64.Idx → EReal) (ix2 n j) = _
  rw [agg2_eq m ρ c n j]
  unfold agg
  refine congrArg (fun s => (0 : EReal) + s) (Finset.sum_congr rfl fun e _ => ?_)
  rw [out1_eq m ρ c]
  exact (final1_left (V3 m ρ) c (srcOf (eiOf m c) e) j).trans (by rw [h1_is m ρ c, arg5_at3 m ρ c])

theorem r2_is (c : Dev nD) :
    cur2 (V5 m ρ c main_v32 : S50000x64.Idx → EReal) = mm (h1Of m c) (wo2Of m c) := by
  funext n j
  show (V5 m ρ c main_v32 : S50000x64.Idx → EReal) (ix2 n j) = _
  rw [r2_eq m ρ c n j, out1_eq m ρ c, final1_right (V3 m ρ) c n j, h1_is m ρ c, arg6_at3 m ρ c]

theorem h2_is (c : Dev nD) :
    relu2 (cur2 (V5 m ρ c main_v43 : S50000x64.Idx → EReal)) (cur2 (V5 m ρ c main_v32 : S50000x64.Idx → EReal)) = h2Of m c := by
  rw [agg2_is m ρ c, r2_is m ρ c]; exact (layerK_eq _ _ _ _ _).symm

theorem agg3_is (c : Dev nD) :
    cur2 (V7 m ρ c main_v57 : S50000x64.Idx → EReal)
      = agg (srcOf (eiOf m c)) (intoOf (eiOf m c)) (mm (h2Of m c) (wr3Of m c)) := by
  funext n j
  show (V7 m ρ c main_v57 : S50000x64.Idx → EReal) (ix2 n j) = _
  rw [agg3_eq m ρ c n j]
  unfold agg
  refine congrArg (fun s => (0 : EReal) + s) (Finset.sum_congr rfl fun e _ => ?_)
  rw [out2_eq m ρ c]
  exact (final2_left (V5 m ρ) c (srcOf (eiOf m c) e) j).trans (by rw [h2_is m ρ c, arg7_at5 m ρ c])

theorem r3_is (c : Dev nD) :
    cur2 (V7 m ρ c main_v46 : S50000x64.Idx → EReal) = mm (h2Of m c) (wo3Of m c) := by
  funext n j
  show (V7 m ρ c main_v46 : S50000x64.Idx → EReal) (ix2 n j) = _
  rw [r3_eq m ρ c n j, out2_eq m ρ c, final2_right (V5 m ρ) c n j, h2_is m ρ c, arg8_at5 m ρ c]

/-- The rectified sum the last region forms is the third layer's features, kernel order. -/
theorem h3_is (c : Dev nD) :
    relu2 (cur2 (V7 m ρ c main_v57 : S50000x64.Idx → EReal)) (cur2 (V7 m ρ c main_v46 : S50000x64.Idx → EReal))
      = feats3K (srcOf (eiOf m c)) (intoOf (eiOf m c)) (xOf m c) (wr1Of m c) (wo1Of m c) (wr2Of m c) (wo2Of m c)
          (wr3Of m c) (wo3Of m c) := by
  rw [agg3_is m ρ c, r3_is m ρ c]; exact (layerK_eq _ _ _ _ _).symm

/-- The kernel's result at entry `t`: the tail of the pooled third-layer features, kernel order, read off the launch
    contents of the arguments. -/
theorem kernel_out (c : Dev nD) (t : Fin 10) :
    (W9 m ρ c (Proc.devRef .tc main_v60) : S10.Idx → EReal) (ix1 t)
      = tail
          (poolK (ohOf (m ((c : Thread nD τ).loc main_arg2) : S50000.Idx → BitVec 32))
            (feats3K
              (srcOf (m ((c : Thread nD τ).loc main_arg1) : S2x800000.Idx → BitVec 32))
              (intoOf (m ((c : Thread nD τ).loc main_arg1) : S2x800000.Idx → BitVec 32))
              (cur2 (m ((c : Thread nD τ).loc main_arg0) : S50000x128.Idx → EReal))
              (cur2 (m ((c : Thread nD τ).loc main_arg3) : S128x64.Idx → EReal))
              (cur2 (m ((c : Thread nD τ).loc main_arg4) : S128x64.Idx → EReal))
              (cur2 (m ((c : Thread nD τ).loc main_arg5) : S64x64.Idx → EReal))
              (cur2 (m ((c : Thread nD τ).loc main_arg6) : S64x64.Idx → EReal))
              (cur2 (m ((c : Thread nD τ).loc main_arg7) : S64x64.Idx → EReal))
              (cur2 (m ((c : Thread nD τ).loc main_arg8) : S64x64.Idx → EReal))))
          (cntOf (m ((c : Thread nD τ).loc main_arg2) : S50000.Idx → BitVec 32))
          (cur2 (m ((c : Thread nD τ).loc main_arg9) : S64x10.Idx → EReal))
          (cur1 (m ((c : Thread nD τ).loc main_arg10) : S10.Idx → EReal)) t := by
  rw [out_eq m ρ c t, out3_eq m ρ c, final3_apply (V7 m ρ) c t, h3_is m ρ c, wfc_eq m ρ c]
  have hoh : cur2 (V7 m ρ c main_v10 : S50000x64.Idx → EReal) = ohOf (bOf m c) :=
    funext fun n => funext fun g => oh_eq m ρ c n g
  have hcnt : (fun g : Fin 64 => (V7 m ρ c main_v15 : S64x1.Idx → EReal) (ix2 g 0)) = cntOf (bOf m c) :=
    funext fun g => cnt_eq m ρ c g
  have hb : (fun u : Fin 10 => (V7 m ρ c main_v58 : S1x10.Idx → EReal) (ix2 0 u))
      = cur1 (m ((c : Thread nD τ).loc main_arg10) : S10.Idx → EReal) :=
    funext fun u => bfc_eq m ρ c u
  rw [hoh, hcnt, hb]

end Cert.KernelIdeal.Val

end
-- ==== Proof.Ref1.lean ====
/-
  The reference's three graph-convolution layers, read at an index: the features after the third rectifier, at node
  `n` and feature `j`, are the specification's three layers in the reference's order — each layer gathers the previous
  features' rows along the edges' sources (a negative source word wrapped, then clamped), adds them onto the edges'
  destinations, applies the neighbour weights to that sum and the root weights to the node's own row, and rectifies.

  One layer is proved once, over any feature width: the accumulating scatter of the gathered rows onto the zero array
  is the aggregation `0 + ∑ e ∈ into n, h (src e)`, both products are plain sums over the contracted axis, and the
  maximum with the zero array is the rectifier. The three layers of the program are three instances of it, each stated
  as an equation between whole arrays so that the next layer takes the previous one's output as its features.
-/
import proofs.«413041_j89696097010223_3_alg».proof.Proof.Gen.ReferenceIdeal.Run
import proofs.«413041_j89696097010223_3_alg».proof.Proof.Gen.ReferenceIdeal.Read
import proofs.«413041_j89696097010223_3_alg».proof.Proof.Spec
import proofs.«413041_j89696097010223_3_alg».proof.Proof.Decode
import proofs.«413041_j89696097010223_3_alg».proof.Proof.LibRowGather
import proofs.«413041_j89696097010223_3_alg».proof.Proof.LibScatterRows
import proofs.«413041_j89696097010223_3_alg».proof.Proof.LibPlainDot
import Idealize.ShloMosaic.Lib.ValueIdx
import Idealize.ShloMosaic.Lib.ValueLayout
import Idealize.ShloMosaic.PureOps.Ideal.Laws

set_option maxRecDepth 16384

noncomputable section

namespace Cert.RefBridge

open Idealize.ShloMosaic Idealize.ShloMosaic.TcCoe Idealize.ShloMosaic.ValueIdx
open Idealize.SL.Sem
open Cert.ReferenceIdeal Cert.ReferenceIdeal.Gen Cert.ReferenceIdeal.Value Cert.ReferenceIdeal.Read Cert.Spec Cert.Decode

/-! ## One layer, over any feature width -/

/-- The row gather's result index `(p, q)` is the two-coordinate index used everywhere else. -/
theorem ij_eq_ix2 {a b : Nat} (p : Fin a) (q : Fin b) : StableHlo.Predicate.ij p q = ix2 p q := by
  funext d; match d with | ⟨0, _⟩ => rfl | ⟨1, _⟩ => rfl

/-- The row gather's start-index entry of row `p` is entry `(p, 0)` of the index column. -/
theorem ixP_eq_ix2 {a : Nat} (p : Fin a) : StableHlo.Predicate.ixP p = ix2 p (0 : Fin 1) := by
  funext d; match d with | ⟨0, _⟩ => rfl | ⟨1, _⟩ => rfl

/-- ONE LAYER at `(n, j)`, over any feature width `K`: with the source column holding the wrapped source words, the
    destination column the destination words, and both splats zero, "scatter-add the gathered rows of `h` onto zero, apply
    the neighbour weights to that and the root weights to `h`, add, take the maximum with zero" is the specification's
    layer in the reference's order. The gather, scatter and product records enter through the facts that make them the
    row gather, the row scatter and the plain product. -/
theorem layer_at {K : ℕ}
    (dg : GatherDims ⟨2, ![50000, K]⟩ ⟨2, ![800000, 1]⟩ ⟨2, ![800000, K]⟩)
    (hoff : dg.offsetDims = [1]) (hcoll : dg.collapsedSliceDims = [0]) (hob : dg.operandBatchingDims = [])
    (hsim : dg.startIndexMap = [0]) (hivd : dg.indexVectorDim = 1)
    (ds : ScatterDims ⟨2, ![50000, K]⟩ ⟨2, ![800000, 1]⟩ ⟨2, ![800000, K]⟩) (hds : Cert.Lib.RowScatter2 ds)
    (dd : DotDims ⟨2, ![50000, K]⟩ ⟨2, ![K, 64]⟩ ⟨2, ![50000, 64]⟩) (hdd : Cert.Lib.PlainDot dd)
    (ei : IVec ⟨2, ![2, 800000]⟩ 32)
    (srccol dstcol : IVec ⟨2, ![800000, 1]⟩ 32)
    (hsrc : ∀ e : Fin 800000, srccol (ix2 e 0) = Cert.Lib.wrapW 50000#32 (ei (ix2 0 e)))
    (hdst : ∀ e : Fin 800000, dstcol (ix2 e 0) = ei (ix2 1 e))
    (zK : FVec Ideal ⟨2, ![50000, K]⟩ .f32) (hzK : ∀ i, zK i = 0)
    (z64 : FVec Ideal ⟨2, ![50000, 64]⟩ .f32) (hz64 : ∀ i, z64 i = 0)
    (h : FVec Ideal ⟨2, ![50000, K]⟩ .f32) (wrel wroot : FVec Ideal ⟨2, ![K, 64]⟩ .f32)
    (n : Fin 50000) (j : Fin 64) :
    maximumf (addf (Host.dotGeneral dd none (Host.scatterAdd ds zK dstcol (Host.gather dg h srccol)) wrel)
        (Host.dotGeneral dd none h wroot)) z64 (ix2 n j)
      = layerR (srcOf ei) (intoOf ei) (cur2 (h : (⟨2, ![50000, K]⟩ : Shape).Idx → EReal))
          (cur2 (wrel : (⟨2, ![K, 64]⟩ : Shape).Idx → EReal)) (cur2 (wroot : (⟨2, ![K, 64]⟩ : Shape).Idx → EReal)) n j := by
  show FloatOps.maximumf (FloatOps.addf
      (Host.dotGeneral dd none (Host.scatterAdd ds zK dstcol (Host.gather dg h srccol)) wrel (ix2 n j))
      (Host.dotGeneral dd none h wroot (ix2 n j))) (z64 (ix2 n j)) = _
  rw [hz64]
  simp only [Host.dotGeneral]
  rw [hdd.dotGeneral_apply, hdd.dotGeneral_apply]
  simp only [Ideal.maximumf_def, Ideal.addf_def]
  have hA : ∀ k : Fin K, Host.scatterAdd ds zK dstcol (Host.gather dg h srccol) (ix2 n k)
      = agg (srcOf ei) (intoOf ei) (cur2 (h : (⟨2, ![50000, K]⟩ : Shape).Idx → EReal)) n k := by
    intro k
    rw [Cert.Lib.scatterAdd_rows2 ds hds, hzK]
    unfold agg
    refine congrArg (fun t => (0 : EReal) + t) ?_
    refine Finset.sum_congr (Finset.filter_congr fun m _ => by rw [hdst]) fun m _ => ?_
    rw [← ij_eq_ix2, Cert.LibRowGather.gather_rows dg hoff hcoll hob hsim hivd h srccol m k (by omega)]
    simp only [ixP_eq_ix2, hsrc, ij_eq_ix2]
    rfl
  simp only [hA]
  rfl

/-! ## The edge array's two rows, and the three layers of the program -/

/-- Row 0 of the edge array as a vector: the source words. -/
theorem src_words (x1 : (⟨S2x800000, .i32⟩ : BufTy).Contents (Elt Ideal)) (e : Fin 800000) :
    val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

/-- Row 1 of the edge array as a vector: the destination words. -/
theorem dst_words (x1 : (⟨S2x800000, .i32⟩ : BufTy).Contents (Elt Ideal)) (e : Fin 800000) :
    val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

/-- The first layer's source column: the wrapped source words. -/
theorem src_col1 (x1 : (⟨S2x800000, .i32⟩ : BufTy).Contents (Elt Ideal)) (e : Fin 800000) :
    val_main_v9 (F := Ideal) x1 (ix2 e 0) = Cert.Lib.wrapW 50000#32 (x1 (ix2 0 e)) := by
  have h : val_main_v9 (F := Ideal) x1
      = Cert.Lib.wrapCol bcast_S_S800000 bcast_S800000_S800000x1_0 50000#32 (val_main_v1 (F := Ideal) x1) := rfl
  rw [h, Cert.Lib.wrapCol_apply, src_words]

/-- The first layer's destination column: the destination words. -/
theorem dst_col1 (x1 : (⟨S2x800000, .i32⟩ : BufTy).Contents (Elt Ideal)) (e : Fin 800000) :
    val_main_v12 (F := Ideal) x1 (ix2 e 0) = x1 (ix2 1 e) := by
  unfold val_main_v12
  rw [Cert.Lib.broadcastInDim_col_apply, dst_words]

/-- The first layer, as a whole array. -/
theorem ref_l1 (x0 : (⟨S50000x128, .f32⟩ : BufTy).Contents (Elt Ideal)) (x1 : (⟨S2x800000, .i32⟩ : BufTy).Contents (Elt Ideal))
    (x3 x4 : (⟨S128x64, .f32⟩ : BufTy).Contents (Elt Ideal)) :
    cur2 (val_main_v17 (F := Ideal) x0 x1 x3 x4 : S50000x64.Idx → EReal)
      = layerR (srcOf (x1 : S2x800000.Idx → BitVec 32)) (intoOf (x1 : S2x800000.Idx → BitVec 32))
          (cur2 (x0 : S50000x128.Idx → EReal)) (cur2 (x3 : S128x64.Idx → EReal)) (cur2 (x4 : S128x64.Idx → EReal)) := by
  funext n j
  show val_main_v17 (F := Ideal) x0 x1 x3 x4 (ix2 n j) = _
  unfold val_main_v17 val_main_v16 val_main_v14 val_main_v15 val_main_v13 val_main_v10
  exact layer_at gather_S50000x128_S800000x1_S800000x128_1_0_n_n_0_1_1128 rfl rfl rfl rfl rfl
    scatter_S50000x128_S800000x1_S800000x128_1_0_0_1 ⟨rfl, rfl, rfl, rfl⟩
    dot_S50000x128_S128x64_S50000x64_1_0_0_1_n_n ⟨rfl, rfl, rfl, rfl, rfl, rfl⟩
    x1 (val_main_v9 (F := Ideal) x1) (val_main_v12 (F := Ideal) x1) (src_col1 x1) (dst_col1 x1)
    (val_main_v11 (F := Ideal)) (fun i => by rw [val_main_v11_apply, val_main_cst_apply]; exact Ideal.ofBits_zero_f32)
    (val_main_call0_v0 (F := Ideal)) (fun i => by rw [val_main_call0_v0_apply, val_main_call0_cst_apply]; exact Ideal.ofBits_zero_f32)
    x0 x3 x4 n j

/-- The second layer's source column: the wrapped source words. -/
theorem src_col2 (x1 : (⟨S2x800000, .i32⟩ : BufTy).Contents (Elt Ideal)) (e : Fin 800000) :
    val_main_v23 (F := Ideal) x1 (ix2 e 0) = Cert.Lib.wrapW 50000#32 (x1 (ix2 0 e)) := by
  have h : val_main_v23 (F := Ideal) x1
      = Cert.Lib.wrapCol bcast_S_S800000 bcast_S800000_S800000x1_0 50000#32 (val_main_v1 (F := Ideal) x1) := rfl
  rw [h, Cert.Lib.wrapCol_apply, src_words]

/-- The second layer's destination column: the destination words. -/
theorem dst_col2 (x1 : (⟨S2x800000, .i32⟩ : BufTy).Contents (Elt Ideal)) (e : Fin 800000) :
    val_main_v26 (F := Ideal) x1 (ix2 e 0) = x1 (ix2 1 e) := by
  unfold val_main_v26
  rw [Cert.Lib.broadcastInDim_col_apply, dst_words]

/-- The second layer, as a whole array, over the first layer's output. -/
theorem ref_l2 (x0 : (⟨S50000x128, .f32⟩ : BufTy).Contents (Elt Ideal)) (x1 : (⟨S2x800000, .i32⟩ : BufTy).Contents (Elt Ideal))
    (x3 x4 : (⟨S128x64, .f32⟩ : BufTy).Contents (Elt Ideal)) (x5 x6 : (⟨S64x64, .f32⟩ : BufTy).Contents (Elt Ideal)) :
    cur2 (val_main_v31 (F := Ideal) x0 x1 x3 x4 x5 x6 : S50000x64.Idx → EReal)
      = layerR (srcOf (x1 : S2x800000.Idx → BitVec 32)) (intoOf (x1 : S2x800000.Idx → BitVec 32))
          (cur2 (val_main_v17 (F := Ideal) x0 x1 x3 x4 : S50000x64.Idx → EReal))
          (cur2 (x5 : S64x64.Idx → EReal)) (cur2 (x6 : S64x64.Idx → EReal)) := by
  funext n j
  show val_main_v31 (F := Ideal) x0 x1 x3 x4 x5 x6 (ix2 n j) = _
  unfold val_main_v31 val_main_v30 val_main_v28 val_main_v29 val_main_v27 val_main_v24
  exact layer_at gather_S50000x64_S800000x1_S800000x64_1_0_n_n_0_1_164 rfl rfl rfl rfl rfl
    scatter_S50000x64_S800000x1_S800000x64_1_0_0_1 ⟨rfl, rfl, rfl, rfl⟩
    dot_S50000x64_S64x64_S50000x64_1_0_0_1_n_n ⟨rfl, rfl, rfl, rfl, rfl, rfl⟩
    x1 (val_main_v23 (F := Ideal) x1) (val_main_v26 (F := Ideal) x1) (src_col2 x1) (dst_col2 x1)
    (val_main_v25 (F := Ideal)) (fun i => by rw [val_main_v25_apply, val_main_cst_3_apply]; exact Ideal.ofBits_zero_f32)
    (val_main_call1_v0 (F := Ideal)) (fun i => by rw [val_main_call1_v0_apply, val_main_call1_cst_apply]; exact Ideal.ofBits_zero_f32)
    (val_main_v17 (F := Ideal) x0 x1 x3 x4) x5 x6 n j

/-- The third layer's source column: the wrapped source words. -/
theorem src_col3 (x1 : (⟨S2x800000, .i32⟩ : BufTy).Contents (Elt Ideal)) (e : Fin 800000) :
    val_main_v37 (F := Ideal) x1 (ix2 e 0) = Cert.Lib.wrapW 50000#32 (x1 (ix2 0 e)) := by
  have h : val_main_v37 (F := Ideal) x1
      = Cert.Lib.wrapCol bcast_S_S800000 bcast_S800000_S800000x1_0 50000#32 (val_main_v1 (F := Ideal) x1) := rfl
  rw [h, Cert.Lib.wrapCol_apply, src_words]

/-- The third layer's destination column: the destination words. -/
theorem dst_col3 (x1 : (⟨S2x800000, .i32⟩ : BufTy).Contents (Elt Ideal)) (e : Fin 800000) :
    val_main_v40 (F := Ideal) x1 (ix2 e 0) = x1 (ix2 1 e) := by
  unfold val_main_v40
  rw [Cert.Lib.broadcastInDim_col_apply, dst_words]

/-- The third layer, as a whole array, over the second layer's output. -/
theorem ref_l3 (x0 : (⟨S50000x128, .f32⟩ : BufTy).Contents (Elt Ideal)) (x1 : (⟨S2x800000, .i32⟩ : BufTy).Contents (Elt Ideal))
    (x3 x4 : (⟨S128x64, .f32⟩ : BufTy).Contents (Elt Ideal)) (x5 x6 x7 x8 : (⟨S64x64, .f32⟩ : BufTy).Contents (Elt Ideal)) :
    cur2 (val_main_v45 (F := Ideal) x0 x1 x3 x4 x5 x6 x7 x8 : S50000x64.Idx → EReal)
      = layerR (srcOf (x1 : S2x800000.Idx → BitVec 32)) (intoOf (x1 : S2x800000.Idx → BitVec 32))
          (cur2 (val_main_v31 (F := Ideal) x0 x1 x3 x4 x5 x6 : S50000x64.Idx → EReal))
          (cur2 (x7 : S64x64.Idx → EReal)) (cur2 (x8 : S64x64.Idx → EReal)) := by
  funext n j
  show val_main_v45 (F := Ideal) x0 x1 x3 x4 x5 x6 x7 x8 (ix2 n j) = _
  unfold val_main_v45 val_main_v44 val_main_v42 val_main_v43 val_main_v41 val_main_v38
  exact layer_at gather_S50000x64_S800000x1_S800000x64_1_0_n_n_0_1_164 rfl rfl rfl rfl rfl
    scatter_S50000x64_S800000x1_S800000x64_1_0_0_1 ⟨rfl, rfl, rfl, rfl⟩
    dot_S50000x64_S64x64_S50000x64_1_0_0_1_n_n ⟨rfl, rfl, rfl, rfl, rfl, rfl⟩
    x1 (val_main_v37 (F := Ideal) x1) (val_main_v40 (F := Ideal) x1) (src_col3 x1) (dst_col3 x1)
    (val_main_v39 (F := Ideal)) (fun i => by rw [val_main_v39_apply, val_main_cst_6_apply]; exact Ideal.ofBits_zero_f32)
    (val_main_call2_v0 (F := Ideal)) (fun i => by rw [val_main_call2_v0_apply, val_main_call2_cst_apply]; exact Ideal.ofBits_zero_f32)
    (val_main_v31 (F := Ideal) x0 x1 x3 x4 x5 x6) x7 x8 n j

/-- The third layer's output at `(n, j)`. -/
theorem ref_h3 (x0 : (⟨S50000x128, .f32⟩ : BufTy).Contents (Elt Ideal)) (x1 : (⟨S2x800000, .i32⟩ : BufTy).Contents (Elt Ideal))
    (x3 x4 : (⟨S128x64, .f32⟩ : BufTy).Contents (Elt Ideal)) (x5 x6 x7 x8 : (⟨S64x64, .f32⟩ : BufTy).Contents (Elt Ideal))
    (n : Fin 50000) (j : Fin 64) :
    val_main_v45 (F := Ideal) x0 x1 x3 x4 x5 x6 x7 x8 (ix2 n j)
      = feats3R (srcOf (x1 : S2x800000.Idx → BitVec 32)) (intoOf (x1 : S2x800000.Idx → BitVec 32))
          (cur2 (x0 : S50000x128.Idx → EReal)) (cur2 (x3 : S128x64.Idx → EReal)) (cur2 (x4 : S128x64.Idx → EReal))
          (cur2 (x5 : S64x64.Idx → EReal)) (cur2 (x6 : S64x64.Idx → EReal)) (cur2 (x7 : S64x64.Idx → EReal))
          (cur2 (x8 : S64x64.Idx → EReal)) n j := by
  unfold feats3R
  rw [← ref_l1, ← ref_l2, ← ref_l3]
  rfl

end Cert.RefBridge

end
-- ==== Proof.Ref.lean ====
/-
  The reference program's result, entry by entry, in the specification's terms: three layers in the reference's order
  (aggregate the gathered rows, then both linear maps, then the rectifier), the per-graph sums of the member rows, and
  the shared tail, read off the launch contents of the arguments.
-/
import proofs.«413041_j89696097010223_3_alg».proof.Proof.Gen.ReferenceIdeal.Run
import proofs.«413041_j89696097010223_3_alg».proof.Proof.Gen.ReferenceIdeal.Read
import proofs.«413041_j89696097010223_3_alg».proof.Proof.Ref1
import proofs.«413041_j89696097010223_3_alg».proof.Proof.LibScatterVec
import proofs.«413041_j89696097010223_3_alg».proof.Proof.LibScatterRows
import proofs.«413041_j89696097010223_3_alg».proof.Proof.LibRowReduce
import proofs.«413041_j89696097010223_3_alg».proof.Proof.LibPlainDot
import proofs.«413041_j89696097010223_3_alg».proof.Proof.Spec
import proofs.«413041_j89696097010223_3_alg».proof.Proof.Decode
import Idealize.ShloMosaic.Lib.ValueIdx
import Idealize.ShloMosaic.Lib.ValueLayout
import Idealize.ShloMosaic.PureOps.Ideal.Laws

set_option maxRecDepth 16384

noncomputable section

namespace Cert.RefBridge

open Idealize.ShloMosaic Idealize.ShloMosaic.TcCoe Idealize.ShloMosaic.ValueIdx
open Idealize.SL.Sem
open Cert.ReferenceIdeal Cert.ReferenceIdeal.Gen Cert.ReferenceIdeal.Value Cert.ReferenceIdeal.Read Cert.Spec Cert.Decode

section Stages

variable (x0 : (⟨S50000x128, .f32⟩ : BufTy).Contents (Elt Ideal)) (x1 : (⟨S2x800000, .i32⟩ : BufTy).Contents (Elt Ideal))
  (x2 : (⟨S50000, .i32⟩ : BufTy).Contents (Elt Ideal)) (x3 x4 : (⟨S128x64, .f32⟩ : BufTy).Contents (Elt Ideal))
  (x5 x6 x7 x8 : (⟨S64x64, .f32⟩ : BufTy).Contents (Elt Ideal)) (x9 : (⟨S64x10, .f32⟩ : BufTy).Contents (Elt Ideal))
  (x10 : (⟨S10, .f32⟩ : BufTy).Contents (Elt Ideal))

/-- The graph-word column at row `n` is node `n`'s graph word. -/
theorem col_v51 (n : Fin 50000) : val_main_v51 (F := Ideal) x2 (ix2 n 0) = x2 (ix1 n) := by
  rw [val_main_v51_apply]
  exact congrArg x2 (funext fun a => Fin.ext (by match a with | ⟨0, _⟩ => rfl))

/-- The node counts: graph `g` receives, onto zero, the float one once per node whose graph word is `g`. -/
theorem ref_cnt (g : Fin 64) :
    val_main_v52 (F := Ideal) x2 (ix1 g) = cntOf (x2 : S50000.Idx → BitVec 32) g := by
  unfold val_main_v52
  rw [Cert.Lib.scatterAdd_vec _ ⟨rfl, rfl, rfl, rfl⟩, val_main_v50_apply, val_main_cst_9_apply]
  simp only [col_v51, val_main_v49_apply, val_main_cst_8_apply, Ideal.ofBits_def, Ideal.ofBits_zero_f32]
  rfl

/-- The graph-word column of the second scatter, the same broadcast. -/
theorem col_v47 (n : Fin 50000) : val_main_v47 (F := Ideal) x2 (ix2 n 0) = x2 (ix1 n) := by
  rw [val_main_v47_apply]
  exact congrArg x2 (funext fun a => Fin.ext (by match a with | ⟨0, _⟩ => rfl))

/-- The pooled sums: entry `(g, j)` is, onto zero, the sum of the third-layer features `(n, j)` over the nodes `n` of
    graph `g`. -/
theorem ref_sums (g j : Fin 64) :
    val_main_v48 (F := Ideal) x0 x1 x2 x3 x4 x5 x6 x7 x8 (ix2 g j)
      = poolR (memOf (x2 : S50000.Idx → BitVec 32))
          (feats3R (srcOf (x1 : S2x800000.Idx → BitVec 32)) (intoOf (x1 : S2x800000.Idx → BitVec 32))
            (cur2 (x0 : S50000x128.Idx → EReal)) (cur2 (x3 : S128x64.Idx → EReal)) (cur2 (x4 : S128x64.Idx → EReal))
            (cur2 (x5 : S64x64.Idx → EReal)) (cur2 (x6 : S64x64.Idx → EReal)) (cur2 (x7 : S64x64.Idx → EReal))
            (cur2 (x8 : S64x64.Idx → EReal))) g j := by
  unfold val_main_v48
  rw [Cert.Lib.scatterAdd_rows2 _ ⟨rfl, rfl, rfl, rfl⟩, val_main_v46_apply, val_main_cst_7_apply]
  simp only [col_v47, ref_h3, Ideal.ofBits_def, Ideal.ofBits_zero_f32]
  rfl

/-- The mean's divisor at row `g`, any column: the count of graph `g`, at least the float one. -/
theorem ref_v56 (g j : Fin 64) :
    val_main_v56 (F := Ideal) x2 (ix2 g j)
      = max (val_main_v52 (F := Ideal) x2 (ix1 g)) (Ideal.ofBits .f32 0x3F800000#32) := by
  have e : idx_main_v55 (idx_main_v56 (ix2 g j)) = ix1 g :=
    funext fun a => Fin.ext (by match a with | ⟨0, _⟩ => rfl)
  rw [val_main_v56_apply, val_main_v55_apply, val_main_v54_apply, val_main_v53_apply, val_main_cst_10_apply, e]
  rfl

/-- The per-graph means. -/
theorem ref_v57 (g j : Fin 64) :
    val_main_v57 (F := Ideal) x0 x1 x2 x3 x4 x5 x6 x7 x8 (ix2 g j)
      = Ideal.div (val_main_v48 (F := Ideal) x0 x1 x2 x3 x4 x5 x6 x7 x8 (ix2 g j))
          (max (val_main_v52 (F := Ideal) x2 (ix1 g)) (Ideal.ofBits .f32 0x3F800000#32)) := by
  rw [val_main_v57_apply, ref_v56]
  rfl

/-- The last linear map with its bias: the logits. -/
theorem ref_v61 (g : Fin 64) (u : Fin 10) :
    val_main_v61 (F := Ideal) x0 x1 x2 x3 x4 x5 x6 x7 x8 x9 x10 (ix2 g u)
      = (∑ j : Fin 64, val_main_v57 (F := Ideal) x0 x1 x2 x3 x4 x5 x6 x7 x8 (ix2 g j) * x9 (ix2 j u)) + x10 (ix1 u) := by
  have el : ∀ k : Fin 64, lidx_main_v58 (ix2 g u) k = ix2 g k := fun k =>
    funext fun a => Fin.ext (by match a with | ⟨0, _⟩ => rfl | ⟨1, _⟩ => rfl)
  have er : ∀ k : Fin 64, ridx_main_v58 (ix2 g u) k = ix2 k u := fun k =>
    funext fun a => Fin.ext (by match a with | ⟨0, _⟩ => rfl | ⟨1, _⟩ => rfl)
  have eb : idx_main_v59 (idx_main_v60 (ix2 g u)) = ix1 u :=
    funext fun a => Fin.ext (by match a with | ⟨0, _⟩ => rfl)
  rw [val_main_v61_apply, val_main_v58_apply, val_main_v60_apply, val_main_v59_apply, eb]
  simp only [el, er]
  rfl

/-- The row maximum of the logits, from minus infinity. -/
theorem ref_v62 (g : Fin 64) :
    val_main_v62 (F := Ideal) x0 x1 x2 x3 x4 x5 x6 x7 x8 x9 x10 (ix1 g)
      = (Finset.univ : Finset (Fin 10)).fold max (Ideal.ofBits .f32 0xFF800000#32)
          (fun u => val_main_v61 (F := Ideal) x0 x1 x2 x3 x4 x5 x6 x7 x8 x9 x10 (ix2 g u)) := by
  unfold val_main_v62
  generalize val_main_v61 (F := Ideal) x0 x1 x2 x3 x4 x5 x6 x7 x8 x9 x10 = y
  have h : S64x10.Reduces [1] S64 := by decide
  refine (Host.reduce_eq_fold_single (α := Ideal .f32) (s := S64x10) (t := S64) (a := 1) FloatOps.maximumf
    (y : S64x10.Idx → Ideal .f32) _ reducesTo_S64x10_S64_d1 h h_S_ (ix1 g)).trans ?_
  rw [val_main_cst_11_apply]
  exact congrArg (fun f => Finset.fold max (Ideal.ofBits .f32 0xFF800000#32) f (Finset.univ : Finset (Fin 10)))
    (funext fun k => congrArg y (Cert.RowReduce.lift_row h g k))

/-- The subtracted maximum at row `g`, any column: the row maximum, guarded from below by minus infinity. -/
theorem ref_v66 (g : Fin 64) (u : Fin 10) :
    val_main_v66 (F := Ideal) x0 x1 x2 x3 x4 x5 x6 x7 x8 x9 x10 (ix2 g u)
      = max (Ideal.ofBits .f32 0xFF800000#32) (val_main_v62 (F := Ideal) x0 x1 x2 x3 x4 x5 x6 x7 x8 x9 x10 (ix1 g)) := by
  have e : idx_main_v65 (idx_main_v66 (ix2 g u)) = ix1 g :=
    funext fun a => Fin.ext (by match a with | ⟨0, _⟩ => rfl)
  rw [val_main_v66_apply, val_main_v65_apply, val_main_v64_apply, val_main_v63_apply, val_main_cst_12_apply, e]
  rfl

/-- The exponentials of the shifted logits. -/
theorem ref_v68 (g : Fin 64) (u : Fin 10) :
    val_main_v68 (F := Ideal) x0 x1 x2 x3 x4 x5 x6 x7 x8 x9 x10 (ix2 g u)
      = Ideal.exp (val_main_v61 (F := Ideal) x0 x1 x2 x3 x4 x5 x6 x7 x8 x9 x10 (ix2 g u)
          - max (Ideal.ofBits .f32 0xFF800000#32) (val_main_v62 (F := Ideal) x0 x1 x2 x3 x4 x5 x6 x7 x8 x9 x10 (ix1 g))) := by
  rw [val_main_v68_apply, val_main_v67_apply, ref_v66, Ideal.hostUnary_exp_def, Ideal.subf_def]

/-- The row sum of the exponentials, onto zero. -/
theorem ref_v69 (g : Fin 64) :
    val_main_v69 (F := Ideal) x0 x1 x2 x3 x4 x5 x6 x7 x8 x9 x10 (ix1 g)
      = 0 + ∑ u : Fin 10, val_main_v68 (F := Ideal) x0 x1 x2 x3 x4 x5 x6 x7 x8 x9 x10 (ix2 g u) := by
  have e : ∀ k : Fin 10, idx_main_v69 (ix1 g) k = ix2 g k := fun k =>
    funext fun a => Fin.ext (by match a with | ⟨0, _⟩ => rfl | ⟨1, _⟩ => rfl)
  rw [val_main_v69_apply, val_main_cst_13_apply]
  simp only [e, Ideal.ofBits_def, Ideal.ofBits_zero_f32]

/-- The result at entry `t`: row 0 of the softmax. -/
theorem ref_v74 (t : Fin 10) :
    val_main_v74 (F := Ideal) x0 x1 x2 x3 x4 x5 x6 x7 x8 x9 x10 (ix1 t)
      = Ideal.div (val_main_v68 (F := Ideal) x0 x1 x2 x3 x4 x5 x6 x7 x8 x9 x10 (ix2 0 t))
          (val_main_v69 (F := Ideal) x0 x1 x2 x3 x4 x5 x6 x7 x8 x9 x10 (ix1 0)) := by
  have e1 : idx_main_v73 (idx_main_v74 (ix1 t)) = ix2 0 t :=
    funext fun a => Fin.ext (by
      match a with
      | ⟨0, _⟩ => rfl
      | ⟨1, _⟩ => exact Nat.mod_eq_of_lt t.isLt)
  have e2 : idx_main_v70 (idx_main_v71 (ix2 (0 : Fin 64) t)) = ix1 0 :=
    funext fun a => Fin.ext (by match a with | ⟨0, _⟩ => rfl)
  rw [val_main_v74_apply, val_main_v73_apply, e1, val_main_v72_apply, val_main_v71_apply, val_main_v70_apply, e2]
  rfl

/-- The reference's last stage, entry `t`, is the tail of the pooled sums and the counts. -/
theorem ref_tail (t : Fin 10) :
    val_main_v74 (F := Ideal) x0 x1 x2 x3 x4 x5 x6 x7 x8 x9 x10 (ix1 t)
      = tail
          (poolR (memOf (x2 : S50000.Idx → BitVec 32))
            (feats3R (srcOf (x1 : S2x800000.Idx → BitVec 32)) (intoOf (x1 : S2x800000.Idx → BitVec 32))
              (cur2 (x0 : S50000x128.Idx → EReal)) (cur2 (x3 : S128x64.Idx → EReal)) (cur2 (x4 : S128x64.Idx → EReal))
              (cur2 (x5 : S64x64.Idx → EReal)) (cur2 (x6 : S64x64.Idx → EReal)) (cur2 (x7 : S64x64.Idx → EReal))
              (cur2 (x8 : S64x64.Idx → EReal))))
          (cntOf (x2 : S50000.Idx → BitVec 32))
          (cur2 (x9 : S64x10.Idx → EReal)) (cur1 (x10 : S10.Idx → EReal)) t := by
  rw [ref_v74, ref_v69]
  simp only [ref_v68, ref_v62, ref_v61, ref_v57, ref_sums, ref_cnt]
  rfl

end Stages

variable (m : (ℓ : Loc nD τ sig) → Buf (Elt Ideal) ℓ)

/-- The reference's result at entry `t`: the tail of the pooled third-layer features, reference order, read off the
    launch contents of the arguments. -/
theorem ref_out (c : Dev nD) (t : Fin 10) :
    (res_out0 (F := Ideal) m c : S10.Idx → EReal) (ix1 t)
      = tail
          (poolR (memOf (m ((c : Thread nD τ).loc main_arg2) : S50000.Idx → BitVec 32))
            (feats3R
              (srcOf (m ((c : Thread nD τ).loc main_arg1) : S2x800000.Idx → BitVec 32))
              (intoOf (m ((c : Thread nD τ).loc main_arg1) : S2x800000.Idx → BitVec 32))
              (cur2 (m ((c : Thread nD τ).loc main_arg0) : S50000x128.Idx → EReal))
              (cur2 (m ((c : Thread nD τ).loc main_arg3) : S128x64.Idx → EReal))
              (cur2 (m ((c : Thread nD τ).loc main_arg4) : S128x64.Idx → EReal))
              (cur2 (m ((c : Thread nD τ).loc main_arg5) : S64x64.Idx → EReal))
              (cur2 (m ((c : Thread nD τ).loc main_arg6) : S64x64.Idx → EReal))
              (cur2 (m ((c : Thread nD τ).loc main_arg7) : S64x64.Idx → EReal))
              (cur2 (m ((c : Thread nD τ).loc main_arg8) : S64x64.Idx → EReal))))
          (cntOf (m ((c : Thread nD τ).loc main_arg2) : S50000.Idx → BitVec 32))
          (cur2 (m ((c : Thread nD τ).loc main_arg9) : S64x10.Idx → EReal))
          (cur1 (m ((c : Thread nD τ).loc main_arg10) : S10.Idx → EReal)) t :=
  (congrFun (val_main_v74_eq (F := Ideal) m c) (ix1 t)).trans (ref_tail _ _ _ _ _ _ _ _ _ _ _ t)

end Cert.RefBridge

end
-- ==== Proof.LibGcnAlgebra.lean ====
/-
  The real and extended-real algebra of a two-layer graph convolution followed by a
  one-column linear head: the head commutes with the second convolution.
-/
import Mathlib.Data.EReal.Basic
import Mathlib.Data.EReal.Operations
import Mathlib.Algebra.BigOperators.Ring.Finset
import Mathlib.Algebra.BigOperators.Group.Finset.Basic
import Mathlib.Algebra.Order.BigOperators.Group.Finset
import Mathlib.Tactic.Ring

namespace Cert.GcnAlgebra

open Finset

/-! ## Coercion of real expressions into the extended reals -/

/-- The coercion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion `ℝ → EReal` commutes with `max` (it is monotone). -/
theorem coe_max (a b : ℝ) : ((max a b : ℝ) : EReal) = max (a : EReal) (b : EReal) :=
  EReal.coe_strictMono.monotone.map_max

/-- The real zero coerces to the extended-real zero. -/
theorem coe_zero' : ((0 : ℝ) : EReal) = 0 := EReal.coe_zero

/-- The coercion `ℝ → EReal` commutes with a product. -/
theorem coe_mul' (a b : ℝ) : ((a * b : ℝ) : EReal) = (a : EReal) * (b : EReal) := EReal.coe_mul a b

/-- The coercion `ℝ → EReal` commutes with a sum of two. -/
theorem coe_add' (a b : ℝ) : ((a + b : ℝ) : EReal) = (a : EReal) + (b : EReal) := EReal.coe_add a b

/-- The rectifier `max · 0` of a coerced real is the coerced rectifier. -/
theorem coe_relu (a : ℝ) : max (a : EReal) 0 = ((max a 0 : ℝ) : EReal) := by
  rw [coe_max, EReal.coe_zero]

/-! ## The real identity: the linear head pushed through the second convolution -/

section Real

variable {N Fe Hd G : Type*} [Fintype N] [Fintype Fe] [Fintype Hd] [Fintype G]

/-- The core exchange of sums: a one-column head `wl` applied after `a · (r · w2) + b2` is
`a · (r · (w2 · wl))` plus the folded bias.  Here `r` is any hidden activation. -/
theorem head_through (a : N → ℝ) (r : N → Hd → ℝ) (w2 : Hd → G → ℝ) (b2 wl : G → ℝ) (bl : ℝ) :
    (∑ g, ((∑ K, a K * (∑ h, r K h * w2 h g)) + b2 g) * wl g) + bl
      = (∑ K, a K * (∑ h, r K h * (∑ g, w2 h g * wl g))) + ((∑ g, b2 g * wl g) + bl) := by
  have key : ∑ g, (∑ K, a K * ∑ h, r K h * w2 h g) * wl g
      = ∑ K, a K * ∑ h, r K h * ∑ g, w2 h g * wl g := by
    simp only [Finset.sum_mul, Finset.mul_sum]
    rw [Finset.sum_comm]
    refine Finset.sum_congr rfl fun K _ => ?_
    rw [Finset.sum_comm]
    exact Finset.sum_congr rfl fun h _ => Finset.sum_congr rfl fun g _ => by ring
  simp only [add_mul, Finset.sum_add_distrib, key]
  ring

/-- The two-layer graph convolution with a one-column linear head, the head pushed through
the second layer.  The hidden value is `(∑ J, a K J * (x·w1) J h) + b1 h`, rectified. -/
theorem gcn_head (a : N → N → ℝ) (x : N → Fe → ℝ) (w1 : Fe → Hd → ℝ) (b1 : Hd → ℝ)
    (w2 : Hd → G → ℝ) (b2 wl : G → ℝ) (bl : ℝ) (R : N) :
    (∑ g, ((∑ K, a R K * (∑ h,
        max ((∑ J, a K J * (∑ f, x J f * w1 f h)) + b1 h) 0 * w2 h g)) + b2 g) * wl g) + bl
      = (∑ K, a R K * (∑ h,
        max ((∑ J, a K J * (∑ f, x J f * w1 f h)) + b1 h) 0 * (∑ g, w2 h g * wl g)))
          + ((∑ g, b2 g * wl g) + bl) :=
  head_through (a R) (fun K h => max ((∑ J, a K J * (∑ f, x J f * w1 f h)) + b1 h) 0) w2 b2 wl bl

/-- The same identity with the right side in the bias-first spelling: the hidden value is
`b1 h + ∑ J, …` and the result is `c + ∑ K, …` with `c = (∑ g, b2 g * wl g) + bl`. -/
theorem gcn_head_bias_first (a : N → N → ℝ) (x : N → Fe → ℝ) (w1 : Fe → Hd → ℝ) (b1 : Hd → ℝ)
    (w2 : Hd → G → ℝ) (b2 wl : G → ℝ) (bl : ℝ) (R : N) :
    (∑ g, ((∑ K, a R K * (∑ h,
        max ((∑ J, a K J * (∑ f, x J f * w1 f h)) + b1 h) 0 * w2 h g)) + b2 g) * wl g) + bl
      = ((∑ g, b2 g * wl g) + bl) + (∑ K, a R K * (∑ h,
        max (b1 h + (∑ J, a K J * (∑ f, x J f * w1 f h))) 0 * (∑ g, w2 h g * wl g))) := by
  rw [gcn_head, add_comm]
  simp only [add_comm (b1 _)]

end Real

/-! ## The same identity over the extended reals, for coerced real arguments -/

section Ext

variable {N Fe Hd G : Type*} [Fintype N] [Fintype Fe] [Fintype Hd] [Fintype G]

/-- Over `EReal`: if every entry of every argument is a coerced real, the head pushes through
the second convolution exactly as over `ℝ` (no `⊤ + ⊥`, no `0 * ⊤` can arise). -/
theorem gcn_head_ereal (a : N → N → EReal) (x : N → Fe → EReal) (w1 : Fe → Hd → EReal)
    (b1 : Hd → EReal) (w2 : Hd → G → EReal) (b2 wl : G → EReal) (bl : EReal)
    (ha : ∀ i j, ∃ r : ℝ, a i j = (r : EReal)) (hx : ∀ i j, ∃ r : ℝ, x i j = (r : EReal))
    (hw1 : ∀ i j, ∃ r : ℝ, w1 i j = (r : EReal)) (hb1 : ∀ i, ∃ r : ℝ, b1 i = (r : EReal))
    (hw2 : ∀ i j, ∃ r : ℝ, w2 i j = (r : EReal)) (hb2 : ∀ i, ∃ r : ℝ, b2 i = (r : EReal))
    (hwl : ∀ i, ∃ r : ℝ, wl i = (r : EReal)) (hbl : ∃ r : ℝ, bl = (r : EReal)) (R : N) :
    (∑ g, ((∑ K, a R K * (∑ h,
        max ((∑ J, a K J * (∑ f, x J f * w1 f h)) + b1 h) 0 * w2 h g)) + b2 g) * wl g) + bl
      = (∑ K, a R K * (∑ h,
        max ((∑ J, a K J * (∑ f, x J f * w1 f h)) + b1 h) 0 * (∑ g, w2 h g * wl g)))
          + ((∑ g, b2 g * wl g) + bl) := by
  choose a' ha using ha
  choose x' hx using hx
  choose w1' hw1 using hw1
  choose b1' hb1 using hb1
  choose w2' hw2 using hw2
  choose b2' hb2 using hb2
  choose wl' hwl using hwl
  obtain ⟨bl', rfl⟩ := hbl
  simp only [ha, hx, hw1, hb1, hw2, hb2, hwl]
  simp only [← EReal.coe_mul, ← coe_sum, ← EReal.coe_add, coe_relu]
  exact congrArg _ (gcn_head a' x' w1' b1' w2' b2' wl' bl' R)

/-- Over `EReal`, the right side in the bias-first spelling (`b1 h + ∑ J, …` inside, `c + ∑ K, …`
outside). -/
theorem gcn_head_ereal_bias_first (a : N → N → EReal) (x : N → Fe → EReal) (w1 : Fe → Hd → EReal)
    (b1 : Hd → EReal) (w2 : Hd → G → EReal) (b2 wl : G → EReal) (bl : EReal)
    (ha : ∀ i j, ∃ r : ℝ, a i j = (r : EReal)) (hx : ∀ i j, ∃ r : ℝ, x i j = (r : EReal))
    (hw1 : ∀ i j, ∃ r : ℝ, w1 i j = (r : EReal)) (hb1 : ∀ i, ∃ r : ℝ, b1 i = (r : EReal))
    (hw2 : ∀ i j, ∃ r : ℝ, w2 i j = (r : EReal)) (hb2 : ∀ i, ∃ r : ℝ, b2 i = (r : EReal))
    (hwl : ∀ i, ∃ r : ℝ, wl i = (r : EReal)) (hbl : ∃ r : ℝ, bl = (r : EReal)) (R : N) :
    (∑ g, ((∑ K, a R K * (∑ h,
        max ((∑ J, a K J * (∑ f, x J f * w1 f h)) + b1 h) 0 * w2 h g)) + b2 g) * wl g) + bl
      = ((∑ g, b2 g * wl g) + bl) + (∑ K, a R K * (∑ h,
        max (b1 h + (∑ J, a K J * (∑ f, x J f * w1 f h))) 0 * (∑ g, w2 h g * wl g))) := by
  rw [gcn_head_ereal a x w1 b1 w2 b2 wl bl ha hx hw1 hb1 hw2 hb2 hwl hbl R, add_comm]
  simp only [add_comm (b1 _)]

end Ext

end Cert.GcnAlgebra
-- ==== Proof.Alg.lean ====
/-
  The one law that joins the two programs. A finite sum of real numbers distributes over a product, so applying a linear
  map before or after the neighbourhood aggregation gives the same features; and contracting a 0/1 membership matrix
  against the features is adding the member rows. Over the extended reals both steps need the entries to be real numbers
  (at an infinity the distributive law fails), which is where the finiteness of the inputs is used.
-/
import proofs.«413041_j89696097010223_3_alg».proof.Proof.Spec
import proofs.«413041_j89696097010223_3_alg».proof.Proof.LibGcnAlgebra
import proofs.«413041_j89696097010223_3_alg».proof.Proof.LibMaskSum

noncomputable section

namespace Cert.Alg

open Cert.Spec Cert.GcnAlgebra Cert.Lib

/-! ## Real-valued extended reals are closed under the operations of a layer -/

/-- Zero is a real number. -/
theorem isReal_zero : IsReal (0 : EReal) := ⟨0, EReal.coe_zero.symm⟩

/-- The sum of two real numbers is a real number. -/
theorem isReal_add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem isReal_mul {a b : EReal} (ha : IsReal a) (hb : IsReal b) : IsReal (a * b) := by
  obtain ⟨r, rfl⟩ := ha
  obtain ⟨s, rfl⟩ := hb
  exact ⟨r * s, (EReal.coe_mul r s).symm⟩

/-- The rectifier of a real number is a real number. -/
theorem isReal_relu {a : EReal} (ha : IsReal a) : IsReal (max a 0) := by
  obtain ⟨r, rfl⟩ := ha
  exact ⟨max r 0, coe_relu r⟩

/-- A finite sum of real numbers is a real number. -/
theorem isReal_sum {ι : Type*} (s : Finset ι) (f : ι → EReal) (hf : ∀ i ∈ s, IsReal (f i)) :
    IsReal (∑ i ∈ s, f i) := by
  choose! f' hf' using hf
  exact ⟨∑ i ∈ s, f' i, by rw [coe_sum]; exact Finset.sum_congr rfl hf'⟩

section Lemmas

variable {Nn Ne : ℕ}

/-- A matrix product of real-valued matrices is real-valued. -/
theorem isReal_mm {A K J : ℕ} {h : Fin A → Fin K → EReal} {w : Fin K → Fin J → EReal}
    (hh : ∀ a k, IsReal (h a k)) (hw : ∀ k j, IsReal (w k j)) (a : Fin A) (j : Fin J) : IsReal (mm h w a j) :=
  isReal_sum _ _ fun k _ => isReal_mul (hh a k) (hw k j)

/-- The aggregation of real-valued rows is real-valued. -/
theorem isReal_agg {J : ℕ} (src : Fin Ne → Fin Nn) (into : Fin Nn → Finset (Fin Ne)) {f : Fin Nn → Fin J → EReal}
    (hf : ∀ n j, IsReal (f n j)) (n : Fin Nn) (j : Fin J) : IsReal (agg src into f n j) :=
  isReal_add isReal_zero (isReal_sum _ _ fun e _ => hf (src e) j)

/-- A layer (reference order) of real-valued features and weights is real-valued. -/
theorem isReal_layerR {K J : ℕ} (src : Fin Ne → Fin Nn) (into : Fin Nn → Finset (Fin Ne))
    {h : Fin Nn → Fin K → EReal} {wrel wroot : Fin K → Fin J → EReal}
    (hh : ∀ n k, IsReal (h n k)) (hwrel : ∀ k j, IsReal (wrel k j)) (hwroot : ∀ k j, IsReal (wroot k j))
    (n : Fin Nn) (j : Fin J) : IsReal (layerR src into h wrel wroot n j) :=
  isReal_relu (isReal_add (isReal_mm (isReal_agg src into hh) hwrel n j) (isReal_mm hh hwroot n j))

/-! ## The linear map commutes with the aggregation -/

/-- Over the reals: adding the mapped rows of the incoming edges is mapping the added rows (exchange the two finite
    sums, then pull the weight out of the inner one). -/
theorem sum_sum_mul_real {ιe ιk : Type*} (s : Finset ιe) (t : Finset ιk) (p : ιe → ιk → ℝ) (w : ιk → ℝ) :
    ∑ e ∈ s, ∑ k ∈ t, p e k * w k = ∑ k ∈ t, (∑ e ∈ s, p e k) * w k := by
  rw [Finset.sum_comm]
  exact Finset.sum_congr rfl fun k _ => (Finset.sum_mul s (fun e => p e k) (w k)).symm

/-- For real-valued features and weights, aggregating the mapped rows is mapping the aggregated rows. -/
theorem agg_mm {K J : ℕ} (src : Fin Ne → Fin Nn) (into : Fin Nn → Finset (Fin Ne))
    (h : Fin Nn → Fin K → EReal) (w : Fin K → Fin J → EReal)
    (hh : ∀ n k, IsReal (h n k)) (hw : ∀ k j, IsReal (w k j)) :
    agg src into (mm h w) = mm (agg src into h) w := by
  choose h' hh' using hh
  choose w' hw' using hw
  funext n j
  simp only [agg, mm, zero_add, hh', hw']
  simp only [← EReal.coe_mul, ← coe_sum]
  exact congrArg _ (sum_sum_mul_real (into n) Finset.univ (fun e k => h' (src e) k) (fun k => w' k j))

/-- One layer: the kernel's order and the reference's agree on real-valued data. -/
theorem layer_eq {K J : ℕ} (src : Fin Ne → Fin Nn) (into : Fin Nn → Finset (Fin Ne))
    (h : Fin Nn → Fin K → EReal) (wrel wroot : Fin K → Fin J → EReal)
    (hh : ∀ n k, IsReal (h n k)) (hwrel : ∀ k j, IsReal (wrel k j)) :
    layerK src into h wrel wroot = layerR src into h wrel wroot := by
  funext n j
  simp only [layerK, layerR, agg_mm src into h wrel hh hwrel]

/-! ## The pooling -/

/-- Contracting the 0/1 membership matrix against the features is adding the member rows, for any features. -/
theorem pool_mask {G J : ℕ} (mem : Fin G → Finset (Fin Nn)) (h : Fin Nn → Fin J → EReal) :
    poolK (fun n g => if n ∈ mem g then (1 : EReal) else 0) h = poolR mem h := by
  funext g j
  simp only [poolK, poolR, zero_add]
  rw [sum_maskP_mul (fun n => n ∈ mem g) (fun n => h n j)]
  exact Finset.sum_congr (by ext n; simp) fun _ _ => rfl

end Lemmas

/-- The pooled sums agree: the kernel's order of operations (the neighbour map before the aggregation in each of the three
    layers, the pooling as a contraction with the membership matrix) and the reference's (aggregation first, pooling as a
    sum over the members) compute the same array, for real-valued features and weights. -/
theorem pool_eq {Nn Ne G : ℕ} (src : Fin Ne → Fin Nn) (into : Fin Nn → Finset (Fin Ne)) (mem : Fin G → Finset (Fin Nn))
    (x : Fin Nn → Fin 128 → EReal) (wr1 wo1 : Fin 128 → Fin 64 → EReal) (wr2 wo2 wr3 wo3 : Fin 64 → Fin 64 → EReal)
    (hx : ∀ n k, IsReal (x n k)) (hwr1 : ∀ k j, IsReal (wr1 k j)) (hwo1 : ∀ k j, IsReal (wo1 k j))
    (hwr2 : ∀ k j, IsReal (wr2 k j)) (hwo2 : ∀ k j, IsReal (wo2 k j))
    (hwr3 : ∀ k j, IsReal (wr3 k j)) (hwo3 : ∀ k j, IsReal (wo3 k j)) :
    poolK (fun n g => if n ∈ mem g then (1 : EReal) else 0) (feats3K src into x wr1 wo1 wr2 wo2 wr3 wo3)
      = poolR mem (feats3R src into x wr1 wo1 wr2 wo2 wr3 wo3) := by
  unfold feats3K feats3R
  have h1 := isReal_layerR src into hx hwr1 hwo1
  have h2 := isReal_layerR src into h1 hwr2 hwo2
  rw [layer_eq src into x wr1 wo1 hx hwr1, layer_eq src into _ wr2 wo2 h1 hwr2, layer_eq src into _ wr3 wo3 h2 hwr3]
  exact pool_mask mem _

end Cert.Alg

end
-- ==== Proof.Pre.lean ====
/-
  What the precondition gives: it states, for every float argument, that each entry's absolute value is below plus
  infinity; over the extended reals that is exactly that each entry is a real number. The law that joins the two
  programs needs this of the node features and of the six layer weights.
-/
import proofs.«413041_j89696097010223_3_alg».proof.Proof.Gen.Pre_finite_inputs
import proofs.«413041_j89696097010223_3_alg».proof.Proof.Spec
import Idealize.ShloMosaic.Lib.ReduceAll
import Idealize.ShloMosaic.Lib.ValueIdx
import Idealize.ShloMosaic.PureOps.Ideal.Laws

noncomputable section

namespace Cert.PreFin

open Idealize.ShloMosaic Idealize.ShloMosaic.ValueIdx Cert.Pre_finite_inputs Cert.Spec

/-- The shape of rank zero has exactly one index. -/
instance : Subsingleton S_.Idx := ⟨fun a b => funext fun d => d.elim0⟩

/-- The pattern with all exponent bits set, sign and significand zero, denotes plus infinity. -/
theorem ofBits_inf : Ideal.ofBits .f32 0x7F800000#32 = (⊤ : EReal) := by
  simp [Ideal.ofBits, Ideal.ieee]

/-- An extended real whose absolute value `max a (-a)` is strictly below plus infinity is a real number: at either
    infinity the absolute value is plus infinity itself. -/
theorem isReal_of_abs_lt_top (a : EReal) (h : max a (-a) < ⊤) : IsReal a := by
  induction a using EReal.rec with
  | bot => simp at h
  | top => simp at h
  | coe r => exact ⟨r, rfl⟩

/-- One conjunct of the precondition, at any shape: if the conjunction over all entries of `|x| < +∞` holds, every
    entry of `x` is a real number. The conjunction is only read back entry by entry, never evaluated. -/
theorem real_of_all {s : Shape} {axes : List (Fin s.rank)}
    (hb : S_.BroadcastsInDim s (![] : Fin 0 → Fin s.rank)) (hr : s.ReducesTo axes S_) (hu : 0 < S_.numel)
    (x : FVec Ideal s .f32)
    (h : Host.reduce IntOp.andi (cmpf .olt (Host.absf x) (broadcastInDim s ![] hb (constant S_ .f32 0x7F800000#32)))
          (constantI S_ 1 1#1) hr hu ix0 = 1#1) (i : s.Idx) : IsReal (x i) := by
  -- the entry of the compared array at `i` is 1
  have e := Host.reduce_andi_all _ _ hr hu ix0 h i
  -- which is the comparison `max (x i) (-(x i)) < +∞` on the linear order of the extended reals
  have e2 : Ideal.cmp .olt (max (x i) (-(x i))) (Ideal.ofBits .f32 0x7F800000#32) = 1#1 := e
  rw [ofBits_inf] at e2
  refine isReal_of_abs_lt_top _ ?_
  by_contra hn
  simp [Ideal.cmp, hn] at e2

variable [Cert.Pre_finite_inputs.Facts]

/-- Under the precondition every entry of the node features and of the six layer weight matrices is a real number. -/
theorem real_of_pre (x0 : FVec Ideal S50000x128 .f32) (x1 : IVec S2x800000 32) (x2 : IVec S50000 32)
    (x3 x4 : FVec Ideal S128x64 .f32) (x5 x6 x7 x8 : FVec Ideal S64x64 .f32) (x9 : FVec Ideal S64x10 .f32)
    (x10 : FVec Ideal S10 .f32)
    (h : Cert.Pre_finite_inputs.fn (F := Ideal) x0 x1 x2 x3 x4 x5 x6 x7 x8 x9 x10 = (fun _ => 1#1)) :
    (∀ i, IsReal (x0 i)) ∧ (∀ i, IsReal (x3 i)) ∧ (∀ i, IsReal (x4 i)) ∧ (∀ i, IsReal (x5 i))
      ∧ (∀ i, IsReal (x6 i)) ∧ (∀ i, IsReal (x7 i)) ∧ (∀ i, IsReal (x8 i)) := by
  -- the value at the one index is a left-nested conjunction of nine all-entries conjunctions, one per float argument
  have h0 := congrFun h ix0
  dsimp only [fn, fn_part1, fn_part2, andi] at h0
  -- peel the conjunction from the outside: the last two conjuncts (the final layer's weight and bias) are not needed
  obtain ⟨h0, _⟩ := IntOp.andi_eq_one.1 h0
  obtain ⟨h0, _⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨real_of_all _ _ _ x0 e0, real_of_all _ _ _ x3 e3, real_of_all _ _ _ x4 e4, real_of_all _ _ _ x5 e5,
    real_of_all _ _ _ x6 e6, real_of_all _ _ _ x7 e7, real_of_all _ _ _ x8 e8⟩

end Cert.PreFin

end
-- ==== Proof.lean ====
/-
  The certificate's claim, assembled. Both printed kernel programs run (terminate, fault nowhere, leave the arguments
  as launched): the four pipelined regions and the five host stretches between them are followed as one fold of the
  buffer contents, once at the word level and once over the extended reals. The reference runs by its generated run. The
  idealization rewrote nothing, so there is nothing to preserve. And over the extended reals the two programs return the
  same ten numbers: both results are the same tail — mean over the node counts, last linear map, row 0 of the softmax —
  of per-graph sums of third-layer features, and those sums agree because, the inputs being real numbers, a linear map
  may be applied before or after the neighbourhood aggregation and a 0/1 membership contraction is the sum over the
  members.
-/
import proofs.«413041_j89696097010223_3_alg».proof.Defs
import proofs.«413041_j89696097010223_3_alg».proof.Proof.Gen.Kernel
import proofs.«413041_j89696097010223_3_alg».proof.Proof.Gen.KernelIdeal
import proofs.«413041_j89696097010223_3_alg».proof.Proof.Gen.ReferenceIdeal
import proofs.«413041_j89696097010223_3_alg».proof.Proof.Gen.Pre_finite_inputs
import proofs.«413041_j89696097010223_3_alg».proof.Proof.Gen.ReferenceIdeal.Run
import proofs.«413041_j89696097010223_3_alg».proof.Proof.KB.Run
import proofs.«413041_j89696097010223_3_alg».proof.Proof.KI.Run
import proofs.«413041_j89696097010223_3_alg».proof.Proof.KV.KVal
import proofs.«413041_j89696097010223_3_alg».proof.Proof.Ref
import proofs.«413041_j89696097010223_3_alg».proof.Proof.Alg
import proofs.«413041_j89696097010223_3_alg».proof.Proof.Pre
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.Spec Cert.Decode

/-- The word-level kernel program runs and leaves its arguments as launched. -/
theorem frame_k [Cert.Kernel.Facts] [Cert.Pre_finite_inputs.Facts] : Cert.frame_Kernel :=
  fun m ρ _ => Cert.Kernel.Hand.frame (F := Bits) m ρ

/-- So does the idealized kernel program. -/
theorem frame_ki [Cert.KernelIdeal.Facts] [Cert.Pre_finite_inputs.Facts] : Cert.frame_KernelIdeal :=
  fun m ρ _ => Cert.KernelIdeal.Hand.frame (F := Ideal) m ρ

/-- The reference runs by its generated run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- The two results agree, entry by entry, from memories that agree on the arguments. -/
theorem result_eq [Cert.KernelIdeal.Facts] [Cert.ReferenceIdeal.Facts] [Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Value.res_out0 (F := Ideal) m' c : Cert.ReferenceIdeal.S10.Idx → EReal)
      = (Cert.KernelIdeal.Hand.W9 (F := Ideal) m ρ c (Proc.devRef .tc Cert.KernelIdeal.main_v60) : Cert.KernelIdeal.S10.Idx → EReal) := by
  funext i
  obtain ⟨t, rfl⟩ : ∃ t : Fin 10, i = ix1 t := ⟨i 0, eq_ix1 i⟩
  rw [Cert.RefBridge.ref_out m' c t, Cert.KernelIdeal.Val.kernel_out m ρ c t, h0, h1, h2, h3, h4, h5, h6, h7, h8, h9, h10]
  obtain ⟨r0, r3, r4, r5, r6, r7, r8⟩ := Cert.PreFin.real_of_pre _ _ _ _ _ _ _ _ _ _ _ (hpre c)
  have hp := Cert.Alg.pool_eq
    (srcOf (m ((c.tc : Thread Cert.KernelIdeal.nD Cert.KernelIdeal.τ).loc Cert.KernelIdeal.main_arg1) : Cert.KernelIdeal.S2x800000.Idx → BitVec 32))
    (intoOf (m ((c.tc : Thread Cert.KernelIdeal.nD Cert.KernelIdeal.τ).loc Cert.KernelIdeal.main_arg1) : Cert.KernelIdeal.S2x800000.Idx → BitVec 32))
    (memOf (m ((c.tc : Thread Cert.KernelIdeal.nD Cert.KernelIdeal.τ).loc Cert.KernelIdeal.main_arg2) : Cert.KernelIdeal.S50000.Idx → BitVec 32))
    (cur2 (m ((c.tc : Thread Cert.KernelIdeal.nD Cert.KernelIdeal.τ).loc Cert.KernelIdeal.main_arg0) : Cert.KernelIdeal.S50000x128.Idx → EReal))
    (cur2 (m ((c.tc : Thread Cert.KernelIdeal.nD Cert.KernelIdeal.τ).loc Cert.KernelIdeal.main_arg3) : Cert.KernelIdeal.S128x64.Idx → EReal))
    (cur2 (m ((c.tc : Thread Cert.KernelIdeal.nD Cert.KernelIdeal.τ).loc Cert.KernelIdeal.main_arg4) : Cert.KernelIdeal.S128x64.Idx → EReal))
    (cur2 (m ((c.tc : Thread Cert.KernelIdeal.nD Cert.KernelIdeal.τ).loc Cert.KernelIdeal.main_arg5) : Cert.KernelIdeal.S64x64.Idx → EReal))
    (cur2 (m ((c.tc : Thread Cert.KernelIdeal.nD Cert.KernelIdeal.τ).loc Cert.KernelIdeal.main_arg6) : Cert.KernelIdeal.S64x64.Idx → EReal))
    (cur2 (m ((c.tc : Thread Cert.KernelIdeal.nD Cert.KernelIdeal.τ).loc Cert.KernelIdeal.main_arg7) : Cert.KernelIdeal.S64x64.Idx → EReal))
    (cur2 (m ((c.tc : Thread Cert.KernelIdeal.nD Cert.KernelIdeal.τ).loc Cert.KernelIdeal.main_arg8) : Cert.KernelIdeal.S64x64.Idx → EReal))
    (fun n k => r0 (ix2 n k)) (fun n k => r3 (ix2 n k)) (fun n k => r4 (ix2 n k)) (fun n k => r5 (ix2 n k))
    (fun n k => r6 (ix2 n k)) (fun n k => r7 (ix2 n k)) (fun n k => r8 (ix2 n k))
  exact congrArg (fun s => tail s _ _ _ t) hp.symm

/-- Over the extended reals the idealized kernel program and the reference, from memories agreeing on the arguments,
    both run and end with equal results. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W9 (F := Ideal) m ρ c (Proc.devRef .tc Cert.KernelIdeal.main_v60), ?_, ?_⟩
  · refine (θ_run Cert.KernelIdeal.defs _ _).mono (fun r h c => ?_) (Cert.KernelIdeal.Hand.run_main (F := Ideal) m ρ)
    exact ⟨h c _ (Cert.KernelIdeal.Hand.mem_uc Cert.KernelIdeal.main_v60 (by decide)),
      (h c _ (Cert.KernelIdeal.Hand.mem_uc Cert.KernelIdeal.main_arg0 (by decide))).trans (Cert.KernelIdeal.Hand.W9_main_arg0 m ρ c),
      (h c _ (Cert.KernelIdeal.Hand.mem_uc Cert.KernelIdeal.main_arg1 (by decide))).trans (Cert.KernelIdeal.Hand.W9_main_arg1 m ρ c),
      (h c _ (Cert.KernelIdeal.Hand.mem_uc Cert.KernelIdeal.main_arg2 (by decide))).trans (Cert.KernelIdeal.Hand.W9_main_arg2 m ρ c),
      (h c _ (Cert.KernelIdeal.Hand.mem_uc Cert.KernelIdeal.main_arg3 (by decide))).trans (Cert.KernelIdeal.Hand.W9_main_arg3 m ρ c),
      (h c _ (Cert.KernelIdeal.Hand.mem_uc Cert.KernelIdeal.main_arg4 (by decide))).trans (Cert.KernelIdeal.Hand.W9_main_arg4 m ρ c),
      (h c _ (Cert.KernelIdeal.Hand.mem_uc Cert.KernelIdeal.main_arg5 (by decide))).trans (Cert.KernelIdeal.Hand.W9_main_arg5 m ρ c),
      (h c _ (Cert.KernelIdeal.Hand.mem_uc Cert.KernelIdeal.main_arg6 (by decide))).trans (Cert.KernelIdeal.Hand.W9_main_arg6 m ρ c),
      (h c _ (Cert.KernelIdeal.Hand.mem_uc Cert.KernelIdeal.main_arg7 (by decide))).trans (Cert.KernelIdeal.Hand.W9_main_arg7 m ρ c),
      (h c _ (Cert.KernelIdeal.Hand.mem_uc Cert.KernelIdeal.main_arg8 (by decide))).trans (Cert.KernelIdeal.Hand.W9_main_arg8 m ρ c),
      (h c _ (Cert.KernelIdeal.Hand.mem_uc Cert.KernelIdeal.main_arg9 (by decide))).trans (Cert.KernelIdeal.Hand.W9_main_arg9 m ρ c),
      (h c _ (Cert.KernelIdeal.Hand.mem_uc Cert.KernelIdeal.main_arg10 (by decide))).trans (Cert.KernelIdeal.Hand.W9_main_arg10 m ρ c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    exact result_eq m ρ m' hpre c h0 h1 h2 h3 h4 h5 h6 h7 h8 h9 h10

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
